-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v42)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v42) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v108) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S64x128 : Shape := ⟨2, ![64, 128]⟩
abbrev S128 : Shape := ⟨1, ![128]⟩
abbrev S128x128 : Shape := ⟨2, ![128, 128]⟩
abbrev S128x2 : Shape := ⟨2, ![128, 2]⟩
abbrev S2 : Shape := ⟨1, ![2]⟩
abbrev S2x1600000 : Shape := ⟨2, ![2, 1600000]⟩
abbrev S100000 : Shape := ⟨1, ![100000]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S64x128 : S_.BroadcastsInDim S64x128 (![] : Fin 0 → Fin S64x128.rank)
  reducesTo_S64x128_S_d0_1 : S64x128.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_
  bcast_S_S128x2 : S_.BroadcastsInDim S128x2 (![] : Fin 0 → Fin S128x2.rank)
  reducesTo_S128x2_S_d0_1 : S128x2.ReducesTo [0, 1] S_
  bcast_S_S2 : S_.BroadcastsInDim S2 (![] : Fin 0 → Fin S2.rank)
  reducesTo_S2_S_d0 : S2.ReducesTo [0] S_

variable [Facts]

def fn_part1 {F : FTy → Type} [FloatOps F] (main_arg4 : FVec F S128 .f32) (main_arg5 : FVec F S128x2 .f32) (main_arg6 : FVec F S2 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg4
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x2 .f32 := Host.absf main_arg5
  let main_cst_8 : FVec F S_ .f32 := constant S_ .f32 0x7F800000#32
  let main_v25 : FVec F S128x2 .f32 := broadcastInDim S128x2 ![] bcast_S_S128x2 main_cst_8
  let main_v26 : IVec S128x2 1 := cmpf .olt main_v24 main_v25
  let main_c_9 : IVec S_ 1 := constantI S_ 1 1#1
  let main_v27 : IVec S_ 1 := (fun x v => Host.reduce IntOp.andi x v reducesTo_S128x2_S_d0_1 h_S_) main_v26 main_c_9
  let main_v28 : IVec S_ 1 := andi main_v23 main_v27
  let main_v29 : FVec F S2 .f32 := Host.absf main_arg6
  let main_cst_10 : FVec F S_ .f32 := constant S_ .f32 0x7F800000#32
  let main_v30 : FVec F S2 .f32 := broadcastInDim S2 ![] bcast_S_S2 main_cst_10
  let main_v31 : IVec S2 1 := cmpf .olt main_v29 main_v30
  let main_c_11 : IVec S_ 1 := constantI S_ 1 1#1
  let main_v32 : IVec S_ 1 := (fun x v => Host.reduce IntOp.andi x v reducesTo_S2_S_d0 h_S_) main_v31 main_c_11
  let main_v33 : IVec S_ 1 := andi main_v28 main_v32
  main_v33

def fn {F : FTy → Type} [FloatOps F] (main_arg0 : FVec F S100000x64 .f32) (main_arg1 : FVec F S64x128 .f32) (main_arg2 : FVec F S128 .f32) (main_arg3 : FVec F S128x128 .f32) (main_arg4 : FVec F S128 .f32) (main_arg5 : FVec F S128x2 .f32) (main_arg6 : FVec F S2 .f32) (main_arg7 : IVec S2x1600000 32) (main_arg8 : IVec S100000 32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S64x128 .f32 := Host.absf main_arg1
  let main_cst_0 : FVec F S_ .f32 := constant S_ .f32 0x7F800000#32
  let main_v5 : FVec F S64x128 .f32 := broadcastInDim S64x128 ![] bcast_S_S64x128 main_cst_0
  let main_v6 : IVec S64x128 1 := cmpf .olt main_v4 main_v5
  let main_c_1 : IVec S_ 1 := constantI S_ 1 1#1
  let main_v7 : IVec S_ 1 := (fun x v => Host.reduce IntOp.andi x v reducesTo_S64x128_S_d0_1 h_S_) main_v6 main_c_1
  let main_v8 : IVec S_ 1 := andi main_v3 main_v7
  let main_v9 : FVec F S128 .f32 := Host.absf main_arg2
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg3
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg4 main_arg5 main_arg6 main_v13 main_v16
-- ==== Kernel.lean ====
abbrev S100000x64 : Shape := ⟨2, ![100000, 64]⟩
abbrev S64x128 : Shape := ⟨2, ![64, 128]⟩
abbrev S128 : Shape := ⟨1, ![128]⟩
abbrev S128x128 : Shape := ⟨2, ![128, 128]⟩
abbrev S128x2 : Shape := ⟨2, ![128, 2]⟩
abbrev S2 : Shape := ⟨1, ![2]⟩
abbrev S2x1600000 : Shape := ⟨2, ![2, 1600000]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S100000x1 : Shape := ⟨2, ![100000, 1]⟩
abbrev S100000x128 : Shape := ⟨2, ![100000, 128]⟩
abbrev S5000x64 : Shape := ⟨2, ![5000, 64]⟩
abbrev S5000x1 : Shape := ⟨2, ![5000, 1]⟩
abbrev S5000x128 : Shape := ⟨2, ![5000, 128]⟩
abbrev S1700000x128 : Shape := ⟨2, ![1700000, 128]⟩
abbrev S1x128 : Shape := ⟨2, ![1, 128]⟩
abbrev S1x2 : Shape := ⟨2, ![1, 2]⟩
abbrev S64x2 : Shape := ⟨2, ![64, 2]⟩
abbrev S64x1 : Shape := ⟨2, ![64, 1]⟩
abbrev S64 : Shape := ⟨1, ![64]⟩

abbrev nBuf : Space → Nat
  | .hbm => 64
  | .vmem => 27
  | .smem => 0
  | _ => 0

abbrev bufTy : (tb : Table) → Fin (tcTables nBuf tb) → BufTy
  | .hbm, ⟨0, _⟩ => ⟨S100000x64, .f32⟩
  | .hbm, ⟨1, _⟩ => ⟨S64x128, .f32⟩
  | .hbm, ⟨2, _⟩ => ⟨S128, .f32⟩
  | .hbm, ⟨3, _⟩ => ⟨S128x128, .f32⟩
  | .hbm, ⟨4, _⟩ => ⟨S128, .f32⟩
  | .hbm, ⟨5, _⟩ => ⟨S128x2, .f32⟩
  | .hbm, ⟨6, _⟩ => ⟨S2, .f32⟩
  | .hbm, ⟨7, _⟩ => ⟨S2x1600000, .i32⟩
  | .hbm, ⟨8, _⟩ => ⟨S100000, .i32⟩
  | .hbm, ⟨9, _⟩ => ⟨S1x1600000, .i32⟩
  | .hbm, ⟨10, _⟩ => ⟨S1600000, .i32⟩
  | .hbm, ⟨11, _⟩ => ⟨S1x1600000, .i32⟩
  | .hbm, ⟨12, _⟩ => ⟨S1600000, .i32⟩
  | .hbm, ⟨13, _⟩ => ⟨S100000, .i32⟩
  | .hbm, ⟨14, _⟩ => ⟨S1700000, .i32⟩
  | .hbm, ⟨15, _⟩ => ⟨S1700000, .i32⟩
  | .hbm, ⟨16, _⟩ => ⟨S_, .f32⟩
  | .hbm, ⟨17, _⟩ => ⟨S1700000, .f32⟩
  | .hbm, ⟨18, _⟩ => ⟨S_, .f32⟩
  | .hbm, ⟨19, _⟩ => ⟨S100000, .f32⟩
  | .hbm, ⟨20, _⟩ => ⟨S1700000x1, .i32⟩
  | .hbm, ⟨21, _⟩ => ⟨S100000, .f32⟩
  | .hbm, ⟨22, _⟩ => ⟨S_, .f32⟩
  | .hbm, ⟨23, _⟩ => ⟨S100000, .f32⟩
  | .hbm, ⟨24, _⟩ => ⟨S100000, .i1⟩
  | .hbm, ⟨25, _⟩ => ⟨S100000, .f32⟩
  | .hbm, ⟨26, _⟩ => ⟨S_, .f32⟩
  | .hbm, ⟨27, _⟩ => ⟨S_, .f32⟩
  | .hbm, ⟨28, _⟩ => ⟨S100000, .f32⟩
  | .hbm, ⟨29, _⟩ => ⟨S100000, .f32⟩
  | .hbm, ⟨30, _⟩ => ⟨S100000x1, .f32⟩
  | .hbm, ⟨31, _⟩ => ⟨S100000x128, .f32⟩
  | .hbm, ⟨32, _⟩ => ⟨S_, .i32⟩
  | .hbm, ⟨33, _⟩ => ⟨S1700000, .i32⟩
  | .hbm, ⟨34, _⟩ => ⟨S1700000, .i1⟩
  | .hbm, ⟨35, _⟩ => ⟨S_, .i32⟩
  | .hbm, ⟨36, _⟩ => ⟨S1700000, .i32⟩
  | .hbm, ⟨37, _⟩ => ⟨S1700000, .i32⟩
  | .hbm, ⟨38, _⟩ => ⟨S1700000, .i32⟩
  | .hbm, ⟨39, _⟩ => ⟨S1700000x1, .i32⟩
  | .hbm, ⟨40, _⟩ => ⟨S1700000x128, .f32⟩
  | .hbm, ⟨41, _⟩ => ⟨S_, .f32⟩
  | .hbm, ⟨42, _⟩ => ⟨S100000x128, .f32⟩
  | .hbm, ⟨43, _⟩ => ⟨S1700000x1, .i32⟩
  | .hbm, ⟨44, _⟩ => ⟨S100000x128, .f32⟩
  | .hbm, ⟨45, _⟩ => ⟨S1x128, .f32⟩
  | .hbm, ⟨46, _⟩ => ⟨S100000x128, .f32⟩
  | .hbm, ⟨47, _⟩ => ⟨S_, .i32⟩
  | .hbm, ⟨48, _⟩ => ⟨S1700000, .i32⟩
  | .hbm, ⟨49, _⟩ => ⟨S1700000, .i1⟩
  | .hbm, ⟨50, _⟩ => ⟨S_, .i32⟩
  | .hbm, ⟨51, _⟩ => ⟨S1700000, .i32⟩
  | .hbm, ⟨52, _⟩ => ⟨S1700000, .i32⟩
  | .hbm, ⟨53, _⟩ => ⟨S1700000, .i32⟩
  | .hbm, ⟨54, _⟩ => ⟨S1700000x1, .i32⟩
  | .hbm, ⟨55, _⟩ => ⟨S1700000x128, .f32⟩
  | .hbm, ⟨56, _⟩ => ⟨S_, .f32⟩
  | .hbm, ⟨57, _⟩ => ⟨S100000x128, .f32⟩
  | .hbm, ⟨58, _⟩ => ⟨S1700000x1, .i32⟩
  | .hbm, ⟨59, _⟩ => ⟨S100000x128, .f32⟩
  | .hbm, ⟨60, _⟩ => ⟨S1x128, .f32⟩
  | .hbm, ⟨61, _⟩ => ⟨S100000x1, .i32⟩
  | .hbm, ⟨62, _⟩ => ⟨S1x2, .f32⟩
  | .hbm, ⟨63, _⟩ => ⟨S64x2, .f32⟩
  | .local _ .vmem, ⟨0, _⟩ => ⟨S5000x64, .f32⟩
  | .local _ .vmem, ⟨1, _⟩ => ⟨S5000x64, .f32⟩
  | .local _ .vmem, ⟨2, _⟩ => ⟨S64x128, .f32⟩
  | .local _ .vmem, ⟨3, _⟩ => ⟨S5000x1, .f32⟩
  | .local _ .vmem, ⟨4, _⟩ => ⟨S5000x1, .f32⟩
  | .local _ .vmem, ⟨5, _⟩ => ⟨S5000x128, .f32⟩
  | .local _ .vmem, ⟨6, _⟩ => ⟨S5000x128, .f32⟩
  | .local _ .vmem, ⟨7, _⟩ => ⟨S5000x128, .f32⟩
  | .local _ .vmem, ⟨8, _⟩ => ⟨S5000x128, .f32⟩
  | .local _ .vmem, ⟨9, _⟩ => ⟨S5000x1, .f32⟩
  | .local _ .vmem, ⟨10, _⟩ => ⟨S5000x1, .f32⟩
  | .local _ .vmem, ⟨11, _⟩ => ⟨S1x128, .f32⟩
  | .local _ .vmem, ⟨12, _⟩ => ⟨S128x128, .f32⟩
  | .local _ .vmem, ⟨13, _⟩ => ⟨S5000x128, .f32⟩
  | .local _ .vmem, ⟨14, _⟩ => ⟨S5000x128, .f32⟩
  | .local _ .vmem, ⟨15, _⟩ => ⟨S5000x128, .f32⟩
  | .local _ .vmem, ⟨16, _⟩ => ⟨S5000x128, .f32⟩
  | .local _ .vmem, ⟨17, _⟩ => ⟨S5000x1, .f32⟩
  | .local _ .vmem, ⟨18, _⟩ => ⟨S5000x1, .f32⟩
  | .local _ .vmem, ⟨19, _⟩ => ⟨S1x128, .f32⟩
  | .local _ .vmem, ⟨20, _⟩ => ⟨S5000x1, .i32⟩
  | .local _ .vmem, ⟨21, _⟩ => ⟨S5000x1, .i32⟩
  | .local _ .vmem, ⟨22, _⟩ => ⟨S128x2, .f32⟩
  | .local _ .vmem, ⟨23, _⟩ => ⟨S1x2, .f32⟩
  | .local _ .vmem, ⟨24, _⟩ => ⟨S64x2, .f32⟩
  | .local _ .vmem, ⟨25, _⟩ => ⟨S64x128, .f32⟩
  | .local _ .vmem, ⟨26, _⟩ => ⟨S64x1, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst : Ref sig .tc := ⟨.hbm, 16, rfl⟩
abbrev main_v7 : Ref sig .tc := ⟨.hbm, 17, rfl⟩
abbrev main_cst_0 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_cst_1 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_cst_2 : Ref sig .tc := ⟨.hbm, 26, rfl⟩
abbrev main_call0_v0 : Ref sig .tc := ⟨.hbm, 27, rfl⟩
abbrev main_call0_v1 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_c : Ref sig .tc := ⟨.hbm, 32, rfl⟩
abbrev main_v17 : Ref sig .tc := ⟨.hbm, 33, rfl⟩
abbrev main_v18 : Ref sig .tc := ⟨.hbm, 34, rfl⟩
abbrev main_c_3 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_cst_4 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_c_5 : Ref sig .tc := ⟨.hbm, 47, rfl⟩
abbrev main_v29 : Ref sig .tc := ⟨.hbm, 48, rfl⟩
abbrev main_v30 : Ref sig .tc := ⟨.hbm, 49, rfl⟩
abbrev main_c_6 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_cst_7 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg4_0 : Ref sig .tc := ⟨.vmem, 13, rfl⟩
abbrev cc1_stg4_1 : Ref sig .tc := ⟨.vmem, 14, rfl⟩
abbrev cc2_stg0_0 : Ref sig .tc := ⟨.vmem, 15, rfl⟩
abbrev cc2_stg0_1 : Ref sig .tc := ⟨.vmem, 16, rfl⟩
abbrev cc2_stg1_0 : Ref sig .tc := ⟨.vmem, 17, rfl⟩
abbrev cc2_stg1_1 : Ref sig .tc := ⟨.vmem, 18, rfl⟩
abbrev cc2_stg2_0 : Ref sig .tc := ⟨.vmem, 19, rfl⟩
abbrev cc2_stg3_0 : Ref sig .tc := ⟨.vmem, 20, rfl⟩
abbrev cc2_stg3_1 : Ref sig .tc := ⟨.vmem, 21, rfl⟩
abbrev cc2_stg4_0 : Ref sig .tc := ⟨.vmem, 22, rfl⟩
abbrev cc2_stg5_0 : Ref sig .tc := ⟨.vmem, 23, rfl⟩
abbrev cc2_stg6_0 : Ref sig .tc := ⟨.vmem, 24, rfl⟩
abbrev cc2_scratch0 : Ref sig .tc := ⟨.vmem, 25, rfl⟩
abbrev cc2_scratch1 : Ref sig .tc := ⟨.vmem, 26, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem3_0 : DmaSem sig := 12
abbrev cc1_sem4_0 : DmaSem sig := 13
abbrev cc1_sem4_1 : DmaSem sig := 14
abbrev cc2_sem0_0 : DmaSem sig := 15
abbrev cc2_sem0_1 : DmaSem sig := 16
abbrev cc2_sem1_0 : DmaSem sig := 17
abbrev cc2_sem1_1 : DmaSem sig := 18
abbrev cc2_sem2_0 : DmaSem sig := 19
abbrev cc2_sem3_0 : DmaSem sig := 20
abbrev cc2_sem3_1 : DmaSem sig := 21
abbrev cc2_sem4_0 : DmaSem sig := 22
abbrev cc2_sem5_0 : DmaSem sig := 23
abbrev cc2_sem6_0 : DmaSem sig := 24

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S5000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S5000x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![20], ![false]⟩

def k2_cond1 (i : grid2.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def k2_cond2 (i : grid2.Coords) : BitVec 1 :=
  let arg0 : BitVec 32 := BitVec.ofNat 32 (i 0).val
  let c19_i32 : BitVec 32 := 19#32
  let v35 : BitVec 1 := Scalar.cmpi .eq arg0 c19_i32
  let v36 : BitVec 32 := Scalar.extui v35
  let c0_i32_18 : BitVec 32 := 0#32
  let v37 : BitVec 1 := Scalar.cmpi .ne v36 c0_i32_18
  v37

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x1 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S1x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S5000x1 .i32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev stage2_4 : Fin 1 → Memref sig .tc .vmem S128x2 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1x2 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S64x2 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  concatenates_S1600000_S100000_S1700000_d0 : Shape.Concatenates [S1600000, S100000] S1700000 0
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  shapeCasts_S100000_S100000x1 : S100000.ShapeCasts S100000x1
  inb_S5000x64_S5000x64_0_0 : ∀ a, (![0, 0] : Fin 2 → Nat) a + S5000x64.size a ≤ S5000x64.size a
  h_S5000x64 : 0 < S5000x64.numel
  inb_S64x128_S64x128_0_0 : ∀ a, (![0, 0] : Fin 2 → Nat) a + S64x128.size a ≤ S64x128.size a
  h_S64x128 : 0 < S64x128.numel
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x128 : S5000x1.Broadcasts S5000x128
  inb_S5000x128_S5000x128_0_0 : ∀ a, (![0, 0] : Fin 2 → Nat) a + S5000x128.size a ≤ S5000x128.size a
  h_S5000x128 : 0 < S5000x128.numel
  bcast_S_S100000x128 : S_.BroadcastsInDim S100000x128 (![] : Fin 0 → Fin S100000x128.rank)
  shapeCasts_S128_S1x128 : S128.ShapeCasts S1x128
  shapeCasts_S5000x128_S5000x128 : S5000x128.ShapeCasts S5000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  inb_S128x128_S128x128_0_0 : ∀ a, (![0, 0] : Fin 2 → Nat) a + S128x128.size a ≤ S128x128.size a
  h_S128x128 : 0 < S128x128.numel
  shapeCasts_S2_S1x2 : S2.ShapeCasts S1x2
  shapeCasts_S64x128_S64x128 : S64x128.ShapeCasts S64x128
  inb_S64x1_S64x1_0_0 : ∀ a, (![0, 0] : Fin 2 → Nat) a + S64x1.size a ≤ S64x1.size a
  h_S64x1 : 0 < S64x1.numel
  shapeCasts_S64x1_S64x1 : S64x1.ShapeCasts S64x1
  inb_S64x2_S64x2_0_0 : ∀ a, (![0, 0] : Fin 2 → Nat) a + S64x2.size a ≤ S64x2.size a
  h_S64x2 : 0 < S64x2.numel
  iota_S5000x64_d1_w32 : S5000x64.Iotas .tc 32 [1]
  broadcasts_S5000x1_S5000x64 : S5000x1.Broadcasts S5000x64
  natLt_1_32 : 1 < 32
  reduces_S5000x64_S64 : S5000x64.Reduces [0] S64
  shapeCasts_S64_S64x1 : S64.ShapeCasts S64x1
  broadcasts_S64x1_S64x128 : S64x1.Broadcasts S64x128
  inb_S128x2_S128x2_0_0 : ∀ a, (![0, 0] : Fin 2 → Nat) a + S128x2.size a ≤ S128x2.size a
  h_S128x2 : 0 < S128x2.numel
  inb_S1x2_S1x2_0_0 : ∀ a, (![0, 0] : Fin 2 → Nat) a + S1x2.size a ≤ S1x2.size a
  h_S1x2 : 0 < S1x2.numel
  shapeCasts_S1x2_S1x2 : S1x2.ShapeCasts S1x2
  broadcasts_S1x2_S64x2 : S1x2.Broadcasts S64x2
  reduces_S64x2_S64 : S64x2.Reduces [1] S64
  broadcasts_S64x1_S64x2 : S64x1.Broadcasts S64x2
  scatter_S100000_S1700000x1_S1700000_n_0_0_1_wf : ScatterDims.WF S100000 S1700000x1 S1700000 [] [0] [0] 1
  dot_S5000x64_S64x128_S5000x128_1_0_0_1_n_n_wf : DotDims.WF S5000x64 S64x128 S5000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  dot_S5000x128_S128x128_S5000x128_1_0_0_1_n_n_wf : DotDims.WF S5000x128 S128x128 S5000x128 [1] [0] [0] [1] [] []
  dot_S5000x64_S5000x128_S64x128_0_0_1_1_n_n_wf : DotDims.WF S5000x64 S5000x128 S64x128 [0] [0] [1] [1] [] []
  dot_S64x128_S128x2_S64x2_1_0_0_1_n_n_wf : DotDims.WF S64x128 S128x2 S64x2 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x64.size a ≤ S100000x64.size a
  hwx0_0 : ∀ i : grid0.Coords, EltTy.bits .f32 = 32 ∨ (Rect.block (s := S100000x64) S5000x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x128.size a ≤ S64x128.size a
  hwx0_1 : ∀ i : grid0.Coords, EltTy.bits .f32 = 32 ∨ (Rect.block (s := S64x128) S64x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x1.size a ≤ S100000x1.size a
  hwx0_2 : ∀ i : grid0.Coords, EltTy.bits .f32 = 32 ∨ (Rect.block (s := S100000x1) S5000x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x128.size a ≤ S100000x128.size a
  hwx0_3 : ∀ i : grid0.Coords, EltTy.bits .f32 = 32 ∨ (Rect.block (s := S100000x128) S5000x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x1.size a ≤ S100000x1.size a
  hwx1_1 : ∀ i : grid1.Coords, EltTy.bits .f32 = 32 ∨ (Rect.block (s := S100000x1) S5000x1.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .f32 = 32 ∨ (Rect.block (s := S128x128) S128x128.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S5000x128.size a ≤ S100000x128.size a
  hwx1_4 : ∀ i : grid1.Coords, EltTy.bits .f32 = 32 ∨ (Rect.block (s := S100000x128) S5000x128.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S100000x128.size a
  hwx2_0 : ∀ i : grid2.Coords, EltTy.bits .f32 = 32 ∨ (Rect.block (s := S100000x128) S5000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x1.size a ≤ S100000x1.size a
  hwx2_1 : ∀ i : grid2.Coords, EltTy.bits .f32 = 32 ∨ (Rect.block (s := S100000x1) S5000x1.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x128.size a ≤ S1x128.size a
  hwx2_2 : ∀ i : grid2.Coords, EltTy.bits .f32 = 32 ∨ (Rect.block (s := S1x128) S1x128.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S5000x1.size a ≤ S100000x1.size a
  hwx2_3 : ∀ i : grid2.Coords, EltTy.bits .i32 = 32 ∨ (Rect.block (s := S100000x1) S5000x1.size (cc2_transform_3 i) (hinb2_3 i)).WholeWords (EltTy.packing .i32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S128x2.size a ≤ S128x2.size a
  hwx2_4 : ∀ i : grid2.Coords, EltTy.bits .f32 = 32 ∨ (Rect.block (s := S128x2) S128x2.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S1x2.size a ≤ S1x2.size a
  hwx2_5 : ∀ i : grid2.Coords, EltTy.bits .f32 = 32 ∨ (Rect.block (s := S1x2) S1x2.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S64x2.size a ≤ S64x2.size a
  hwx2_6 : ∀ i : grid2.Coords, EltTy.bits .f32 = 32 ∨ (Rect.block (s := S64x2) S64x2.size (cc2_transform_6 i) (hinb2_6 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def dot_S5000x64_S64x128_S5000x128_1_0_0_1_n_n : DotDims S5000x64 S64x128 S5000x128 where
  lhsContracting := [1]
  rhsContracting := [0]
  lhsNonContracting := [0]
  rhsNonContracting := [1]
  lhsBatch := []
  rhsBatch := []
  wf := dot_S5000x64_S64x128_S5000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def dot_S5000x64_S5000x128_S64x128_0_0_1_1_n_n : DotDims S5000x64 S5000x128 S64x128 where
  lhsContracting := [0]
  rhsContracting := [0]
  lhsNonContracting := [1]
  rhsNonContracting := [1]
  lhsBatch := []
  rhsBatch := []
  wf := dot_S5000x64_S5000x128_S64x128_0_0_1_1_n_n_wf
def dot_S64x128_S128x2_S64x2_1_0_0_1_n_n : DotDims S64x128 S128x2 S64x2 where
  lhsContracting := [1]
  rhsContracting := [0]
  lhsNonContracting := [0]
  rhsNonContracting := [1]
  lhsBatch := []
  rhsBatch := []
  wf := dot_S64x128_S128x2_S64x2_1_0_0_1_n_n_wf

abbrev win0_0 : Pipeline.Window sig grid0 :=
  Pipeline.Window.ofSpec (Memref.whole main_arg0) S5000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S64x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v15) S5000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v16) S5000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v26) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v15) S5000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v27) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg3) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v28) S5000x128.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v38) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v15) S5000x1.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v39) S1x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v40) S5000x1.size cc2_transform_3 reads2_3 false false 2 stage2_3 sem2_3
    hrank2 hreads2_3 hinb2_3 nbuf2_3 (Memref.isWhole_whole _) hwx2_3 hstage2_3

abbrev win2_4 : Pipeline.Window sig grid2 :=
  Pipeline.Window.ofSpec (Memref.whole main_arg5) S128x2.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v41) S1x2.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v42) S64x2.size cc2_transform_6 reads2_6 true true 1 stage2_6 sem2_6
    hrank2 hreads2_6 hinb2_6 nbuf2_6 (Memref.isWhole_whole _) hwx2_6 hstage2_6

abbrev win2 : Fin 7 → Pipeline.Window sig grid2 := fun | 0 => win2_0 | 1 => win2_1 | 2 => win2_2 | 3 => win2_3 | 4 => win2_4 | 5 => win2_5 | 6 => win2_6 | ⟨_ + 7, h⟩ => absurd h (Nat.not_lt.2 (Nat.le_add_left _ _))
abbrev spec2 : Fin 7 → Pipeline.WinSpec sig grid2.rank := fun w => (win2 w).toWinSpec

abbrev idle2 : Fin 7 → grid2.Coords → Bool := fun | 0 => fun _ => false | 1 => fun _ => false | 2 => fun _ => false | 3 => fun _ => false | 4 => fun _ => false | 5 => fun _ => false | 6 => fun i => !(k2_cond1 i == 1#1) && !(k2_cond2 i == 1#1) | ⟨_ + 7, h⟩ => absurd h (Nat.not_lt.2 (Nat.le_add_left _ _))

class Facts : Prop extends Facts₀ where

variable [Facts]
-- ==== ReferenceIdeal.lean ====
abbrev S100000x64 : Shape := ⟨2, ![100000, 64]⟩
abbrev S64x128 : Shape := ⟨2, ![64, 128]⟩
abbrev S128 : Shape := ⟨1, ![128]⟩
abbrev S128x128 : Shape := ⟨2, ![128, 128]⟩
abbrev S128x2 : Shape := ⟨2, ![128, 2]⟩
abbrev S2 : Shape := ⟨1, ![2]⟩
abbrev S2x1600000 : Shape := ⟨2, ![2, 1600000]⟩
abbrev S100000 : Shape := ⟨1, ![100000]⟩
abbrev S1x1600000 : Shape := ⟨2, ![1, 1600000]⟩
abbrev S1600000 : Shape := ⟨1, ![1600000]⟩
abbrev S100000x128 : Shape := ⟨2, ![100000, 128]⟩
abbrev S1700000 : Shape := ⟨1, ![1700000]⟩
abbrev S_ : Shape := ⟨0, ![]⟩
abbrev S1700000x1 : Shape := ⟨2, ![1700000, 1]⟩
abbrev S1700000x128 : Shape := ⟨2, ![1700000, 128]⟩
abbrev S1x128 : Shape := ⟨2, ![1, 128]⟩
abbrev S100000x1 : Shape := ⟨2, ![100000, 1]⟩
abbrev S64 : Shape := ⟨1, ![64]⟩
abbrev S64x1 : Shape := ⟨2, ![64, 1]⟩
abbrev S64x2 : Shape := ⟨2, ![64, 2]⟩
abbrev S1x2 : Shape := ⟨2, ![1, 2]⟩

abbrev nBuf : Space → Nat
  | .hbm => 166
  | .vmem => 0
  | .smem => 0
  | _ => 0

abbrev hbmTy0_0 (i : Nat) : BufTy := match i % 128 with
  | 0 => ⟨S100000x64, .f32⟩
  | 1 => ⟨S64x128, .f32⟩
  | 2 => ⟨S128, .f32⟩
  | 3 => ⟨S128x128, .f32⟩
  | 4 => ⟨S128, .f32⟩
  | 5 => ⟨S128x2, .f32⟩
  | 6 => ⟨S2, .f32⟩
  | 7 => ⟨S2x1600000, .i32⟩
  | 8 => ⟨S100000, .i32⟩
  | 9 => ⟨S1x1600000, .i32⟩
  | 10 => ⟨S1600000, .i32⟩
  | 11 => ⟨S1x1600000, .i32⟩
  | 12 => ⟨S1600000, .i32⟩
  | 13 => ⟨S100000x128, .f32⟩
  | 14 => ⟨S100000, .i32⟩
  | 15 => ⟨S1700000, .i32⟩
  | 16 => ⟨S1700000, .i32⟩
  | 17 => ⟨S_, .f32⟩
  | 18 => ⟨S1700000, .f32⟩
  | 19 => ⟨S_, .f32⟩
  | 20 => ⟨S100000, .f32⟩
  | 21 => ⟨S1700000x1, .i32⟩
  | 22 => ⟨S100000, .f32⟩
  | 23 => ⟨S_, .f32⟩
  | 24 => ⟨S100000, .f32⟩
  | 25 => ⟨S100000, .i1⟩
  | 26 => ⟨S100000, .f32⟩
  | 27 => ⟨S_, .f32⟩
  | 28 => ⟨S_, .f32⟩
  | 29 => ⟨S100000, .f32⟩
  | 30 => ⟨S100000, .f32⟩
  | 31 => ⟨S_, .i32⟩
  | 32 => ⟨S1700000, .i32⟩
  | 33 => ⟨S1700000, .i1⟩
  | 34 => ⟨S_, .i32⟩
  | 35 => ⟨S1700000, .i32⟩
  | 36 => ⟨S1700000, .i32⟩
  | 37 => ⟨S1700000, .i32⟩
  | 38 => ⟨S1700000x1, .i32⟩
  | 39 => ⟨S1700000, .f32⟩
  | 40 => ⟨S_, .i32⟩
  | 41 => ⟨S1700000, .i32⟩
  | 42 => ⟨S1700000, .i1⟩
  | 43 => ⟨S_, .i32⟩
  | 44 => ⟨S1700000, .i32⟩
  | 45 => ⟨S1700000, .i32⟩
  | 46 => ⟨S1700000, .i32⟩
  | 47 => ⟨S1700000x1, .i32⟩
  | 48 => ⟨S1700000, .f32⟩
  | 49 => ⟨S1700000, .f32⟩
  | 50 => ⟨S_, .i32⟩
  | 51 => ⟨S1700000, .i32⟩
  | 52 => ⟨S1700000, .i1⟩
  | 53 => ⟨S_, .i32⟩
  | 54 => ⟨S1700000, .i32⟩
  | 55 => ⟨S1700000, .i32⟩
  | 56 => ⟨S1700000, .i32⟩
  | 57 => ⟨S1700000x1, .i32⟩
  | 58 => ⟨S1700000x128, .f32⟩
  | 59 => ⟨S1700000x1, .f32⟩
  | 60 => ⟨S1700000x128, .f32⟩
  | 61 => ⟨S1700000x128, .f32⟩
  | 62 => ⟨S_, .f32⟩
  | 63 => ⟨S100000x128, .f32⟩
  | 64 => ⟨S1700000x1, .i32⟩
  | 65 => ⟨S100000x128, .f32⟩
  | 66 => ⟨S1x128, .f32⟩
  | 67 => ⟨S100000x128, .f32⟩
  | 68 => ⟨S100000x128, .f32⟩
  | 69 => ⟨S_, .f32⟩
  | 70 => ⟨S100000x128, .f32⟩
  | 71 => ⟨S100000x128, .f32⟩
  | 72 => ⟨S100000x128, .f32⟩
  | 73 => ⟨S100000, .i32⟩
  | 74 => ⟨S1700000, .i32⟩
  | 75 => ⟨S1700000, .i32⟩
  | 76 => ⟨S_, .f32⟩
  | 77 => ⟨S1700000, .f32⟩
  | 78 => ⟨S_, .f32⟩
  | 79 => ⟨S100000, .f32⟩
  | 80 => ⟨S1700000x1, .i32⟩
  | 81 => ⟨S100000, .f32⟩
  | 82 => ⟨S_, .f32⟩
  | 83 => ⟨S100000, .f32⟩
  | 84 => ⟨S100000, .i1⟩
  | 85 => ⟨S100000, .f32⟩
  | 86 => ⟨S_, .f32⟩
  | 87 => ⟨S_, .f32⟩
  | 88 => ⟨S100000, .f32⟩
  | 89 => ⟨S100000, .f32⟩
  | 90 => ⟨S_, .i32⟩
  | 91 => ⟨S1700000, .i32⟩
  | 92 => ⟨S1700000, .i1⟩
  | 93 => ⟨S_, .i32⟩
  | 94 => ⟨S1700000, .i32⟩
  | 95 => ⟨S1700000, .i32⟩
  | 96 => ⟨S1700000, .i32⟩
  | 97 => ⟨S1700000x1, .i32⟩
  | 98 => ⟨S1700000, .f32⟩
  | 99 => ⟨S_, .i32⟩
  | 100 => ⟨S1700000, .i32⟩
  | 101 => ⟨S1700000, .i1⟩
  | 102 => ⟨S_, .i32⟩
  | 103 => ⟨S1700000, .i32⟩
  | 104 => ⟨S1700000, .i32⟩
  | 105 => ⟨S1700000, .i32⟩
  | 106 => ⟨S1700000x1, .i32⟩
  | 107 => ⟨S1700000, .f32⟩
  | 108 => ⟨S1700000, .f32⟩
  | 109 => ⟨S_, .i32⟩
  | 110 => ⟨S1700000, .i32⟩
  | 111 => ⟨S1700000, .i1⟩
  | 112 => ⟨S_, .i32⟩
  | 113 => ⟨S1700000, .i32⟩
  | 114 => ⟨S1700000, .i32⟩
  | 115 => ⟨S1700000, .i32⟩
  | 116 => ⟨S1700000x1, .i32⟩
  | 117 => ⟨S1700000x128, .f32⟩
  | 118 => ⟨S1700000x1, .f32⟩
  | 119 => ⟨S1700000x128, .f32⟩
  | 120 => ⟨S1700000x128, .f32⟩
  | 121 => ⟨S_, .f32⟩
  | 122 => ⟨S100000x128, .f32⟩
  | 123 => ⟨S1700000x1, .i32⟩
  | 124 => ⟨S100000x128, .f32⟩
  | 125 => ⟨S1x128, .f32⟩
  | 126 => ⟨S100000x128, .f32⟩
  | 127 => ⟨S100000x128, .f32⟩
  | _ => ⟨S100000x64, .f32⟩

abbrev hbmTy0_1 (i : Nat) : BufTy := match i % 128 with
  | 0 => ⟨S_, .f32⟩
  | 1 => ⟨S100000x128, .f32⟩
  | 2 => ⟨S100000x128, .f32⟩
  | 3 => ⟨S_, .f32⟩
  | 4 => ⟨S64x128, .f32⟩
  | 5 => ⟨S100000x1, .i32⟩
  | 6 => ⟨S64x128, .f32⟩
  | 7 => ⟨S_, .f32⟩
  | 8 => ⟨S100000, .f32⟩
  | 9 => ⟨S_, .f32⟩
  | 10 => ⟨S64, .f32⟩
  | 11 => ⟨S100000x1, .i32⟩
  | 12 => ⟨S64, .f32⟩
  | 13 => ⟨S_, .f32⟩
  | 14 => ⟨S64, .f32⟩
  | 15 => ⟨S64, .f32⟩
  | 16 => ⟨S64x1, .f32⟩
  | 17 => ⟨S64x128, .f32⟩
  | 18 => ⟨S64x128, .f32⟩
  | 19 => ⟨S64x2, .f32⟩
  | 20 => ⟨S1x2, .f32⟩
  | 21 => ⟨S64x2, .f32⟩
  | 22 => ⟨S64x2, .f32⟩
  | 23 => ⟨S_, .f32⟩
  | 24 => ⟨S64, .f32⟩
  | 25 => ⟨S_, .f32⟩
  | 26 => ⟨S64, .f32⟩
  | 27 => ⟨S64, .f32⟩
  | 28 => ⟨S64x1, .f32⟩
  | 29 => ⟨S64x2, .f32⟩
  | 30 => ⟨S64x2, .f32⟩
  | 31 => ⟨S64x2, .f32⟩
  | 32 => ⟨S_, .f32⟩
  | 33 => ⟨S64, .f32⟩
  | 34 => ⟨S64x1, .f32⟩
  | 35 => ⟨S64x1, .f32⟩
  | 36 => ⟨S64x2, .f32⟩
  | 37 => ⟨S64x2, .f32⟩
  | _ => ⟨S100000x64, .f32⟩

abbrev hbmTy (i : Nat) : BufTy := match i / 128 with
  | 0 => hbmTy0_0 i
  | 1 => hbmTy0_1 i
  | _ => ⟨S100000x64, .f32⟩

abbrev bufTy : (tb : Table) → Fin (tcTables nBuf tb) → BufTy
  | .hbm, ⟨i, _⟩ => hbmTy i
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_cst : Ref sig .tc := ⟨.hbm, 17, rfl⟩
abbrev main_v8 : Ref sig .tc := ⟨.hbm, 18, rfl⟩
abbrev main_cst_0 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_cst_1 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_cst_2 : Ref sig .tc := ⟨.hbm, 27, rfl⟩
abbrev main_call0_v0 : Ref sig .tc := ⟨.hbm, 28, rfl⟩
abbrev main_call0_v1 : Ref sig .tc := ⟨.hbm, 29, rfl⟩
abbrev main_v15 : Ref sig .tc := ⟨.hbm, 30, rfl⟩
abbrev main_c : Ref sig .tc := ⟨.hbm, 31, rfl⟩
abbrev main_v16 : Ref sig .tc := ⟨.hbm, 32, rfl⟩
abbrev main_v17 : Ref sig .tc := ⟨.hbm, 33, rfl⟩
abbrev main_c_3 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_c_4 : Ref sig .tc := ⟨.hbm, 40, rfl⟩
abbrev main_v23 : Ref sig .tc := ⟨.hbm, 41, rfl⟩
abbrev main_v24 : Ref sig .tc := ⟨.hbm, 42, rfl⟩
abbrev main_c_5 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_c_6 : Ref sig .tc := ⟨.hbm, 50, rfl⟩
abbrev main_v31 : Ref sig .tc := ⟨.hbm, 51, rfl⟩
abbrev main_v32 : Ref sig .tc := ⟨.hbm, 52, rfl⟩
abbrev main_c_7 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_cst_8 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_call1_cst : Ref sig .tc := ⟨.hbm, 69, rfl⟩
abbrev main_call1_v0 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_cst_9 : Ref sig .tc := ⟨.hbm, 76, rfl⟩
abbrev main_v52 : Ref sig .tc := ⟨.hbm, 77, rfl⟩
abbrev main_cst_10 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_cst_11 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_cst_12 : Ref sig .tc := ⟨.hbm, 86, rfl⟩
abbrev main_call2_v0 : Ref sig .tc := ⟨.hbm, 87, rfl⟩
abbrev main_call2_v1 : Ref sig .tc := ⟨.hbm, 88, rfl⟩
abbrev main_v59 : Ref sig .tc := ⟨.hbm, 89, rfl⟩
abbrev main_c_13 : Ref sig .tc := ⟨.hbm, 90, rfl⟩
abbrev main_v60 : Ref sig .tc := ⟨.hbm, 91, rfl⟩
abbrev main_v61 : Ref sig .tc := ⟨.hbm, 92, rfl⟩
abbrev main_c_14 : Ref sig .tc := ⟨.hbm, 93, rfl⟩
abbrev main_v62 : Ref sig .tc := ⟨.hbm, 94, rfl⟩
abbrev main_v63 : Ref sig .tc := ⟨.hbm, 95, rfl⟩
abbrev main_v64 : Ref sig .tc := ⟨.hbm, 96, rfl⟩
abbrev main_v65 : Ref sig .tc := ⟨.hbm, 97, rfl⟩
abbrev main_v66 : Ref sig .tc := ⟨.hbm, 98, rfl⟩
abbrev main_c_15 : Ref sig .tc := ⟨.hbm, 99, rfl⟩
abbrev main_v67 : Ref sig .tc := ⟨.hbm, 100, rfl⟩
abbrev main_v68 : Ref sig .tc := ⟨.hbm, 101, rfl⟩
abbrev main_c_16 : Ref sig .tc := ⟨.hbm, 102, rfl⟩
abbrev main_v69 : Ref sig .tc := ⟨.hbm, 103, rfl⟩
abbrev main_v70 : Ref sig .tc := ⟨.hbm, 104, rfl⟩
abbrev main_v71 : Ref sig .tc := ⟨.hbm, 105, rfl⟩
abbrev main_v72 : Ref sig .tc := ⟨.hbm, 106, rfl⟩
abbrev main_v73 : Ref sig .tc := ⟨.hbm, 107, rfl⟩
abbrev main_v74 : Ref sig .tc := ⟨.hbm, 108, rfl⟩
abbrev main_c_17 : Ref sig .tc := ⟨.hbm, 109, rfl⟩
abbrev main_v75 : Ref sig .tc := ⟨.hbm, 110, rfl⟩
abbrev main_v76 : Ref sig .tc := ⟨.hbm, 111, rfl⟩
abbrev main_c_18 : Ref sig .tc := ⟨.hbm, 112, rfl⟩
abbrev main_v77 : Ref sig .tc := ⟨.hbm, 113, rfl⟩
abbrev main_v78 : Ref sig .tc := ⟨.hbm, 114, rfl⟩
abbrev main_v79 : Ref sig .tc := ⟨.hbm, 115, rfl⟩
abbrev main_v80 : Ref sig .tc := ⟨.hbm, 116, rfl⟩
abbrev main_v81 : Ref sig .tc := ⟨.hbm, 117, rfl⟩
abbrev main_v82 : Ref sig .tc := ⟨.hbm, 118, rfl⟩
abbrev main_v83 : Ref sig .tc := ⟨.hbm, 119, rfl⟩
abbrev main_v84 : Ref sig .tc := ⟨.hbm, 120, rfl⟩
abbrev main_cst_19 : Ref sig .tc := ⟨.hbm, 121, rfl⟩
abbrev main_v85 : Ref sig .tc := ⟨.hbm, 122, rfl⟩
abbrev main_v86 : Ref sig .tc := ⟨.hbm, 123, rfl⟩
abbrev main_v87 : Ref sig .tc := ⟨.hbm, 124, rfl⟩
abbrev main_v88 : Ref sig .tc := ⟨.hbm, 125, rfl⟩
abbrev main_v89 : Ref sig .tc := ⟨.hbm, 126, rfl⟩
abbrev main_v90 : Ref sig .tc := ⟨.hbm, 127, rfl⟩
abbrev main_call3_cst : Ref sig .tc := ⟨.hbm, 128, rfl⟩
abbrev main_call3_v0 : Ref sig .tc := ⟨.hbm, 129, rfl⟩
abbrev main_v91 : Ref sig .tc := ⟨.hbm, 130, rfl⟩
abbrev main_cst_20 : Ref sig .tc := ⟨.hbm, 131, rfl⟩
abbrev main_v92 : Ref sig .tc := ⟨.hbm, 132, rfl⟩
abbrev main_v93 : Ref sig .tc := ⟨.hbm, 133, rfl⟩
abbrev main_v94 : Ref sig .tc := ⟨.hbm, 134, rfl⟩
abbrev main_cst_21 : Ref sig .tc := ⟨.hbm, 135, rfl⟩
abbrev main_v95 : Ref sig .tc := ⟨.hbm, 136, rfl⟩
abbrev main_cst_22 : Ref sig .tc := ⟨.hbm, 137, rfl⟩
abbrev main_v96 : Ref sig .tc := ⟨.hbm, 138, rfl⟩
abbrev main_v97 : Ref sig .tc := ⟨.hbm, 139, rfl⟩
abbrev main_v98 : Ref sig .tc := ⟨.hbm, 140, rfl⟩
abbrev main_cst_23 : Ref sig .tc := ⟨.hbm, 141, rfl⟩
abbrev main_v99 : Ref sig .tc := ⟨.hbm, 142, rfl⟩
abbrev main_v100 : Ref sig .tc := ⟨.hbm, 143, rfl⟩
abbrev main_v101 : Ref sig .tc := ⟨.hbm, 144, rfl⟩
abbrev main_v102 : Ref sig .tc := ⟨.hbm, 145, rfl⟩
abbrev main_v103 : Ref sig .tc := ⟨.hbm, 146, rfl⟩
abbrev main_v104 : Ref sig .tc := ⟨.hbm, 147, rfl⟩
abbrev main_v105 : Ref sig .tc := ⟨.hbm, 148, rfl⟩
abbrev main_v106 : Ref sig .tc := ⟨.hbm, 149, rfl⟩
abbrev main_v107 : Ref sig .tc := ⟨.hbm, 150, rfl⟩
abbrev main_call4_cst : Ref sig .tc := ⟨.hbm, 151, rfl⟩
abbrev main_call4_v0 : Ref sig .tc := ⟨.hbm, 152, rfl⟩
abbrev main_call4_cst_0 : Ref sig .tc := ⟨.hbm, 153, rfl⟩
abbrev main_call4_v1 : Ref sig .tc := ⟨.hbm, 154, rfl⟩
abbrev main_call4_v2 : Ref sig .tc := ⟨.hbm, 155, rfl⟩
abbrev main_call4_v3 : Ref sig .tc := ⟨.hbm, 156, rfl⟩
abbrev main_call4_v4 : Ref sig .tc := ⟨.hbm, 157, rfl⟩
abbrev main_call4_v5 : Ref sig .tc := ⟨.hbm, 158, rfl⟩
abbrev main_call4_v6 : Ref sig .tc := ⟨.hbm, 159, rfl⟩
abbrev main_call4_cst_1 : Ref sig .tc := ⟨.hbm, 160, rfl⟩
abbrev main_call4_v7 : Ref sig .tc := ⟨.hbm, 161, rfl⟩
abbrev main_call4_v8 : Ref sig .tc := ⟨.hbm, 162, rfl⟩
abbrev main_call4_v9 : Ref sig .tc := ⟨.hbm, 163, rfl⟩
abbrev main_call4_v10 : Ref sig .tc := ⟨.hbm, 164, rfl⟩
abbrev main_v108 : Ref sig .tc := ⟨.hbm, 165, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  concatenates_S1600000_S100000_S1700000_d0 : Shape.Concatenates [S1600000, S100000] S1700000 0
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S_S64x128 : S_.BroadcastsInDim S64x128 (![] : Fin 0 → Fin S64x128.rank)
  bcast_S100000_S100000x1_0 : S100000.BroadcastsInDim S100000x1 (![0] : Fin 1 → Fin S100000x1.rank)
  bcast_S_S64 : S_.BroadcastsInDim S64 (![] : Fin 0 → Fin S64.rank)
  bcast_S64_S64x1_0 : S64.BroadcastsInDim S64x1 (![0] : Fin 1 → Fin S64x1.rank)
  bcast_S64x1_S64x128_0_1 : S64x1.BroadcastsInDim S64x128 (![0, 1] : Fin 2 → Fin S64x128.rank)
  bcast_S2_S1x2_1 : S2.BroadcastsInDim S1x2 (![1] : Fin 1 → Fin S1x2.rank)
  bcast_S1x2_S64x2_0_1 : S1x2.BroadcastsInDim S64x2 (![0, 1] : Fin 2 → Fin S64x2.rank)
  reducesTo_S64x2_S64_d1 : S64x2.ReducesTo [1] S64
  h_S_ : 0 < S_.numel
  bcast_S64x1_S64x2_0_1 : S64x1.BroadcastsInDim S64x2 (![0, 1] : Fin 2 → Fin S64x2.rank)
  dot_S100000x64_S64x128_S100000x128_1_0_0_1_n_n_wf : DotDims.WF S100000x64 S64x128 S100000x128 [1] [0] [0] [1] [] []
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  dot_S100000x128_S128x128_S100000x128_1_0_0_1_n_n_wf : DotDims.WF S100000x128 S128x128 S100000x128 [1] [0] [0] [1] [] []
  scatter_S64x128_S100000x1_S100000x128_1_0_0_1_wf : ScatterDims.WF S64x128 S100000x1 S100000x128 [1] [0] [0] 1
  scatter_S64_S100000x1_S100000_n_0_0_1_wf : ScatterDims.WF S64 S100000x1 S100000 [] [0] [0] 1
  dot_S64x128_S128x2_S64x2_1_0_0_1_n_n_wf : DotDims.WF S64x128 S128x2 S64x2 [1] [0] [0] [1] [] []

variable [Facts₀]

def dot_S100000x64_S64x128_S100000x128_1_0_0_1_n_n : DotDims S100000x64 S64x128 S100000x128 where
  lhsContracting := [1]
  rhsContracting := [0]
  lhsNonContracting := [0]
  rhsNonContracting := [1]
  lhsBatch := []
  rhsBatch := []
  wf := dot_S100000x64_S64x128_S100000x128_1_0_0_1_n_n_wf
def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def scatter_S64x128_S100000x1_S100000x128_1_0_0_1 : ScatterDims S64x128 S100000x1 S100000x128 where
  updateWindowDims := [1]
  insertedWindowDims := [0]
  scatterDimsToOperandDims := [0]
  indexVectorDim := 1
  wf := scatter_S64x128_S100000x1_S100000x128_1_0_0_1_wf
def scatter_S64_S100000x1_S100000_n_0_0_1 : ScatterDims S64 S100000x1 S100000 where
  updateWindowDims := []
  insertedWindowDims := [0]
  scatterDimsToOperandDims := [0]
  indexVectorDim := 1
  wf := scatter_S64_S100000x1_S100000_n_0_0_1_wf
def dot_S64x128_S128x2_S64x2_1_0_0_1_n_n : DotDims S64x128 S128x2 S64x2 where
  lhsContracting := [1]
  rhsContracting := [0]
  lhsNonContracting := [0]
  rhsNonContracting := [1]
  lhsBatch := []
  rhsBatch := []
  wf := dot_S64x128_S128x2_S64x2_1_0_0_1_n_n_wf

class Facts : Prop extends Facts₀ where

variable [Facts]
-- ==== Proof.K.R0Def.lean ====
/-
  Region 0 (the first linear layer's kernel: rows of x times W1, each row scaled by its normalisation
  factor): what each grid point reads and what it leaves, as data for the pipeline's launch.
  A point handles 5000 consecutive rows: it reads its rows of x, all of W1 and its rows of the
  factor column, and stores one 5000 x 128 block.
-/
import proofs.«406043_j45999099740722_2_alg».proof.Proof.Gen.Kernel.Launch
import proofs.«406043_j45999099740722_2_alg».proof.Proof.Gen.Kernel.Skeleton
import proofs.«406043_j45999099740722_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at point t, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The whole-block rectangle of the output's staging buffer. -/
abbrev r0_out : Rect S5000x128 := Rect.unit (s := S5000x128) ![0, 0] S5000x128.size inb_S5000x128_S5000x128_0_0
abbrev r0_x : Rect S5000x64 := Rect.unit (s := S5000x64) ![0, 0] S5000x64.size inb_S5000x64_S5000x64_0_0
abbrev r0_w : Rect S64x128 := Rect.unit (s := S64x128) ![0, 0] S64x128.size inb_S64x128_S64x128_0_0
abbrev r0_d : Rect S5000x1 := Rect.unit (s := S5000x1) ![0, 0] S5000x1.size inb_S5000x1_S5000x1_0_0

/-- What the body leaves in the output's staging buffer, from the three input blocks: one whole-block store. -/
def out0_3 (x0 : Vec F S5000x64 .f32) (x1 : Vec F S64x128 .f32) (x2 : Vec F S5000x1 .f32) : Vec F S5000x128 .f32 :=
  View.canon [⟨r0_out, k0_pay1 (View.ld x0 r0_x) (View.ld x1 r0_w) (View.ld x2 r0_d)⟩]

/-- The pipeline's proof data for region 0 on core c at entry contents V. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) :
    (dat0 V c).after 3 t = out0_3 (iblk0 V c 0 t) (iblk0 V c 1 t) (iblk0 V c 2 t) := by dsimp only [dat0]

end Cert.Kernel.Hand

end
-- ==== Proof.K.R1Def.lean ====
/-
  Region 1 (the second layer's kernel): a point takes 5000 rows of the first layer's aggregated sums,
  scales each row by its normalisation factor, adds the bias row, clamps at zero, multiplies by W2 and scales
  each row by the factor again; it stores one 5000 x 128 block.
-/
import proofs.«406043_j45999099740722_2_alg».proof.Proof.Gen.Kernel.Launch
import proofs.«406043_j45999099740722_2_alg».proof.Proof.Gen.Kernel.Skeleton
import proofs.«406043_j45999099740722_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at point t, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

abbrev r1_a : Rect S5000x128 := Rect.unit (s := S5000x128) ![0, 0] S5000x128.size inb_S5000x128_S5000x128_0_0
abbrev r1_d : Rect S5000x1 := Rect.unit (s := S5000x1) ![0, 0] S5000x1.size inb_S5000x1_S5000x1_0_0
abbrev r1_b : Rect S1x128 := Rect.unit (s := S1x128) ![0, 0] S1x128.size inb_S1x128_S1x128_0_0
abbrev r1_w : Rect S128x128 := Rect.unit (s := S128x128) ![0, 0] S128x128.size inb_S128x128_S128x128_0_0

/-- What the body leaves in the output's staging buffer, from the four input blocks: one whole-block store
    (the factor column is loaded twice; both loads read the same block). -/
def out1_4 (x0 : Vec F S5000x128 .f32) (x1 : Vec F S5000x1 .f32) (x2 : Vec F S1x128 .f32) (x3 : Vec F S128x128 .f32) : Vec F S5000x128 .f32 :=
  View.canon [⟨r1_a, k1_pay1 (View.ld x0 r1_a) (View.ld x1 r1_d) (View.ld x2 r1_b) (View.ld x3 r1_w) (View.ld x1 r1_d)⟩]

/-- The pipeline's proof data for region 1 on core c at entry contents V. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => out1_4 (iblk1 V c 0 t) (iblk1 V c 1 t) (iblk1 V c 2 t) (iblk1 V c 3 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) :
    (dat1 V c).after 4 t = out1_4 (iblk1 V c 0 t) (iblk1 V c 1 t) (iblk1 V c 2 t) (iblk1 V c 3 t) := by dsimp only [dat1]

end Cert.Kernel.Hand

end
-- ==== Proof.K.R2Def.lean ====
/-
  Region 2 (pooling and the classifier): twenty points, each taking 5000 node rows. Every point adds, per graph,
  the rows of its tile that belong to the graph (after scaling by the normalisation factor, adding the bias
  and clamping at zero) into a 64 x 128 accumulator, and the number of such rows into a 64 x 1 counter;
  both live in scratch memory that the kernel keeps from one point to the next. The first point zeroes
  them (and the output block) first; the last point divides the sums by the counts (at least one),
  applies the final linear map and the log-softmax, and stores the 64 x 2 output block, which is written
  back only then.
-/
import proofs.«406043_j45999099740722_2_alg».proof.Proof.Gen.Kernel.Launch
import proofs.«406043_j45999099740722_2_alg».proof.Proof.Gen.Kernel.Skeleton
import proofs.«406043_j45999099740722_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at point t, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The two scratch operands, as whole memrefs. -/
abbrev scM2_0 : Memref sig .tc .vmem S64x128 .f32 := Memref.whole cc2_scratch0
abbrev scM2_1 : Memref sig .tc .vmem S64x1 .f32 := Memref.whole cc2_scratch1

/-- The accumulator and the counter after point n: the first point starts from zeros, every later point
    from what the point before left; each adds its tile's contribution. -/
def carry2 (c : Dev nD) : (n : ℕ) → n < cfg2.N → Vec F S64x128 .f32 × Vec F S64x1 .f32
  | 0, hn => (k2_pay6 (iblk2 V c 0 ⟨0, hn⟩) (iblk2 V c 1 ⟨0, hn⟩) (iblk2 V c 2 ⟨0, hn⟩) (iblk2 V c 3 ⟨0, hn⟩) (k2_pay2 (F := F)),
      k2_pay7 (iblk2 V c 3 ⟨0, hn⟩) (k2_pay3 (F := F)))
  | n + 1, hn => (k2_pay6 (iblk2 V c 0 ⟨n + 1, hn⟩) (iblk2 V c 1 ⟨n + 1, hn⟩) (iblk2 V c 2 ⟨n + 1, hn⟩) (iblk2 V c 3 ⟨n + 1, hn⟩) (carry2 c n (Nat.lt_of_succ_lt hn)).1,
      k2_pay7 (iblk2 V c 3 ⟨n + 1, hn⟩) (carry2 c n (Nat.lt_of_succ_lt hn)).2)

theorem carry2_zero (c : Dev nD) (hn : 0 < cfg2.N) :
    carry2 V c 0 hn = (k2_pay6 (iblk2 V c 0 ⟨0, hn⟩) (iblk2 V c 1 ⟨0, hn⟩) (iblk2 V c 2 ⟨0, hn⟩) (iblk2 V c 3 ⟨0, hn⟩) (k2_pay2 (F := F)),
      k2_pay7 (iblk2 V c 3 ⟨0, hn⟩) (k2_pay3 (F := F))) := rfl

theorem carry2_succ (c : Dev nD) (n : ℕ) (hn : n + 1 < cfg2.N) :
    carry2 V c (n + 1) hn = (k2_pay6 (iblk2 V c 0 ⟨n + 1, hn⟩) (iblk2 V c 1 ⟨n + 1, hn⟩) (iblk2 V c 2 ⟨n + 1, hn⟩) (iblk2 V c 3 ⟨n + 1, hn⟩) (carry2 V c n (Nat.lt_of_succ_lt hn)).1,
      k2_pay7 (iblk2 V c 3 ⟨n + 1, hn⟩) (carry2 V c n (Nat.lt_of_succ_lt hn)).2) := rfl

/-- The output's staging buffer after point t: zeros from the first point on (the points between leave it
    alone), the classifier's result at the last point. -/
def outAt2 (c : Dev nD) (t : Fin cfg2.N) : Vec F S64x2 .f32 :=
  if t.val = 19 then k2_pay1 (carry2 V c t.val t.isLt).1 (carry2 V c t.val t.isLt).2 (iblk2 V c 4 t) (iblk2 V c 5 t)
  else k2_pay4 (F := F)

/-- The core's scoped buffers that this kernel never touches (the other two kernels' staging buffers), each whole
    at some contents. -/
def others2 (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg4_1), ((c : Thread nD τ).loc cc1_stg4_1) ↦{fullShare} f))

/-- The region invariant before position n: at the start what the launch hands over; afterwards the untouched
    scoped buffers, the two scratch buffers at what the point before left, and the generator register. -/
def PhiS2 (c : Dev nD) : (n : ℕ) → n ≤ cfg2.N → sProp 𝕄
  | 0, _ => Pipeline.ΦA spec2 c
  | n + 1, hn => iprop(others2 (F := F) c ∗ owns (c : Thread nD τ) scM2_0 fullShare (carry2 V c n hn).1
      ∗ owns (c : Thread nD τ) scM2_1 fullShare (carry2 V c n hn).2 ∗ (∃ r, prngReg c r))

theorem PhiS2_zero (c : Dev nD) (n : ℕ) (h : n ≤ cfg2.N) (hz : n = 0) : PhiS2 V c n h = Pipeline.ΦA spec2 c := by
  subst hz; rfl

theorem PhiS2_succ (c : Dev nD) (n : ℕ) (hn : n < cfg2.N) :
    PhiS2 V c (n + 1) hn = iprop(others2 (F := F) c ∗ owns (c : Thread nD τ) scM2_0 fullShare (carry2 V c n hn).1
      ∗ owns (c : Thread nD τ) scM2_1 fullShare (carry2 V c n hn).2 ∗ (∃ r, prngReg c r)) := rfl

theorem PhiS2_pos (c : Dev nD) (n : ℕ) (h : n ≤ cfg2.N) (hz : n ≠ 0) :
    PhiS2 V c n h = iprop(others2 (F := F) c ∗ owns (c : Thread nD τ) scM2_0 fullShare (carry2 V c (n - 1) (by omega)).1
      ∗ owns (c : Thread nD τ) scM2_1 fullShare (carry2 V c (n - 1) (by omega)).2 ∗ (∃ r, prngReg c r)) := by
  cases n with
  | zero => exact absurd rfl hz
  | succ n => rfl

/-- The pipeline's proof data for region 2 on core c at entry contents V. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => outAt2 V c t
  Φ t := PhiS2 V c t.val (Nat.le_of_lt_succ t.isLt)
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = iblk2 V c 5 t := by dsimp only [dat2]
theorem after2_6 (c : Dev nD) (t : Fin cfg2.N) : (dat2 V c).after 6 t = outAt2 V c t := by dsimp only [dat2]

theorem PhiS2_castSucc (c : Dev nD) (t : Fin cfg2.N) :
    (dat2 V c).Φ t.castSucc = PhiS2 V c t.val (Nat.le_of_lt t.isLt) := by
  dsimp only [dat2]; simp only [Fin.coe_castSucc]

end Cert.Kernel.Hand

end
-- ==== Proof.K.Chain.lean ====
/-
  The contents of the core's buffers at each boundary of the program: the launch memory, then each stretch of
  host operations applied, then each kernel region's output array replaced by what its write-backs leave.
-/
import proofs.«406043_j45999099740722_2_alg».proof.Proof.K.R0Def
import proofs.«406043_j45999099740722_2_alg».proof.Proof.K.R1Def
import proofs.«406043_j45999099740722_2_alg».proof.Proof.K.R2Def

noncomputable section

namespace Cert.Kernel.Hand

open Idealize.ShloMosaic Idealize.ShloMosaic.TcCoe
open Idealize.SL Idealize.SL.Sem
open Idealize.ShloMosaic.Pipeline (Dat)
open Cert.Kernel Cert.Kernel.Gen

variable {F : FTy → Type} [FloatOps F]
variable (m : (ℓ : Loc nD τ sig) → Buf (Elt F) ℓ)

/-- At launch. -/
abbrev W0 (c : Dev nD) : Valuation τ sig (Elt F) := fun b => m (c, b)
/-- After the first stretch (indices, degrees, their inverse square roots). -/
abbrev W1 (c : Dev nD) : Valuation τ sig (Elt F) := StableHlo.after hostOps0 (W0 m c)
/-- After the select that zeroes the factor where the degree is zero. -/
abbrev W2 (c : Dev nD) : Valuation τ sig (Elt F) := StableHlo.after hostOps0_1 (W1 m c)
/-- After the factor is reshaped to a column: region 0's entry. -/
abbrev W3 (c : Dev nD) : Valuation τ sig (Elt F) := StableHlo.after hostOps0_2 (W2 m c)
/-- The same read at the TensorCore's references. -/
abbrev VE0 : (c : Dev nD) → (b : Ref sig .tc) → Buf (Elt F) ((c : Thread nD τ).loc b) := fun c b => W3 m c b
/-- At region 0's exit. -/
def W4 (c : Dev nD) : Valuation τ sig (Elt F) :=
  Pipeline.withArrays spec0 c (W3 m c) fun w => (dat0 (VE0 m) c).arrAt w cfg0.N
/-- After the first gather and edge sum: region 1's entry. -/
abbrev W5 (c : Dev nD) : Valuation τ sig (Elt F) := StableHlo.after hostOps1 (W4 m c)
abbrev VE1 : (c : Dev nD) → (b : Ref sig .tc) → Buf (Elt F) ((c : Thread nD τ).loc b) := fun c b => W5 m c b
/-- At region 1's exit. -/
def W6 (c : Dev nD) : Valuation τ sig (Elt F) :=
  Pipeline.withArrays spec1 c (W5 m c) fun w => (dat1 (VE1 m) c).arrAt w cfg1.N
/-- After the second gather and edge sum: region 2's entry. -/
abbrev W7 (c : Dev nD) : Valuation τ sig (Elt F) := StableHlo.after hostOps2 (W6 m c)
abbrev VE2 : (c : Dev nD) → (b : Ref sig .tc) → Buf (Elt F) ((c : Thread nD τ).loc b) := fun c b => W7 m c b
/-- At region 2's exit: the end of the program. -/
def W8 (c : Dev nD) : Valuation τ sig (Elt F) :=
  Pipeline.withArrays spec2 c (W7 m c) fun w => (dat2 (VE2 m) c).arrAt w cfg2.N

theorem W4_arr (c : Dev nD) (w : Fin cfg0.W) :
    W4 m c (Proc.devRef .tc (Pipeline.arrRef spec0 w)) = (dat0 (VE0 m) c).arrAt w cfg0.N := by
  unfold W4; exact Pipeline.withArrays_arr spec0 launch0.win.arr_inj c _ _ w
theorem W4_of_ne (c : Dev nD) (b : Ref sig .tc) (hb : ∀ w, Pipeline.arrRef spec0 w ≠ b) :
    W4 m c (Proc.devRef .tc b) = W3 m c (Proc.devRef .tc b) := by
  unfold W4; exact Pipeline.withArrays_of_ne spec0 c _ _ b hb
theorem W6_arr (c : Dev nD) (w : Fin cfg1.W) :
    W6 m c (Proc.devRef .tc (Pipeline.arrRef spec1 w)) = (dat1 (VE1 m) c).arrAt w cfg1.N := by
  unfold W6; exact Pipeline.withArrays_arr spec1 launch1.win.arr_inj c _ _ w
theorem W6_of_ne (c : Dev nD) (b : Ref sig .tc) (hb : ∀ w, Pipeline.arrRef spec1 w ≠ b) :
    W6 m c (Proc.devRef .tc b) = W5 m c (Proc.devRef .tc b) := by
  unfold W6; exact Pipeline.withArrays_of_ne spec1 c _ _ b hb
theorem W8_arr (c : Dev nD) (w : Fin cfg2.W) :
    W8 m c (Proc.devRef .tc (Pipeline.arrRef spec2 w)) = (dat2 (VE2 m) c).arrAt w cfg2.N := by
  unfold W8; exact Pipeline.withArrays_arr spec2 launch2.win.arr_inj c _ _ w
theorem W8_of_ne (c : Dev nD) (b : Ref sig .tc) (hb : ∀ w, Pipeline.arrRef spec2 w ≠ b) :
    W8 m c (Proc.devRef .tc b) = W7 m c (Proc.devRef .tc b) := by
  unfold W8; exact Pipeline.withArrays_of_ne spec2 c _ _ b hb

end Cert.Kernel.Hand

end
-- ==== Proof.K.R0Body.lean ====
import proofs.«406043_j45999099740722_2_alg».proof.Proof.K.R0Def

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## What the body finds in each input window's buffer -/

/-- The rows of x: the buffer holds this point's block, whether or not a transfer filled it here, for any proof
    data over the entry contents whose body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- All of W1: its block index never moves, so after the first point the buffer still holds the same block. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- The rows of the factor column. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-! ## The one store covers the output's buffer -/

/-- A single piece through the whole-block rectangle reaches every index of the block. -/
theorem cover0_3 (p0 : Vec F S5000x128 .f32) (y : S5000x128.Idx) :
    ∃ pc ∈ ([⟨r0_out, p0⟩] : List (View.Piece (Elt F) S5000x128 .f32)), y ∈ pc.1.set :=
  View.cover_of_tiled [⟨r0_out, p0⟩] S5000x128.size (by rfl) y

/-! ## The kernel function's triple -/

set_option maxHeartbeats 1000000 in
/-- On whole memrefs, the three inputs' at read contents x0 x1 x2 and the output's at anything, the kernel function
    runs to the continuation holding the inputs' as they were and the output's at the one stored block. -/
theorem sound_kernel0 (c : Dev nD) (E : Set ℕ) (i : grid0.Coords)
    (arg1 : Memref sig .tc .vmem S5000x64 .f32) (harg1 : arg1.IsWhole)
    (arg2 : Memref sig .tc .vmem S64x128 .f32) (harg2 : arg2.IsWhole)
    (arg3 : Memref sig .tc .vmem S5000x1 .f32) (harg3 : arg3.IsWhole)
    (arg4 : Memref sig .tc .vmem S5000x128 .f32) (harg4 : arg4.IsWhole)
    (x0 : Vec F S5000x64 .f32) (x1 : Vec F S64x128 .f32) (x2 : Vec F S5000x1 .f32) (K : PUnit → sProp 𝕄) :
    iprop(owns (c : Thread nD τ) arg1 fullShare x0 ∗ owns (c : Thread nD τ) arg2 fullShare x1
        ∗ owns (c : Thread nD τ) arg3 fullShare x2 ∗ (∃ d, owns (c : Thread nD τ) arg4 fullShare d)
        ∗ (iprop(owns (c : Thread nD τ) arg1 fullShare x0 ∗ owns (c : Thread nD τ) arg2 fullShare x1
            ∗ owns (c : Thread nD τ) arg3 fullShare x2 ∗ owns (c : Thread nD τ) arg4 fullShare (out0_3 x0 x1 x2)) -∗ K ⟨⟩))
      ⊢ wp frame (wpE (defs₀ (F := F)) Variants.none c none) E (cc0__linear_scale_kernel i arg1 harg1 arg2 harg2 arg3 harg3 arg4 harg4) K := by
  simp only [cc0__linear_scale_kernel_eq_skeleton]; unfold cc0__linear_scale_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0_3 _)

/-! ## The body obligation, at a generic point -/

/-- What the body is called with at point t, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

/-- The body at any point: the inputs' memrefs hold their blocks, so the kernel function's triple applies; the
    invariant and what the core owes pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body obligation of region 0 at every point. -/
theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.K.R1Body.lean ====
import proofs.«406043_j45999099740722_2_alg».proof.Proof.K.R1Def

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## What the body finds in each input window's buffer -/

/-- The rows of the aggregated sums: the buffer holds this point's block, whether or not a transfer filled it here,
    for any proof data over the entry contents whose body leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- The rows of the factor column. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- The bias row: its block index never moves, so after the first point the buffer still holds the same block. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- All of W2: likewise never refetched after the first point. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d

/-! ## The one store covers the output's buffer -/

/-- A single piece through the whole-block rectangle reaches every index of the block. -/
theorem cover1_4 (p0 : Vec F S5000x128 .f32) (y : S5000x128.Idx) :
    ∃ pc ∈ ([⟨r1_a, p0⟩] : List (View.Piece (Elt F) S5000x128 .f32)), y ∈ pc.1.set :=
  View.cover_of_tiled [⟨r1_a, p0⟩] S5000x128.size (by rfl) y

/-! ## The kernel function's triple -/

set_option maxHeartbeats 1000000 in
/-- On whole memrefs, the four inputs' at read contents x0 x1 x2 x3 and the output's at anything, the kernel function
    runs to the continuation holding the inputs' as they were and the output's at the one stored block; the two
    loads of the factor column read the same unchanged buffer. -/
theorem sound_kernel1 (c : Dev nD) (E : Set ℕ) (i : grid1.Coords)
    (arg1 : Memref sig .tc .vmem S5000x128 .f32) (harg1 : arg1.IsWhole)
    (arg2 : Memref sig .tc .vmem S5000x1 .f32) (harg2 : arg2.IsWhole)
    (arg3 : Memref sig .tc .vmem S1x128 .f32) (harg3 : arg3.IsWhole)
    (arg4 : Memref sig .tc .vmem S128x128 .f32) (harg4 : arg4.IsWhole)
    (arg5 : Memref sig .tc .vmem S5000x128 .f32) (harg5 : arg5.IsWhole)
    (x0 : Vec F S5000x128 .f32) (x1 : Vec F S5000x1 .f32) (x2 : Vec F S1x128 .f32) (x3 : Vec F S128x128 .f32) (K : PUnit → sProp 𝕄) :
    iprop(owns (c : Thread nD τ) arg1 fullShare x0 ∗ owns (c : Thread nD τ) arg2 fullShare x1
        ∗ owns (c : Thread nD τ) arg3 fullShare x2 ∗ owns (c : Thread nD τ) arg4 fullShare x3
        ∗ (∃ d, owns (c : Thread nD τ) arg5 fullShare d)
        ∗ (iprop(owns (c : Thread nD τ) arg1 fullShare x0 ∗ owns (c : Thread nD τ) arg2 fullShare x1
            ∗ owns (c : Thread nD τ) arg3 fullShare x2 ∗ owns (c : Thread nD τ) arg4 fullShare x3
            ∗ owns (c : Thread nD τ) arg5 fullShare (out1_4 x0 x1 x2 x3)) -∗ K ⟨⟩))
      ⊢ wp frame (wpE (defs₀ (F := F)) Variants.none c none) E (cc1__post_agg_linear_kernel i arg1 harg1 arg2 harg2 arg3 harg3 arg4 harg4 arg5 harg5) K := by
  simp only [cc1__post_agg_linear_kernel_eq_skeleton]; unfold cc1__post_agg_linear_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0; subst hf1; subst hf2; subst hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover1_4 _)

/-! ## The body obligation, at a generic point -/

/-- What the body is called with at point t, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t))

/-- The body at any point: the inputs' memrefs hold their blocks, so the kernel function's triple applies; the
    invariant and what the core owes pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).Φ t.succ = (dat1 V c).Φ t.castSucc from rfl,
    show (dat1 V c).owesAt () t.succ = (dat1 V c).owesAt () t.castSucc from rfl,
    after1_0, after1_1, after1_2, after1_3, after1_4]
  iintro ⟨HΦ, Ho, ⟨%d0, H0⟩, ⟨%d1, H1⟩, ⟨%d2, H2⟩, ⟨%d3, H3⟩, ⟨%d4, H4⟩⟩
  iapply (sound_kernel1 c Set.univ _ _ _ _ _ _ _ _ _ _ _ (iblk1 V c 0 t) (iblk1 V c 1 t) (iblk1 V c 2 t) (iblk1 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The body obligation of region 1 at every point. -/
theorem body_obligation1 (c : Dev nD) : BodyObligation (dat1 (F := F) V c) (defs₀ (F := F)) Variants.none () Set.univ := fun t => by
  rw [bigSep_W1, bigSep_W1]
  exact sound_body1 V c t

end Cert.Kernel.Hand

end
-- ==== Proof.K.R2Body.lean ====
import proofs.«406043_j45999099740722_2_alg».proof.Proof.K.R2Def
import Idealize.ShloMosaic.Lib.Pipeline.Value

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # Region 2: the body at every point

The pooling kernel keeps a 64 x 128 accumulator and a 64 x 1 counter in scratch memory from one point to the next.
At the first point it zeroes both (and the output block) before adding the tile's contribution; at every later
point it adds the tile's contribution to what the point before left; at the last point it also forms the
classifier's result from the final sums and counts and stores it into the output block, which is idle in between.
The three control cases are run once each on arbitrary whole memrefs, with the contents every store leaves named
by the payload of the last whole-block store; the body obligation follows by cases on the point. -/

/-! ## Whole-block loads and stores -/

theorem hz2 : (![0, 0] : Fin 2 → Nat) = fun _ => 0 := funext fun a => by fin_cases a <;> rfl

/-- A store through the whole-block rectangle reaches every index, whatever was stored before it. -/
theorem cover_cons_unit {S : Shape} {e : EltTy} {off : Fin S.rank → Nat} (h : off = fun _ => 0)
    (inb : ∀ a, off a + S.size a ≤ S.size a) (w : S.Idx → Elt F e) (L : List (View.Piece (Elt F) S e)) (y : S.Idx) :
    ∃ p ∈ ((⟨Rect.unit off S.size inb, w⟩ : View.Piece (Elt F) S e) :: L), y ∈ p.1.set :=
  ⟨_, List.mem_cons_self, View.mem_set_unit_zero h inb y⟩

/-- So after a last store of the whole block the buffer reads as that store's payload. -/
theorem read_writes_head {sg : RefSig} {κ : Kind} {sp : Space} {S : Shape} {e : EltTy} (v : View sg κ sp S e) (f : v.ty.Contents (Elt F))
    {off : Fin S.rank → Nat} (h : off = fun _ => 0) (inb : ∀ a, off a + S.size a ≤ S.size a) (w : S.Idx → Elt F e)
    (L : List (View.Piece (Elt F) S e)) :
    v.read (Elt F) (v.writes (Elt F) f ((⟨Rect.unit off S.size inb, w⟩ : View.Piece (Elt F) S e) :: L)) = w := by
  rw [View.read_writes_eq_canon _ _ _ (cover_cons_unit h inb w L), View.canon_cons_unit_zero h]

/-- A load of the whole block reads the buffer's contents. -/
theorem readAt_unit {sg : RefSig} {κ : Kind} {sp : Space} {S : Shape} {e : EltTy} (v : View sg κ sp S e) (f : v.ty.Contents (Elt F))
    {off : Fin S.rank → Nat} (h : off = fun _ => 0) (inb : ∀ a, off a + S.size a ≤ S.size a) :
    v.readAt (Elt F) (Rect.unit off S.size inb).toLoadRect f = v.read (Elt F) f := by
  rw [View.readAt_eq_ld, View.ld_unit_zero h]

/-! ## What the body finds in each input window's buffer -/

/-- The tile's rows of the activations: the buffer holds this point's block, whether or not a transfer filled it here, for any proof data over the entry contents whose body leaves the block in place. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- The tile's rows of the normalisation column. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- The bias row: its block index never moves, so after the first point the buffer still holds the same block. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-- The tile's rows of the graph-assignment column. -/
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

/-- The classifier's weight matrix: never refetched after the first point. -/
theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)

/-- The classifier's bias row: likewise. -/
theorem before2_5_of {c : Dev nD} (dat : Dat τ (Elt F) Unit ℕ (UR sig nD τ) ℕ cfg2 c) (hA : dat.A 5 = V c (Pipeline.arrRef spec2 5))
    (hafter : ∀ t, dat.after 5 t = iblk2 V c 5 t) (t : Fin cfg2.N) (d) : dat.before 5 t d = iblk2 V c 5 t :=
  (dat.before_in_eq_fetched 5 rfl (fun _ => rfl) (fun _ _ _ => rfl) (fun t => by rw [hafter]; unfold Dat.blockOf iblk2; rw [hA]; try rfl) t d).trans
    (by unfold Dat.fetched Dat.blockOf iblk2; rw [hA]; try rfl)

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d
theorem before2_5 (c : Dev nD) (t : Fin cfg2.N) (d) : (dat2 V c).before 5 t d = iblk2 V c 5 t :=
  before2_5_of V (dat2 V c) (A_eq2 V c 5) (after2_5 V c) t d

/-! ## The two conditions and the output window's idle points, in closed form over the twenty points -/

/-- The first condition holds at the first point only. -/
theorem hcond2_1 : ∀ t : Fin cfg2.N, k2_cond1 (grid2.coords t) = 1#1 ↔ t.val % 20 = 0 :=
  (by decide +kernel : ∀ t : Fin grid2.N, k2_cond1 (grid2.coords t) = 1#1 ↔ t.val % 20 = 0)
/-- The second condition holds at the last point only. -/
theorem hcond2_2 : ∀ t : Fin cfg2.N, k2_cond2 (grid2.coords t) = 1#1 ↔ t.val % 20 = 19 :=
  (by decide +kernel : ∀ t : Fin grid2.N, k2_cond2 (grid2.coords t) = 1#1 ↔ t.val % 20 = 19)

/-- The input windows are never idle. -/
theorem liveAt2_0 : ∀ t : Fin cfg2.N, cfg2.idle 0 (grid2.coords t) = false := by decide +kernel
theorem liveAt2_1 : ∀ t : Fin cfg2.N, cfg2.idle 1 (grid2.coords t) = false := by decide +kernel
theorem liveAt2_2 : ∀ t : Fin cfg2.N, cfg2.idle 2 (grid2.coords t) = false := by decide +kernel
theorem liveAt2_3 : ∀ t : Fin cfg2.N, cfg2.idle 3 (grid2.coords t) = false := by decide +kernel
theorem liveAt2_4 : ∀ t : Fin cfg2.N, cfg2.idle 4 (grid2.coords t) = false := by decide +kernel
theorem liveAt2_5 : ∀ t : Fin cfg2.N, cfg2.idle 5 (grid2.coords t) = false := by decide +kernel
/-- The output window is live where either condition holds, -/
theorem liveAt2_6_A : ∀ t : Fin cfg2.N, k2_cond1 (grid2.coords t) = 1#1 → ¬k2_cond2 (grid2.coords t) = 1#1 → cfg2.idle 6 (grid2.coords t) = false := by decide +kernel
theorem liveAt2_6_C : ∀ t : Fin cfg2.N, ¬k2_cond1 (grid2.coords t) = 1#1 → k2_cond2 (grid2.coords t) = 1#1 → cfg2.idle 6 (grid2.coords t) = false := by decide +kernel
/-- idle where neither does, and there its block is not written back. -/
theorem idleAt2_6_B : ∀ t : Fin cfg2.N, ¬k2_cond1 (grid2.coords t) = 1#1 → ¬k2_cond2 (grid2.coords t) = 1#1 → cfg2.idle 6 (grid2.coords t) = true := by decide +kernel
theorem noFlush2_6_B : ∀ t : Fin cfg2.N, ¬k2_cond1 (grid2.coords t) = 1#1 → ¬k2_cond2 (grid2.coords t) = 1#1 → (cfg2.win 6).flush t = false := by decide +kernel

/-! ## The kernel function's triple in each of the three control cases

On whole memrefs, the six inputs' at read contents x0 … x5; the contents the stores leave are named by the
payloads: a last whole-block store leaves its payload, and a whole-block load reads the contents. -/

set_option maxHeartbeats 2000000 in
/-- The first point: the first condition holds, the second does not. Whatever the output's buffer and the two
    scratch buffers held, the output's buffer is left at zeros, the accumulator at the tile's contribution added
    to zeros, the counter at the tile's counts added to zeros (each is zeroed, read back, then updated). -/
theorem run2_A (c : Dev nD) (E : Set ℕ) (i : grid2.Coords) (arg1 : Memref sig .tc .vmem S5000x128 .f32) (harg1 : arg1.IsWhole) (arg2 : Memref sig .tc .vmem S5000x1 .f32) (harg2 : arg2.IsWhole) (arg3 : Memref sig .tc .vmem S1x128 .f32) (harg3 : arg3.IsWhole) (arg4 : Memref sig .tc .vmem S5000x1 .i32) (harg4 : arg4.IsWhole) (arg5 : Memref sig .tc .vmem S128x2 .f32) (harg5 : arg5.IsWhole) (arg6 : Memref sig .tc .vmem S1x2 .f32) (harg6 : arg6.IsWhole) (arg7 : Memref sig .tc .vmem S64x2 .f32) (harg7 : arg7.IsWhole) (arg8 : Memref sig .tc .vmem S64x128 .f32) (harg8 : arg8.IsWhole) (arg9 : Memref sig .tc .vmem S64x1 .f32) (harg9 : arg9.IsWhole)
    (hc1 : k2_cond1 i = 1#1) (hc2 : ¬ k2_cond2 i = 1#1)
    (x0 : Vec F S5000x128 .f32) (x1 : Vec F S5000x1 .f32) (x2 : Vec F S1x128 .f32) (x3 : Vec F S5000x1 .i32) (x4 : Vec F S128x2 .f32) (x5 : Vec F S1x2 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5
        ∗ (∃ d, owns (c : Thread nD τ) arg7 fullShare d) ∗ (∃ d, owns (c : Thread nD τ) arg8 fullShare d) ∗ (∃ d, owns (c : Thread nD τ) arg9 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5
            ∗ owns (c : Thread nD τ) arg7 fullShare (k2_pay4 (F := F))
            ∗ owns (c : Thread nD τ) arg8 fullShare (k2_pay6 x0 x1 x2 x3 (k2_pay2 (F := F)))
            ∗ owns (c : Thread nD τ) arg9 fullShare (k2_pay7 x3 (k2_pay3 (F := F)))) -∗ K ⟨⟩))
      ⊢ wp frame (wpE (defs₀ (F := F)) Variants.none c none) E (cc2__pool_kernel i arg1 harg1 arg2 harg2 arg3 harg3 arg4 harg4 arg5 harg5 arg6 harg6 arg7 harg7 arg8 harg8 arg9 harg9) K := by
  simp only [cc2__pool_kernel_eq_skeleton]; unfold cc2__pool_kernel_skel
  simp only [k2_part1_eq_skeleton]; unfold k2_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%ds0, %fs0, -, HS0⟩, ⟨%ds1, %fs1, -, HS1⟩, Hk⟩
  subst hf0; subst hf1; subst hf2; subst hf3; subst hf4; subst hf5
  sl_exec (disch := first | exact hc1 | exact hc2)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr
    swap; · iexact H6
    ipureintro
    exact read_writes_head arg7.view _ hz2 _ _ _
  isplitl [HS0]
  · iexists _; isplitr
    swap; · iexact HS0
    ipureintro
    rw [read_writes_head arg8.view _ hz2]
    sl_unfold_words
    simp only [readAt_unit (S := S5000x128) _ _ hz2, readAt_unit (S := S5000x1) _ _ hz2, readAt_unit (S := S1x128) _ _ hz2, readAt_unit (S := S64x128) _ _ hz2, readAt_unit (S := S64x1) _ _ hz2, readAt_unit (S := S128x2) _ _ hz2, readAt_unit (S := S1x2) _ _ hz2, View.readCov_unit_zero (S := S64x128) _ hz2]
  iexists _; isplitr
  swap; · iexact HS1
  ipureintro
  rw [read_writes_head arg9.view _ hz2]
  sl_unfold_words
  simp only [readAt_unit (S := S5000x128) _ _ hz2, readAt_unit (S := S5000x1) _ _ hz2, readAt_unit (S := S1x128) _ _ hz2, readAt_unit (S := S64x128) _ _ hz2, readAt_unit (S := S64x1) _ _ hz2, readAt_unit (S := S128x2) _ _ hz2, readAt_unit (S := S1x2) _ _ hz2, View.readCov_unit_zero (S := S64x1) _ hz2]

set_option maxHeartbeats 2000000 in
/-- A middle point: neither condition holds. The output's buffer is not touched; the accumulator and the counter,
    at what the point before left (xs0, xs1), are each read and stored back with the tile's contribution added. -/
theorem run2_B (c : Dev nD) (E : Set ℕ) (i : grid2.Coords) (arg1 : Memref sig .tc .vmem S5000x128 .f32) (harg1 : arg1.IsWhole) (arg2 : Memref sig .tc .vmem S5000x1 .f32) (harg2 : arg2.IsWhole) (arg3 : Memref sig .tc .vmem S1x128 .f32) (harg3 : arg3.IsWhole) (arg4 : Memref sig .tc .vmem S5000x1 .i32) (harg4 : arg4.IsWhole) (arg5 : Memref sig .tc .vmem S128x2 .f32) (harg5 : arg5.IsWhole) (arg6 : Memref sig .tc .vmem S1x2 .f32) (harg6 : arg6.IsWhole) (arg7 : Memref sig .tc .vmem S64x2 .f32) (harg7 : arg7.IsWhole) (arg8 : Memref sig .tc .vmem S64x128 .f32) (harg8 : arg8.IsWhole) (arg9 : Memref sig .tc .vmem S64x1 .f32) (harg9 : arg9.IsWhole)
    (hc1 : ¬ k2_cond1 i = 1#1) (hc2 : ¬ k2_cond2 i = 1#1)
    (x0 : Vec F S5000x128 .f32) (x1 : Vec F S5000x1 .f32) (x2 : Vec F S1x128 .f32) (x3 : Vec F S5000x1 .i32) (x4 : Vec F S128x2 .f32) (x5 : Vec F S1x2 .f32) (xi6 : Vec F S64x2 .f32) (xs0 : Vec F S64x128 .f32) (xs1 : Vec F S64x1 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5
        ∗ owns (c : Thread nD τ) arg7 fullShare xi6 ∗ owns (c : Thread nD τ) arg8 fullShare xs0 ∗ owns (c : Thread nD τ) arg9 fullShare xs1
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5
            ∗ owns (c : Thread nD τ) arg7 fullShare xi6
            ∗ owns (c : Thread nD τ) arg8 fullShare (k2_pay6 x0 x1 x2 x3 xs0)
            ∗ owns (c : Thread nD τ) arg9 fullShare (k2_pay7 x3 xs1)) -∗ K ⟨⟩))
      ⊢ wp frame (wpE (defs₀ (F := F)) Variants.none c none) E (cc2__pool_kernel i arg1 harg1 arg2 harg2 arg3 harg3 arg4 harg4 arg5 harg5 arg6 harg6 arg7 harg7 arg8 harg8 arg9 harg9) K := by
  simp only [cc2__pool_kernel_eq_skeleton]; unfold cc2__pool_kernel_skel
  simp only [k2_part1_eq_skeleton]; unfold k2_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%fs0, %hfs0, HS0⟩, ⟨%fs1, %hfs1, HS1⟩, Hk⟩
  subst hf0; subst hf1; subst hf2; subst hf3; subst hf4; subst hf5; subst hf6; subst hfs0; subst hfs1
  sl_exec (disch := first | exact hc1 | exact hc2)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [HS0]
  · iexists _; isplitr
    swap; · iexact HS0
    ipureintro
    rw [read_writes_head arg8.view _ hz2]
    simp only [readAt_unit (S := S5000x128) _ _ hz2, readAt_unit (S := S5000x1) _ _ hz2, readAt_unit (S := S1x128) _ _ hz2, readAt_unit (S := S64x128) _ _ hz2, readAt_unit (S := S64x1) _ _ hz2, readAt_unit (S := S128x2) _ _ hz2, readAt_unit (S := S1x2) _ _ hz2]
  iexists _; isplitr
  swap; · iexact HS1
  ipureintro
  rw [read_writes_head arg9.view _ hz2]
  simp only [readAt_unit (S := S5000x128) _ _ hz2, readAt_unit (S := S5000x1) _ _ hz2, readAt_unit (S := S1x128) _ _ hz2, readAt_unit (S := S64x128) _ _ hz2, readAt_unit (S := S64x1) _ _ hz2, readAt_unit (S := S128x2) _ _ hz2, readAt_unit (S := S1x2) _ _ hz2]

set_option maxHeartbeats 2000000 in
/-- The last point: the second condition holds, the first does not. After the update of the accumulator and the
    counter both are read back, and the classifier's result over them and the two small inputs is stored over
    whatever the output's buffer held. -/
theorem run2_C (c : Dev nD) (E : Set ℕ) (i : grid2.Coords) (arg1 : Memref sig .tc .vmem S5000x128 .f32) (harg1 : arg1.IsWhole) (arg2 : Memref sig .tc .vmem S5000x1 .f32) (harg2 : arg2.IsWhole) (arg3 : Memref sig .tc .vmem S1x128 .f32) (harg3 : arg3.IsWhole) (arg4 : Memref sig .tc .vmem S5000x1 .i32) (harg4 : arg4.IsWhole) (arg5 : Memref sig .tc .vmem S128x2 .f32) (harg5 : arg5.IsWhole) (arg6 : Memref sig .tc .vmem S1x2 .f32) (harg6 : arg6.IsWhole) (arg7 : Memref sig .tc .vmem S64x2 .f32) (harg7 : arg7.IsWhole) (arg8 : Memref sig .tc .vmem S64x128 .f32) (harg8 : arg8.IsWhole) (arg9 : Memref sig .tc .vmem S64x1 .f32) (harg9 : arg9.IsWhole)
    (hc1 : ¬ k2_cond1 i = 1#1) (hc2 : k2_cond2 i = 1#1)
    (x0 : Vec F S5000x128 .f32) (x1 : Vec F S5000x1 .f32) (x2 : Vec F S1x128 .f32) (x3 : Vec F S5000x1 .i32) (x4 : Vec F S128x2 .f32) (x5 : Vec F S1x2 .f32) (xs0 : Vec F S64x128 .f32) (xs1 : Vec F S64x1 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5
        ∗ (∃ d, owns (c : Thread nD τ) arg7 fullShare d) ∗ owns (c : Thread nD τ) arg8 fullShare xs0 ∗ owns (c : Thread nD τ) arg9 fullShare xs1
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5
            ∗ owns (c : Thread nD τ) arg7 fullShare (k2_pay1 (k2_pay6 x0 x1 x2 x3 xs0) (k2_pay7 x3 xs1) x4 x5)
            ∗ owns (c : Thread nD τ) arg8 fullShare (k2_pay6 x0 x1 x2 x3 xs0)
            ∗ owns (c : Thread nD τ) arg9 fullShare (k2_pay7 x3 xs1)) -∗ K ⟨⟩))
      ⊢ wp frame (wpE (defs₀ (F := F)) Variants.none c none) E (cc2__pool_kernel i arg1 harg1 arg2 harg2 arg3 harg3 arg4 harg4 arg5 harg5 arg6 harg6 arg7 harg7 arg8 harg8 arg9 harg9) K := by
  simp only [cc2__pool_kernel_eq_skeleton]; unfold cc2__pool_kernel_skel
  simp only [k2_part1_eq_skeleton]; unfold k2_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%fs0, %hfs0, HS0⟩, ⟨%fs1, %hfs1, HS1⟩, Hk⟩
  subst hf0; subst hf1; subst hf2; subst hf3; subst hf4; subst hf5; subst hfs0; subst hfs1
  sl_exec (disch := first | exact hc1 | exact hc2)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr
    swap; · iexact H6
    ipureintro
    rw [read_writes_head arg7.view _ hz2]
    sl_unfold_words
    simp only [readAt_unit (S := S5000x128) _ _ hz2, readAt_unit (S := S5000x1) _ _ hz2, readAt_unit (S := S1x128) _ _ hz2, readAt_unit (S := S64x128) _ _ hz2, readAt_unit (S := S64x1) _ _ hz2, readAt_unit (S := S128x2) _ _ hz2, readAt_unit (S := S1x2) _ _ hz2, View.readCov_unit_zero (S := S64x128) _ hz2, View.readCov_unit_zero (S := S64x1) _ hz2]
  isplitl [HS0]
  · iexists _; isplitr
    swap; · iexact HS0
    ipureintro
    sl_unfold_words
    rw [read_writes_head arg8.view _ hz2]
    simp only [readAt_unit (S := S5000x128) _ _ hz2, readAt_unit (S := S5000x1) _ _ hz2, readAt_unit (S := S1x128) _ _ hz2, readAt_unit (S := S64x128) _ _ hz2, readAt_unit (S := S64x1) _ _ hz2, readAt_unit (S := S128x2) _ _ hz2, readAt_unit (S := S1x2) _ _ hz2]
  iexists _; isplitr
  swap; · iexact HS1
  ipureintro
  sl_unfold_words
  rw [read_writes_head arg9.view _ hz2]
  simp only [readAt_unit (S := S5000x128) _ _ hz2, readAt_unit (S := S5000x1) _ _ hz2, readAt_unit (S := S1x128) _ _ hz2, readAt_unit (S := S64x128) _ _ hz2, readAt_unit (S := S64x1) _ _ hz2, readAt_unit (S := S128x2) _ _ hz2, readAt_unit (S := S1x2) _ _ hz2]

/-! ## The accumulator and the counter after a point, by whether it is the first -/

theorem carry2_first (c : Dev nD) (t : Fin cfg2.N) (hz : t.val = 0) :
    carry2 V c t.val t.isLt = (k2_pay6 (iblk2 V c 0 t) (iblk2 V c 1 t) (iblk2 V c 2 t) (iblk2 V c 3 t) (k2_pay2 (F := F)),
      k2_pay7 (iblk2 V c 3 t) (k2_pay3 (F := F))) := by
  obtain ⟨n, hn⟩ := t
  cases n with
  | zero => rfl
  | succ n => exact absurd hz (Nat.succ_ne_zero n)

theorem carry2_later (c : Dev nD) (t : Fin cfg2.N) (hz : t.val ≠ 0) :
    carry2 V c t.val t.isLt = (k2_pay6 (iblk2 V c 0 t) (iblk2 V c 1 t) (iblk2 V c 2 t) (iblk2 V c 3 t) (carry2 V c (t.val - 1) (Nat.lt_of_le_of_lt (Nat.sub_le _ _) t.isLt)).1,
      k2_pay7 (iblk2 V c 3 t) (carry2 V c (t.val - 1) (Nat.lt_of_le_of_lt (Nat.sub_le _ _) t.isLt)).2) := by
  obtain ⟨n, hn⟩ := t
  cases n with
  | zero => exact absurd rfl hz
  | succ n => rfl

/-! ## The launch's invariant with the two scratch buffers as memrefs -/

theorem sepA {M : Type} [URA M] (P Q R : sProp M) : iprop((P ∗ Q) ∗ R) = iprop(P ∗ Q ∗ R) := by
  have h₁ : iprop((P ∗ Q) ∗ R) ⊢ iprop(P ∗ Q ∗ R) := by
    iintro ⟨⟨HP, HQ⟩, HR⟩
    isplitl [HP]; · iexact HP
    isplitl [HQ]; · iexact HQ
    iexact HR
  have h₂ : iprop(P ∗ Q ∗ R) ⊢ iprop((P ∗ Q) ∗ R) := by
    iintro ⟨HP, HQ, HR⟩
    isplitl [HP HQ]
    · isplitl [HP]; · iexact HP
      iexact HQ
    iexact HR
  exact BI.equiv_iff.mp ⟨h₁, h₂⟩

/-- What the launch hands over: the other kernels' buffers, the two scratch buffers owned whole at some contents,
    and the generator register. -/
theorem PhiA2_eq (c : Dev nD) :
    (Pipeline.ΦA spec2 c : sProp 𝕄)
      = iprop(others2 (F := F) c ∗ (∃ d, owns (c : Thread nD τ) scM2_0 fullShare d) ∗ (∃ d, owns (c : Thread nD τ) scM2_1 fullShare d) ∗ (∃ r, prngReg c r)) := by
  unfold Pipeline.ΦA; rw [scopedRest2_eq]; unfold others2; simp only [scM2_0, scM2_1, owns_whole]
  simp only [sepA]
  rfl

/-! ## The body obligation, at a generic point -/

/-- What the body is called with at point t, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d))
    ∗ (∃ d, owns (c : Thread nD τ) (st2_6 t) fullShare ((dat2 V c).before 6 t d)))

/-- and what it returns. -/
def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t
    ∗ (dat2 V c).leavesExact 3 t
    ∗ (dat2 V c).leavesExact 4 t
    ∗ (dat2 V c).leavesExact 5 t
    ∗ (dat2 V c).leavesExact 6 t)

set_option maxHeartbeats 4800000 in
/-- The body at any point: the inputs' memrefs hold their blocks; the closed forms of the two conditions say which
    of the three cases the point is in, and that case's triple applies. At the first point the invariant hands
    the two scratch buffers over at anything; later at what the point before left; it takes them back at this
    point's accumulator and counter. The output's buffer is handed back untouched at the middle points. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4, before2_5]
  rw [show (dat2 V c).owesAt () t.succ = (dat2 V c).owesAt () t.castSucc from rfl]
  rw [show (dat2 V c).Φ t.succ = PhiS2 V c (t.val + 1) t.isLt from rfl, PhiS2_succ]
  have hN : t.val < 20 := lt_of_lt_of_eq t.isLt (show cfg2.N = 20 from N_2)
  rw [show (dat2 V c).leavesExact 0 t = owns (c : Thread nD τ) (st2_0 t) fullShare ((dat2 V c).after 0 t) from by
    unfold Dat.leavesExact; rw [liveAt2_0 t], after2_0]
  rw [show (dat2 V c).leavesExact 1 t = owns (c : Thread nD τ) (st2_1 t) fullShare ((dat2 V c).after 1 t) from by
    unfold Dat.leavesExact; rw [liveAt2_1 t], after2_1]
  rw [show (dat2 V c).leavesExact 2 t = owns (c : Thread nD τ) (st2_2 t) fullShare ((dat2 V c).after 2 t) from by
    unfold Dat.leavesExact; rw [liveAt2_2 t], after2_2]
  rw [show (dat2 V c).leavesExact 3 t = owns (c : Thread nD τ) (st2_3 t) fullShare ((dat2 V c).after 3 t) from by
    unfold Dat.leavesExact; rw [liveAt2_3 t], after2_3]
  rw [show (dat2 V c).leavesExact 4 t = owns (c : Thread nD τ) (st2_4 t) fullShare ((dat2 V c).after 4 t) from by
    unfold Dat.leavesExact; rw [liveAt2_4 t], after2_4]
  rw [show (dat2 V c).leavesExact 5 t = owns (c : Thread nD τ) (st2_5 t) fullShare ((dat2 V c).after 5 t) from by
    unfold Dat.leavesExact; rw [liveAt2_5 t], after2_5]
  by_cases h0 : t.val % 20 = 0
  · have hz : t.val = 0 := by omega
    have hc1 : k2_cond1 (grid2.coords t) = 1#1 := (hcond2_1 t).mpr h0
    have hc2 : ¬ k2_cond2 (grid2.coords t) = 1#1 := fun h => by have := (hcond2_2 t).mp h; omega
    rw [show (dat2 V c).leavesExact 6 t = owns (c : Thread nD τ) (st2_6 t) fullShare ((dat2 V c).after 6 t) from by
      unfold Dat.leavesExact; rw [liveAt2_6_A t hc1 hc2], after2_6]
    rw [show outAt2 V c t = k2_pay4 (F := F) from by unfold outAt2; rw [if_neg (by omega)]]
    rw [carry2_first V c t hz]; dsimp only
    rw [PhiS2_castSucc V c t, PhiS2_zero V c _ _ hz, PhiA2_eq]
    iintro ⟨⟨Hoth, HS0, HS1, Hg⟩, Ho, ⟨%d0, H0⟩, ⟨%d1, H1⟩, ⟨%d2, H2⟩, ⟨%d3, H3⟩, ⟨%d4, H4⟩, ⟨%d5, H5⟩, ⟨%d6, H6⟩⟩
    iapply (run2_A c Set.univ (grid2.coords t) _ _ _ _ _ _ _ _ _ _ _ _ _ _ _ _ _ _ hc1 hc2 (iblk2 V c 0 t) (iblk2 V c 1 t) (iblk2 V c 2 t) (iblk2 V c 3 t) (iblk2 V c 4 t) (iblk2 V c 5 t) _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [HS0]; · iexact HS0
    isplitl [HS1]; · iexact HS1
    iintro ⟨H0, H1, H2, H3, H4, H5, H6, HS0, HS1⟩
    isplitl [Hoth HS0 HS1 Hg]
    · isplitl [Hoth]; · iexact Hoth
      isplitl [HS0]; · iexact HS0
      isplitl [HS1]; · iexact HS1
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexact H6
  · have hz : t.val ≠ 0 := by omega
    have hc1 : ¬ k2_cond1 (grid2.coords t) = 1#1 := fun h => h0 ((hcond2_1 t).mp h)
    by_cases h1 : t.val % 20 = 19
    · have hc2 : k2_cond2 (grid2.coords t) = 1#1 := (hcond2_2 t).mpr h1
      rw [show (dat2 V c).leavesExact 6 t = owns (c : Thread nD τ) (st2_6 t) fullShare ((dat2 V c).after 6 t) from by
        unfold Dat.leavesExact; rw [liveAt2_6_C t hc1 hc2], after2_6]
      rw [show outAt2 V c t = k2_pay1 (carry2 V c t.val t.isLt).1 (carry2 V c t.val t.isLt).2 (iblk2 V c 4 t) (iblk2 V c 5 t) from by
        unfold outAt2; rw [if_pos (by omega)]]
      rw [carry2_later V c t hz]; dsimp only
      rw [PhiS2_castSucc V c t, PhiS2_pos V c _ _ hz]
      iintro ⟨⟨Hoth, HS0, HS1, Hg⟩, Ho, ⟨%d0, H0⟩, ⟨%d1, H1⟩, ⟨%d2, H2⟩, ⟨%d3, H3⟩, ⟨%d4, H4⟩, ⟨%d5, H5⟩, ⟨%d6, H6⟩⟩
      iapply (run2_C c Set.univ (grid2.coords t) _ _ _ _ _ _ _ _ _ _ _ _ _ _ _ _ _ _ hc1 hc2 (iblk2 V c 0 t) (iblk2 V c 1 t) (iblk2 V c 2 t) (iblk2 V c 3 t) (iblk2 V c 4 t) (iblk2 V c 5 t)
        (carry2 V c (t.val - 1) (Nat.lt_of_le_of_lt (Nat.sub_le _ _) t.isLt)).1 (carry2 V c (t.val - 1) (Nat.lt_of_le_of_lt (Nat.sub_le _ _) t.isLt)).2 _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [HS0]; · iexact HS0
      isplitl [HS1]; · iexact HS1
      iintro ⟨H0, H1, H2, H3, H4, H5, H6, HS0, HS1⟩
      isplitl [Hoth HS0 HS1 Hg]
      · isplitl [Hoth]; · iexact Hoth
        isplitl [HS0]; · iexact HS0
        isplitl [HS1]; · iexact HS1
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexact H6
    · have hc2 : ¬ k2_cond2 (grid2.coords t) = 1#1 := fun h => h1 ((hcond2_2 t).mp h)
      rw [Dat.leavesExact_idle (dat2 V c) 6 t (idleAt2_6_B t hc1 hc2) (noFlush2_6_B t hc1 hc2)]
      rw [carry2_later V c t hz]; dsimp only
      rw [PhiS2_castSucc V c t, PhiS2_pos V c _ _ hz]
      iintro ⟨⟨Hoth, HS0, HS1, Hg⟩, Ho, ⟨%d0, H0⟩, ⟨%d1, H1⟩, ⟨%d2, H2⟩, ⟨%d3, H3⟩, ⟨%d4, H4⟩, ⟨%d5, H5⟩, ⟨%d6, H6⟩⟩
      iapply (run2_B c Set.univ (grid2.coords t) _ _ _ _ _ _ _ _ _ _ _ _ _ _ _ _ _ _ hc1 hc2 (iblk2 V c 0 t) (iblk2 V c 1 t) (iblk2 V c 2 t) (iblk2 V c 3 t) (iblk2 V c 4 t) (iblk2 V c 5 t) ((dat2 V c).before 6 t d6)
        (carry2 V c (t.val - 1) (Nat.lt_of_le_of_lt (Nat.sub_le _ _) t.isLt)).1 (carry2 V c (t.val - 1) (Nat.lt_of_le_of_lt (Nat.sub_le _ _) t.isLt)).2 _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [HS0]; · iexact HS0
      isplitl [HS1]; · iexact HS1
      iintro ⟨H0, H1, H2, H3, H4, H5, H6, HS0, HS1⟩
      isplitl [Hoth HS0 HS1 Hg]
      · isplitl [Hoth]; · iexact Hoth
        isplitl [HS0]; · iexact HS0
        isplitl [HS1]; · iexact HS1
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexists d6; iexact H6

/-- The body obligation of region 2 at every point. -/
theorem body_obligation2 (c : Dev nD) : BodyObligation (dat2 (F := F) V c) (defs₀ (F := F)) Variants.none () Set.univ := fun t => by
  rw [bigSep_W2, bigSep_W2]
  exact sound_body2 V c t

/-- What the launch hands the region is the invariant before the first point. -/
theorem hin2 (c : Dev nD) : (Pipeline.ΦA spec2 c : sProp 𝕄) ⊢ (dat2 (F := F) V c).Φ 0 := by
  rw [show (dat2 V c).Φ 0 = PhiS2 V c 0 (Nat.zero_le _) from rfl, PhiS2_zero V c 0 _ rfl]
  try exact Idealize.SL.BI.Entails.refl _

/-- After the last point the invariant gives the launch's form back: the scratch contents are forgotten. -/
theorem hout2 (c : Dev nD) : (dat2 (F := F) V c).Φ (Fin.last cfg2.N) ⊢ (Pipeline.ΦA spec2 c : sProp 𝕄) := by
  rw [show (dat2 V c).Φ (Fin.last cfg2.N) = PhiS2 V c (Fin.last cfg2.N).val (Nat.le_of_lt_succ (Fin.last cfg2.N).isLt) from rfl,
    PhiS2_pos V c _ _ (by rw [Fin.val_last]; have : cfg2.N = 20 := N_2; omega), PhiA2_eq]
  iintro ⟨Hoth, HS0, HS1, Hg⟩
  isplitl [Hoth]; · iexact Hoth
  isplitl [HS0]; · iexists _; iexact HS0
  isplitl [HS1]; · iexists _; iexact HS1
  iexact Hg

end Cert.Kernel.Hand

end
-- ==== Proof.K.Run.lean ====
/-
  The whole program's run: host stretches and the three kernel regions in order, from the launch memory to the
  return; every weakly fair execution terminates, the result buffer ends at what the last region's write-backs
  leave and every argument array ends as launched.
-/
import proofs.«406043_j45999099740722_2_alg».proof.Proof.K.Chain
import proofs.«406043_j45999099740722_2_alg».proof.Proof.K.R0Body
import proofs.«406043_j45999099740722_2_alg».proof.Proof.K.R1Body
import proofs.«406043_j45999099740722_2_alg».proof.Proof.K.R2Body
import proofs.«406043_j45999099740722_2_alg».proof.Proof.Gen.Kernel.Regions

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What each stretch and each region leaves alone -/

/-- Through the three first stretches a buffer none of them writes holds its launch contents. -/
theorem W3_of (c : Dev nD) (r : Ref sig .tc) (h0 : r ∉ hostOps0_W) (h1 : r ∉ hostOps0_1_W) (h2 : r ∉ hostOps0_2_W) :
    W3 m c (Proc.devRef .tc r) = m ((c : Thread nD τ).loc r) :=
  (V3_of m c r h2).trans <| (V2_of m c r h1).trans <| (V1_of m c r h0).trans rfl
/-- The stretch between regions 0 and 1 keeps a buffer it does not write. -/
theorem W5_of (c : Dev nD) (r : Ref sig .tc) (h : r ∉ hostOps1_W) : W5 m c (Proc.devRef .tc r) = W4 m c (Proc.devRef .tc r) :=
  StableHlo.after_of_writes_sub hostOps1 _ hostOps1_writes h
/-- The stretch between regions 1 and 2 keeps a buffer it does not write. -/
theorem W7_of (c : Dev nD) (r : Ref sig .tc) (h : r ∉ hostOps2_W) : W7 m c (Proc.devRef .tc r) = W6 m c (Proc.devRef .tc r) :=
  StableHlo.after_of_writes_sub hostOps2 _ hostOps2_writes h
/-- A region's input window's array is never written back: it leaves the region as it entered. -/
theorem W4_in (c : Dev nD) (w : Fin cfg0.W) (hin : (cfg0.win w).isOut = false) :
    W4 m c (Proc.devRef .tc (Pipeline.arrRef spec0 w)) = W3 m c (Proc.devRef .tc (Pipeline.arrRef spec0 w)) :=
  (W4_arr m c w).trans (((dat0 (VE0 m) c).arrAt_in w hin _).trans (A_eq0 (VE0 m) c w))
theorem W6_in (c : Dev nD) (w : Fin cfg1.W) (hin : (cfg1.win w).isOut = false) :
    W6 m c (Proc.devRef .tc (Pipeline.arrRef spec1 w)) = W5 m c (Proc.devRef .tc (Pipeline.arrRef spec1 w)) :=
  (W6_arr m c w).trans (((dat1 (VE1 m) c).arrAt_in w hin _).trans (A_eq1 (VE1 m) c w))
theorem W8_in (c : Dev nD) (w : Fin cfg2.W) (hin : (cfg2.win w).isOut = false) :
    W8 m c (Proc.devRef .tc (Pipeline.arrRef spec2 w)) = W7 m c (Proc.devRef .tc (Pipeline.arrRef spec2 w)) :=
  (W8_arr m c w).trans (((dat2 (VE2 m) c).arrAt_in w hin _).trans (A_eq2 (VE2 m) c w))

/-! ## The arguments end as launched: no stretch writes one; a region reads it through an input window or not at all -/

theorem W8_main_arg0 (c : Dev nD) : W8 m c (Proc.devRef .tc main_arg0) = m ((c : Thread nD τ).loc main_arg0) :=
  (W8_of_ne m c main_arg0 (by decide)).trans <| (W7_of m c main_arg0 (by decide)).trans <| (W6_of_ne m c main_arg0 (by decide)).trans <|
    (W5_of m c main_arg0 (by decide)).trans <| (W4_in m c 0 rfl).trans <| W3_of m c main_arg0 (by decide) (by decide) (by decide)
theorem W8_main_arg1 (c : Dev nD) : W8 m c (Proc.devRef .tc main_arg1) = m ((c : Thread nD τ).loc main_arg1) :=
  (W8_of_ne m c main_arg1 (by decide)).trans <| (W7_of m c main_arg1 (by decide)).trans <| (W6_of_ne m c main_arg1 (by decide)).trans <|
    (W5_of m c main_arg1 (by decide)).trans <| (W4_in m c 1 rfl).trans <| W3_of m c main_arg1 (by decide) (by decide) (by decide)
theorem W8_main_arg2 (c : Dev nD) : W8 m c (Proc.devRef .tc main_arg2) = m ((c : Thread nD τ).loc main_arg2) :=
  (W8_of_ne m c main_arg2 (by decide)).trans <| (W7_of m c main_arg2 (by decide)).trans <| (W6_of_ne m c main_arg2 (by decide)).trans <|
    (W5_of m c main_arg2 (by decide)).trans <| (W4_of_ne m c main_arg2 (by decide)).trans <| W3_of m c main_arg2 (by decide) (by decide) (by decide)
theorem W8_main_arg3 (c : Dev nD) : W8 m c (Proc.devRef .tc main_arg3) = m ((c : Thread nD τ).loc main_arg3) :=
  (W8_of_ne m c main_arg3 (by decide)).trans <| (W7_of m c main_arg3 (by decide)).trans <| (W6_in m c 3 rfl).trans <|
    (W5_of m c main_arg3 (by decide)).trans <| (W4_of_ne m c main_arg3 (by decide)).trans <| W3_of m c main_arg3 (by decide) (by decide) (by decide)
theorem W8_main_arg4 (c : Dev nD) : W8 m c (Proc.devRef .tc main_arg4) = m ((c : Thread nD τ).loc main_arg4) :=
  (W8_of_ne m c main_arg4 (by decide)).trans <| (W7_of m c main_arg4 (by decide)).trans <| (W6_of_ne m c main_arg4 (by decide)).trans <|
    (W5_of m c main_arg4 (by decide)).trans <| (W4_of_ne m c main_arg4 (by decide)).trans <| W3_of m c main_arg4 (by decide) (by decide) (by decide)
theorem W8_main_arg5 (c : Dev nD) : W8 m c (Proc.devRef .tc main_arg5) = m ((c : Thread nD τ).loc main_arg5) :=
  (W8_in m c 4 rfl).trans <| (W7_of m c main_arg5 (by decide)).trans <| (W6_of_ne m c main_arg5 (by decide)).trans <|
    (W5_of m c main_arg5 (by decide)).trans <| (W4_of_ne m c main_arg5 (by decide)).trans <| W3_of m c main_arg5 (by decide) (by decide) (by decide)
theorem W8_main_arg6 (c : Dev nD) : W8 m c (Proc.devRef .tc main_arg6) = m ((c : Thread nD τ).loc main_arg6) :=
  (W8_of_ne m c main_arg6 (by decide)).trans <| (W7_of m c main_arg6 (by decide)).trans <| (W6_of_ne m c main_arg6 (by decide)).trans <|
    (W5_of m c main_arg6 (by decide)).trans <| (W4_of_ne m c main_arg6 (by decide)).trans <| W3_of m c main_arg6 (by decide) (by decide) (by decide)
theorem W8_main_arg7 (c : Dev nD) : W8 m c (Proc.devRef .tc main_arg7) = m ((c : Thread nD τ).loc main_arg7) :=
  (W8_of_ne m c main_arg7 (by decide)).trans <| (W7_of m c main_arg7 (by decide)).trans <| (W6_of_ne m c main_arg7 (by decide)).trans <|
    (W5_of m c main_arg7 (by decide)).trans <| (W4_of_ne m c main_arg7 (by decide)).trans <| W3_of m c main_arg7 (by decide) (by decide) (by decide)
theorem W8_main_arg8 (c : Dev nD) : W8 m c (Proc.devRef .tc main_arg8) = m ((c : Thread nD τ).loc main_arg8) :=
  (W8_of_ne m c main_arg8 (by decide)).trans <| (W7_of m c main_arg8 (by decide)).trans <| (W6_of_ne m c main_arg8 (by decide)).trans <|
    (W5_of m c main_arg8 (by decide)).trans <| (W4_of_ne m c main_arg8 (by decide)).trans <| W3_of m c main_arg8 (by decide) (by decide) (by decide)

/-! ## The exit contents of each region, read at the TensorCore's references -/

abbrev VX0 : (c : Dev nD) → (b : Ref sig .tc) → Buf (Elt F) ((c : Thread nD τ).loc b) := fun c b => W4 m c b
abbrev VX1 : (c : Dev nD) → (b : Ref sig .tc) → Buf (Elt F) ((c : Thread nD τ).loc b) := fun c b => W6 m c b
abbrev VX2 : (c : Dev nD) → (b : Ref sig .tc) → Buf (Elt F) ((c : Thread nD τ).loc b) := fun c b => W8 m c b

/-- At a region's exit each of its arrays holds what the pipeline leaves and every other buffer what it held at entry. -/
theorem hF0 (c : Dev nD) (w : Fin cfg0.W) : (dat0 (VE0 m) c).arrAt w cfg0.N = VX0 m c (Pipeline.arrRef spec0 w) :=
  (W4_arr m c w).symm
theorem hrest0 (c : Dev nD) : ∀ b, b ∉ Finset.univ.image (Pipeline.arrRef spec0) → VX0 m c b = VE0 m c b :=
  fun b hb => W4_of_ne m c b fun w e => hb (Finset.mem_image.mpr ⟨w, Finset.mem_univ _, e⟩)
theorem hF1 (c : Dev nD) (w : Fin cfg1.W) : (dat1 (VE1 m) c).arrAt w cfg1.N = VX1 m c (Pipeline.arrRef spec1 w) :=
  (W6_arr m c w).symm
theorem hrest1 (c : Dev nD) : ∀ b, b ∉ Finset.univ.image (Pipeline.arrRef spec1) → VX1 m c b = VE1 m c b :=
  fun b hb => W6_of_ne m c b fun w e => hb (Finset.mem_image.mpr ⟨w, Finset.mem_univ _, e⟩)
theorem hF2 (c : Dev nD) (w : Fin cfg2.W) : (dat2 (VE2 m) c).arrAt w cfg2.N = VX2 m c (Pipeline.arrRef spec2 w) :=
  (W8_arr m c w).symm
theorem hrest2 (c : Dev nD) : ∀ b, b ∉ Finset.univ.image (Pipeline.arrRef spec2) → VX2 m c b = VE2 m c b :=
  fun b hb => W8_of_ne m c b fun w e => hb (Finset.mem_image.mpr ⟨w, Finset.mem_univ _, e⟩)

/-! ## The proof data family and the thread state -/

/-- Every pipeline's proof data, each at its region's entry contents. -/
def pdats : (p : Fin 3) → (c : Dev nD) → Dat τ (Elt F) Unit ℕ (UR sig nD τ) ℕ (Pipeline.pin (pcfgs (F := F)) adm p) c
  | ⟨0, _⟩ => fun c => dat0 (VE0 m) c
  | ⟨1, _⟩ => fun c => dat1 (VE1 m) c
  | ⟨2, _⟩ => fun c => dat2 (VE2 m) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state and what the
    core owes, which is nothing. -/
abbrev R (c : Dev nD) : sProp 𝕄 := iprop((∃ r, prngReg c r) ∗ ∃ W, owes (c : Thread nD τ) (0 : CellTallies nD τ sig Unit) W)
/-- A stretch of host operations as a segment: over the unscoped references from the contents W, R riding along; it
    ends with those references at the contents after the stretch. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without what the core owes: every unscoped buffer at the last contents, the generator
    register at some state. -/
abbrev Tₙ (c : Dev nD) : sProp 𝕄 := iprop(StableHlo.held (c : Thread nD τ) (Pipeline.ucRefs τ sig) (W8 m c) ∗ ∃ r, prngReg c r)

/-- The generator register and the scoped buffers no window stages are region 2's class invariant, whatever rides between. -/
theorem phiA_in2 (c : Dev nD) (P : sProp 𝕄) :
    iprop((∃ r, prngReg c r) ∗ P ∗ Pipeline.scopedRest (Ix := Unit) (Name := ℕ) (U := UR sig nD τ) (Lvl := ℕ) (Val := Elt F) spec2 c)
      ⊢ (Pipeline.ΦA spec2 c : sProp 𝕄) := by
  unfold Pipeline.ΦA
  iintro ⟨Hp, -, Hr⟩
  isplitl [Hr]; · iexact Hr
  iexact Hp
/-- and back. -/
theorem phiA_out2 (c : Dev nD) :
    (Pipeline.ΦA spec2 c : sProp 𝕄)
      ⊢ iprop((∃ r, prngReg c r) ∗ BI.emp ∗ Pipeline.scopedRest (Ix := Unit) (Name := ℕ) (U := UR sig nD τ) (Lvl := ℕ) (Val := Elt F) spec2 c) := by
  unfold Pipeline.ΦA
  iintro ⟨Hr, Hp⟩
  isplitl [Hp]; · iexact Hp
  isplitr; · iempintro
  iexact Hr
/-- The last region's exit state, regrouped: the buffers and the register on one side, what the core owes on the other. -/
theorem post_last (c : Dev nD) :
    (iprop(StableHlo.held (c : Thread nD τ) (Pipeline.ucRefs τ sig) (W8 m c) ∗ R c) : sProp 𝕄)
      ⊢ iprop(Tₙ m c ∗ ∃ W, owes (c : Thread nD τ) (0 : CellTallies nD τ sig Unit) W) := by
  iintro ⟨Hh, Hp, HO⟩
  isplitl [Hh Hp]
  · isplitl [Hh] <;> iassumption
  iexact HO

/-! ## The regions as segments -/

set_option backward.isDefEq.respectTransparency.types false in
/-- Region 0 over the thread state: entered from every unscoped buffer at the contents before it, left with its
    arrays at what the write-backs leave and every other buffer as entered. Its arrays are split out of the
    unscoped buffers and put back at the exit contents; the generator register goes into the invariant and comes
    back; nothing is owed; the kernel has no semaphore of its own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (VE0 m) c).loose
  hwaits := Pipeline.hwaits_of_owed_zero _ _ _ _ L lv 0 fun _ _ => rfl
  pre c := iprop(StableHlo.held (c : Thread nD τ) (Pipeline.ucRefs τ sig) (W3 m c) ∗ R c)
  post c := iprop(StableHlo.held (c : Thread nD τ) (Pipeline.ucRefs τ sig) (W4 m c) ∗ R c)
  X c := iprop(∃ r, prngReg c r)
  Y c := iprop(∃ r, prngReg c r)
  Z c := Pipeline.unscopedRest (Ix := Unit) (Name := ℕ) (U := UR sig nD τ) (Lvl := ℕ) spec0 c (VE0 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (VE0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (VE0 m c) (VX0 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from every unscoped buffer at the contents before it, left with its
    arrays at what the write-backs leave and every other buffer as entered. Its arrays are split out of the
    unscoped buffers and put back at the exit contents; the generator register goes into the invariant and comes
    back; nothing is owed; the kernel has no semaphore of its own. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (VE1 m) c).loose
  hwaits := Pipeline.hwaits_of_owed_zero _ _ _ _ L lv 1 fun _ _ => rfl
  pre c := iprop(StableHlo.held (c : Thread nD τ) (Pipeline.ucRefs τ sig) (W5 m c) ∗ R c)
  post c := iprop(StableHlo.held (c : Thread nD τ) (Pipeline.ucRefs τ sig) (W6 m c) ∗ R c)
  X c := iprop(∃ r, prngReg c r)
  Y c := iprop(∃ r, prngReg c r)
  Z c := Pipeline.unscopedRest (Ix := Unit) (Name := ℕ) (U := UR sig nD τ) (Lvl := ℕ) spec1 c (VE1 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (VE1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (VE1 m c) (VX1 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 over the thread state: entered from every unscoped buffer at the contents before it, left with its
    arrays at what the write-backs leave and every other buffer as entered. Its arrays are split out of the
    unscoped buffers and put back at the exit contents; the generator register goes into the invariant and comes
    back; nothing is owed; the kernel has no semaphore of its own. -/
def reg2 : Pipeline.RegionSeg (pcfgs (F := F)) adm (pdats m) () defs₀ 𝒱₀ L lv 2 where
  win := launch2.win.to₀
  block_pos := launch2.block_pos
  stage_whole := launch2.stage_whole
  K := PEmpty
  osem k := k.elim
  ho := Pipeline.OwnSemFacts.none _
  hbody c := (body_obligation2 (VE2 m) c).loose
  hwaits := Pipeline.hwaits_of_owed_zero _ _ _ _ L lv 2 fun _ _ => rfl
  pre c := iprop(StableHlo.held (c : Thread nD τ) (Pipeline.ucRefs τ sig) (W7 m c) ∗ R c)
  post c := iprop(StableHlo.held (c : Thread nD τ) (Pipeline.ucRefs τ sig) (W8 m c) ∗ R c)
  X c := iprop(∃ r, prngReg c r)
  Y c := iprop(∃ r, prngReg c r)
  Z c := Pipeline.unscopedRest (Ix := Unit) (Name := ℕ) (U := UR sig nD τ) (Lvl := ℕ) spec2 c (VE2 m c)
  hentry c := by
    rw [Pipeline.ownSems0_none]
    have hsplit := Pipeline.arrays_of_unscopedBufs (p := 2) (pcfgs (F := F)) adm (pdats m) launch2.win launch2.arr_whole c
      ((pdats m 2 c).share_full fun _ => rfl) (VE2 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = (dat2 (VE2 m) c).Φ 0 from rfl]
    exact (phiA_in2 c _).trans (hin2 (VE2 m) c)
  hout c := by
    rw [Pipeline.ownSems0_none, show (pdats m 2 c).Φ (Fin.last _) = (dat2 (VE2 m) c).Φ (Fin.last cfg2.N) from rfl]
    exact (hout2 (VE2 m) c).trans (phiA_out2 c)
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (VE2 m c) (VX2 m c) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The program as segments, and the launch -/

/-- The eight segments in order. -/
abbrev segsW : List (Pipeline.Seg (pcfgs (F := F)) adm (pdats m) () defs₀ 𝒱₀ L lv) :=
  [ .host (hseg hostOps0 hostOps0_sub hostOps0_fresh (W0 m)),
    .host (hseg hostOps0_1 hostOps0_1_sub hostOps0_1_fresh (W1 m)),
    .host (hseg hostOps0_2 hostOps0_2_sub hostOps0_2_fresh (W2 m)),
    .region (reg0 m),
    .host (hseg hostOps1 hostOps1_sub hostOps1_fresh (W4 m)),
    .region (reg1 m),
    .host (hseg hostOps2 hostOps2_sub hostOps2_fresh (W6 m)),
    .region (reg2 m) ]

/-- The program is the run of the segments: it is the chain of its items, and the segments' run is the chain of
    their fragments, which are those items. -/
theorem main_run (c : Dev nD) : main (F := F) c = Pipeline.Seg.run (segsW m) := by
  rw [main_chain c, Pipeline.Seg.run_eq_chain]
  exact congrArg Pipeline.chain (show _ = (segsW m).map Pipeline.Seg.prog from rfl)

set_option backward.isDefEq.respectTransparency.types false in
/-- THE RUN. -/
theorem run_main : θ_run defs (onTc (τ := τ) (main (F := F))) ⟨m, fun _ => 0, ρ⟩ (fun r => ∀ c : Dev nD,
      r.2.mem ((c.tc : Thread nD τ).loc main_v42) = W8 m c (Proc.devRef .tc main_v42)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  Pipeline.θ_run_regions_kit (pcfgs (F := F)) adm (pdats m) () cellOf_inj emb₁ defs₀ 𝒱₀ L lv m ρ main (segsW m)
    (fun c Q => by rw [main_run m c])
    (by simp only [segsW, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl, fun _ => .rfl, fun _ => .rfl, fun _ => .rfl,
      fun c => post_last m c⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m c b)
    (hfin := fun c s' => by
      iintro ⟨⟨Hh, -⟩, HSI⟩
      unfold StableHlo.held
      imodintro
      iapply (pointsTo_read_all (Pipeline.ucRefs τ sig) (fun b => (((c : Thread nD τ)).1, b)) (W8 m c) s')
      isplitl [Hh] <;> iassumption)
    (hQ := fun s h c =>
      ⟨h c _ (mem_uc main_v42 (by decide)),
        (h c _ (mem_uc main_arg0 (by decide))).trans (W8_main_arg0 m c),
        (h c _ (mem_uc main_arg1 (by decide))).trans (W8_main_arg1 m c),
        (h c _ (mem_uc main_arg2 (by decide))).trans (W8_main_arg2 m c),
        (h c _ (mem_uc main_arg3 (by decide))).trans (W8_main_arg3 m c),
        (h c _ (mem_uc main_arg4 (by decide))).trans (W8_main_arg4 m c),
        (h c _ (mem_uc main_arg5 (by decide))).trans (W8_main_arg5 m c),
        (h c _ (mem_uc main_arg6 (by decide))).trans (W8_main_arg6 m c),
        (h c _ (mem_uc main_arg7 (by decide))).trans (W8_main_arg7 m c),
        (h c _ (mem_uc main_arg8 (by decide))).trans (W8_main_arg8 m c)⟩)

end Cert.Kernel.Hand

end
-- ==== Proof.KI.R0Def.lean ====
/-
  Region 0 (the first linear layer's kernel: rows of x times W1, each row scaled by its normalisation
  factor): what each grid point reads and what it leaves, as data for the pipeline's launch.
  A point handles 5000 consecutive rows: it reads its rows of x, all of W1 and its rows of the
  factor column, and stores one 5000 x 128 block.
-/
import proofs.«406043_j45999099740722_2_alg».proof.Proof.Gen.KernelIdeal.Launch
import proofs.«406043_j45999099740722_2_alg».proof.Proof.Gen.KernelIdeal.Skeleton
import proofs.«406043_j45999099740722_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at point t, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The whole-block rectangle of the output's staging buffer. -/
abbrev r0_out : Rect S5000x128 := Rect.unit (s := S5000x128) ![0, 0] S5000x128.size inb_S5000x128_S5000x128_0_0
abbrev r0_x : Rect S5000x64 := Rect.unit (s := S5000x64) ![0, 0] S5000x64.size inb_S5000x64_S5000x64_0_0
abbrev r0_w : Rect S64x128 := Rect.unit (s := S64x128) ![0, 0] S64x128.size inb_S64x128_S64x128_0_0
abbrev r0_d : Rect S5000x1 := Rect.unit (s := S5000x1) ![0, 0] S5000x1.size inb_S5000x1_S5000x1_0_0

/-- What the body leaves in the output's staging buffer, from the three input blocks: one whole-block store. -/
def out0_3 (x0 : Vec F S5000x64 .f32) (x1 : Vec F S64x128 .f32) (x2 : Vec F S5000x1 .f32) : Vec F S5000x128 .f32 :=
  View.canon [⟨r0_out, k0_pay1 (View.ld x0 r0_x) (View.ld x1 r0_w) (View.ld x2 r0_d)⟩]

/-- The pipeline's proof data for region 0 on core c at entry contents V. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) :
    (dat0 V c).after 3 t = out0_3 (iblk0 V c 0 t) (iblk0 V c 1 t) (iblk0 V c 2 t) := by dsimp only [dat0]

end Cert.KernelIdeal.Hand

end
-- ==== Proof.KI.R1Def.lean ====
/-
  Region 1 (the second layer's kernel): a point takes 5000 rows of the first layer's aggregated sums,
  scales each row by its normalisation factor, adds the bias row, clamps at zero, multiplies by W2 and scales
  each row by the factor again; it stores one 5000 x 128 block.
-/
import proofs.«406043_j45999099740722_2_alg».proof.Proof.Gen.KernelIdeal.Launch
import proofs.«406043_j45999099740722_2_alg».proof.Proof.Gen.KernelIdeal.Skeleton
import proofs.«406043_j45999099740722_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at point t, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

abbrev r1_a : Rect S5000x128 := Rect.unit (s := S5000x128) ![0, 0] S5000x128.size inb_S5000x128_S5000x128_0_0
abbrev r1_d : Rect S5000x1 := Rect.unit (s := S5000x1) ![0, 0] S5000x1.size inb_S5000x1_S5000x1_0_0
abbrev r1_b : Rect S1x128 := Rect.unit (s := S1x128) ![0, 0] S1x128.size inb_S1x128_S1x128_0_0
abbrev r1_w : Rect S128x128 := Rect.unit (s := S128x128) ![0, 0] S128x128.size inb_S128x128_S128x128_0_0

/-- What the body leaves in the output's staging buffer, from the four input blocks: one whole-block store
    (the factor column is loaded twice; both loads read the same block). -/
def out1_4 (x0 : Vec F S5000x128 .f32) (x1 : Vec F S5000x1 .f32) (x2 : Vec F S1x128 .f32) (x3 : Vec F S128x128 .f32) : Vec F S5000x128 .f32 :=
  View.canon [⟨r1_a, k1_pay1 (View.ld x0 r1_a) (View.ld x1 r1_d) (View.ld x2 r1_b) (View.ld x3 r1_w) (View.ld x1 r1_d)⟩]

/-- The pipeline's proof data for region 1 on core c at entry contents V. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => out1_4 (iblk1 V c 0 t) (iblk1 V c 1 t) (iblk1 V c 2 t) (iblk1 V c 3 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) :
    (dat1 V c).after 4 t = out1_4 (iblk1 V c 0 t) (iblk1 V c 1 t) (iblk1 V c 2 t) (iblk1 V c 3 t) := by dsimp only [dat1]

end Cert.KernelIdeal.Hand

end
-- ==== Proof.KI.R2Def.lean ====
/-
  Region 2 (pooling and the classifier): twenty points, each taking 5000 node rows. Every point adds, per graph,
  the rows of its tile that belong to the graph (after scaling by the normalisation factor, adding the bias
  and clamping at zero) into a 64 x 128 accumulator, and the number of such rows into a 64 x 1 counter;
  both live in scratch memory that the kernel keeps from one point to the next. The first point zeroes
  them (and the output block) first; the last point divides the sums by the counts (at least one),
  applies the final linear map and the log-softmax, and stores the 64 x 2 output block, which is written
  back only then.
-/
import proofs.«406043_j45999099740722_2_alg».proof.Proof.Gen.KernelIdeal.Launch
import proofs.«406043_j45999099740722_2_alg».proof.Proof.Gen.KernelIdeal.Skeleton
import proofs.«406043_j45999099740722_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at point t, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The two scratch operands, as whole memrefs. -/
abbrev scM2_0 : Memref sig .tc .vmem S64x128 .f32 := Memref.whole cc2_scratch0
abbrev scM2_1 : Memref sig .tc .vmem S64x1 .f32 := Memref.whole cc2_scratch1

/-- The accumulator and the counter after point n: the first point starts from zeros, every later point
    from what the point before left; each adds its tile's contribution. -/
def carry2 (c : Dev nD) : (n : ℕ) → n < cfg2.N → Vec F S64x128 .f32 × Vec F S64x1 .f32
  | 0, hn => (k2_pay6 (iblk2 V c 0 ⟨0, hn⟩) (iblk2 V c 1 ⟨0, hn⟩) (iblk2 V c 2 ⟨0, hn⟩) (iblk2 V c 3 ⟨0, hn⟩) (k2_pay2 (F := F)),
      k2_pay7 (iblk2 V c 3 ⟨0, hn⟩) (k2_pay3 (F := F)))
  | n + 1, hn => (k2_pay6 (iblk2 V c 0 ⟨n + 1, hn⟩) (iblk2 V c 1 ⟨n + 1, hn⟩) (iblk2 V c 2 ⟨n + 1, hn⟩) (iblk2 V c 3 ⟨n + 1, hn⟩) (carry2 c n (Nat.lt_of_succ_lt hn)).1,
      k2_pay7 (iblk2 V c 3 ⟨n + 1, hn⟩) (carry2 c n (Nat.lt_of_succ_lt hn)).2)

theorem carry2_zero (c : Dev nD) (hn : 0 < cfg2.N) :
    carry2 V c 0 hn = (k2_pay6 (iblk2 V c 0 ⟨0, hn⟩) (iblk2 V c 1 ⟨0, hn⟩) (iblk2 V c 2 ⟨0, hn⟩) (iblk2 V c 3 ⟨0, hn⟩) (k2_pay2 (F := F)),
      k2_pay7 (iblk2 V c 3 ⟨0, hn⟩) (k2_pay3 (F := F))) := rfl

theorem carry2_succ (c : Dev nD) (n : ℕ) (hn : n + 1 < cfg2.N) :
    carry2 V c (n + 1) hn = (k2_pay6 (iblk2 V c 0 ⟨n + 1, hn⟩) (iblk2 V c 1 ⟨n + 1, hn⟩) (iblk2 V c 2 ⟨n + 1, hn⟩) (iblk2 V c 3 ⟨n + 1, hn⟩) (carry2 V c n (Nat.lt_of_succ_lt hn)).1,
      k2_pay7 (iblk2 V c 3 ⟨n + 1, hn⟩) (carry2 V c n (Nat.lt_of_succ_lt hn)).2) := rfl

/-- The output's staging buffer after point t: zeros from the first point on (the points between leave it
    alone), the classifier's result at the last point. -/
def outAt2 (c : Dev nD) (t : Fin cfg2.N) : Vec F S64x2 .f32 :=
  if t.val = 19 then k2_pay1 (carry2 V c t.val t.isLt).1 (carry2 V c t.val t.isLt).2 (iblk2 V c 4 t) (iblk2 V c 5 t)
  else k2_pay4 (F := F)

/-- The core's scoped buffers that this kernel never touches (the other two kernels' staging buffers), each whole
    at some contents. -/
def others2 (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg4_1), ((c : Thread nD τ).loc cc1_stg4_1) ↦{fullShare} f))

/-- The region invariant before position n: at the start what the launch hands over; afterwards the untouched
    scoped buffers, the two scratch buffers at what the point before left, and the generator register. -/
def PhiS2 (c : Dev nD) : (n : ℕ) → n ≤ cfg2.N → sProp 𝕄
  | 0, _ => Pipeline.ΦA spec2 c
  | n + 1, hn => iprop(others2 (F := F) c ∗ owns (c : Thread nD τ) scM2_0 fullShare (carry2 V c n hn).1
      ∗ owns (c : Thread nD τ) scM2_1 fullShare (carry2 V c n hn).2 ∗ (∃ r, prngReg c r))

theorem PhiS2_zero (c : Dev nD) (n : ℕ) (h : n ≤ cfg2.N) (hz : n = 0) : PhiS2 V c n h = Pipeline.ΦA spec2 c := by
  subst hz; rfl

theorem PhiS2_succ (c : Dev nD) (n : ℕ) (hn : n < cfg2.N) :
    PhiS2 V c (n + 1) hn = iprop(others2 (F := F) c ∗ owns (c : Thread nD τ) scM2_0 fullShare (carry2 V c n hn).1
      ∗ owns (c : Thread nD τ) scM2_1 fullShare (carry2 V c n hn).2 ∗ (∃ r, prngReg c r)) := rfl

theorem PhiS2_pos (c : Dev nD) (n : ℕ) (h : n ≤ cfg2.N) (hz : n ≠ 0) :
    PhiS2 V c n h = iprop(others2 (F := F) c ∗ owns (c : Thread nD τ) scM2_0 fullShare (carry2 V c (n - 1) (by omega)).1
      ∗ owns (c : Thread nD τ) scM2_1 fullShare (carry2 V c (n - 1) (by omega)).2 ∗ (∃ r, prngReg c r)) := by
  cases n with
  | zero => exact absurd rfl hz
  | succ n => rfl

/-- The pipeline's proof data for region 2 on core c at entry contents V. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => outAt2 V c t
  Φ t := PhiS2 V c t.val (Nat.le_of_lt_succ t.isLt)
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = iblk2 V c 5 t := by dsimp only [dat2]
theorem after2_6 (c : Dev nD) (t : Fin cfg2.N) : (dat2 V c).after 6 t = outAt2 V c t := by dsimp only [dat2]

theorem PhiS2_castSucc (c : Dev nD) (t : Fin cfg2.N) :
    (dat2 V c).Φ t.castSucc = PhiS2 V c t.val (Nat.le_of_lt t.isLt) := by
  dsimp only [dat2]; simp only [Fin.coe_castSucc]

end Cert.KernelIdeal.Hand

end
-- ==== Proof.KI.Chain.lean ====
/-
  The contents of the core's buffers at each boundary of the program: the launch memory, then each stretch of
  host operations applied, then each kernel region's output array replaced by what its write-backs leave.
-/
import proofs.«406043_j45999099740722_2_alg».proof.Proof.KI.R0Def
import proofs.«406043_j45999099740722_2_alg».proof.Proof.KI.R1Def
import proofs.«406043_j45999099740722_2_alg».proof.Proof.KI.R2Def

noncomputable section

namespace Cert.KernelIdeal.Hand

open Idealize.ShloMosaic Idealize.ShloMosaic.TcCoe
open Idealize.SL Idealize.SL.Sem
open Idealize.ShloMosaic.Pipeline (Dat)
open Cert.KernelIdeal Cert.KernelIdeal.Gen

variable {F : FTy → Type} [FloatOps F]
variable (m : (ℓ : Loc nD τ sig) → Buf (Elt F) ℓ)

/-- At launch. -/
abbrev W0 (c : Dev nD) : Valuation τ sig (Elt F) := fun b => m (c, b)
/-- After the first stretch (indices, degrees, their inverse square roots). -/
abbrev W1 (c : Dev nD) : Valuation τ sig (Elt F) := StableHlo.after hostOps0 (W0 m c)
/-- After the select that zeroes the factor where the degree is zero. -/
abbrev W2 (c : Dev nD) : Valuation τ sig (Elt F) := StableHlo.after hostOps0_1 (W1 m c)
/-- After the factor is reshaped to a column: region 0's entry. -/
abbrev W3 (c : Dev nD) : Valuation τ sig (Elt F) := StableHlo.after hostOps0_2 (W2 m c)
/-- The same read at the TensorCore's references. -/
abbrev VE0 : (c : Dev nD) → (b : Ref sig .tc) → Buf (Elt F) ((c : Thread nD τ).loc b) := fun c b => W3 m c b
/-- At region 0's exit. -/
def W4 (c : Dev nD) : Valuation τ sig (Elt F) :=
  Pipeline.withArrays spec0 c (W3 m c) fun w => (dat0 (VE0 m) c).arrAt w cfg0.N
/-- After the first gather and edge sum: region 1's entry. -/
abbrev W5 (c : Dev nD) : Valuation τ sig (Elt F) := StableHlo.after hostOps1 (W4 m c)
abbrev VE1 : (c : Dev nD) → (b : Ref sig .tc) → Buf (Elt F) ((c : Thread nD τ).loc b) := fun c b => W5 m c b
/-- At region 1's exit. -/
def W6 (c : Dev nD) : Valuation τ sig (Elt F) :=
  Pipeline.withArrays spec1 c (W5 m c) fun w => (dat1 (VE1 m) c).arrAt w cfg1.N
/-- After the second gather and edge sum: region 2's entry. -/
abbrev W7 (c : Dev nD) : Valuation τ sig (Elt F) := StableHlo.after hostOps2 (W6 m c)
abbrev VE2 : (c : Dev nD) → (b : Ref sig .tc) → Buf (Elt F) ((c : Thread nD τ).loc b) := fun c b => W7 m c b
/-- At region 2's exit: the end of the program. -/
def W8 (c : Dev nD) : Valuation τ sig (Elt F) :=
  Pipeline.withArrays spec2 c (W7 m c) fun w => (dat2 (VE2 m) c).arrAt w cfg2.N

theorem W4_arr (c : Dev nD) (w : Fin cfg0.W) :
    W4 m c (Proc.devRef .tc (Pipeline.arrRef spec0 w)) = (dat0 (VE0 m) c).arrAt w cfg0.N := by
  unfold W4; exact Pipeline.withArrays_arr spec0 launch0.win.arr_inj c _ _ w
theorem W4_of_ne (c : Dev nD) (b : Ref sig .tc) (hb : ∀ w, Pipeline.arrRef spec0 w ≠ b) :
    W4 m c (Proc.devRef .tc b) = W3 m c (Proc.devRef .tc b) := by
  unfold W4; exact Pipeline.withArrays_of_ne spec0 c _ _ b hb
theorem W6_arr (c : Dev nD) (w : Fin cfg1.W) :
    W6 m c (Proc.devRef .tc (Pipeline.arrRef spec1 w)) = (dat1 (VE1 m) c).arrAt w cfg1.N := by
  unfold W6; exact Pipeline.withArrays_arr spec1 launch1.win.arr_inj c _ _ w
theorem W6_of_ne (c : Dev nD) (b : Ref sig .tc) (hb : ∀ w, Pipeline.arrRef spec1 w ≠ b) :
    W6 m c (Proc.devRef .tc b) = W5 m c (Proc.devRef .tc b) := by
  unfold W6; exact Pipeline.withArrays_of_ne spec1 c _ _ b hb
theorem W8_arr (c : Dev nD) (w : Fin cfg2.W) :
    W8 m c (Proc.devRef .tc (Pipeline.arrRef spec2 w)) = (dat2 (VE2 m) c).arrAt w cfg2.N := by
  unfold W8; exact Pipeline.withArrays_arr spec2 launch2.win.arr_inj c _ _ w
theorem W8_of_ne (c : Dev nD) (b : Ref sig .tc) (hb : ∀ w, Pipeline.arrRef spec2 w ≠ b) :
    W8 m c (Proc.devRef .tc b) = W7 m c (Proc.devRef .tc b) := by
  unfold W8; exact Pipeline.withArrays_of_ne spec2 c _ _ b hb

end Cert.KernelIdeal.Hand

end
-- ==== Proof.KI.R0Body.lean ====
import proofs.«406043_j45999099740722_2_alg».proof.Proof.KI.R0Def

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## What the body finds in each input window's buffer -/

/-- The rows of x: the buffer holds this point's block, whether or not a transfer filled it here, for any proof
    data over the entry contents whose body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- All of W1: its block index never moves, so after the first point the buffer still holds the same block. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- The rows of the factor column. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-! ## The one store covers the output's buffer -/

/-- A single piece through the whole-block rectangle reaches every index of the block. -/
theorem cover0_3 (p0 : Vec F S5000x128 .f32) (y : S5000x128.Idx) :
    ∃ pc ∈ ([⟨r0_out, p0⟩] : List (View.Piece (Elt F) S5000x128 .f32)), y ∈ pc.1.set :=
  View.cover_of_tiled [⟨r0_out, p0⟩] S5000x128.size (by rfl) y

/-! ## The kernel function's triple -/

set_option maxHeartbeats 1000000 in
/-- On whole memrefs, the three inputs' at read contents x0 x1 x2 and the output's at anything, the kernel function
    runs to the continuation holding the inputs' as they were and the output's at the one stored block. -/
theorem sound_kernel0 (c : Dev nD) (E : Set ℕ) (i : grid0.Coords)
    (arg1 : Memref sig .tc .vmem S5000x64 .f32) (harg1 : arg1.IsWhole)
    (arg2 : Memref sig .tc .vmem S64x128 .f32) (harg2 : arg2.IsWhole)
    (arg3 : Memref sig .tc .vmem S5000x1 .f32) (harg3 : arg3.IsWhole)
    (arg4 : Memref sig .tc .vmem S5000x128 .f32) (harg4 : arg4.IsWhole)
    (x0 : Vec F S5000x64 .f32) (x1 : Vec F S64x128 .f32) (x2 : Vec F S5000x1 .f32) (K : PUnit → sProp 𝕄) :
    iprop(owns (c : Thread nD τ) arg1 fullShare x0 ∗ owns (c : Thread nD τ) arg2 fullShare x1
        ∗ owns (c : Thread nD τ) arg3 fullShare x2 ∗ (∃ d, owns (c : Thread nD τ) arg4 fullShare d)
        ∗ (iprop(owns (c : Thread nD τ) arg1 fullShare x0 ∗ owns (c : Thread nD τ) arg2 fullShare x1
            ∗ owns (c : Thread nD τ) arg3 fullShare x2 ∗ owns (c : Thread nD τ) arg4 fullShare (out0_3 x0 x1 x2)) -∗ K ⟨⟩))
      ⊢ wp frame (wpE (defs₀ (F := F)) Variants.none c none) E (cc0__linear_scale_kernel i arg1 harg1 arg2 harg2 arg3 harg3 arg4 harg4) K := by
  simp only [cc0__linear_scale_kernel_eq_skeleton]; unfold cc0__linear_scale_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0_3 _)

/-! ## The body obligation, at a generic point -/

/-- What the body is called with at point t, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

/-- The body at any point: the inputs' memrefs hold their blocks, so the kernel function's triple applies; the
    invariant and what the core owes pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body obligation of region 0 at every point. -/
theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.KI.R1Body.lean ====
import proofs.«406043_j45999099740722_2_alg».proof.Proof.KI.R1Def

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## What the body finds in each input window's buffer -/

/-- The rows of the aggregated sums: the buffer holds this point's block, whether or not a transfer filled it here,
    for any proof data over the entry contents whose body leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- The rows of the factor column. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- The bias row: its block index never moves, so after the first point the buffer still holds the same block. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- All of W2: likewise never refetched after the first point. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d

/-! ## The one store covers the output's buffer -/

/-- A single piece through the whole-block rectangle reaches every index of the block. -/
theorem cover1_4 (p0 : Vec F S5000x128 .f32) (y : S5000x128.Idx) :
    ∃ pc ∈ ([⟨r1_a, p0⟩] : List (View.Piece (Elt F) S5000x128 .f32)), y ∈ pc.1.set :=
  View.cover_of_tiled [⟨r1_a, p0⟩] S5000x128.size (by rfl) y

/-! ## The kernel function's triple -/

set_option maxHeartbeats 1000000 in
/-- On whole memrefs, the four inputs' at read contents x0 x1 x2 x3 and the output's at anything, the kernel function
    runs to the continuation holding the inputs' as they were and the output's at the one stored block; the two
    loads of the factor column read the same unchanged buffer. -/
theorem sound_kernel1 (c : Dev nD) (E : Set ℕ) (i : grid1.Coords)
    (arg1 : Memref sig .tc .vmem S5000x128 .f32) (harg1 : arg1.IsWhole)
    (arg2 : Memref sig .tc .vmem S5000x1 .f32) (harg2 : arg2.IsWhole)
    (arg3 : Memref sig .tc .vmem S1x128 .f32) (harg3 : arg3.IsWhole)
    (arg4 : Memref sig .tc .vmem S128x128 .f32) (harg4 : arg4.IsWhole)
    (arg5 : Memref sig .tc .vmem S5000x128 .f32) (harg5 : arg5.IsWhole)
    (x0 : Vec F S5000x128 .f32) (x1 : Vec F S5000x1 .f32) (x2 : Vec F S1x128 .f32) (x3 : Vec F S128x128 .f32) (K : PUnit → sProp 𝕄) :
    iprop(owns (c : Thread nD τ) arg1 fullShare x0 ∗ owns (c : Thread nD τ) arg2 fullShare x1
        ∗ owns (c : Thread nD τ) arg3 fullShare x2 ∗ owns (c : Thread nD τ) arg4 fullShare x3
        ∗ (∃ d, owns (c : Thread nD τ) arg5 fullShare d)
        ∗ (iprop(owns (c : Thread nD τ) arg1 fullShare x0 ∗ owns (c : Thread nD τ) arg2 fullShare x1
            ∗ owns (c : Thread nD τ) arg3 fullShare x2 ∗ owns (c : Thread nD τ) arg4 fullShare x3
            ∗ owns (c : Thread nD τ) arg5 fullShare (out1_4 x0 x1 x2 x3)) -∗ K ⟨⟩))
      ⊢ wp frame (wpE (defs₀ (F := F)) Variants.none c none) E (cc1__post_agg_linear_kernel i arg1 harg1 arg2 harg2 arg3 harg3 arg4 harg4 arg5 harg5) K := by
  simp only [cc1__post_agg_linear_kernel_eq_skeleton]; unfold cc1__post_agg_linear_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0; subst hf1; subst hf2; subst hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover1_4 _)

/-! ## The body obligation, at a generic point -/

/-- What the body is called with at point t, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t))

/-- The body at any point: the inputs' memrefs hold their blocks, so the kernel function's triple applies; the
    invariant and what the core owes pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).Φ t.succ = (dat1 V c).Φ t.castSucc from rfl,
    show (dat1 V c).owesAt () t.succ = (dat1 V c).owesAt () t.castSucc from rfl,
    after1_0, after1_1, after1_2, after1_3, after1_4]
  iintro ⟨HΦ, Ho, ⟨%d0, H0⟩, ⟨%d1, H1⟩, ⟨%d2, H2⟩, ⟨%d3, H3⟩, ⟨%d4, H4⟩⟩
  iapply (sound_kernel1 c Set.univ _ _ _ _ _ _ _ _ _ _ _ (iblk1 V c 0 t) (iblk1 V c 1 t) (iblk1 V c 2 t) (iblk1 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The body obligation of region 1 at every point. -/
theorem body_obligation1 (c : Dev nD) : BodyObligation (dat1 (F := F) V c) (defs₀ (F := F)) Variants.none () Set.univ := fun t => by
  rw [bigSep_W1, bigSep_W1]
  exact sound_body1 V c t

end Cert.KernelIdeal.Hand

end
-- ==== Proof.KI.R2Body.lean ====
import proofs.«406043_j45999099740722_2_alg».proof.Proof.KI.R2Def
import Idealize.ShloMosaic.Lib.Pipeline.Value

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # Region 2: the body at every point

The pooling kernel keeps a 64 x 128 accumulator and a 64 x 1 counter in scratch memory from one point to the next.
At the first point it zeroes both (and the output block) before adding the tile's contribution; at every later
point it adds the tile's contribution to what the point before left; at the last point it also forms the
classifier's result from the final sums and counts and stores it into the output block, which is idle in between.
The three control cases are run once each on arbitrary whole memrefs, with the contents every store leaves named
by the payload of the last whole-block store; the body obligation follows by cases on the point. -/

/-! ## Whole-block loads and stores -/

theorem hz2 : (![0, 0] : Fin 2 → Nat) = fun _ => 0 := funext fun a => by fin_cases a <;> rfl

/-- A store through the whole-block rectangle reaches every index, whatever was stored before it. -/
theorem cover_cons_unit {S : Shape} {e : EltTy} {off : Fin S.rank → Nat} (h : off = fun _ => 0)
    (inb : ∀ a, off a + S.size a ≤ S.size a) (w : S.Idx → Elt F e) (L : List (View.Piece (Elt F) S e)) (y : S.Idx) :
    ∃ p ∈ ((⟨Rect.unit off S.size inb, w⟩ : View.Piece (Elt F) S e) :: L), y ∈ p.1.set :=
  ⟨_, List.mem_cons_self, View.mem_set_unit_zero h inb y⟩

/-- So after a last store of the whole block the buffer reads as that store's payload. -/
theorem read_writes_head {sg : RefSig} {κ : Kind} {sp : Space} {S : Shape} {e : EltTy} (v : View sg κ sp S e) (f : v.ty.Contents (Elt F))
    {off : Fin S.rank → Nat} (h : off = fun _ => 0) (inb : ∀ a, off a + S.size a ≤ S.size a) (w : S.Idx → Elt F e)
    (L : List (View.Piece (Elt F) S e)) :
    v.read (Elt F) (v.writes (Elt F) f ((⟨Rect.unit off S.size inb, w⟩ : View.Piece (Elt F) S e) :: L)) = w := by
  rw [View.read_writes_eq_canon _ _ _ (cover_cons_unit h inb w L), View.canon_cons_unit_zero h]

/-- A load of the whole block reads the buffer's contents. -/
theorem readAt_unit {sg : RefSig} {κ : Kind} {sp : Space} {S : Shape} {e : EltTy} (v : View sg κ sp S e) (f : v.ty.Contents (Elt F))
    {off : Fin S.rank → Nat} (h : off = fun _ => 0) (inb : ∀ a, off a + S.size a ≤ S.size a) :
    v.readAt (Elt F) (Rect.unit off S.size inb).toLoadRect f = v.read (Elt F) f := by
  rw [View.readAt_eq_ld, View.ld_unit_zero h]

/-! ## What the body finds in each input window's buffer -/

/-- The tile's rows of the activations: the buffer holds this point's block, whether or not a transfer filled it here, for any proof data over the entry contents whose body leaves the block in place. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- The tile's rows of the normalisation column. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- The bias row: its block index never moves, so after the first point the buffer still holds the same block. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-- The tile's rows of the graph-assignment column. -/
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

/-- The classifier's weight matrix: never refetched after the first point. -/
theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)

/-- The classifier's bias row: likewise. -/
theorem before2_5_of {c : Dev nD} (dat : Dat τ (Elt F) Unit ℕ (UR sig nD τ) ℕ cfg2 c) (hA : dat.A 5 = V c (Pipeline.arrRef spec2 5))
    (hafter : ∀ t, dat.after 5 t = iblk2 V c 5 t) (t : Fin cfg2.N) (d) : dat.before 5 t d = iblk2 V c 5 t :=
  (dat.before_in_eq_fetched 5 rfl (fun _ => rfl) (fun _ _ _ => rfl) (fun t => by rw [hafter]; unfold Dat.blockOf iblk2; rw [hA]; try rfl) t d).trans
    (by unfold Dat.fetched Dat.blockOf iblk2; rw [hA]; try rfl)

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d
theorem before2_5 (c : Dev nD) (t : Fin cfg2.N) (d) : (dat2 V c).before 5 t d = iblk2 V c 5 t :=
  before2_5_of V (dat2 V c) (A_eq2 V c 5) (after2_5 V c) t d

/-! ## The two conditions and the output window's idle points, in closed form over the twenty points -/

/-- The first condition holds at the first point only. -/
theorem hcond2_1 : ∀ t : Fin cfg2.N, k2_cond1 (grid2.coords t) = 1#1 ↔ t.val % 20 = 0 :=
  (by decide +kernel : ∀ t : Fin grid2.N, k2_cond1 (grid2.coords t) = 1#1 ↔ t.val % 20 = 0)
/-- The second condition holds at the last point only. -/
theorem hcond2_2 : ∀ t : Fin cfg2.N, k2_cond2 (grid2.coords t) = 1#1 ↔ t.val % 20 = 19 :=
  (by decide +kernel : ∀ t : Fin grid2.N, k2_cond2 (grid2.coords t) = 1#1 ↔ t.val % 20 = 19)

/-- The input windows are never idle. -/
theorem liveAt2_0 : ∀ t : Fin cfg2.N, cfg2.idle 0 (grid2.coords t) = false := by decide +kernel
theorem liveAt2_1 : ∀ t : Fin cfg2.N, cfg2.idle 1 (grid2.coords t) = false := by decide +kernel
theorem liveAt2_2 : ∀ t : Fin cfg2.N, cfg2.idle 2 (grid2.coords t) = false := by decide +kernel
theorem liveAt2_3 : ∀ t : Fin cfg2.N, cfg2.idle 3 (grid2.coords t) = false := by decide +kernel
theorem liveAt2_4 : ∀ t : Fin cfg2.N, cfg2.idle 4 (grid2.coords t) = false := by decide +kernel
theorem liveAt2_5 : ∀ t : Fin cfg2.N, cfg2.idle 5 (grid2.coords t) = false := by decide +kernel
/-- The output window is live where either condition holds, -/
theorem liveAt2_6_A : ∀ t : Fin cfg2.N, k2_cond1 (grid2.coords t) = 1#1 → ¬k2_cond2 (grid2.coords t) = 1#1 → cfg2.idle 6 (grid2.coords t) = false := by decide +kernel
theorem liveAt2_6_C : ∀ t : Fin cfg2.N, ¬k2_cond1 (grid2.coords t) = 1#1 → k2_cond2 (grid2.coords t) = 1#1 → cfg2.idle 6 (grid2.coords t) = false := by decide +kernel
/-- idle where neither does, and there its block is not written back. -/
theorem idleAt2_6_B : ∀ t : Fin cfg2.N, ¬k2_cond1 (grid2.coords t) = 1#1 → ¬k2_cond2 (grid2.coords t) = 1#1 → cfg2.idle 6 (grid2.coords t) = true := by decide +kernel
theorem noFlush2_6_B : ∀ t : Fin cfg2.N, ¬k2_cond1 (grid2.coords t) = 1#1 → ¬k2_cond2 (grid2.coords t) = 1#1 → (cfg2.win 6).flush t = false := by decide +kernel

/-! ## The kernel function's triple in each of the three control cases

On whole memrefs, the six inputs' at read contents x0 … x5; the contents the stores leave are named by the
payloads: a last whole-block store leaves its payload, and a whole-block load reads the contents. -/

set_option maxHeartbeats 2000000 in
/-- The first point: the first condition holds, the second does not. Whatever the output's buffer and the two
    scratch buffers held, the output's buffer is left at zeros, the accumulator at the tile's contribution added
    to zeros, the counter at the tile's counts added to zeros (each is zeroed, read back, then updated). -/
theorem run2_A (c : Dev nD) (E : Set ℕ) (i : grid2.Coords) (arg1 : Memref sig .tc .vmem S5000x128 .f32) (harg1 : arg1.IsWhole) (arg2 : Memref sig .tc .vmem S5000x1 .f32) (harg2 : arg2.IsWhole) (arg3 : Memref sig .tc .vmem S1x128 .f32) (harg3 : arg3.IsWhole) (arg4 : Memref sig .tc .vmem S5000x1 .i32) (harg4 : arg4.IsWhole) (arg5 : Memref sig .tc .vmem S128x2 .f32) (harg5 : arg5.IsWhole) (arg6 : Memref sig .tc .vmem S1x2 .f32) (harg6 : arg6.IsWhole) (arg7 : Memref sig .tc .vmem S64x2 .f32) (harg7 : arg7.IsWhole) (arg8 : Memref sig .tc .vmem S64x128 .f32) (harg8 : arg8.IsWhole) (arg9 : Memref sig .tc .vmem S64x1 .f32) (harg9 : arg9.IsWhole)
    (hc1 : k2_cond1 i = 1#1) (hc2 : ¬ k2_cond2 i = 1#1)
    (x0 : Vec F S5000x128 .f32) (x1 : Vec F S5000x1 .f32) (x2 : Vec F S1x128 .f32) (x3 : Vec F S5000x1 .i32) (x4 : Vec F S128x2 .f32) (x5 : Vec F S1x2 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5
        ∗ (∃ d, owns (c : Thread nD τ) arg7 fullShare d) ∗ (∃ d, owns (c : Thread nD τ) arg8 fullShare d) ∗ (∃ d, owns (c : Thread nD τ) arg9 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5
            ∗ owns (c : Thread nD τ) arg7 fullShare (k2_pay4 (F := F))
            ∗ owns (c : Thread nD τ) arg8 fullShare (k2_pay6 x0 x1 x2 x3 (k2_pay2 (F := F)))
            ∗ owns (c : Thread nD τ) arg9 fullShare (k2_pay7 x3 (k2_pay3 (F := F)))) -∗ K ⟨⟩))
      ⊢ wp frame (wpE (defs₀ (F := F)) Variants.none c none) E (cc2__pool_kernel i arg1 harg1 arg2 harg2 arg3 harg3 arg4 harg4 arg5 harg5 arg6 harg6 arg7 harg7 arg8 harg8 arg9 harg9) K := by
  simp only [cc2__pool_kernel_eq_skeleton]; unfold cc2__pool_kernel_skel
  simp only [k2_part1_eq_skeleton]; unfold k2_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%ds0, %fs0, -, HS0⟩, ⟨%ds1, %fs1, -, HS1⟩, Hk⟩
  subst hf0; subst hf1; subst hf2; subst hf3; subst hf4; subst hf5
  sl_exec (disch := first | exact hc1 | exact hc2)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr
    swap; · iexact H6
    ipureintro
    exact read_writes_head arg7.view _ hz2 _ _ _
  isplitl [HS0]
  · iexists _; isplitr
    swap; · iexact HS0
    ipureintro
    rw [read_writes_head arg8.view _ hz2]
    sl_unfold_words
    simp only [readAt_unit (S := S5000x128) _ _ hz2, readAt_unit (S := S5000x1) _ _ hz2, readAt_unit (S := S1x128) _ _ hz2, readAt_unit (S := S64x128) _ _ hz2, readAt_unit (S := S64x1) _ _ hz2, readAt_unit (S := S128x2) _ _ hz2, readAt_unit (S := S1x2) _ _ hz2, View.readCov_unit_zero (S := S64x128) _ hz2]
  iexists _; isplitr
  swap; · iexact HS1
  ipureintro
  rw [read_writes_head arg9.view _ hz2]
  sl_unfold_words
  simp only [readAt_unit (S := S5000x128) _ _ hz2, readAt_unit (S := S5000x1) _ _ hz2, readAt_unit (S := S1x128) _ _ hz2, readAt_unit (S := S64x128) _ _ hz2, readAt_unit (S := S64x1) _ _ hz2, readAt_unit (S := S128x2) _ _ hz2, readAt_unit (S := S1x2) _ _ hz2, View.readCov_unit_zero (S := S64x1) _ hz2]

set_option maxHeartbeats 2000000 in
/-- A middle point: neither condition holds. The output's buffer is not touched; the accumulator and the counter,
    at what the point before left (xs0, xs1), are each read and stored back with the tile's contribution added. -/
theorem run2_B (c : Dev nD) (E : Set ℕ) (i : grid2.Coords) (arg1 : Memref sig .tc .vmem S5000x128 .f32) (harg1 : arg1.IsWhole) (arg2 : Memref sig .tc .vmem S5000x1 .f32) (harg2 : arg2.IsWhole) (arg3 : Memref sig .tc .vmem S1x128 .f32) (harg3 : arg3.IsWhole) (arg4 : Memref sig .tc .vmem S5000x1 .i32) (harg4 : arg4.IsWhole) (arg5 : Memref sig .tc .vmem S128x2 .f32) (harg5 : arg5.IsWhole) (arg6 : Memref sig .tc .vmem S1x2 .f32) (harg6 : arg6.IsWhole) (arg7 : Memref sig .tc .vmem S64x2 .f32) (harg7 : arg7.IsWhole) (arg8 : Memref sig .tc .vmem S64x128 .f32) (harg8 : arg8.IsWhole) (arg9 : Memref sig .tc .vmem S64x1 .f32) (harg9 : arg9.IsWhole)
    (hc1 : ¬ k2_cond1 i = 1#1) (hc2 : ¬ k2_cond2 i = 1#1)
    (x0 : Vec F S5000x128 .f32) (x1 : Vec F S5000x1 .f32) (x2 : Vec F S1x128 .f32) (x3 : Vec F S5000x1 .i32) (x4 : Vec F S128x2 .f32) (x5 : Vec F S1x2 .f32) (xi6 : Vec F S64x2 .f32) (xs0 : Vec F S64x128 .f32) (xs1 : Vec F S64x1 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5
        ∗ owns (c : Thread nD τ) arg7 fullShare xi6 ∗ owns (c : Thread nD τ) arg8 fullShare xs0 ∗ owns (c : Thread nD τ) arg9 fullShare xs1
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5
            ∗ owns (c : Thread nD τ) arg7 fullShare xi6
            ∗ owns (c : Thread nD τ) arg8 fullShare (k2_pay6 x0 x1 x2 x3 xs0)
            ∗ owns (c : Thread nD τ) arg9 fullShare (k2_pay7 x3 xs1)) -∗ K ⟨⟩))
      ⊢ wp frame (wpE (defs₀ (F := F)) Variants.none c none) E (cc2__pool_kernel i arg1 harg1 arg2 harg2 arg3 harg3 arg4 harg4 arg5 harg5 arg6 harg6 arg7 harg7 arg8 harg8 arg9 harg9) K := by
  simp only [cc2__pool_kernel_eq_skeleton]; unfold cc2__pool_kernel_skel
  simp only [k2_part1_eq_skeleton]; unfold k2_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%fs0, %hfs0, HS0⟩, ⟨%fs1, %hfs1, HS1⟩, Hk⟩
  subst hf0; subst hf1; subst hf2; subst hf3; subst hf4; subst hf5; subst hf6; subst hfs0; subst hfs1
  sl_exec (disch := first | exact hc1 | exact hc2)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [HS0]
  · iexists _; isplitr
    swap; · iexact HS0
    ipureintro
    rw [read_writes_head arg8.view _ hz2]
    simp only [readAt_unit (S := S5000x128) _ _ hz2, readAt_unit (S := S5000x1) _ _ hz2, readAt_unit (S := S1x128) _ _ hz2, readAt_unit (S := S64x128) _ _ hz2, readAt_unit (S := S64x1) _ _ hz2, readAt_unit (S := S128x2) _ _ hz2, readAt_unit (S := S1x2) _ _ hz2]
  iexists _; isplitr
  swap; · iexact HS1
  ipureintro
  rw [read_writes_head arg9.view _ hz2]
  simp only [readAt_unit (S := S5000x128) _ _ hz2, readAt_unit (S := S5000x1) _ _ hz2, readAt_unit (S := S1x128) _ _ hz2, readAt_unit (S := S64x128) _ _ hz2, readAt_unit (S := S64x1) _ _ hz2, readAt_unit (S := S128x2) _ _ hz2, readAt_unit (S := S1x2) _ _ hz2]

set_option maxHeartbeats 2000000 in
/-- The last point: the second condition holds, the first does not. After the update of the accumulator and the
    counter both are read back, and the classifier's result over them and the two small inputs is stored over
    whatever the output's buffer held. -/
theorem run2_C (c : Dev nD) (E : Set ℕ) (i : grid2.Coords) (arg1 : Memref sig .tc .vmem S5000x128 .f32) (harg1 : arg1.IsWhole) (arg2 : Memref sig .tc .vmem S5000x1 .f32) (harg2 : arg2.IsWhole) (arg3 : Memref sig .tc .vmem S1x128 .f32) (harg3 : arg3.IsWhole) (arg4 : Memref sig .tc .vmem S5000x1 .i32) (harg4 : arg4.IsWhole) (arg5 : Memref sig .tc .vmem S128x2 .f32) (harg5 : arg5.IsWhole) (arg6 : Memref sig .tc .vmem S1x2 .f32) (harg6 : arg6.IsWhole) (arg7 : Memref sig .tc .vmem S64x2 .f32) (harg7 : arg7.IsWhole) (arg8 : Memref sig .tc .vmem S64x128 .f32) (harg8 : arg8.IsWhole) (arg9 : Memref sig .tc .vmem S64x1 .f32) (harg9 : arg9.IsWhole)
    (hc1 : ¬ k2_cond1 i = 1#1) (hc2 : k2_cond2 i = 1#1)
    (x0 : Vec F S5000x128 .f32) (x1 : Vec F S5000x1 .f32) (x2 : Vec F S1x128 .f32) (x3 : Vec F S5000x1 .i32) (x4 : Vec F S128x2 .f32) (x5 : Vec F S1x2 .f32) (xs0 : Vec F S64x128 .f32) (xs1 : Vec F S64x1 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5
        ∗ (∃ d, owns (c : Thread nD τ) arg7 fullShare d) ∗ owns (c : Thread nD τ) arg8 fullShare xs0 ∗ owns (c : Thread nD τ) arg9 fullShare xs1
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5
            ∗ owns (c : Thread nD τ) arg7 fullShare (k2_pay1 (k2_pay6 x0 x1 x2 x3 xs0) (k2_pay7 x3 xs1) x4 x5)
            ∗ owns (c : Thread nD τ) arg8 fullShare (k2_pay6 x0 x1 x2 x3 xs0)
            ∗ owns (c : Thread nD τ) arg9 fullShare (k2_pay7 x3 xs1)) -∗ K ⟨⟩))
      ⊢ wp frame (wpE (defs₀ (F := F)) Variants.none c none) E (cc2__pool_kernel i arg1 harg1 arg2 harg2 arg3 harg3 arg4 harg4 arg5 harg5 arg6 harg6 arg7 harg7 arg8 harg8 arg9 harg9) K := by
  simp only [cc2__pool_kernel_eq_skeleton]; unfold cc2__pool_kernel_skel
  simp only [k2_part1_eq_skeleton]; unfold k2_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%fs0, %hfs0, HS0⟩, ⟨%fs1, %hfs1, HS1⟩, Hk⟩
  subst hf0; subst hf1; subst hf2; subst hf3; subst hf4; subst hf5; subst hfs0; subst hfs1
  sl_exec (disch := first | exact hc1 | exact hc2)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr
    swap; · iexact H6
    ipureintro
    rw [read_writes_head arg7.view _ hz2]
    sl_unfold_words
    simp only [readAt_unit (S := S5000x128) _ _ hz2, readAt_unit (S := S5000x1) _ _ hz2, readAt_unit (S := S1x128) _ _ hz2, readAt_unit (S := S64x128) _ _ hz2, readAt_unit (S := S64x1) _ _ hz2, readAt_unit (S := S128x2) _ _ hz2, readAt_unit (S := S1x2) _ _ hz2, View.readCov_unit_zero (S := S64x128) _ hz2, View.readCov_unit_zero (S := S64x1) _ hz2]
  isplitl [HS0]
  · iexists _; isplitr
    swap; · iexact HS0
    ipureintro
    sl_unfold_words
    rw [read_writes_head arg8.view _ hz2]
    simp only [readAt_unit (S := S5000x128) _ _ hz2, readAt_unit (S := S5000x1) _ _ hz2, readAt_unit (S := S1x128) _ _ hz2, readAt_unit (S := S64x128) _ _ hz2, readAt_unit (S := S64x1) _ _ hz2, readAt_unit (S := S128x2) _ _ hz2, readAt_unit (S := S1x2) _ _ hz2]
  iexists _; isplitr
  swap; · iexact HS1
  ipureintro
  sl_unfold_words
  rw [read_writes_head arg9.view _ hz2]
  simp only [readAt_unit (S := S5000x128) _ _ hz2, readAt_unit (S := S5000x1) _ _ hz2, readAt_unit (S := S1x128) _ _ hz2, readAt_unit (S := S64x128) _ _ hz2, readAt_unit (S := S64x1) _ _ hz2, readAt_unit (S := S128x2) _ _ hz2, readAt_unit (S := S1x2) _ _ hz2]

/-! ## The accumulator and the counter after a point, by whether it is the first -/

theorem carry2_first (c : Dev nD) (t : Fin cfg2.N) (hz : t.val = 0) :
    carry2 V c t.val t.isLt = (k2_pay6 (iblk2 V c 0 t) (iblk2 V c 1 t) (iblk2 V c 2 t) (iblk2 V c 3 t) (k2_pay2 (F := F)),
      k2_pay7 (iblk2 V c 3 t) (k2_pay3 (F := F))) := by
  obtain ⟨n, hn⟩ := t
  cases n with
  | zero => rfl
  | succ n => exact absurd hz (Nat.succ_ne_zero n)

theorem carry2_later (c : Dev nD) (t : Fin cfg2.N) (hz : t.val ≠ 0) :
    carry2 V c t.val t.isLt = (k2_pay6 (iblk2 V c 0 t) (iblk2 V c 1 t) (iblk2 V c 2 t) (iblk2 V c 3 t) (carry2 V c (t.val - 1) (Nat.lt_of_le_of_lt (Nat.sub_le _ _) t.isLt)).1,
      k2_pay7 (iblk2 V c 3 t) (carry2 V c (t.val - 1) (Nat.lt_of_le_of_lt (Nat.sub_le _ _) t.isLt)).2) := by
  obtain ⟨n, hn⟩ := t
  cases n with
  | zero => exact absurd rfl hz
  | succ n => rfl

/-! ## The launch's invariant with the two scratch buffers as memrefs -/

theorem sepA {M : Type} [URA M] (P Q R : sProp M) : iprop((P ∗ Q) ∗ R) = iprop(P ∗ Q ∗ R) := by
  have h₁ : iprop((P ∗ Q) ∗ R) ⊢ iprop(P ∗ Q ∗ R) := by
    iintro ⟨⟨HP, HQ⟩, HR⟩
    isplitl [HP]; · iexact HP
    isplitl [HQ]; · iexact HQ
    iexact HR
  have h₂ : iprop(P ∗ Q ∗ R) ⊢ iprop((P ∗ Q) ∗ R) := by
    iintro ⟨HP, HQ, HR⟩
    isplitl [HP HQ]
    · isplitl [HP]; · iexact HP
      iexact HQ
    iexact HR
  exact BI.equiv_iff.mp ⟨h₁, h₂⟩

/-- What the launch hands over: the other kernels' buffers, the two scratch buffers owned whole at some contents,
    and the generator register. -/
theorem PhiA2_eq (c : Dev nD) :
    (Pipeline.ΦA spec2 c : sProp 𝕄)
      = iprop(others2 (F := F) c ∗ (∃ d, owns (c : Thread nD τ) scM2_0 fullShare d) ∗ (∃ d, owns (c : Thread nD τ) scM2_1 fullShare d) ∗ (∃ r, prngReg c r)) := by
  unfold Pipeline.ΦA; rw [scopedRest2_eq]; unfold others2; simp only [scM2_0, scM2_1, owns_whole]
  simp only [sepA]
  rfl

/-! ## The body obligation, at a generic point -/

/-- What the body is called with at point t, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d))
    ∗ (∃ d, owns (c : Thread nD τ) (st2_6 t) fullShare ((dat2 V c).before 6 t d)))

/-- and what it returns. -/
def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t
    ∗ (dat2 V c).leavesExact 3 t
    ∗ (dat2 V c).leavesExact 4 t
    ∗ (dat2 V c).leavesExact 5 t
    ∗ (dat2 V c).leavesExact 6 t)

set_option maxHeartbeats 4800000 in
/-- The body at any point: the inputs' memrefs hold their blocks; the closed forms of the two conditions say which
    of the three cases the point is in, and that case's triple applies. At the first point the invariant hands
    the two scratch buffers over at anything; later at what the point before left; it takes them back at this
    point's accumulator and counter. The output's buffer is handed back untouched at the middle points. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4, before2_5]
  rw [show (dat2 V c).owesAt () t.succ = (dat2 V c).owesAt () t.castSucc from rfl]
  rw [show (dat2 V c).Φ t.succ = PhiS2 V c (t.val + 1) t.isLt from rfl, PhiS2_succ]
  have hN : t.val < 20 := lt_of_lt_of_eq t.isLt (show cfg2.N = 20 from N_2)
  rw [show (dat2 V c).leavesExact 0 t = owns (c : Thread nD τ) (st2_0 t) fullShare ((dat2 V c).after 0 t) from by
    unfold Dat.leavesExact; rw [liveAt2_0 t], after2_0]
  rw [show (dat2 V c).leavesExact 1 t = owns (c : Thread nD τ) (st2_1 t) fullShare ((dat2 V c).after 1 t) from by
    unfold Dat.leavesExact; rw [liveAt2_1 t], after2_1]
  rw [show (dat2 V c).leavesExact 2 t = owns (c : Thread nD τ) (st2_2 t) fullShare ((dat2 V c).after 2 t) from by
    unfold Dat.leavesExact; rw [liveAt2_2 t], after2_2]
  rw [show (dat2 V c).leavesExact 3 t = owns (c : Thread nD τ) (st2_3 t) fullShare ((dat2 V c).after 3 t) from by
    unfold Dat.leavesExact; rw [liveAt2_3 t], after2_3]
  rw [show (dat2 V c).leavesExact 4 t = owns (c : Thread nD τ) (st2_4 t) fullShare ((dat2 V c).after 4 t) from by
    unfold Dat.leavesExact; rw [liveAt2_4 t], after2_4]
  rw [show (dat2 V c).leavesExact 5 t = owns (c : Thread nD τ) (st2_5 t) fullShare ((dat2 V c).after 5 t) from by
    unfold Dat.leavesExact; rw [liveAt2_5 t], after2_5]
  by_cases h0 : t.val % 20 = 0
  · have hz : t.val = 0 := by omega
    have hc1 : k2_cond1 (grid2.coords t) = 1#1 := (hcond2_1 t).mpr h0
    have hc2 : ¬ k2_cond2 (grid2.coords t) = 1#1 := fun h => by have := (hcond2_2 t).mp h; omega
    rw [show (dat2 V c).leavesExact 6 t = owns (c : Thread nD τ) (st2_6 t) fullShare ((dat2 V c).after 6 t) from by
      unfold Dat.leavesExact; rw [liveAt2_6_A t hc1 hc2], after2_6]
    rw [show outAt2 V c t = k2_pay4 (F := F) from by unfold outAt2; rw [if_neg (by omega)]]
    rw [carry2_first V c t hz]; dsimp only
    rw [PhiS2_castSucc V c t, PhiS2_zero V c _ _ hz, PhiA2_eq]
    iintro ⟨⟨Hoth, HS0, HS1, Hg⟩, Ho, ⟨%d0, H0⟩, ⟨%d1, H1⟩, ⟨%d2, H2⟩, ⟨%d3, H3⟩, ⟨%d4, H4⟩, ⟨%d5, H5⟩, ⟨%d6, H6⟩⟩
    iapply (run2_A c Set.univ (grid2.coords t) _ _ _ _ _ _ _ _ _ _ _ _ _ _ _ _ _ _ hc1 hc2 (iblk2 V c 0 t) (iblk2 V c 1 t) (iblk2 V c 2 t) (iblk2 V c 3 t) (iblk2 V c 4 t) (iblk2 V c 5 t) _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [HS0]; · iexact HS0
    isplitl [HS1]; · iexact HS1
    iintro ⟨H0, H1, H2, H3, H4, H5, H6, HS0, HS1⟩
    isplitl [Hoth HS0 HS1 Hg]
    · isplitl [Hoth]; · iexact Hoth
      isplitl [HS0]; · iexact HS0
      isplitl [HS1]; · iexact HS1
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexact H6
  · have hz : t.val ≠ 0 := by omega
    have hc1 : ¬ k2_cond1 (grid2.coords t) = 1#1 := fun h => h0 ((hcond2_1 t).mp h)
    by_cases h1 : t.val % 20 = 19
    · have hc2 : k2_cond2 (grid2.coords t) = 1#1 := (hcond2_2 t).mpr h1
      rw [show (dat2 V c).leavesExact 6 t = owns (c : Thread nD τ) (st2_6 t) fullShare ((dat2 V c).after 6 t) from by
        unfold Dat.leavesExact; rw [liveAt2_6_C t hc1 hc2], after2_6]
      rw [show outAt2 V c t = k2_pay1 (carry2 V c t.val t.isLt).1 (carry2 V c t.val t.isLt).2 (iblk2 V c 4 t) (iblk2 V c 5 t) from by
        unfold outAt2; rw [if_pos (by omega)]]
      rw [carry2_later V c t hz]; dsimp only
      rw [PhiS2_castSucc V c t, PhiS2_pos V c _ _ hz]
      iintro ⟨⟨Hoth, HS0, HS1, Hg⟩, Ho, ⟨%d0, H0⟩, ⟨%d1, H1⟩, ⟨%d2, H2⟩, ⟨%d3, H3⟩, ⟨%d4, H4⟩, ⟨%d5, H5⟩, ⟨%d6, H6⟩⟩
      iapply (run2_C c Set.univ (grid2.coords t) _ _ _ _ _ _ _ _ _ _ _ _ _ _ _ _ _ _ hc1 hc2 (iblk2 V c 0 t) (iblk2 V c 1 t) (iblk2 V c 2 t) (iblk2 V c 3 t) (iblk2 V c 4 t) (iblk2 V c 5 t)
        (carry2 V c (t.val - 1) (Nat.lt_of_le_of_lt (Nat.sub_le _ _) t.isLt)).1 (carry2 V c (t.val - 1) (Nat.lt_of_le_of_lt (Nat.sub_le _ _) t.isLt)).2 _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [HS0]; · iexact HS0
      isplitl [HS1]; · iexact HS1
      iintro ⟨H0, H1, H2, H3, H4, H5, H6, HS0, HS1⟩
      isplitl [Hoth HS0 HS1 Hg]
      · isplitl [Hoth]; · iexact Hoth
        isplitl [HS0]; · iexact HS0
        isplitl [HS1]; · iexact HS1
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexact H6
    · have hc2 : ¬ k2_cond2 (grid2.coords t) = 1#1 := fun h => h1 ((hcond2_2 t).mp h)
      rw [Dat.leavesExact_idle (dat2 V c) 6 t (idleAt2_6_B t hc1 hc2) (noFlush2_6_B t hc1 hc2)]
      rw [carry2_later V c t hz]; dsimp only
      rw [PhiS2_castSucc V c t, PhiS2_pos V c _ _ hz]
      iintro ⟨⟨Hoth, HS0, HS1, Hg⟩, Ho, ⟨%d0, H0⟩, ⟨%d1, H1⟩, ⟨%d2, H2⟩, ⟨%d3, H3⟩, ⟨%d4, H4⟩, ⟨%d5, H5⟩, ⟨%d6, H6⟩⟩
      iapply (run2_B c Set.univ (grid2.coords t) _ _ _ _ _ _ _ _ _ _ _ _ _ _ _ _ _ _ hc1 hc2 (iblk2 V c 0 t) (iblk2 V c 1 t) (iblk2 V c 2 t) (iblk2 V c 3 t) (iblk2 V c 4 t) (iblk2 V c 5 t) ((dat2 V c).before 6 t d6)
        (carry2 V c (t.val - 1) (Nat.lt_of_le_of_lt (Nat.sub_le _ _) t.isLt)).1 (carry2 V c (t.val - 1) (Nat.lt_of_le_of_lt (Nat.sub_le _ _) t.isLt)).2 _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [HS0]; · iexact HS0
      isplitl [HS1]; · iexact HS1
      iintro ⟨H0, H1, H2, H3, H4, H5, H6, HS0, HS1⟩
      isplitl [Hoth HS0 HS1 Hg]
      · isplitl [Hoth]; · iexact Hoth
        isplitl [HS0]; · iexact HS0
        isplitl [HS1]; · iexact HS1
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexists d6; iexact H6

/-- The body obligation of region 2 at every point. -/
theorem body_obligation2 (c : Dev nD) : BodyObligation (dat2 (F := F) V c) (defs₀ (F := F)) Variants.none () Set.univ := fun t => by
  rw [bigSep_W2, bigSep_W2]
  exact sound_body2 V c t

/-- What the launch hands the region is the invariant before the first point. -/
theorem hin2 (c : Dev nD) : (Pipeline.ΦA spec2 c : sProp 𝕄) ⊢ (dat2 (F := F) V c).Φ 0 := by
  rw [show (dat2 V c).Φ 0 = PhiS2 V c 0 (Nat.zero_le _) from rfl, PhiS2_zero V c 0 _ rfl]
  try exact Idealize.SL.BI.Entails.refl _

/-- After the last point the invariant gives the launch's form back: the scratch contents are forgotten. -/
theorem hout2 (c : Dev nD) : (dat2 (F := F) V c).Φ (Fin.last cfg2.N) ⊢ (Pipeline.ΦA spec2 c : sProp 𝕄) := by
  rw [show (dat2 V c).Φ (Fin.last cfg2.N) = PhiS2 V c (Fin.last cfg2.N).val (Nat.le_of_lt_succ (Fin.last cfg2.N).isLt) from rfl,
    PhiS2_pos V c _ _ (by rw [Fin.val_last]; have : cfg2.N = 20 := N_2; omega), PhiA2_eq]
  iintro ⟨Hoth, HS0, HS1, Hg⟩
  isplitl [Hoth]; · iexact Hoth
  isplitl [HS0]; · iexists _; iexact HS0
  isplitl [HS1]; · iexists _; iexact HS1
  iexact Hg

end Cert.KernelIdeal.Hand

end
-- ==== Proof.KI.Run.lean ====
/-
  The whole program's run: host stretches and the three kernel regions in order, from the launch memory to the
  return; every weakly fair execution terminates, the result buffer ends at what the last region's write-backs
  leave and every argument array ends as launched.
-/
import proofs.«406043_j45999099740722_2_alg».proof.Proof.KI.Chain
import proofs.«406043_j45999099740722_2_alg».proof.Proof.KI.R0Body
import proofs.«406043_j45999099740722_2_alg».proof.Proof.KI.R1Body
import proofs.«406043_j45999099740722_2_alg».proof.Proof.KI.R2Body
import proofs.«406043_j45999099740722_2_alg».proof.Proof.Gen.KernelIdeal.Regions

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What each stretch and each region leaves alone -/

/-- Through the three first stretches a buffer none of them writes holds its launch contents. -/
theorem W3_of (c : Dev nD) (r : Ref sig .tc) (h0 : r ∉ hostOps0_W) (h1 : r ∉ hostOps0_1_W) (h2 : r ∉ hostOps0_2_W) :
    W3 m c (Proc.devRef .tc r) = m ((c : Thread nD τ).loc r) :=
  (V3_of m c r h2).trans <| (V2_of m c r h1).trans <| (V1_of m c r h0).trans rfl
/-- The stretch between regions 0 and 1 keeps a buffer it does not write. -/
theorem W5_of (c : Dev nD) (r : Ref sig .tc) (h : r ∉ hostOps1_W) : W5 m c (Proc.devRef .tc r) = W4 m c (Proc.devRef .tc r) :=
  StableHlo.after_of_writes_sub hostOps1 _ hostOps1_writes h
/-- The stretch between regions 1 and 2 keeps a buffer it does not write. -/
theorem W7_of (c : Dev nD) (r : Ref sig .tc) (h : r ∉ hostOps2_W) : W7 m c (Proc.devRef .tc r) = W6 m c (Proc.devRef .tc r) :=
  StableHlo.after_of_writes_sub hostOps2 _ hostOps2_writes h
/-- A region's input window's array is never written back: it leaves the region as it entered. -/
theorem W4_in (c : Dev nD) (w : Fin cfg0.W) (hin : (cfg0.win w).isOut = false) :
    W4 m c (Proc.devRef .tc (Pipeline.arrRef spec0 w)) = W3 m c (Proc.devRef .tc (Pipeline.arrRef spec0 w)) :=
  (W4_arr m c w).trans (((dat0 (VE0 m) c).arrAt_in w hin _).trans (A_eq0 (VE0 m) c w))
theorem W6_in (c : Dev nD) (w : Fin cfg1.W) (hin : (cfg1.win w).isOut = false) :
    W6 m c (Proc.devRef .tc (Pipeline.arrRef spec1 w)) = W5 m c (Proc.devRef .tc (Pipeline.arrRef spec1 w)) :=
  (W6_arr m c w).trans (((dat1 (VE1 m) c).arrAt_in w hin _).trans (A_eq1 (VE1 m) c w))
theorem W8_in (c : Dev nD) (w : Fin cfg2.W) (hin : (cfg2.win w).isOut = false) :
    W8 m c (Proc.devRef .tc (Pipeline.arrRef spec2 w)) = W7 m c (Proc.devRef .tc (Pipeline.arrRef spec2 w)) :=
  (W8_arr m c w).trans (((dat2 (VE2 m) c).arrAt_in w hin _).trans (A_eq2 (VE2 m) c w))

/-! ## The arguments end as launched: no stretch writes one; a region reads it through an input window or not at all -/

theorem W8_main_arg0 (c : Dev nD) : W8 m c (Proc.devRef .tc main_arg0) = m ((c : Thread nD τ).loc main_arg0) :=
  (W8_of_ne m c main_arg0 (by decide)).trans <| (W7_of m c main_arg0 (by decide)).trans <| (W6_of_ne m c main_arg0 (by decide)).trans <|
    (W5_of m c main_arg0 (by decide)).trans <| (W4_in m c 0 rfl).trans <| W3_of m c main_arg0 (by decide) (by decide) (by decide)
theorem W8_main_arg1 (c : Dev nD) : W8 m c (Proc.devRef .tc main_arg1) = m ((c : Thread nD τ).loc main_arg1) :=
  (W8_of_ne m c main_arg1 (by decide)).trans <| (W7_of m c main_arg1 (by decide)).trans <| (W6_of_ne m c main_arg1 (by decide)).trans <|
    (W5_of m c main_arg1 (by decide)).trans <| (W4_in m c 1 rfl).trans <| W3_of m c main_arg1 (by decide) (by decide) (by decide)
theorem W8_main_arg2 (c : Dev nD) : W8 m c (Proc.devRef .tc main_arg2) = m ((c : Thread nD τ).loc main_arg2) :=
  (W8_of_ne m c main_arg2 (by decide)).trans <| (W7_of m c main_arg2 (by decide)).trans <| (W6_of_ne m c main_arg2 (by decide)).trans <|
    (W5_of m c main_arg2 (by decide)).trans <| (W4_of_ne m c main_arg2 (by decide)).trans <| W3_of m c main_arg2 (by decide) (by decide) (by decide)
theorem W8_main_arg3 (c : Dev nD) : W8 m c (Proc.devRef .tc main_arg3) = m ((c : Thread nD τ).loc main_arg3) :=
  (W8_of_ne m c main_arg3 (by decide)).trans <| (W7_of m c main_arg3 (by decide)).trans <| (W6_in m c 3 rfl).trans <|
    (W5_of m c main_arg3 (by decide)).trans <| (W4_of_ne m c main_arg3 (by decide)).trans <| W3_of m c main_arg3 (by decide) (by decide) (by decide)
theorem W8_main_arg4 (c : Dev nD) : W8 m c (Proc.devRef .tc main_arg4) = m ((c : Thread nD τ).loc main_arg4) :=
  (W8_of_ne m c main_arg4 (by decide)).trans <| (W7_of m c main_arg4 (by decide)).trans <| (W6_of_ne m c main_arg4 (by decide)).trans <|
    (W5_of m c main_arg4 (by decide)).trans <| (W4_of_ne m c main_arg4 (by decide)).trans <| W3_of m c main_arg4 (by decide) (by decide) (by decide)
theorem W8_main_arg5 (c : Dev nD) : W8 m c (Proc.devRef .tc main_arg5) = m ((c : Thread nD τ).loc main_arg5) :=
  (W8_in m c 4 rfl).trans <| (W7_of m c main_arg5 (by decide)).trans <| (W6_of_ne m c main_arg5 (by decide)).trans <|
    (W5_of m c main_arg5 (by decide)).trans <| (W4_of_ne m c main_arg5 (by decide)).trans <| W3_of m c main_arg5 (by decide) (by decide) (by decide)
theorem W8_main_arg6 (c : Dev nD) : W8 m c (Proc.devRef .tc main_arg6) = m ((c : Thread nD τ).loc main_arg6) :=
  (W8_of_ne m c main_arg6 (by decide)).trans <| (W7_of m c main_arg6 (by decide)).trans <| (W6_of_ne m c main_arg6 (by decide)).trans <|
    (W5_of m c main_arg6 (by decide)).trans <| (W4_of_ne m c main_arg6 (by decide)).trans <| W3_of m c main_arg6 (by decide) (by decide) (by decide)
theorem W8_main_arg7 (c : Dev nD) : W8 m c (Proc.devRef .tc main_arg7) = m ((c : Thread nD τ).loc main_arg7) :=
  (W8_of_ne m c main_arg7 (by decide)).trans <| (W7_of m c main_arg7 (by decide)).trans <| (W6_of_ne m c main_arg7 (by decide)).trans <|
    (W5_of m c main_arg7 (by decide)).trans <| (W4_of_ne m c main_arg7 (by decide)).trans <| W3_of m c main_arg7 (by decide) (by decide) (by decide)
theorem W8_main_arg8 (c : Dev nD) : W8 m c (Proc.devRef .tc main_arg8) = m ((c : Thread nD τ).loc main_arg8) :=
  (W8_of_ne m c main_arg8 (by decide)).trans <| (W7_of m c main_arg8 (by decide)).trans <| (W6_of_ne m c main_arg8 (by decide)).trans <|
    (W5_of m c main_arg8 (by decide)).trans <| (W4_of_ne m c main_arg8 (by decide)).trans <| W3_of m c main_arg8 (by decide) (by decide) (by decide)

/-! ## The exit contents of each region, read at the TensorCore's references -/

abbrev VX0 : (c : Dev nD) → (b : Ref sig .tc) → Buf (Elt F) ((c : Thread nD τ).loc b) := fun c b => W4 m c b
abbrev VX1 : (c : Dev nD) → (b : Ref sig .tc) → Buf (Elt F) ((c : Thread nD τ).loc b) := fun c b => W6 m c b
abbrev VX2 : (c : Dev nD) → (b : Ref sig .tc) → Buf (Elt F) ((c : Thread nD τ).loc b) := fun c b => W8 m c b

/-- At a region's exit each of its arrays holds what the pipeline leaves and every other buffer what it held at entry. -/
theorem hF0 (c : Dev nD) (w : Fin cfg0.W) : (dat0 (VE0 m) c).arrAt w cfg0.N = VX0 m c (Pipeline.arrRef spec0 w) :=
  (W4_arr m c w).symm
theorem hrest0 (c : Dev nD) : ∀ b, b ∉ Finset.univ.image (Pipeline.arrRef spec0) → VX0 m c b = VE0 m c b :=
  fun b hb => W4_of_ne m c b fun w e => hb (Finset.mem_image.mpr ⟨w, Finset.mem_univ _, e⟩)
theorem hF1 (c : Dev nD) (w : Fin cfg1.W) : (dat1 (VE1 m) c).arrAt w cfg1.N = VX1 m c (Pipeline.arrRef spec1 w) :=
  (W6_arr m c w).symm
theorem hrest1 (c : Dev nD) : ∀ b, b ∉ Finset.univ.image (Pipeline.arrRef spec1) → VX1 m c b = VE1 m c b :=
  fun b hb => W6_of_ne m c b fun w e => hb (Finset.mem_image.mpr ⟨w, Finset.mem_univ _, e⟩)
theorem hF2 (c : Dev nD) (w : Fin cfg2.W) : (dat2 (VE2 m) c).arrAt w cfg2.N = VX2 m c (Pipeline.arrRef spec2 w) :=
  (W8_arr m c w).symm
theorem hrest2 (c : Dev nD) : ∀ b, b ∉ Finset.univ.image (Pipeline.arrRef spec2) → VX2 m c b = VE2 m c b :=
  fun b hb => W8_of_ne m c b fun w e => hb (Finset.mem_image.mpr ⟨w, Finset.mem_univ _, e⟩)

/-! ## The proof data family and the thread state -/

/-- Every pipeline's proof data, each at its region's entry contents. -/
def pdats : (p : Fin 3) → (c : Dev nD) → Dat τ (Elt F) Unit ℕ (UR sig nD τ) ℕ (Pipeline.pin (pcfgs (F := F)) adm p) c
  | ⟨0, _⟩ => fun c => dat0 (VE0 m) c
  | ⟨1, _⟩ => fun c => dat1 (VE1 m) c
  | ⟨2, _⟩ => fun c => dat2 (VE2 m) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state and what the
    core owes, which is nothing. -/
abbrev R (c : Dev nD) : sProp 𝕄 := iprop((∃ r, prngReg c r) ∗ ∃ W, owes (c : Thread nD τ) (0 : CellTallies nD τ sig Unit) W)
/-- A stretch of host operations as a segment: over the unscoped references from the contents W, R riding along; it
    ends with those references at the contents after the stretch. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without what the core owes: every unscoped buffer at the last contents, the generator
    register at some state. -/
abbrev Tₙ (c : Dev nD) : sProp 𝕄 := iprop(StableHlo.held (c : Thread nD τ) (Pipeline.ucRefs τ sig) (W8 m c) ∗ ∃ r, prngReg c r)

/-- The generator register and the scoped buffers no window stages are region 2's class invariant, whatever rides between. -/
theorem phiA_in2 (c : Dev nD) (P : sProp 𝕄) :
    iprop((∃ r, prngReg c r) ∗ P ∗ Pipeline.scopedRest (Ix := Unit) (Name := ℕ) (U := UR sig nD τ) (Lvl := ℕ) (Val := Elt F) spec2 c)
      ⊢ (Pipeline.ΦA spec2 c : sProp 𝕄) := by
  unfold Pipeline.ΦA
  iintro ⟨Hp, -, Hr⟩
  isplitl [Hr]; · iexact Hr
  iexact Hp
/-- and back. -/
theorem phiA_out2 (c : Dev nD) :
    (Pipeline.ΦA spec2 c : sProp 𝕄)
      ⊢ iprop((∃ r, prngReg c r) ∗ BI.emp ∗ Pipeline.scopedRest (Ix := Unit) (Name := ℕ) (U := UR sig nD τ) (Lvl := ℕ) (Val := Elt F) spec2 c) := by
  unfold Pipeline.ΦA
  iintro ⟨Hr, Hp⟩
  isplitl [Hp]; · iexact Hp
  isplitr; · iempintro
  iexact Hr
/-- The last region's exit state, regrouped: the buffers and the register on one side, what the core owes on the other. -/
theorem post_last (c : Dev nD) :
    (iprop(StableHlo.held (c : Thread nD τ) (Pipeline.ucRefs τ sig) (W8 m c) ∗ R c) : sProp 𝕄)
      ⊢ iprop(Tₙ m c ∗ ∃ W, owes (c : Thread nD τ) (0 : CellTallies nD τ sig Unit) W) := by
  iintro ⟨Hh, Hp, HO⟩
  isplitl [Hh Hp]
  · isplitl [Hh] <;> iassumption
  iexact HO

/-! ## The regions as segments -/

set_option backward.isDefEq.respectTransparency.types false in
/-- Region 0 over the thread state: entered from every unscoped buffer at the contents before it, left with its
    arrays at what the write-backs leave and every other buffer as entered. Its arrays are split out of the
    unscoped buffers and put back at the exit contents; the generator register goes into the invariant and comes
    back; nothing is owed; the kernel has no semaphore of its own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (VE0 m) c).loose
  hwaits := Pipeline.hwaits_of_owed_zero _ _ _ _ L lv 0 fun _ _ => rfl
  pre c := iprop(StableHlo.held (c : Thread nD τ) (Pipeline.ucRefs τ sig) (W3 m c) ∗ R c)
  post c := iprop(StableHlo.held (c : Thread nD τ) (Pipeline.ucRefs τ sig) (W4 m c) ∗ R c)
  X c := iprop(∃ r, prngReg c r)
  Y c := iprop(∃ r, prngReg c r)
  Z c := Pipeline.unscopedRest (Ix := Unit) (Name := ℕ) (U := UR sig nD τ) (Lvl := ℕ) spec0 c (VE0 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (VE0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (VE0 m c) (VX0 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from every unscoped buffer at the contents before it, left with its
    arrays at what the write-backs leave and every other buffer as entered. Its arrays are split out of the
    unscoped buffers and put back at the exit contents; the generator register goes into the invariant and comes
    back; nothing is owed; the kernel has no semaphore of its own. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (VE1 m) c).loose
  hwaits := Pipeline.hwaits_of_owed_zero _ _ _ _ L lv 1 fun _ _ => rfl
  pre c := iprop(StableHlo.held (c : Thread nD τ) (Pipeline.ucRefs τ sig) (W5 m c) ∗ R c)
  post c := iprop(StableHlo.held (c : Thread nD τ) (Pipeline.ucRefs τ sig) (W6 m c) ∗ R c)
  X c := iprop(∃ r, prngReg c r)
  Y c := iprop(∃ r, prngReg c r)
  Z c := Pipeline.unscopedRest (Ix := Unit) (Name := ℕ) (U := UR sig nD τ) (Lvl := ℕ) spec1 c (VE1 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (VE1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (VE1 m c) (VX1 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 over the thread state: entered from every unscoped buffer at the contents before it, left with its
    arrays at what the write-backs leave and every other buffer as entered. Its arrays are split out of the
    unscoped buffers and put back at the exit contents; the generator register goes into the invariant and comes
    back; nothing is owed; the kernel has no semaphore of its own. -/
def reg2 : Pipeline.RegionSeg (pcfgs (F := F)) adm (pdats m) () defs₀ 𝒱₀ L lv 2 where
  win := launch2.win.to₀
  block_pos := launch2.block_pos
  stage_whole := launch2.stage_whole
  K := PEmpty
  osem k := k.elim
  ho := Pipeline.OwnSemFacts.none _
  hbody c := (body_obligation2 (VE2 m) c).loose
  hwaits := Pipeline.hwaits_of_owed_zero _ _ _ _ L lv 2 fun _ _ => rfl
  pre c := iprop(StableHlo.held (c : Thread nD τ) (Pipeline.ucRefs τ sig) (W7 m c) ∗ R c)
  post c := iprop(StableHlo.held (c : Thread nD τ) (Pipeline.ucRefs τ sig) (W8 m c) ∗ R c)
  X c := iprop(∃ r, prngReg c r)
  Y c := iprop(∃ r, prngReg c r)
  Z c := Pipeline.unscopedRest (Ix := Unit) (Name := ℕ) (U := UR sig nD τ) (Lvl := ℕ) spec2 c (VE2 m c)
  hentry c := by
    rw [Pipeline.ownSems0_none]
    have hsplit := Pipeline.arrays_of_unscopedBufs (p := 2) (pcfgs (F := F)) adm (pdats m) launch2.win launch2.arr_whole c
      ((pdats m 2 c).share_full fun _ => rfl) (VE2 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = (dat2 (VE2 m) c).Φ 0 from rfl]
    exact (phiA_in2 c _).trans (hin2 (VE2 m) c)
  hout c := by
    rw [Pipeline.ownSems0_none, show (pdats m 2 c).Φ (Fin.last _) = (dat2 (VE2 m) c).Φ (Fin.last cfg2.N) from rfl]
    exact (hout2 (VE2 m) c).trans (phiA_out2 c)
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (VE2 m c) (VX2 m c) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The program as segments, and the launch -/

/-- The eight segments in order. -/
abbrev segsW : List (Pipeline.Seg (pcfgs (F := F)) adm (pdats m) () defs₀ 𝒱₀ L lv) :=
  [ .host (hseg hostOps0 hostOps0_sub hostOps0_fresh (W0 m)),
    .host (hseg hostOps0_1 hostOps0_1_sub hostOps0_1_fresh (W1 m)),
    .host (hseg hostOps0_2 hostOps0_2_sub hostOps0_2_fresh (W2 m)),
    .region (reg0 m),
    .host (hseg hostOps1 hostOps1_sub hostOps1_fresh (W4 m)),
    .region (reg1 m),
    .host (hseg hostOps2 hostOps2_sub hostOps2_fresh (W6 m)),
    .region (reg2 m) ]

/-- The program is the run of the segments: it is the chain of its items, and the segments' run is the chain of
    their fragments, which are those items. -/
theorem main_run (c : Dev nD) : main (F := F) c = Pipeline.Seg.run (segsW m) := by
  rw [main_chain c, Pipeline.Seg.run_eq_chain]
  exact congrArg Pipeline.chain (show _ = (segsW m).map Pipeline.Seg.prog from rfl)

set_option backward.isDefEq.respectTransparency.types false in
/-- THE RUN. -/
theorem run_main : θ_run defs (onTc (τ := τ) (main (F := F))) ⟨m, fun _ => 0, ρ⟩ (fun r => ∀ c : Dev nD,
      r.2.mem ((c.tc : Thread nD τ).loc main_v42) = W8 m c (Proc.devRef .tc main_v42)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  Pipeline.θ_run_regions_kit (pcfgs (F := F)) adm (pdats m) () cellOf_inj emb₁ defs₀ 𝒱₀ L lv m ρ main (segsW m)
    (fun c Q => by rw [main_run m c])
    (by simp only [segsW, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl, fun _ => .rfl, fun _ => .rfl, fun _ => .rfl,
      fun c => post_last m c⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m c b)
    (hfin := fun c s' => by
      iintro ⟨⟨Hh, -⟩, HSI⟩
      unfold StableHlo.held
      imodintro
      iapply (pointsTo_read_all (Pipeline.ucRefs τ sig) (fun b => (((c : Thread nD τ)).1, b)) (W8 m c) s')
      isplitl [Hh] <;> iassumption)
    (hQ := fun s h c =>
      ⟨h c _ (mem_uc main_v42 (by decide)),
        (h c _ (mem_uc main_arg0 (by decide))).trans (W8_main_arg0 m c),
        (h c _ (mem_uc main_arg1 (by decide))).trans (W8_main_arg1 m c),
        (h c _ (mem_uc main_arg2 (by decide))).trans (W8_main_arg2 m c),
        (h c _ (mem_uc main_arg3 (by decide))).trans (W8_main_arg3 m c),
        (h c _ (mem_uc main_arg4 (by decide))).trans (W8_main_arg4 m c),
        (h c _ (mem_uc main_arg5 (by decide))).trans (W8_main_arg5 m c),
        (h c _ (mem_uc main_arg6 (by decide))).trans (W8_main_arg6 m c),
        (h c _ (mem_uc main_arg7 (by decide))).trans (W8_main_arg7 m c),
        (h c _ (mem_uc main_arg8 (by decide))).trans (W8_main_arg8 m c)⟩)

end Cert.KernelIdeal.Hand

end
-- ==== Proof.Spec.lean ====
/-
  The mathematics of the two programs, as plain functions over the extended reals, free of any program text.

  A graph convolution layer with symmetric normalisation: for an edge list with source rows src e and target
  rows (an edge's update lands on row i when tgt e i holds), and a per-node factor dinv,

      out i = sum over the edges landing on i of  h (src e) * dinv (src e) * dinv i   (+ bias, clamped at zero).

  One program scales the rows of h by dinv BEFORE the edge sum and the result by dinv AFTER it; the other
  multiplies every edge's message by the product of the two factors, reading the target's factor through the
  edge (gd e). Where an edge lands on row i its target's factor IS dinv i, and over real numbers the factor
  dinv i distributes over the finite edge sum: the two layers agree.

  Pooling: one program sums, tile by tile, a 0/1 indicator times the node's row; the other sums the rows of the
  selected nodes. The closing log-softmax is written x - (m + L) by one and (x - m) - L by the other; equal when
  everything is a real number, which finiteness of the inputs guarantees all the way down.
-/
import Idealize.ShloMosaic.PureOps.Ideal
import Idealize.ShloMosaic.Lib.ValueIdx

noncomputable section

namespace GCN

open Idealize.ShloMosaic

/-- The number of nodes and the number of edges with the self loops. -/
abbrev NN : ℕ := 100000
abbrev MM : ℕ := 1700000

/-- A value is a real number (neither infinity). -/
def IsR (v : EReal) : Prop := v ≠ ⊤ ∧ v ≠ ⊥

/-- A matrix product: row p of u against column q of w. -/
def lin {a b c : ℕ} (u : Fin a → Fin b → EReal) (w : Fin b → Fin c → EReal) (p : Fin a) (q : Fin c) : EReal :=
  ∑ j : Fin b, u p j * w j q

section Layer

variable (dinv : Fin NN → EReal) (src gd : Fin MM → Fin NN)
variable (tgt : Fin MM → Fin NN → Prop) [∀ e i, Decidable (tgt e i)]

/-- The sum, over the edges whose update lands on row i, of the edge's message. -/
def agg (u : Fin MM → Fin 128 → EReal) (i : Fin NN) (q : Fin 128) : EReal :=
  ∑ e ∈ Finset.univ.filter (fun e : Fin MM => tgt e i), u e q

/-- Rows scaled by the node factor (what the first two kernels store). -/
def scaleRows (h : Fin NN → Fin 128 → EReal) (p : Fin NN) (q : Fin 128) : EReal := h p q * dinv p

/-- One layer as the kernel computes it, from ALREADY SCALED rows hs: gather by source, sum over the edges
    landing on the row, scale by the row's factor, add the bias, clamp at zero. -/
def kAct (hs : Fin NN → Fin 128 → EReal) (b : Fin 128 → EReal) (p : Fin NN) (q : Fin 128) : EReal :=
  max (agg tgt (fun e q => hs (src e) q) p q * dinv p + b q) 0

/-- One layer as the reference computes it, from unscaled rows h: each edge's message is the source row times
    the product of the source's and the target's factors. -/
def rAct (h : Fin NN → Fin 128 → EReal) (b : Fin 128 → EReal) (p : Fin NN) (q : Fin 128) : EReal :=
  max (agg tgt (fun e q => h (src e) q * (dinv (src e) * dinv (gd e))) p q + b q) 0

end Layer

section Pool

/-- Node number r of tile t (twenty tiles of 5000 rows). -/
def node (t : Fin 20) (r : Fin 5000) : Fin NN := ⟨t.val * 5000 + r.val, by have := t.isLt; have := r.isLt; show _ < 100000; omega⟩

/-- The per-graph sums as the kernel accumulates them: tile after tile, indicator times row. -/
def kSum (oh : Fin NN → Fin 64 → EReal) (t2 : Fin NN → Fin 128 → EReal) (g : Fin 64) (q : Fin 128) : EReal :=
  ∑ t : Fin 20, ∑ r : Fin 5000, oh (node t r) g * t2 (node t r) q

/-- The per-graph counts as the kernel accumulates them. -/
def kCnt (oh : Fin NN → Fin 64 → EReal) (g : Fin 64) : EReal :=
  ∑ t : Fin 20, ∑ r : Fin 5000, oh (node t r) g

variable (sel : Fin NN → Fin 64 → Prop) [∀ i g, Decidable (sel i g)]

/-- The per-graph sums as the reference computes them: over the nodes of the graph. -/
def rSum (t2 : Fin NN → Fin 128 → EReal) (g : Fin 64) (q : Fin 128) : EReal :=
  ∑ i ∈ Finset.univ.filter (fun i : Fin NN => sel i g), t2 i q

/-- The per-graph counts as the reference computes them. -/
def rCnt (g : Fin 64) : EReal :=
  ∑ _i ∈ Finset.univ.filter (fun i : Fin NN => sel i g), (1 : EReal)

end Pool

section Head

variable (Wfc : Fin 128 → Fin 2 → EReal) (bfc : Fin 2 → EReal)

/-- Mean pooling (the count at least one), then the final linear map. -/
def logits (s : Fin 64 → Fin 128 → EReal) (n : Fin 64 → EReal) (g : Fin 64) (o : Fin 2) : EReal :=
  (∑ f : Fin 128, Ideal.div (s g f) (max (n g) 1) * Wfc f o) + bfc o

/-- The larger of a row's two logits. -/
def mx (l : Fin 64 → Fin 2 → EReal) (g : Fin 64) : EReal := max (l g 0) (l g 1)

/-- The log-softmax as the kernel writes it. -/
def kHead (l : Fin 64 → Fin 2 → EReal) (g : Fin 64) (o : Fin 2) : EReal :=
  l g o - (mx l g + Ideal.log (∑ o' : Fin 2, Ideal.exp (l g o' - mx l g)))

/-- The log-softmax as the reference writes it. -/
def rHead (l : Fin 64 → Fin 2 → EReal) (g : Fin 64) (o : Fin 2) : EReal :=
  (l g o - mx l g) - Ideal.log (∑ o' : Fin 2, Ideal.exp (l g o' - mx l g))

end Head

section Net

variable (x : Fin NN → Fin 64 → EReal) (W1 : Fin 64 → Fin 128 → EReal) (b1 : Fin 128 → EReal)
  (W2 : Fin 128 → Fin 128 → EReal) (b2 : Fin 128 → EReal) (Wfc : Fin 128 → Fin 2 → EReal) (bfc : Fin 2 → EReal)
variable (dinv : Fin NN → EReal) (src gd : Fin MM → Fin NN)
variable (tgt : Fin MM → Fin NN → Prop) [∀ e i, Decidable (tgt e i)]
variable (oh : Fin NN → Fin 64 → EReal) (sel : Fin NN → Fin 64 → Prop) [∀ i g, Decidable (sel i g)]

/-- The kernel's network: after the first layer and after the second, then the head. -/
def kT1 : Fin NN → Fin 128 → EReal := kAct dinv src tgt (scaleRows dinv (lin x W1)) b1
def kT2 : Fin NN → Fin 128 → EReal := kAct dinv src tgt (scaleRows dinv (lin (kT1 x W1 b1 dinv src tgt) W2)) b2
def kOut : Fin 64 → Fin 2 → EReal :=
  kHead (logits Wfc bfc (kSum oh (kT2 x W1 b1 W2 b2 dinv src tgt)) (kCnt oh))

/-- The reference's network. -/
def rT1 : Fin NN → Fin 128 → EReal := rAct dinv src gd tgt (lin x W1) b1
def rT2 : Fin NN → Fin 128 → EReal := rAct dinv src gd tgt (lin (rT1 x W1 b1 dinv src gd tgt) W2) b2
def rOut : Fin 64 → Fin 2 → EReal :=
  rHead (logits Wfc bfc (rSum sel (rT2 x W1 b1 W2 b2 dinv src gd tgt)) (rCnt sel))

end Net

end GCN

end
-- ==== Proof.Cur.lean ====
/-
  Reading arrays as curried functions of their coordinates, and the index data of a graph read off integer
  arrays: the row a gather reads for an edge, whether an edge's update lands on a row, whether a node
  belongs to a graph.
-/
import proofs.«406043_j45999099740722_2_alg».proof.Proof.Spec

noncomputable section

namespace GCN

open Idealize.ShloMosaic Idealize.ShloMosaic.ValueIdx

/-- A rank-2 array as a function of its row and its column. -/
def cur2 {a b : ℕ} (v : (⟨2, ![a, b]⟩ : Shape).Idx → EReal) : Fin a → Fin b → EReal := fun p q => v (ix2 p q)
/-- A rank-1 array as a function of its position. -/
def cur1 {a : ℕ} (v : (⟨1, ![a]⟩ : Shape).Idx → EReal) : Fin a → EReal := fun p => v (ix1 p)
/-- A one-column array as a function of its row. -/
def curCol {a : ℕ} (v : (⟨2, ![a, 1]⟩ : Shape).Idx → EReal) : Fin a → EReal := fun p => v (ix2 p 0)
/-- A one-row array as a function of its column. -/
def curRow {b : ℕ} (v : (⟨2, ![1, b]⟩ : Shape).Idx → EReal) : Fin b → EReal := fun q => v (ix2 0 q)

theorem cur2_apply {a b : ℕ} (v : (⟨2, ![a, b]⟩ : Shape).Idx → EReal) (p : Fin a) (q : Fin b) : cur2 v p q = v (ix2 p q) := rfl
theorem cur1_apply {a : ℕ} (v : (⟨1, ![a]⟩ : Shape).Idx → EReal) (p : Fin a) : cur1 v p = v (ix1 p) := rfl
theorem curCol_apply {a : ℕ} (v : (⟨2, ![a, 1]⟩ : Shape).Idx → EReal) (p : Fin a) : curCol v p = v (ix2 p 0) := rfl
theorem curRow_apply {b : ℕ} (v : (⟨2, ![1, b]⟩ : Shape).Idx → EReal) (q : Fin b) : curRow v q = v (ix2 0 q) := rfl

/-- The operand row a gather of 100000 rows reads for the start word v: v read signed, a negative value as row 0,
    clamped to the last row. -/
def rowOf (v : BitVec 32) : Fin NN := ⟨min v.toInt.toNat 99999, by show _ < 100000; omega⟩

/-- The row the gather reads for each edge, from the column of start words. -/
def srcOf (idx : (⟨2, ![1700000, 1]⟩ : Shape).Idx → BitVec 32) : Fin MM → Fin NN := fun e => rowOf (idx (ix2 e 0))
/-- Edge e's update lands on row i: its scatter word, read signed, is i (a word outside the rows lands nowhere). -/
def tgtOf (idx : (⟨2, ![1700000, 1]⟩ : Shape).Idx → BitVec 32) : Fin MM → Fin NN → Prop :=
  fun e i => (idx (ix2 e 0)).toInt = (i.val : ℤ)
instance (idx : (⟨2, ![1700000, 1]⟩ : Shape).Idx → BitVec 32) (e : Fin MM) (i : Fin NN) : Decidable (tgtOf idx e i) := by
  unfold tgtOf; infer_instance
/-- Node i belongs to graph g: its graph word, read signed, is g. -/
def selOf (b : (⟨2, ![100000, 1]⟩ : Shape).Idx → BitVec 32) : Fin NN → Fin 64 → Prop :=
  fun i g => (b (ix2 i 0)).toInt = (g.val : ℤ)
instance (b : (⟨2, ![100000, 1]⟩ : Shape).Idx → BitVec 32) (i : Fin NN) (g : Fin 64) : Decidable (selOf b i g) := by
  unfold selOf; infer_instance
/-- The 0/1 indicator of the same, as an extended real. -/
def ohOf (b : (⟨2, ![100000, 1]⟩ : Shape).Idx → BitVec 32) : Fin NN → Fin 64 → EReal :=
  fun i g => if selOf b i g then 1 else 0

end GCN

end
-- ==== Proof.KI.Val01.lean ====
/-
  What regions 0 and 1 leave in their output arrays, entry by entry, over the extended reals.
-/
import proofs.«406043_j45999099740722_2_alg».proof.Proof.KI.R0Def
import proofs.«406043_j45999099740722_2_alg».proof.Proof.KI.R1Def
import proofs.«406043_j45999099740722_2_alg».proof.Proof.Cur
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Hand

open Idealize.ShloMosaic Idealize.ShloMosaic.TcCoe Idealize.ShloMosaic.ValueIdx
open Idealize.SL Idealize.SL.Sem
open Idealize.ShloMosaic.Pipeline (Dat)
open Cert.KernelIdeal Cert.KernelIdeal.Gen

variable (V : (c : Dev nD) → (b : Ref sig .tc) → Buf (Elt Ideal) ((c : Thread nD τ).loc b))

/-- The arrays a region finds at its entry, at their literal types. -/
abbrev eX (c : Dev nD) : S100000x64.Idx → EReal := V c main_arg0
abbrev eW1 (c : Dev nD) : S64x128.Idx → EReal := V c main_arg1
abbrev eW2 (c : Dev nD) : S128x128.Idx → EReal := V c main_arg3
abbrev eD (c : Dev nD) : S100000x1.Idx → EReal := V c main_v15
abbrev eAgg1 (c : Dev nD) : S100000x128.Idx → EReal := V c main_v26
abbrev eB1 (c : Dev nD) : S1x128.Idx → EReal := V c main_v27
/-- The two regions' output arrays after their runs, at their literal type. -/
abbrev oH1 (c : Dev nD) : S100000x128.Idx → EReal := (dat0 (F := Ideal) V c).arrAt 3 cfg0.N
abbrev oH2 (c : Dev nD) : S100000x128.Idx → EReal := (dat1 (F := Ideal) V c).arrAt 4 cfg1.N

theorem lhs_D0_0 (i : S5000x128.Idx) (q : dot_S5000x64_S64x128_S5000x128_1_0_0_1_n_n.contr.Idx) : (dot_S5000x64_S64x128_S5000x128_1_0_0_1_n_n.lhsIdx i q 0).val = (i 0).val := by
  unfold DotDims.lhsIdx
  rw [dif_neg (show ¬(0 : Fin S5000x64.rank) ∈ dot_S5000x64_S64x128_S5000x128_1_0_0_1_n_n.lhsBatch by decide), dif_pos (show (0 : Fin S5000x64.rank) ∈ dot_S5000x64_S64x128_S5000x128_1_0_0_1_n_n.lhsNonContracting by decide)]
  rfl
theorem lhs_D0_1 (i : S5000x128.Idx) (q : dot_S5000x64_S64x128_S5000x128_1_0_0_1_n_n.contr.Idx) : (dot_S5000x64_S64x128_S5000x128_1_0_0_1_n_n.lhsIdx i q 1).val = (q ⟨0, by decide⟩).val :=
  dot_S5000x64_S64x128_S5000x128_1_0_0_1_n_n.lhsIdx_val_of_single rfl i q
theorem rhs_D0_0 (i : S5000x128.Idx) (q : dot_S5000x64_S64x128_S5000x128_1_0_0_1_n_n.contr.Idx) : (dot_S5000x64_S64x128_S5000x128_1_0_0_1_n_n.rhsIdx i q 0).val = (q ⟨0, by decide⟩).val :=
  dot_S5000x64_S64x128_S5000x128_1_0_0_1_n_n.rhsIdx_val_of_single rfl i q
theorem rhs_D0_1 (i : S5000x128.Idx) (q : dot_S5000x64_S64x128_S5000x128_1_0_0_1_n_n.contr.Idx) : (dot_S5000x64_S64x128_S5000x128_1_0_0_1_n_n.rhsIdx i q 1).val = (i 1).val := by
  unfold DotDims.rhsIdx
  rw [dif_neg (show ¬(1 : Fin S64x128.rank) ∈ dot_S5000x64_S64x128_S5000x128_1_0_0_1_n_n.rhsBatch by decide), dif_pos (show (1 : Fin S64x128.rank) ∈ dot_S5000x64_S64x128_S5000x128_1_0_0_1_n_n.rhsNonContracting by decide)]
  rfl

/-- The product of a 5000 x 64 block with a 64 x 128 block into zero, read at an entry. -/
theorem mm0_apply (x0 : FVec Ideal S5000x64 .f32) (x1 : FVec Ideal S64x128 .f32) (r : Fin 5000) (q : Fin 128) :
    matmul (F := Ideal) dot_S5000x64_S64x128_S5000x128_1_0_0_1_n_n none x0 x1 (constant S5000x128 .f32 0x00000000#32) (ix2 r q) = ∑ k : Fin 64, x0 (ix2 r k) * x1 (ix2 k q) := by
  simp only [matmul]
  rw [Ideal.matmul_constant_zero_apply, ← Equiv.sum_comp (ValueIdx.contrEquiv1 dot_S5000x64_S64x128_S5000x128_1_0_0_1_n_n 64 rfl rfl).symm]
  refine Finset.sum_congr rfl fun k _ => ?_
  have hk := ValueIdx.contrEquiv1_symm_val dot_S5000x64_S64x128_S5000x128_1_0_0_1_n_n 64 rfl rfl k
  have el : dot_S5000x64_S64x128_S5000x128_1_0_0_1_n_n.lhsIdx (ix2 r q) ((ValueIdx.contrEquiv1 dot_S5000x64_S64x128_S5000x128_1_0_0_1_n_n 64 rfl rfl).symm k) = ix2 r k := funext fun a => Fin.ext (by
    match a with
    | ⟨0, _⟩ => exact lhs_D0_0 _ _
    | ⟨1, _⟩ => exact (lhs_D0_1 _ _).trans hk)
  have er : dot_S5000x64_S64x128_S5000x128_1_0_0_1_n_n.rhsIdx (ix2 r q) ((ValueIdx.contrEquiv1 dot_S5000x64_S64x128_S5000x128_1_0_0_1_n_n 64 rfl rfl).symm k) = ix2 k q := funext fun a => Fin.ext (by
    match a with
    | ⟨0, _⟩ => exact (rhs_D0_0 _ _).trans hk
    | ⟨1, _⟩ => exact rhs_D0_1 _ _)
  rw [el, er]

/-- The factor column broadcast along the rows, read at an entry. -/
theorem bc_col_apply (x2 : FVec Ideal S5000x1 .f32) (r : Fin 5000) (q : Fin 128) :
    broadcastTo S5000x128 x2 broadcasts_S5000x1_S5000x128 (ix2 r q) = x2 (ix2 r 0) := by
  refine broadcastTo_apply x2 broadcasts_S5000x1_S5000x128 (ix2 r q) (ix2 r 0) fun a => ?_
  match a with
  | ⟨0, _⟩ => rfl
  | ⟨1, _⟩ => rfl

/-- Region 0's stored block at an entry: the row of the x block against the column of W1, times the row's factor. -/
theorem r0pay_apply (x0 : Vec Ideal S5000x64 .f32) (x1 : Vec Ideal S64x128 .f32) (x2 : Vec Ideal S5000x1 .f32)
    (r : Fin 5000) (q : Fin 128) :
    k0_pay1 x0 x1 x2 (ix2 r q) = (∑ k : Fin 64, x0 (ix2 r k) * x1 (ix2 k q)) * x2 (ix2 r 0) := by
  unfold k0_pay1
  show mulf (F := Ideal) (matmul (F := Ideal) dot_S5000x64_S64x128_S5000x128_1_0_0_1_n_n none x0 x1 (constant S5000x128 .f32 0x00000000#32))
      (broadcastTo S5000x128 (shapeCast S5000x1 (x2 : FVec Ideal S5000x1 .f32) shapeCasts_S5000x1_S5000x1) broadcasts_S5000x1_S5000x128) (ix2 r q) = _
  rw [mulf_apply, shapeCast_self, mm0_apply, bc_col_apply]

theorem lhs_D1_0 (i : S5000x128.Idx) (q : dot_S5000x128_S128x128_S5000x128_1_0_0_1_n_n.contr.Idx) : (dot_S5000x128_S128x128_S5000x128_1_0_0_1_n_n.lhsIdx i q 0).val = (i 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
theorem lhs_D1_1 (i : S5000x128.Idx) (q : dot_S5000x128_S128x128_S5000x128_1_0_0_1_n_n.contr.Idx) : (dot_S5000x128_S128x128_S5000x128_1_0_0_1_n_n.lhsIdx i q 1).val = (q ⟨0, by decide⟩).val :=
  dot_S5000x128_S128x128_S5000x128_1_0_0_1_n_n.lhsIdx_val_of_single rfl i q
theorem rhs_D1_0 (i : S5000x128.Idx) (q : dot_S5000x128_S128x128_S5000x128_1_0_0_1_n_n.contr.Idx) : (dot_S5000x128_S128x128_S5000x128_1_0_0_1_n_n.rhsIdx i q 0).val = (q ⟨0, by decide⟩).val :=
  dot_S5000x128_S128x128_S5000x128_1_0_0_1_n_n.rhsIdx_val_of_single rfl i q
theorem rhs_D1_1 (i : S5000x128.Idx) (q : dot_S5000x128_S128x128_S5000x128_1_0_0_1_n_n.contr.Idx) : (dot_S5000x128_S128x128_S5000x128_1_0_0_1_n_n.rhsIdx i q 1).val = (i 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-- The product of a 5000 x 128 block with a 128 x 128 block into zero, read at an entry. -/
theorem mm1_apply (x0 : FVec Ideal S5000x128 .f32) (x1 : FVec Ideal S128x128 .f32) (r : Fin 5000) (q : Fin 128) :
    matmul (F := Ideal) dot_S5000x128_S128x128_S5000x128_1_0_0_1_n_n none x0 x1 (constant S5000x128 .f32 0x00000000#32) (ix2 r q) = ∑ k : Fin 128, x0 (ix2 r k) * x1 (ix2 k q) := by
  simp only [matmul]
  rw [Ideal.matmul_constant_zero_apply, ← Equiv.sum_comp (ValueIdx.contrEquiv1 dot_S5000x128_S128x128_S5000x128_1_0_0_1_n_n 128 rfl rfl).symm]
  refine Finset.sum_congr rfl fun k _ => ?_
  have hk := ValueIdx.contrEquiv1_symm_val dot_S5000x128_S128x128_S5000x128_1_0_0_1_n_n 128 rfl rfl k
  have el : dot_S5000x128_S128x128_S5000x128_1_0_0_1_n_n.lhsIdx (ix2 r q) ((ValueIdx.contrEquiv1 dot_S5000x128_S128x128_S5000x128_1_0_0_1_n_n 128 rfl rfl).symm k) = ix2 r k := funext fun a => Fin.ext (by
    match a with
    | ⟨0, _⟩ => exact lhs_D1_0 _ _
    | ⟨1, _⟩ => exact (lhs_D1_1 _ _).trans hk)
  have er : dot_S5000x128_S128x128_S5000x128_1_0_0_1_n_n.rhsIdx (ix2 r q) ((ValueIdx.contrEquiv1 dot_S5000x128_S128x128_S5000x128_1_0_0_1_n_n 128 rfl rfl).symm k) = ix2 k q := funext fun a => Fin.ext (by
    match a with
    | ⟨0, _⟩ => exact (rhs_D1_0 _ _).trans hk
    | ⟨1, _⟩ => exact rhs_D1_1 _ _)
  rw [el, er]

/-- The bias row broadcast down the rows, read at an entry. -/
theorem bc_row_apply (x : FVec Ideal S1x128 .f32) (r : Fin 5000) (q : Fin 128) :
    broadcastTo S5000x128 x broadcasts_S1x128_S5000x128 (ix2 r q) = x (ix2 0 q) := by
  refine broadcastTo_apply x broadcasts_S1x128_S5000x128 (ix2 r q) (ix2 0 q) fun a => ?_
  match a with
  | ⟨0, _⟩ => rfl
  | ⟨1, _⟩ => rfl

/-- The activation block of region 1 at an entry: the edge sum times the row's factor, plus the bias, clamped at zero. -/
def act1 (x0 : Vec Ideal S5000x128 .f32) (x1 : Vec Ideal S5000x1 .f32) (x2 : Vec Ideal S1x128 .f32) : FVec Ideal S5000x128 .f32 :=
  maximumf (F := Ideal)
    (addf (F := Ideal)
      (mulf (F := Ideal) (shapeCast S5000x128 (x0 : FVec Ideal S5000x128 .f32) shapeCasts_S5000x128_S5000x128)
        (broadcastTo S5000x128 (shapeCast S5000x1 (x1 : FVec Ideal S5000x1 .f32) shapeCasts_S5000x1_S5000x1) broadcasts_S5000x1_S5000x128))
      (broadcastTo S5000x128 (shapeCast S1x128 (x2 : FVec Ideal S1x128 .f32) shapeCasts_S1x128_S1x128) broadcasts_S1x128_S5000x128))
    (broadcast S5000x128 (Scalar.ofBits (F := Ideal) .f32 0x00000000#32))

theorem act1_apply (x0 : Vec Ideal S5000x128 .f32) (x1 : Vec Ideal S5000x1 .f32) (x2 : Vec Ideal S1x128 .f32) (r : Fin 5000) (k : Fin 128) :
    act1 x0 x1 x2 (ix2 r k) = max (x0 (ix2 r k) * x1 (ix2 r 0) + x2 (ix2 0 k)) 0 := by
  unfold act1
  rw [maximumf_apply, addf_apply, mulf_apply, shapeCast_self, shapeCast_self, shapeCast_self, bc_col_apply, bc_row_apply, broadcast_apply]
  show max _ (Ideal.ofBits .f32 0x00000000#32) = _
  rw [Ideal.ofBits_zero_f32]

/-- Region 1's stored block at an entry: the activation's row against the column of W2, times the row's factor. -/
theorem r1pay_apply (x0 : Vec Ideal S5000x128 .f32) (x1 : Vec Ideal S5000x1 .f32) (x2 : Vec Ideal S1x128 .f32) (x3 : Vec Ideal S128x128 .f32)
    (x4 : Vec Ideal S5000x1 .f32) (r : Fin 5000) (q : Fin 128) :
    k1_pay1 x0 x1 x2 x3 x4 (ix2 r q)
      = (∑ k : Fin 128, max (x0 (ix2 r k) * x1 (ix2 r 0) + x2 (ix2 0 k)) 0 * x3 (ix2 k q)) * x4 (ix2 r 0) := by
  unfold k1_pay1
  show mulf (F := Ideal) (matmul (F := Ideal) dot_S5000x128_S128x128_S5000x128_1_0_0_1_n_n none (act1 x0 x1 x2) x3 (constant S5000x128 .f32 0x00000000#32))
      (broadcastTo S5000x128 (shapeCast S5000x1 (x4 : FVec Ideal S5000x1 .f32) shapeCasts_S5000x1_S5000x1) broadcasts_S5000x1_S5000x128) (ix2 r q) = _
  rw [mulf_apply, shapeCast_self, mm1_apply, bc_col_apply]
  refine congrArg (· * _) (Finset.sum_congr rfl fun k _ => ?_)
  rw [act1_apply]

theorem hzcol : (![0, 0] : Fin 2 → Nat) = fun _ => 0 := funext fun a => by fin_cases a <;> rfl

/-- Region 0's index maps over its 20 points: the row blocks move with the point, W1 stays. -/
theorem idx_facts0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0 :=
  (by decide +kernel : ∀ t : Fin grid0.N, _)

/-- Point t's block of x is rows 5000 t … of x. -/
theorem blk0_0 (c : Dev nD) (t : Fin cfg0.N) (r : Fin 5000) (k : Fin 64) (P : Fin 100000) (hP : P.val = t.val * 5000 + r.val) :
    (iblk0 V c 0 t : Vec Ideal S5000x64 .f32) (ix2 r k) = (V c main_arg0 : S100000x64.Idx → EReal) (ix2 P k) := by
  obtain ⟨e0, e1, -⟩ := idx_facts0 t
  unfold iblk0
  rw [View.read_apply]
  show (V c main_arg0 : S100000x64.Idx → EReal) _ = (V c main_arg0 : S100000x64.Idx → EReal) _
  congr 1
  funext a
  apply Fin.ext
  match a with
  | ⟨0, _⟩ => show win0_0.index t (0 : Fin 2) * 5000 + 1 * r.val = P.val; rw [e0, hP]; omega
  | ⟨1, _⟩ => show win0_0.index t (1 : Fin 2) * 64 + 1 * k.val = k.val; rw [e1]; omega

/-- Every point's block of W1 is W1. -/
theorem blk0_1 (c : Dev nD) (t : Fin cfg0.N) (k : Fin 64) (q : Fin 128) :
    (iblk0 V c 1 t : Vec Ideal S64x128 .f32) (ix2 k q) = (V c main_arg1 : S64x128.Idx → EReal) (ix2 k q) := by
  obtain ⟨-, -, e0, e1, -⟩ := idx_facts0 t
  unfold iblk0
  rw [View.read_apply]
  show (V c main_arg1 : S64x128.Idx → EReal) _ = (V c main_arg1 : S64x128.Idx → EReal) _
  congr 1
  funext a
  apply Fin.ext
  match a with
  | ⟨0, _⟩ => show win0_1.index t (0 : Fin 2) * 64 + 1 * k.val = k.val; rw [e0]; omega
  | ⟨1, _⟩ => show win0_1.index t (1 : Fin 2) * 128 + 1 * q.val = q.val; rw [e1]; omega

/-- Point t's block of the factor column is rows 5000 t … of it. -/
theorem blk0_2 (c : Dev nD) (t : Fin cfg0.N) (r : Fin 5000) (P : Fin 100000) (hP : P.val = t.val * 5000 + r.val) :
    (iblk0 V c 2 t : Vec Ideal S5000x1 .f32) (ix2 r 0) = (V c main_v15 : S100000x1.Idx → EReal) (ix2 P 0) := by
  obtain ⟨-, -, -, -, e0, e1, -⟩ := idx_facts0 t
  unfold iblk0
  rw [View.read_apply]
  show (V c main_v15 : S100000x1.Idx → EReal) _ = (V c main_v15 : S100000x1.Idx → EReal) _
  congr 1
  funext a
  apply Fin.ext
  match a with
  | ⟨0, _⟩ => show win0_2.index t (0 : Fin 2) * 5000 + 1 * r.val = P.val; rw [e0, hP]; omega
  | ⟨1, _⟩ => show win0_2.index t (1 : Fin 2) * 1 + 1 * 0 = 0; rw [e1]

/-- Where point t's output block sits in the output array. -/
theorem emb0_3 (t : Fin cfg0.N) (r : Fin 5000) (q : Fin 128) (P : Fin 100000) (hP : P.val = t.val * 5000 + r.val) :
    (((cfg0.win 3).blk t).view.emb (ix2 r q) : S100000x128.Idx) = ix2 P q := by
  obtain ⟨-, -, -, -, -, -, e0, e1⟩ := idx_facts0 t
  funext a
  apply Fin.ext
  match a with
  | ⟨0, _⟩ => show win0_3.index t (0 : Fin 2) * 5000 + 1 * r.val = P.val; rw [e0, hP]; omega
  | ⟨1, _⟩ => show win0_3.index t (1 : Fin 2) * 128 + 1 * q.val = q.val; rw [e1]; omega

/-- Region 0's output array as one function of the entry arrays. -/
def G0 (c : Dev nD) : S100000x128.Idx → EReal := fun i =>
  (∑ k : Fin 64, eX V c (ix2 (i 0) k) * eW1 V c (ix2 k (i 1))) * eD V c (ix2 (i 0) 0)

/-- What point t writes back is its block of that function. -/
theorem flushed0_eq (c : Dev nD) (t : Fin cfg0.N) :
    (dat0 (F := Ideal) V c).flushed 3 t = ((cfg0.win 3).blk t).view.read (Elt Ideal) (G0 V c) := by
  show (cfg0.win 3).cut (grid0.coords t) ((dat0 (F := Ideal) V c).after 3 t) = _
  rw [after0_3]
  unfold out0_3
  rw [View.canon_unit_zero hzcol]
  simp only [View.ld_unit_zero (S := S5000x64) hzcol, View.ld_unit_zero (S := S64x128) hzcol, View.ld_unit_zero (S := S5000x1) hzcol]
  funext j
  obtain ⟨r, q, rfl⟩ : ∃ (r : Fin 5000) (q : Fin 128), j = ix2 r q := ⟨j 0, j 1, eq_ix2 j⟩
  have hr : r.val < 5000 := r.isLt
  have ht : t.val < 20 := t.isLt
  let P : Fin 100000 := ⟨t.val * 5000 + r.val, by omega⟩
  show k0_pay1 (iblk0 V c 0 t) (iblk0 V c 1 t) (iblk0 V c 2 t) (ix2 r q) = G0 V c (((cfg0.win 3).blk t).view.emb (ix2 r q))
  rw [r0pay_apply, emb0_3 t r q P rfl, blk0_2 V c t r P rfl]
  unfold G0
  refine congrArg (· * _) (Finset.sum_congr rfl fun k _ => ?_)
  rw [blk0_0 V c t r k P rfl, blk0_1 V c t k q]

/-- An index of the output array is in point t's block iff each coordinate is in the block's range. -/
theorem mem_blk0_3 (t : Fin cfg0.N) (i : S100000x128.Idx) :
    i ∈ ((cfg0.win 3).blk t).view.set ↔ ∀ a : Fin 2, win0_3.index t a * S5000x128.size a ≤ (i a).val ∧ (i a).val < win0_3.index t a * S5000x128.size a + S5000x128.size a := by
  show i ∈ ((View.whole main_v16).slice (win0_3.rect t)).set ↔ _
  rw [View.set_slice_whole, Rect.mem_set_unit]
  exact Iff.rfl

/-- Every row of the output array is in the block of the point numbered by the row's quotient by 5000. -/
theorem cover0 (i : S100000x128.Idx) : ∃ t : Fin cfg0.N, (cfg0.win 3).flush t = true ∧ i ∈ ((cfg0.win 3).blk t).view.set := by
  have hi0 : (i 0).val < 100000 := (i 0).isLt
  have hi1 : (i 1).val < 128 := (i 1).isLt
  have hN : cfg0.N = 20 := by decide
  let t : Fin cfg0.N := ⟨(i 0).val / 5000, by rw [hN]; omega⟩
  refine ⟨t, flush0_3 t, ?_⟩
  rw [mem_blk0_3]
  obtain ⟨-, -, -, -, -, -, e0, e1⟩ := idx_facts0 t
  intro a
  match a with
  | ⟨0, _⟩ =>
    show win0_3.index t (0 : Fin 2) * 5000 ≤ (i 0).val ∧ (i 0).val < win0_3.index t (0 : Fin 2) * 5000 + 5000
    rw [e0]; show (i 0).val / 5000 * 5000 ≤ (i 0).val ∧ (i 0).val < (i 0).val / 5000 * 5000 + 5000; omega
  | ⟨1, _⟩ =>
    show win0_3.index t (1 : Fin 2) * 128 ≤ (i 1).val ∧ (i 1).val < win0_3.index t (1 : Fin 2) * 128 + 128
    rw [e1]; omega

/-- Region 0's output array after its run. -/
theorem final0 (c : Dev nD) : (dat0 (F := Ideal) V c).arrAt 3 cfg0.N = G0 V c :=
  (dat0 (F := Ideal) V c).arrAt_eq_of_cover 3 (G0 V c) (fun t _ => flushed0_eq V c t) cover0

/-- Region 0's output array: row p of x against column q of W1, times row p's factor. -/
theorem val0 (c : Dev nD) (p : Fin 100000) (q : Fin 128) :
    oH1 V c (ix2 p q) = GCN.lin (GCN.cur2 (eX V c)) (GCN.cur2 (eW1 V c)) p q * eD V c (ix2 p 0) := by
  show (dat0 (F := Ideal) V c).arrAt 3 cfg0.N (ix2 p q) = _
  rw [final0 V c]
  unfold G0 GCN.lin GCN.cur2
  rfl

/-- Region 1's index maps over its 20 points: the row blocks move with the point, the bias row and W2 stay. -/
theorem idx_facts1 : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0 :=
  (by decide +kernel : ∀ t : Fin grid1.N, _)

/-- Point t's block of the edge sums is rows 5000 t … of them. -/
theorem blk1_0 (c : Dev nD) (t : Fin cfg1.N) (r : Fin 5000) (k : Fin 128) (P : Fin 100000) (hP : P.val = t.val * 5000 + r.val) :
    (iblk1 V c 0 t : Vec Ideal S5000x128 .f32) (ix2 r k) = eAgg1 V c (ix2 P k) := by
  obtain ⟨e0, e1, -⟩ := idx_facts1 t
  unfold iblk1
  rw [View.read_apply]
  show eAgg1 V c _ = eAgg1 V c _
  congr 1
  funext a
  apply Fin.ext
  match a with
  | ⟨0, _⟩ => show win1_0.index t (0 : Fin 2) * 5000 + 1 * r.val = P.val; rw [e0, hP]; omega
  | ⟨1, _⟩ => show win1_0.index t (1 : Fin 2) * 128 + 1 * k.val = k.val; rw [e1]; omega

/-- Point t's block of the factor column is rows 5000 t … of it. -/
theorem blk1_1 (c : Dev nD) (t : Fin cfg1.N) (r : Fin 5000) (P : Fin 100000) (hP : P.val = t.val * 5000 + r.val) :
    (iblk1 V c 1 t : Vec Ideal S5000x1 .f32) (ix2 r 0) = eD V c (ix2 P 0) := by
  obtain ⟨-, -, e0, e1, -⟩ := idx_facts1 t
  unfold iblk1
  rw [View.read_apply]
  show eD V c _ = eD V c _
  congr 1
  funext a
  apply Fin.ext
  match a with
  | ⟨0, _⟩ => show win1_1.index t (0 : Fin 2) * 5000 + 1 * r.val = P.val; rw [e0, hP]; omega
  | ⟨1, _⟩ => show win1_1.index t (1 : Fin 2) * 1 + 1 * 0 = 0; rw [e1]

/-- Every point's block of the bias row is the bias row. -/
theorem blk1_2 (c : Dev nD) (t : Fin cfg1.N) (k : Fin 128) :
    (iblk1 V c 2 t : Vec Ideal S1x128 .f32) (ix2 0 k) = eB1 V c (ix2 0 k) := by
  obtain ⟨-, -, -, -, e0, e1, -⟩ := idx_facts1 t
  unfold iblk1
  rw [View.read_apply]
  show eB1 V c _ = eB1 V c _
  congr 1
  funext a
  apply Fin.ext
  match a with
  | ⟨0, _⟩ => show win1_2.index t (0 : Fin 2) * 1 + 1 * 0 = 0; rw [e0]
  | ⟨1, _⟩ => show win1_2.index t (1 : Fin 2) * 128 + 1 * k.val = k.val; rw [e1]; omega

/-- Every point's block of W2 is W2. -/
theorem blk1_3 (c : Dev nD) (t : Fin cfg1.N) (k : Fin 128) (q : Fin 128) :
    (iblk1 V c 3 t : Vec Ideal S128x128 .f32) (ix2 k q) = eW2 V c (ix2 k q) := by
  obtain ⟨-, -, -, -, -, -, e0, e1, -⟩ := idx_facts1 t
  unfold iblk1
  rw [View.read_apply]
  show eW2 V c _ = eW2 V c _
  congr 1
  funext a
  apply Fin.ext
  match a with
  | ⟨0, _⟩ => show win1_3.index t (0 : Fin 2) * 128 + 1 * k.val = k.val; rw [e0]; omega
  | ⟨1, _⟩ => show win1_3.index t (1 : Fin 2) * 128 + 1 * q.val = q.val; rw [e1]; omega

/-- Where point t's output block sits in the output array. -/
theorem emb1_4 (t : Fin cfg1.N) (r : Fin 5000) (q : Fin 128) (P : Fin 100000) (hP : P.val = t.val * 5000 + r.val) :
    (((cfg1.win 4).blk t).view.emb (ix2 r q) : S100000x128.Idx) = ix2 P q := by
  obtain ⟨-, -, -, -, -, -, -, -, e0, e1⟩ := idx_facts1 t
  funext a
  apply Fin.ext
  match a with
  | ⟨0, _⟩ => show win1_4.index t (0 : Fin 2) * 5000 + 1 * r.val = P.val; rw [e0, hP]; omega
  | ⟨1, _⟩ => show win1_4.index t (1 : Fin 2) * 128 + 1 * q.val = q.val; rw [e1]; omega

/-- Region 1's output array as one function of the entry arrays. -/
def G1 (c : Dev nD) : S100000x128.Idx → EReal := fun i =>
  (∑ k : Fin 128, max (eAgg1 V c (ix2 (i 0) k) * eD V c (ix2 (i 0) 0) + eB1 V c (ix2 0 k)) 0 * eW2 V c (ix2 k (i 1)))
    * eD V c (ix2 (i 0) 0)

/-- What point t writes back is its block of that function. -/
theorem flushed1_eq (c : Dev nD) (t : Fin cfg1.N) :
    (dat1 (F := Ideal) V c).flushed 4 t = ((cfg1.win 4).blk t).view.read (Elt Ideal) (G1 V c) := by
  show (cfg1.win 4).cut (grid1.coords t) ((dat1 (F := Ideal) V c).after 4 t) = _
  rw [after1_4]
  unfold out1_4
  rw [View.canon_unit_zero hzcol]
  simp only [View.ld_unit_zero (S := S5000x128) hzcol, View.ld_unit_zero (S := S5000x1) hzcol, View.ld_unit_zero (S := S1x128) hzcol,
    View.ld_unit_zero (S := S128x128) hzcol]
  funext j
  obtain ⟨r, q, rfl⟩ : ∃ (r : Fin 5000) (q : Fin 128), j = ix2 r q := ⟨j 0, j 1, eq_ix2 j⟩
  have hr : r.val < 5000 := r.isLt
  have ht : t.val < 20 := t.isLt
  let P : Fin 100000 := ⟨t.val * 5000 + r.val, by omega⟩
  show k1_pay1 (iblk1 V c 0 t) (iblk1 V c 1 t) (iblk1 V c 2 t) (iblk1 V c 3 t) (iblk1 V c 1 t) (ix2 r q)
      = G1 V c (((cfg1.win 4).blk t).view.emb (ix2 r q))
  rw [r1pay_apply, emb1_4 t r q P rfl, blk1_1 V c t r P rfl]
  unfold G1
  refine congrArg (· * _) (Finset.sum_congr rfl fun k _ => ?_)
  rw [blk1_0 V c t r k P rfl, blk1_2 V c t k, blk1_3 V c t k q]

/-- An index of the output array is in point t's block iff each coordinate is in the block's range. -/
theorem mem_blk1_4 (t : Fin cfg1.N) (i : S100000x128.Idx) :
    i ∈ ((cfg1.win 4).blk t).view.set ↔ ∀ a : Fin 2, win1_4.index t a * S5000x128.size a ≤ (i a).val ∧ (i a).val < win1_4.index t a * S5000x128.size a + S5000x128.size a := by
  show i ∈ ((View.whole main_v28).slice (win1_4.rect t)).set ↔ _
  rw [View.set_slice_whole, Rect.mem_set_unit]
  exact Iff.rfl

/-- Every row of the output array is in the block of the point numbered by the row's quotient by 5000. -/
theorem cover1 (i : S100000x128.Idx) : ∃ t : Fin cfg1.N, (cfg1.win 4).flush t = true ∧ i ∈ ((cfg1.win 4).blk t).view.set := by
  have hi0 : (i 0).val < 100000 := (i 0).isLt
  have hi1 : (i 1).val < 128 := (i 1).isLt
  have hN : cfg1.N = 20 := by decide
  let t : Fin cfg1.N := ⟨(i 0).val / 5000, by rw [hN]; omega⟩
  refine ⟨t, flush1_4 t, ?_⟩
  rw [mem_blk1_4]
  obtain ⟨-, -, -, -, -, -, -, -, e0, e1⟩ := idx_facts1 t
  intro a
  match a with
  | ⟨0, _⟩ =>
    show win1_4.index t (0 : Fin 2) * 5000 ≤ (i 0).val ∧ (i 0).val < win1_4.index t (0 : Fin 2) * 5000 + 5000
    rw [e0]; show (i 0).val / 5000 * 5000 ≤ (i 0).val ∧ (i 0).val < (i 0).val / 5000 * 5000 + 5000; omega
  | ⟨1, _⟩ =>
    show win1_4.index t (1 : Fin 2) * 128 ≤ (i 1).val ∧ (i 1).val < win1_4.index t (1 : Fin 2) * 128 + 128
    rw [e1]; omega

/-- Region 1's output array after its run. -/
theorem final1 (c : Dev nD) : (dat1 (F := Ideal) V c).arrAt 4 cfg1.N = G1 V c :=
  (dat1 (F := Ideal) V c).arrAt_eq_of_cover 4 (G1 V c) (fun t _ => flushed1_eq V c t) cover1

/-- Region 1's output array: the first layer's activation (edge sums scaled by the row's factor, plus the bias,
    clamped at zero), row p against column q of W2, times row p's factor. -/
theorem val1 (c : Dev nD) (p : Fin 100000) (q : Fin 128) :
    oH2 V c (ix2 p q)
      = GCN.lin (fun (p : Fin 100000) (k : Fin 128) => max (eAgg1 V c (ix2 p k) * eD V c (ix2 p 0) + eB1 V c (ix2 0 k)) 0)
          (GCN.cur2 (eW2 V c)) p q * eD V c (ix2 p 0) := by
  show (dat1 (F := Ideal) V c).arrAt 4 cfg1.N (ix2 p q) = _
  rw [final1 V c]
  unfold G1 GCN.lin GCN.cur2
  rfl

end Cert.KernelIdeal.Hand

end
-- ==== Proof.KI.Val2a.lean ====
/-
  Region 2's payloads read entry by entry over the extended reals: the 0/1 membership tile, one point's update of the
  per-graph sums and counts, and the classifier head (mean pooling, final linear map, log-softmax).
-/
import proofs.«406043_j45999099740722_2_alg».proof.Proof.Gen.KernelIdeal.Skeleton
import proofs.«406043_j45999099740722_2_alg».proof.Proof.Cur
import Idealize.ShloMosaic.Lib.Pipeline.Value
import Idealize.ShloMosaic.Lib.ValueIdx
import Idealize.ShloMosaic.Lib.ValueLayout
import Idealize.ShloMosaic.Lib.StableHlo.Predicate
import Idealize.ShloMosaic.PureOps.Ideal.Laws
import Idealize.ShloMosaic.Lib.IdealHost

set_option maxRecDepth 16384

noncomputable section

namespace Cert.KernelIdeal.Hand

open Idealize.ShloMosaic Idealize.ShloMosaic.TcCoe Idealize.ShloMosaic.ValueIdx
open Cert.KernelIdeal Cert.KernelIdeal.Gen

/-- A 32-bit word is the word of a small natural exactly when its signed reading is that natural. -/
theorem word_eq_ofNat_iff (w : BitVec 32) (g : Fin 64) : w = BitVec.ofNat 32 g.val ↔ w.toInt = (g.val : ℤ) := by
  constructor
  · intro h; rw [h]; exact StableHlo.Predicate.toInt_ofNat_small g.val (by have := g.isLt; omega)
  · intro h
    apply BitVec.eq_of_toInt_eq
    rw [h, StableHlo.Predicate.toInt_ofNat_small g.val (by have := g.isLt; omega)]

/-- The membership tile: row r, graph g is 1 when row r's graph word is g, else 0. -/
theorem pay5_apply (b : Vec Ideal S5000x1 .i32) (r : Fin 5000) (g : Fin 64) :
    k2_pay5 (F := Ideal) b (ix2 r g) = if (b (ix2 r 0)).toInt = (g.val : ℤ) then 1 else 0 := by
  unfold k2_pay5
  dsimp only
  rw [sitofp_apply, extui_apply]
  have hb : broadcastTo S5000x64 (shapeCast S5000x1 b shapeCasts_S5000x1_S5000x1) broadcasts_S5000x1_S5000x64 (ix2 r g) = b (ix2 r 0) := by
    rw [shapeCast_self]
    exact broadcastTo_apply b broadcasts_S5000x1_S5000x64 (ix2 r g) (ix2 r 0) (fun a => by
      match a with
      | ⟨0, _⟩ => rfl
      | ⟨1, _⟩ => rfl)
  have hi : iota .tc S5000x64 32 [1] iota_S5000x64_d1_w32 (ix2 r g) = BitVec.ofNat 32 g.val :=
    iota_single_apply .tc S5000x64 32 1 iota_S5000x64_d1_w32 (ix2 r g)
  show FloatOps.sitofp .f32 (BitVec.setWidth 32 (IntOp.cmpi .eq (broadcastTo S5000x64 (shapeCast S5000x1 b shapeCasts_S5000x1_S5000x1) broadcasts_S5000x1_S5000x64 (ix2 r g)) (iota .tc S5000x64 32 [1] iota_S5000x64_d1_w32 (ix2 r g)))) = _
  rw [hb, hi]
  by_cases h : b (ix2 r 0) = BitVec.ofNat 32 g.val
  · rw [if_pos ((word_eq_ofNat_iff _ g).mp h)]
    have e : IntOp.cmpi .eq (b (ix2 r 0)) (BitVec.ofNat 32 g.val) = 1#1 := by simp [IntOp.cmpi, h]
    rw [e]
    show (((BitVec.setWidth 32 1#1).toInt : ℝ) : EReal) = 1
    have : (BitVec.setWidth 32 1#1).toInt = 1 := by decide
    rw [this]; norm_num
  · rw [if_neg (fun h' => h ((word_eq_ofNat_iff _ g).mpr h'))]
    have hf : (b (ix2 r 0) == BitVec.ofNat 32 g.val) = false := beq_eq_false_iff_ne.mpr h
    have e : IntOp.cmpi .eq (b (ix2 r 0)) (BitVec.ofNat 32 g.val) = 0#1 := by
      show BitVec.ofBool (b (ix2 r 0) == BitVec.ofNat 32 g.val) = 0#1
      rw [hf]; rfl
    rw [e]
    show (((BitVec.setWidth 32 0#1).toInt : ℝ) : EReal) = 0
    have : (BitVec.setWidth 32 0#1).toInt = 0 := by decide
    rw [this]; norm_num

/-- The activation tile: row r, feature q is the aggregate times the row's factor plus the bias, clamped at zero. -/
theorem actTile_apply (x0 : Vec Ideal S5000x128 .f32) (x1 : Vec Ideal S5000x1 .f32) (x2 : Vec Ideal S1x128 .f32)
    (r : Fin 5000) (q : Fin 128) :
    maximumf (addf (mulf (shapeCast S5000x128 x0 shapeCasts_S5000x128_S5000x128)
        (broadcastTo S5000x128 (shapeCast S5000x1 x1 shapeCasts_S5000x1_S5000x1) broadcasts_S5000x1_S5000x128))
        (broadcastTo S5000x128 (shapeCast S1x128 x2 shapeCasts_S1x128_S1x128) broadcasts_S1x128_S5000x128))
      (broadcast S5000x128 (Scalar.ofBits (F := Ideal) .f32 0x00000000#32)) (ix2 r q)
      = max (x0 (ix2 r q) * x1 (ix2 r 0) + x2 (ix2 0 q)) 0 := by
  rw [maximumf_apply, addf_apply, mulf_apply, broadcast_apply, shapeCast_self, shapeCast_self, shapeCast_self]
  have h1 : broadcastTo S5000x128 x1 broadcasts_S5000x1_S5000x128 (ix2 r q) = x1 (ix2 r 0) :=
    broadcastTo_apply x1 broadcasts_S5000x1_S5000x128 (ix2 r q) (ix2 r 0) (fun a => by
      match a with
      | ⟨0, _⟩ => rfl
      | ⟨1, _⟩ => rfl)
  have h2 : broadcastTo S5000x128 x2 broadcasts_S1x128_S5000x128 (ix2 r q) = x2 (ix2 0 q) :=
    broadcastTo_apply x2 broadcasts_S1x128_S5000x128 (ix2 r q) (ix2 0 q) (fun a => by
      match a with
      | ⟨0, _⟩ => rfl
      | ⟨1, _⟩ => rfl)
  rw [h1, h2]
  show max _ (Ideal.ofBits .f32 0x00000000#32) = _
  rw [Ideal.ofBits_zero_f32]

abbrev dotPool := dot_S5000x64_S5000x128_S64x128_0_0_1_1_n_n

theorem lhs_pool_0 (i : S64x128.Idx) (k : dot_S5000x64_S5000x128_S64x128_0_0_1_1_n_n.contr.Idx) :
    (dot_S5000x64_S5000x128_S64x128_0_0_1_1_n_n.lhsIdx i k 0).val = (k ⟨0, by decide⟩).val :=
  dot_S5000x64_S5000x128_S64x128_0_0_1_1_n_n.lhsIdx_val_of_single rfl i k
theorem lhs_pool_1 (i : S64x128.Idx) (k : dot_S5000x64_S5000x128_S64x128_0_0_1_1_n_n.contr.Idx) :
    (dot_S5000x64_S5000x128_S64x128_0_0_1_1_n_n.lhsIdx i k 1).val = (i 0).val := by
  unfold DotDims.lhsIdx
  rw [dif_neg (show ¬(1 : Fin S5000x64.rank) ∈ dot_S5000x64_S5000x128_S64x128_0_0_1_1_n_n.lhsBatch by decide), dif_pos (show (1 : Fin S5000x64.rank) ∈ dot_S5000x64_S5000x128_S64x128_0_0_1_1_n_n.lhsNonContracting by decide)]
  rfl
theorem rhs_pool_0 (i : S64x128.Idx) (k : dot_S5000x64_S5000x128_S64x128_0_0_1_1_n_n.contr.Idx) :
    (dot_S5000x64_S5000x128_S64x128_0_0_1_1_n_n.rhsIdx i k 0).val = (k ⟨0, by decide⟩).val :=
  dot_S5000x64_S5000x128_S64x128_0_0_1_1_n_n.rhsIdx_val_of_single rfl i k
theorem rhs_pool_1 (i : S64x128.Idx) (k : dot_S5000x64_S5000x128_S64x128_0_0_1_1_n_n.contr.Idx) :
    (dot_S5000x64_S5000x128_S64x128_0_0_1_1_n_n.rhsIdx i k 1).val = (i 1).val := by
  unfold DotDims.rhsIdx
  rw [dif_neg (show ¬(1 : Fin S5000x128.rank) ∈ dot_S5000x64_S5000x128_S64x128_0_0_1_1_n_n.rhsBatch by decide), dif_pos (show (1 : Fin S5000x128.rank) ∈ dot_S5000x64_S5000x128_S64x128_0_0_1_1_n_n.rhsNonContracting by decide)]
  rfl

/-- The pooling product into zero: entry (g, q) is the sum over the tile's rows of the left operand at (row, g) times the
    right operand at (row, q). -/
theorem poolDot_apply (l : FVec Ideal S5000x64 .f32) (x : FVec Ideal S5000x128 .f32) (g : Fin 64) (q : Fin 128) :
    matmul dot_S5000x64_S5000x128_S64x128_0_0_1_1_n_n none l x (constant (F := Ideal) S64x128 .f32 0x00000000#32) (ix2 g q)
      = ∑ r : Fin 5000, l (ix2 r g) * x (ix2 r q) := by
  simp only [matmul]
  rw [Ideal.matmul_constant_zero_apply, ← Equiv.sum_comp (ValueIdx.contrEquiv1 dot_S5000x64_S5000x128_S64x128_0_0_1_1_n_n 5000 rfl rfl).symm]
  refine Finset.sum_congr rfl fun k _ => ?_
  have hk := ValueIdx.contrEquiv1_symm_val dot_S5000x64_S5000x128_S64x128_0_0_1_1_n_n 5000 rfl rfl k
  have el : dot_S5000x64_S5000x128_S64x128_0_0_1_1_n_n.lhsIdx (ix2 g q) ((ValueIdx.contrEquiv1 dot_S5000x64_S5000x128_S64x128_0_0_1_1_n_n 5000 rfl rfl).symm k) = ix2 k g := funext fun a => Fin.ext (by
    match a with
    | ⟨0, _⟩ => exact (lhs_pool_0 _ _).trans hk
    | ⟨1, _⟩ => exact lhs_pool_1 _ _)
  have er : dot_S5000x64_S5000x128_S64x128_0_0_1_1_n_n.rhsIdx (ix2 g q) ((ValueIdx.contrEquiv1 dot_S5000x64_S5000x128_S64x128_0_0_1_1_n_n 5000 rfl rfl).symm k) = ix2 k q := funext fun a => Fin.ext (by
    match a with
    | ⟨0, _⟩ => exact (rhs_pool_0 _ _).trans hk
    | ⟨1, _⟩ => exact rhs_pool_1 _ _)
  rw [el, er]

/-- One point's update of the sums: the old entry plus, over the tile's rows, membership times activation. -/
theorem pay6_apply (x0 : Vec Ideal S5000x128 .f32) (x1 : Vec Ideal S5000x1 .f32) (x2 : Vec Ideal S1x128 .f32)
    (b : Vec Ideal S5000x1 .i32) (acc : Vec Ideal S64x128 .f32) (g : Fin 64) (q : Fin 128) :
    k2_pay6 (F := Ideal) x0 x1 x2 b acc (ix2 g q)
      = acc (ix2 g q) + ∑ r : Fin 5000, (if (b (ix2 r 0)).toInt = (g.val : ℤ) then (1 : EReal) else 0)
          * max (x0 (ix2 r q) * x1 (ix2 r 0) + x2 (ix2 0 q)) 0 := by
  unfold k2_pay6
  rw [shapeCast_self, addf_apply, poolDot_apply]
  refine congrArg (acc (ix2 g q) + ·) (Finset.sum_congr rfl fun r _ => ?_)
  rw [pay5_apply, actTile_apply]

/-- A vector of 64 entries viewed as a 64 x 1 column reads entry g at (g, 0). -/
theorem colCast_apply {α : Type} (v : S64.Idx → α) (g : Fin 64) :
    shapeCast S64x1 v shapeCasts_S64_S64x1 (ix2 g 0) = v (ix1 g) :=
  shapeCast_apply v shapeCasts_S64_S64x1 (ix2 g 0) (ix1 g) (by
    rw [Shape.rowMajor_val_two, Shape.rowMajor_val_one]
    show g.val = g.val * 1 + 0
    omega)

/-- The sum down the rows of a 5000 x 64 tile, at column g. -/
theorem colSum_apply (E : FVec Ideal S5000x64 .f32) (hφ : FKind.Formats .f32) (hacc : (0x00000000#32 : BitVec 32) = 0x00000000#32)
    (g : Fin 64) :
    multiReduction .add [0] S64 E 0x00000000#32 reduces_S5000x64_S64 hφ hacc (ix1 g) = ∑ r : Fin 5000, E (ix2 r g) := by
  refine (Ideal.multiReduction_add_single E 0x00000000#32 reduces_S5000x64_S64 hφ hacc (ix1 g)).trans ?_
  show ∑ r : Fin 5000, E (reduces_S5000x64_S64.lift (ix1 g) r) = _
  refine Finset.sum_congr rfl fun r _ => ?_
  have e : reduces_S5000x64_S64.lift (ix1 g) r = ix2 r g := funext fun a => Fin.ext (by
    match a with
    | ⟨0, _⟩ => rfl
    | ⟨1, _⟩ => rfl)
  rw [e]

/-- One point's update of the counts: the old entry plus the number of the tile's rows in the graph. -/
theorem pay7_apply (b : Vec Ideal S5000x1 .i32) (cnt : Vec Ideal S64x1 .f32) (g : Fin 64) :
    k2_pay7 (F := Ideal) b cnt (ix2 g 0)
      = cnt (ix2 g 0) + ∑ r : Fin 5000, (if (b (ix2 r 0)).toInt = (g.val : ℤ) then (1 : EReal) else 0) := by
  unfold k2_pay7
  rw [shapeCast_self, addf_apply, colCast_apply, colSum_apply]
  refine congrArg (cnt (ix2 g 0) + ·) (Finset.sum_congr rfl fun r _ => ?_)
  rw [pay5_apply]

/-- The sums start at zero. -/
theorem pay2_apply (j : S64x128.Idx) : k2_pay2 (F := Ideal) j = 0 := by
  unfold k2_pay2
  rw [shapeCast_self, broadcast_apply]
  exact Ideal.ofBits_zero_f32

/-- The counts start at zero. -/
theorem pay3_apply (j : S64x1.Idx) : k2_pay3 (F := Ideal) j = 0 := by
  unfold k2_pay3
  rw [shapeCast_self, broadcast_apply]
  exact Ideal.ofBits_zero_f32

theorem lhs_fc_0 (i : S64x2.Idx) (k : dot_S64x128_S128x2_S64x2_1_0_0_1_n_n.contr.Idx) :
    (dot_S64x128_S128x2_S64x2_1_0_0_1_n_n.lhsIdx i k 0).val = (i 0).val := by
  unfold DotDims.lhsIdx
  rw [dif_neg (show ¬(0 : Fin S64x128.rank) ∈ dot_S64x128_S128x2_S64x2_1_0_0_1_n_n.lhsBatch by decide), dif_pos (show (0 : Fin S64x128.rank) ∈ dot_S64x128_S128x2_S64x2_1_0_0_1_n_n.lhsNonContracting by decide)]
  rfl
theorem lhs_fc_1 (i : S64x2.Idx) (k : dot_S64x128_S128x2_S64x2_1_0_0_1_n_n.contr.Idx) :
    (dot_S64x128_S128x2_S64x2_1_0_0_1_n_n.lhsIdx i k 1).val = (k ⟨0, by decide⟩).val :=
  dot_S64x128_S128x2_S64x2_1_0_0_1_n_n.lhsIdx_val_of_single rfl i k
theorem rhs_fc_0 (i : S64x2.Idx) (k : dot_S64x128_S128x2_S64x2_1_0_0_1_n_n.contr.Idx) :
    (dot_S64x128_S128x2_S64x2_1_0_0_1_n_n.rhsIdx i k 0).val = (k ⟨0, by decide⟩).val :=
  dot_S64x128_S128x2_S64x2_1_0_0_1_n_n.rhsIdx_val_of_single rfl i k
theorem rhs_fc_1 (i : S64x2.Idx) (k : dot_S64x128_S128x2_S64x2_1_0_0_1_n_n.contr.Idx) :
    (dot_S64x128_S128x2_S64x2_1_0_0_1_n_n.rhsIdx i k 1).val = (i 1).val := by
  unfold DotDims.rhsIdx
  rw [dif_neg (show ¬(1 : Fin S128x2.rank) ∈ dot_S64x128_S128x2_S64x2_1_0_0_1_n_n.rhsBatch by decide), dif_pos (show (1 : Fin S128x2.rank) ∈ dot_S64x128_S128x2_S64x2_1_0_0_1_n_n.rhsNonContracting by decide)]
  rfl

/-- The final linear map into zero: entry (g, o) is row g of the left operand against column o of the right. -/
theorem fcDot_apply (l : FVec Ideal S64x128 .f32) (w : FVec Ideal S128x2 .f32) (g : Fin 64) (o : Fin 2) :
    matmul dot_S64x128_S128x2_S64x2_1_0_0_1_n_n none l w (constant (F := Ideal) S64x2 .f32 0x00000000#32) (ix2 g o)
      = ∑ f : Fin 128, l (ix2 g f) * w (ix2 f o) := by
  simp only [matmul]
  rw [Ideal.matmul_constant_zero_apply, ← Equiv.sum_comp (ValueIdx.contrEquiv1 dot_S64x128_S128x2_S64x2_1_0_0_1_n_n 128 rfl rfl).symm]
  refine Finset.sum_congr rfl fun k _ => ?_
  have hk := ValueIdx.contrEquiv1_symm_val dot_S64x128_S128x2_S64x2_1_0_0_1_n_n 128 rfl rfl k
  have el : dot_S64x128_S128x2_S64x2_1_0_0_1_n_n.lhsIdx (ix2 g o) ((ValueIdx.contrEquiv1 dot_S64x128_S128x2_S64x2_1_0_0_1_n_n 128 rfl rfl).symm k) = ix2 g k := funext fun a => Fin.ext (by
    match a with
    | ⟨0, _⟩ => exact lhs_fc_0 _ _
    | ⟨1, _⟩ => exact (lhs_fc_1 _ _).trans hk)
  have er : dot_S64x128_S128x2_S64x2_1_0_0_1_n_n.rhsIdx (ix2 g o) ((ValueIdx.contrEquiv1 dot_S64x128_S128x2_S64x2_1_0_0_1_n_n 128 rfl rfl).symm k) = ix2 k o := funext fun a => Fin.ext (by
    match a with
    | ⟨0, _⟩ => exact (rhs_fc_0 _ _).trans hk
    | ⟨1, _⟩ => exact rhs_fc_1 _ _)
  rw [el, er]

/-- A 64 x 1 column spread along 128 features, along 2 classes; a 1 x 2 row spread down 64 graphs. -/
theorem bcCol128_apply {α : Type} (v : S64x1.Idx → α) (g : Fin 64) (f : Fin 128) :
    broadcastTo S64x128 v broadcasts_S64x1_S64x128 (ix2 g f) = v (ix2 g 0) :=
  broadcastTo_apply v broadcasts_S64x1_S64x128 (ix2 g f) (ix2 g 0) (fun a => by
    match a with
    | ⟨0, _⟩ => rfl
    | ⟨1, _⟩ => rfl)
theorem bcCol2_apply {α : Type} (v : S64x1.Idx → α) (g : Fin 64) (o : Fin 2) :
    broadcastTo S64x2 v broadcasts_S64x1_S64x2 (ix2 g o) = v (ix2 g 0) :=
  broadcastTo_apply v broadcasts_S64x1_S64x2 (ix2 g o) (ix2 g 0) (fun a => by
    match a with
    | ⟨0, _⟩ => rfl
    | ⟨1, _⟩ => rfl)
theorem bcRow2_apply {α : Type} (v : S1x2.Idx → α) (g : Fin 64) (o : Fin 2) :
    broadcastTo S64x2 v broadcasts_S1x2_S64x2 (ix2 g o) = v (ix2 0 o) :=
  broadcastTo_apply v broadcasts_S1x2_S64x2 (ix2 g o) (ix2 0 o) (fun a => by
    match a with
    | ⟨0, _⟩ => rfl
    | ⟨1, _⟩ => rfl)

/-- The logits as the last point computes them from the sums, the counts, the final weights and bias. -/
abbrev lgt (acc : FVec Ideal S64x128 .f32) (cnt : FVec Ideal S64x1 .f32) (wfc : FVec Ideal S128x2 .f32) (bfc : FVec Ideal S1x2 .f32) :
    FVec Ideal S64x2 .f32 :=
  addf (matmul dot_S64x128_S128x2_S64x2_1_0_0_1_n_n none
      (divf acc (broadcastTo S64x128 (maximumf cnt (broadcast S64x1 (Scalar.ofBits (F := Ideal) .f32 0x3F800000#32))) broadcasts_S64x1_S64x128))
      wfc (constant (F := Ideal) S64x2 .f32 0x00000000#32))
    (broadcastTo S64x2 (shapeCast S1x2 bfc shapeCasts_S1x2_S1x2) broadcasts_S1x2_S64x2)

theorem lgt_apply (acc : FVec Ideal S64x128 .f32) (cnt : FVec Ideal S64x1 .f32) (wfc : FVec Ideal S128x2 .f32) (bfc : FVec Ideal S1x2 .f32)
    (g : Fin 64) (o : Fin 2) :
    lgt acc cnt wfc bfc (ix2 g o)
      = GCN.logits (GCN.cur2 wfc) (GCN.curRow bfc) (GCN.cur2 acc) (GCN.curCol cnt) g o := by
  unfold lgt GCN.logits
  rw [addf_apply, fcDot_apply, shapeCast_self, bcRow2_apply]
  refine congrArg (· + bfc (ix2 0 o)) (Finset.sum_congr rfl fun f _ => ?_)
  rw [divf_apply, bcCol128_apply, maximumf_apply, broadcast_apply]
  show Ideal.div (acc (ix2 g f)) (max (cnt (ix2 g 0)) (Ideal.ofBits .f32 0x3F800000#32)) * wfc (ix2 f o) = _
  rw [Ideal.ofBits_one_f32]
  rfl

theorem ninf_word : Ideal.ofBits .f32 0xFF800000#32 = ⊥ := by simp [Ideal.ofBits, Ideal.ieee]

/-- A fold of max over two positions. -/
theorem fold_max_two (b : EReal) (f : Fin 2 → EReal) :
    (Finset.univ : Finset (Fin 2)).fold max b f = max (f 0) (max (f 1) b) := by
  rw [show (Finset.univ : Finset (Fin 2)) = insert 0 {1} from by decide, Finset.fold_insert (by decide), Finset.fold_singleton]

/-- The larger of a row's two entries. -/
theorem rowMax_apply (L : FVec Ideal S64x2 .f32) (hφ : FKind.Formats .f32) (hacc : (0xFF800000#32 : BitVec 32) = 0xFF800000#32) (g : Fin 64) :
    multiReduction .maximumf [1] S64 L 0xFF800000#32 reduces_S64x2_S64 hφ hacc (ix1 g) = max (L (ix2 g 0)) (L (ix2 g 1)) := by
  refine (Ideal.multiReduction_maximumf_single L 0xFF800000#32 reduces_S64x2_S64 hφ hacc (ix1 g)).trans ?_
  show (Finset.univ : Finset (Fin 2)).fold max (Ideal.ofBits .f32 0xFF800000#32) (L ∘ reduces_S64x2_S64.lift (ix1 g)) = _
  have e : ∀ k : Fin 2, reduces_S64x2_S64.lift (ix1 g) k = ix2 g k := fun k => funext fun a => Fin.ext (by
    match a with
    | ⟨0, _⟩ => rfl
    | ⟨1, _⟩ => rfl)
  refine (fold_max_two _ _).trans ?_
  show max (L (reduces_S64x2_S64.lift (ix1 g) (0 : Fin 2))) (max (L (reduces_S64x2_S64.lift (ix1 g) (1 : Fin 2))) (Ideal.ofBits .f32 0xFF800000#32)) = _
  rw [e 0, e 1, ninf_word, max_bot_right]

/-- The sum of a row's two entries. -/
theorem rowSum_apply (E : FVec Ideal S64x2 .f32) (hφ : FKind.Formats .f32) (hacc : (0x00000000#32 : BitVec 32) = 0x00000000#32) (g : Fin 64) :
    multiReduction .add [1] S64 E 0x00000000#32 reduces_S64x2_S64 hφ hacc (ix1 g) = ∑ o' : Fin 2, E (ix2 g o') := by
  refine (Ideal.multiReduction_add_single E 0x00000000#32 reduces_S64x2_S64 hφ hacc (ix1 g)).trans ?_
  show ∑ k : Fin 2, E (reduces_S64x2_S64.lift (ix1 g) k) = _
  refine Finset.sum_congr rfl fun k _ => ?_
  have e : reduces_S64x2_S64.lift (ix1 g) k = ix2 g k := funext fun a => Fin.ext (by
    match a with
    | ⟨0, _⟩ => rfl
    | ⟨1, _⟩ => rfl)
  rw [e]

/-- A row's maximum kept as a 64 x 1 column. -/
abbrev rmax (L : FVec Ideal S64x2 .f32) (hφ : FKind.Formats .f32) (h1 : (0xFF800000#32 : BitVec 32) = 0xFF800000#32) : FVec Ideal S64x1 .f32 :=
  shapeCast S64x1 (multiReduction .maximumf [1] S64 L 0xFF800000#32 reduces_S64x2_S64 hφ h1) shapeCasts_S64_S64x1

/-- The log-softmax tail over any 64 x 2 logits: entry (g, o) less the row's maximum plus the log of the row's sum of
    exponentials of the entries less the maximum. -/
theorem head_apply (L : FVec Ideal S64x2 .f32) (hφ : FKind.Formats .f32) (h1 : (0xFF800000#32 : BitVec 32) = 0xFF800000#32)
    (h0 : (0x00000000#32 : BitVec 32) = 0x00000000#32) (g : Fin 64) (o : Fin 2) :
    subf L (broadcastTo S64x2 (addf (rmax L hφ h1)
        (log (shapeCast S64x1 (multiReduction .add [1] S64 (exp (subf L (broadcastTo S64x2 (rmax L hφ h1) broadcasts_S64x1_S64x2)))
          0x00000000#32 reduces_S64x2_S64 hφ h0) shapeCasts_S64_S64x1))) broadcasts_S64x1_S64x2) (ix2 g o)
      = GCN.kHead (GCN.cur2 L) g o := by
  have hm : ∀ g' : Fin 64, rmax L hφ h1 (ix2 g' 0) = GCN.mx (GCN.cur2 L) g' := fun g' => by
    show shapeCast S64x1 _ shapeCasts_S64_S64x1 (ix2 g' 0) = _
    rw [colCast_apply, rowMax_apply]; rfl
  have hs : shapeCast S64x1 (multiReduction .add [1] S64 (exp (subf L (broadcastTo S64x2 (rmax L hφ h1) broadcasts_S64x1_S64x2)))
          0x00000000#32 reduces_S64x2_S64 hφ h0) shapeCasts_S64_S64x1 (ix2 g 0)
      = ∑ o' : Fin 2, Ideal.exp (GCN.cur2 L g o' - GCN.mx (GCN.cur2 L) g) := by
    rw [colCast_apply, rowSum_apply]
    refine Finset.sum_congr rfl fun o' _ => ?_
    show FloatOps.exp (subf L (broadcastTo S64x2 (rmax L hφ h1) broadcasts_S64x1_S64x2) (ix2 g o')) = _
    rw [subf_apply, bcCol2_apply, hm]; rfl
  rw [subf_apply, bcCol2_apply, addf_apply, hm]
  show L (ix2 g o) - (GCN.mx (GCN.cur2 L) g + FloatOps.log (shapeCast S64x1 _ shapeCasts_S64_S64x1 (ix2 g 0))) = _
  rw [hs]; rfl

/-- The classifier head: entry (g, o) of the last point's result is the log-softmax of the logits' row g at class o. -/
theorem pay1_apply (acc : Vec Ideal S64x128 .f32) (cnt : Vec Ideal S64x1 .f32) (wfc : Vec Ideal S128x2 .f32) (bfc : Vec Ideal S1x2 .f32)
    (g : Fin 64) (o : Fin 2) :
    k2_pay1 (F := Ideal) acc cnt wfc bfc (ix2 g o)
      = GCN.kHead (GCN.logits (GCN.cur2 wfc) (GCN.curRow bfc) (GCN.cur2 acc) (GCN.curCol cnt)) g o := by
  unfold k2_pay1
  refine (head_apply (lgt acc cnt wfc bfc) _ _ _ g o).trans ?_
  have e : GCN.cur2 (lgt acc cnt wfc bfc) = GCN.logits (GCN.cur2 wfc) (GCN.curRow bfc) (GCN.cur2 acc) (GCN.curCol cnt) :=
    funext fun g' => funext fun o' => lgt_apply acc cnt wfc bfc g' o'
  rw [e]

end Cert.KernelIdeal.Hand

end
-- ==== Proof.KI.Val2b.lean ====
/-
  Region 2's blocks read through their windows are the entry arrays at the tile's rows, and the result array after the
  run is what the last point leaves in the output's staging buffer (its one block is the whole array).
-/
import proofs.«406043_j45999099740722_2_alg».proof.Proof.KI.R2Def
import proofs.«406043_j45999099740722_2_alg».proof.Proof.Cur
import Idealize.ShloMosaic.Lib.Pipeline.Value
import Idealize.ShloMosaic.Lib.ValueIdx

set_option maxRecDepth 16384

noncomputable section

namespace Cert.KernelIdeal.Hand

open Idealize.ShloMosaic Idealize.ShloMosaic.TcCoe Idealize.ShloMosaic.ValueIdx
open Idealize.SL Idealize.SL.Sem
open Idealize.ShloMosaic.Pipeline (Dat)
open Cert.KernelIdeal Cert.KernelIdeal.Gen

variable (V : (c : Dev nD) → (b : Ref sig .tc) → Buf (Elt Ideal) ((c : Thread nD τ).loc b))

/-- Region 2's input blocks at point t, at their literal types. -/
abbrev bAgg (c : Dev nD) (t : Fin cfg2.N) : Vec Ideal S5000x128 .f32 := iblk2 (F := Ideal) V c 0 t
abbrev bD (c : Dev nD) (t : Fin cfg2.N) : Vec Ideal S5000x1 .f32 := iblk2 (F := Ideal) V c 1 t
abbrev bB2 (c : Dev nD) (t : Fin cfg2.N) : Vec Ideal S1x128 .f32 := iblk2 (F := Ideal) V c 2 t
abbrev bBatch (c : Dev nD) (t : Fin cfg2.N) : Vec Ideal S5000x1 .i32 := iblk2 (F := Ideal) V c 3 t
abbrev bWfc (c : Dev nD) (t : Fin cfg2.N) : Vec Ideal S128x2 .f32 := iblk2 (F := Ideal) V c 4 t
abbrev bBfc (c : Dev nD) (t : Fin cfg2.N) : Vec Ideal S1x2 .f32 := iblk2 (F := Ideal) V c 5 t

/-- A point of region 2 as a tile number. -/
def tileOf (t : Fin cfg2.N) : Fin 20 := ⟨t.val, Nat.lt_of_lt_of_eq t.isLt N_2⟩

/-- The index maps over the grid: the row-tiled windows sit at block row t, the others at block (0, 0). -/
theorem idx2_0 : ∀ t : Fin cfg2.N, win2_0.index t (0 : Fin 2) = t.val ∧ win2_0.index t (1 : Fin 2) = 0 :=
  (by decide +kernel : ∀ t : Fin grid2.N, win2_0.index t (0 : Fin 2) = t.val ∧ win2_0.index t (1 : Fin 2) = 0)
theorem idx2_1 : ∀ t : Fin cfg2.N, win2_1.index t (0 : Fin 2) = t.val ∧ win2_1.index t (1 : Fin 2) = 0 :=
  (by decide +kernel : ∀ t : Fin grid2.N, win2_1.index t (0 : Fin 2) = t.val ∧ win2_1.index t (1 : Fin 2) = 0)
theorem idx2_2 : ∀ t : Fin cfg2.N, win2_2.index t (0 : Fin 2) = 0 ∧ win2_2.index t (1 : Fin 2) = 0 :=
  (by decide +kernel : ∀ t : Fin grid2.N, win2_2.index t (0 : Fin 2) = 0 ∧ win2_2.index t (1 : Fin 2) = 0)
theorem idx2_3 : ∀ t : Fin cfg2.N, win2_3.index t (0 : Fin 2) = t.val ∧ win2_3.index t (1 : Fin 2) = 0 :=
  (by decide +kernel : ∀ t : Fin grid2.N, win2_3.index t (0 : Fin 2) = t.val ∧ win2_3.index t (1 : Fin 2) = 0)
theorem idx2_4 : ∀ t : Fin cfg2.N, win2_4.index t (0 : Fin 2) = 0 ∧ win2_4.index t (1 : Fin 2) = 0 :=
  (by decide +kernel : ∀ t : Fin grid2.N, win2_4.index t (0 : Fin 2) = 0 ∧ win2_4.index t (1 : Fin 2) = 0)
theorem idx2_5 : ∀ t : Fin cfg2.N, win2_5.index t (0 : Fin 2) = 0 ∧ win2_5.index t (1 : Fin 2) = 0 :=
  (by decide +kernel : ∀ t : Fin grid2.N, win2_5.index t (0 : Fin 2) = 0 ∧ win2_5.index t (1 : Fin 2) = 0)
theorem idx2_6 : ∀ t : Fin cfg2.N, win2_6.index t (0 : Fin 2) = 0 ∧ win2_6.index t (1 : Fin 2) = 0 :=
  (by decide +kernel : ∀ t : Fin grid2.N, win2_6.index t (0 : Fin 2) = 0 ∧ win2_6.index t (1 : Fin 2) = 0)

/-- The aggregate block at point t, row r, feature q is the aggregate array at node (t, r), feature q. -/
theorem bAgg_apply (c : Dev nD) (t : Fin cfg2.N) (r : Fin 5000) (q : Fin 128) :
    bAgg V c t (ix2 r q) = (V c main_v38 : S100000x128.Idx → EReal) (ix2 (GCN.node (tileOf t) r) q) := by
  unfold bAgg iblk2
  rw [View.read_apply]
  show (V c main_v38 : S100000x128.Idx → EReal) _ = _
  congr 1
  funext a
  apply Fin.ext
  match a with
  | ⟨0, _⟩ => show win2_0.index t (0 : Fin 2) * 5000 + 1 * r.val = t.val * 5000 + r.val; rw [(idx2_0 t).1]; omega
  | ⟨1, _⟩ => show win2_0.index t (1 : Fin 2) * 128 + 1 * q.val = q.val; rw [(idx2_0 t).2]; omega

/-- The factor block at point t, row r is the factor array at node (t, r). -/
theorem bD_apply (c : Dev nD) (t : Fin cfg2.N) (r : Fin 5000) :
    bD V c t (ix2 r 0) = (V c main_v15 : S100000x1.Idx → EReal) (ix2 (GCN.node (tileOf t) r) 0) := by
  unfold bD iblk2
  rw [View.read_apply]
  show (V c main_v15 : S100000x1.Idx → EReal) _ = _
  congr 1
  funext a
  apply Fin.ext
  match a with
  | ⟨0, _⟩ => show win2_1.index t (0 : Fin 2) * 5000 + 1 * r.val = t.val * 5000 + r.val; rw [(idx2_1 t).1]; omega
  | ⟨1, _⟩ => show win2_1.index t (1 : Fin 2) * 1 + 1 * 0 = 0; rw [(idx2_1 t).2]

/-- The graph-word block at point t, row r is the graph-word array at node (t, r). -/
theorem bBatch_apply (c : Dev nD) (t : Fin cfg2.N) (r : Fin 5000) :
    bBatch V c t (ix2 r 0) = (V c main_v40 : S100000x1.Idx → BitVec 32) (ix2 (GCN.node (tileOf t) r) 0) := by
  unfold bBatch iblk2
  rw [View.read_apply]
  show (V c main_v40 : S100000x1.Idx → BitVec 32) _ = _
  congr 1
  funext a
  apply Fin.ext
  match a with
  | ⟨0, _⟩ => show win2_3.index t (0 : Fin 2) * 5000 + 1 * r.val = t.val * 5000 + r.val; rw [(idx2_3 t).1]; omega
  | ⟨1, _⟩ => show win2_3.index t (1 : Fin 2) * 1 + 1 * 0 = 0; rw [(idx2_3 t).2]

/-- The bias block is the bias array. -/
theorem bB2_apply (c : Dev nD) (t : Fin cfg2.N) (q : Fin 128) :
    bB2 V c t (ix2 0 q) = (V c main_v39 : S1x128.Idx → EReal) (ix2 0 q) := by
  unfold bB2 iblk2
  rw [View.read_apply]
  show (V c main_v39 : S1x128.Idx → EReal) _ = _
  congr 1
  funext a
  apply Fin.ext
  match a with
  | ⟨0, _⟩ => show win2_2.index t (0 : Fin 2) * 1 + 1 * 0 = 0; rw [(idx2_2 t).1]
  | ⟨1, _⟩ => show win2_2.index t (1 : Fin 2) * 128 + 1 * q.val = q.val; rw [(idx2_2 t).2]; omega

/-- The final weights' block is the final weights' array. -/
theorem bWfc_apply (c : Dev nD) (t : Fin cfg2.N) (f : Fin 128) (o : Fin 2) :
    bWfc V c t (ix2 f o) = (V c main_arg5 : S128x2.Idx → EReal) (ix2 f o) := by
  unfold bWfc iblk2
  rw [View.read_apply]
  show (V c main_arg5 : S128x2.Idx → EReal) _ = _
  congr 1
  funext a
  apply Fin.ext
  match a with
  | ⟨0, _⟩ => show win2_4.index t (0 : Fin 2) * 128 + 1 * f.val = f.val; rw [(idx2_4 t).1]; omega
  | ⟨1, _⟩ => show win2_4.index t (1 : Fin 2) * 2 + 1 * o.val = o.val; rw [(idx2_4 t).2]; omega

/-- The final bias block is the final bias array. -/
theorem bBfc_apply (c : Dev nD) (t : Fin cfg2.N) (o : Fin 2) :
    bBfc V c t (ix2 0 o) = (V c main_v41 : S1x2.Idx → EReal) (ix2 0 o) := by
  unfold bBfc iblk2
  rw [View.read_apply]
  show (V c main_v41 : S1x2.Idx → EReal) _ = _
  congr 1
  funext a
  apply Fin.ext
  match a with
  | ⟨0, _⟩ => show win2_5.index t (0 : Fin 2) * 1 + 1 * 0 = 0; rw [(idx2_5 t).1]
  | ⟨1, _⟩ => show win2_5.index t (1 : Fin 2) * 2 + 1 * o.val = o.val; rw [(idx2_5 t).2]; omega

/-- The last point of region 2. -/
def tLast : Fin cfg2.N := ⟨19, by rw [show cfg2.N = 20 from N_2]; decide⟩

/-- The one write-back, at the last point, writes what that point left: the output's block is the whole array. -/
theorem flushed6_eq (c : Dev nD) (t : Fin cfg2.N) (hf : (cfg2.win 6).flush t = true) :
    (dat2 (F := Ideal) V c).flushed 6 t = ((cfg2.win 6).blk t).view.read (Elt Ideal) (outAt2 (F := Ideal) V c tLast) := by
  have hN : cfg2.N = 20 := N_2
  have h19 : t.val = 19 := by have := (flush2_6 t).mp hf; have := t.isLt; omega
  obtain rfl : t = tLast := Fin.ext h19
  show (cfg2.win 6).cut (grid2.coords tLast) ((dat2 (F := Ideal) V c).after 6 tLast) = _
  rw [after2_6]
  have hz' : (fun a => win2_6.index tLast a * main_v42.ty.shape.size a) = fun _ => 0 := funext fun a => by
    match a with
    | ⟨0, _⟩ => show win2_6.index tLast (0 : Fin 2) * 64 = 0; rw [(idx2_6 tLast).1]
    | ⟨1, _⟩ => show win2_6.index tLast (1 : Fin 2) * 2 = 0; rw [(idx2_6 tLast).2]
  exact (Memref.read_access_unit_zero (Elt Ideal) main_v42 hz' (fun a => by rw [congrFun hz' a]; simp) (outAt2 (F := Ideal) V c tLast)).symm

/-- So the result array ends holding what the last point left. -/
theorem final6 (c : Dev nD) : (dat2 (F := Ideal) V c).arrAt 6 cfg2.N = outAt2 (F := Ideal) V c tLast :=
  (dat2 (F := Ideal) V c).arrAt_eq_of_cover 6 (outAt2 (F := Ideal) V c tLast) (flushed6_eq V c) fun i =>
    ⟨tLast, (flush2_6 tLast).mpr rfl, by
      show i ∈ ((View.whole main_v42).slice (win2_6.rect tLast)).set
      rw [View.set_slice_whole, Rect.mem_set_unit]
      intro a
      have h0 : (i 0 : Nat) < 64 := (i 0).isLt
      have h1 : (i 1 : Nat) < 2 := (i 1).isLt
      match a with
      | ⟨0, _⟩ => show win2_6.index tLast (0 : Fin 2) * 64 ≤ (i 0 : Nat) ∧ (i 0 : Nat) < win2_6.index tLast (0 : Fin 2) * 64 + win2_6.xsize (grid2.coords tLast) 0
                  rw [(idx2_6 tLast).1, show win2_6.xsize (grid2.coords tLast) 0 = 64 from by decide +kernel]; omega
      | ⟨1, _⟩ => show win2_6.index tLast (1 : Fin 2) * 2 ≤ (i 1 : Nat) ∧ (i 1 : Nat) < win2_6.index tLast (1 : Fin 2) * 2 + win2_6.xsize (grid2.coords tLast) 1
                  rw [(idx2_6 tLast).2, show win2_6.xsize (grid2.coords tLast) 1 = 2 from by decide +kernel]; omega⟩

end Cert.KernelIdeal.Hand

end
-- ==== Proof.KI.Val2.lean ====
/-
  What region 2 leaves in the program's result array, entry by entry, over the extended reals: the head
  (mean pooling, final linear map, log-softmax) of the per-graph sums and counts accumulated tile by tile.
-/
import proofs.«406043_j45999099740722_2_alg».proof.Proof.KI.R2Def
import proofs.«406043_j45999099740722_2_alg».proof.Proof.Cur
import Idealize.ShloMosaic.Lib.Pipeline.Value
import Idealize.ShloMosaic.Lib.ValueIdx
import Idealize.ShloMosaic.Lib.ValueLayout
import Idealize.ShloMosaic.PureOps.Ideal.Laws
import proofs.«406043_j45999099740722_2_alg».proof.Proof.KI.Val2a
import proofs.«406043_j45999099740722_2_alg».proof.Proof.KI.Val2b

set_option maxRecDepth 16384

noncomputable section

namespace Cert.KernelIdeal.Hand

open Idealize.ShloMosaic Idealize.ShloMosaic.TcCoe Idealize.ShloMosaic.ValueIdx
open Idealize.SL Idealize.SL.Sem
open Idealize.ShloMosaic.Pipeline (Dat)
open Cert.KernelIdeal Cert.KernelIdeal.Gen

variable (V : (c : Dev nD) → (b : Ref sig .tc) → Buf (Elt Ideal) ((c : Thread nD τ).loc b))

/-- The arrays region 2 finds at its entry, at their literal types. -/
abbrev fAgg2 (c : Dev nD) : S100000x128.Idx → EReal := V c main_v38
abbrev fD (c : Dev nD) : S100000x1.Idx → EReal := V c main_v15
abbrev fB2 (c : Dev nD) : S1x128.Idx → EReal := V c main_v39
abbrev fBatch (c : Dev nD) : S100000x1.Idx → BitVec 32 := V c main_v40
abbrev fWfc (c : Dev nD) : S128x2.Idx → EReal := V c main_arg5
abbrev fBfc (c : Dev nD) : S1x2.Idx → EReal := V c main_v41
/-- The program's result array after region 2's run, at its literal type. -/
abbrev oOut (c : Dev nD) : S64x2.Idx → EReal := (dat2 (F := Ideal) V c).arrAt 6 cfg2.N

/-- The second layer's activation at node i, feature k, from region 2's entry arrays. -/
def act2 (c : Dev nD) (i : Fin 100000) (k : Fin 128) : EReal :=
  max (fAgg2 V c (ix2 i k) * fD V c (ix2 i 0) + fB2 V c (ix2 0 k)) 0

/-- One tile's contribution to graph g's sum at feature q, as a function of the tile number (zero beyond the grid). -/
def tileSum (c : Dev nD) (g : Fin 64) (q : Fin 128) (t : ℕ) : EReal :=
  if h : t < 20 then ∑ r : Fin 5000, GCN.ohOf (fBatch V c) (GCN.node ⟨t, h⟩ r) g * act2 V c (GCN.node ⟨t, h⟩ r) q else 0

/-- One tile's contribution to graph g's count. -/
def tileCnt (c : Dev nD) (g : Fin 64) (t : ℕ) : EReal :=
  if h : t < 20 then ∑ r : Fin 5000, GCN.ohOf (fBatch V c) (GCN.node ⟨t, h⟩ r) g else 0

/-- The membership entry the tile computes from its block of graph words is the indicator at the node. -/
theorem oh_eq (c : Dev nD) (t : Fin cfg2.N) (r : Fin 5000) (g : Fin 64) :
    (if (bBatch V c t (ix2 r 0)).toInt = (g.val : ℤ) then (1 : EReal) else 0)
      = GCN.ohOf (fBatch V c) (GCN.node (tileOf t) r) g := by
  rw [bBatch_apply]
  unfold GCN.ohOf GCN.selOf
  by_cases h : ((V c main_v40 : S100000x1.Idx → BitVec 32) (ix2 (GCN.node (tileOf t) r) 0)).toInt = (g.val : ℤ)
  · rw [if_pos h]
  · rw [if_neg h]

/-- The activation entry the tile computes from its blocks is the activation at the node. -/
theorem act_eq (c : Dev nD) (t : Fin cfg2.N) (r : Fin 5000) (q : Fin 128) :
    max (bAgg V c t (ix2 r q) * bD V c t (ix2 r 0) + bB2 V c t (ix2 0 q)) 0 = act2 V c (GCN.node (tileOf t) r) q := by
  rw [bAgg_apply, bD_apply, bB2_apply]; rfl

/-- One point adds its tile's contribution to the sums. -/
theorem sums_step (c : Dev nD) (t : Fin cfg2.N) (acc : Vec Ideal S64x128 .f32) (g : Fin 64) (q : Fin 128) :
    k2_pay6 (F := Ideal) (bAgg V c t) (bD V c t) (bB2 V c t) (bBatch V c t) acc (ix2 g q)
      = acc (ix2 g q) + tileSum V c g q t.val := by
  refine (pay6_apply (bAgg V c t) (bD V c t) (bB2 V c t) (bBatch V c t) acc g q).trans ?_
  have ht : t.val < 20 := Nat.lt_of_lt_of_eq t.isLt N_2
  unfold tileSum
  rw [dif_pos ht]
  refine congrArg (acc (ix2 g q) + ·) (Finset.sum_congr rfl fun r _ => ?_)
  rw [oh_eq, act_eq]; rfl

/-- One point adds its tile's contribution to the counts. -/
theorem cnts_step (c : Dev nD) (t : Fin cfg2.N) (cnt : Vec Ideal S64x1 .f32) (g : Fin 64) :
    k2_pay7 (F := Ideal) (bBatch V c t) cnt (ix2 g 0) = cnt (ix2 g 0) + tileCnt V c g t.val := by
  refine (pay7_apply (bBatch V c t) cnt g).trans ?_
  have ht : t.val < 20 := Nat.lt_of_lt_of_eq t.isLt N_2
  unfold tileCnt
  rw [dif_pos ht]
  refine congrArg (cnt (ix2 g 0) + ·) (Finset.sum_congr rfl fun r _ => ?_)
  rw [oh_eq]; rfl

/-- After point n the sums hold the contributions of the tiles up to n. -/
theorem carry_sums (c : Dev nD) (g : Fin 64) (q : Fin 128) : ∀ (n : ℕ) (hn : n < cfg2.N),
    (carry2 (F := Ideal) V c n hn).1 (ix2 g q) = ∑ t ∈ Finset.range (n + 1), tileSum V c g q t
  | 0, hn => by
    rw [carry2_zero]; dsimp only
    refine (sums_step V c ⟨0, hn⟩ (k2_pay2 (F := Ideal)) g q).trans ?_
    rw [pay2_apply, zero_add, Finset.sum_range_one]
  | n + 1, hn => by
    rw [carry2_succ]; dsimp only
    refine (sums_step V c ⟨n + 1, hn⟩ (carry2 (F := Ideal) V c n (Nat.lt_of_succ_lt hn)).1 g q).trans ?_
    rw [carry_sums c g q n (Nat.lt_of_succ_lt hn), Finset.sum_range_succ _ (n + 1)]

/-- After point n the counts hold the contributions of the tiles up to n. -/
theorem carry_cnts (c : Dev nD) (g : Fin 64) : ∀ (n : ℕ) (hn : n < cfg2.N),
    (carry2 (F := Ideal) V c n hn).2 (ix2 g 0) = ∑ t ∈ Finset.range (n + 1), tileCnt V c g t
  | 0, hn => by
    rw [carry2_zero]; dsimp only
    refine (cnts_step V c ⟨0, hn⟩ (k2_pay3 (F := Ideal)) g).trans ?_
    rw [pay3_apply, zero_add, Finset.sum_range_one]
  | n + 1, hn => by
    rw [carry2_succ]; dsimp only
    refine (cnts_step V c ⟨n + 1, hn⟩ (carry2 (F := Ideal) V c n (Nat.lt_of_succ_lt hn)).2 g).trans ?_
    rw [carry_cnts c g n (Nat.lt_of_succ_lt hn), Finset.sum_range_succ _ (n + 1)]

/-- After the last point the sums are the per-graph sums over all twenty tiles. -/
theorem sums_last (c : Dev nD) :
    GCN.cur2 (carry2 (F := Ideal) V c tLast.val tLast.isLt).1 = GCN.kSum (GCN.ohOf (fBatch V c)) (act2 V c) :=
  funext fun g => funext fun q => by
    show (carry2 (F := Ideal) V c tLast.val tLast.isLt).1 (ix2 g q) = _
    rw [carry_sums V c g q tLast.val tLast.isLt]
    show ∑ t ∈ Finset.range 20, tileSum V c g q t = _
    unfold GCN.kSum
    rw [← Fin.sum_univ_eq_sum_range (fun t => tileSum V c g q t) 20]
    refine Finset.sum_congr rfl fun t _ => ?_
    unfold tileSum
    rw [dif_pos t.isLt]

/-- After the last point the counts are the per-graph counts over all twenty tiles. -/
theorem cnts_last (c : Dev nD) :
    GCN.curCol (carry2 (F := Ideal) V c tLast.val tLast.isLt).2 = GCN.kCnt (GCN.ohOf (fBatch V c)) :=
  funext fun g => by
    show (carry2 (F := Ideal) V c tLast.val tLast.isLt).2 (ix2 g 0) = _
    rw [carry_cnts V c g tLast.val tLast.isLt]
    show ∑ t ∈ Finset.range 20, tileCnt V c g t = _
    unfold GCN.kCnt
    rw [← Fin.sum_univ_eq_sum_range (fun t => tileCnt V c g t) 20]
    refine Finset.sum_congr rfl fun t _ => ?_
    unfold tileCnt
    rw [dif_pos t.isLt]

/-- Region 2's output array. -/
theorem val2 (c : Dev nD) (g : Fin 64) (o : Fin 2) :
    oOut V c (ix2 g o)
      = GCN.kHead (GCN.logits (GCN.cur2 (fWfc V c)) (GCN.curRow (fBfc V c))
          (GCN.kSum (GCN.ohOf (fBatch V c)) (act2 V c)) (GCN.kCnt (GCN.ohOf (fBatch V c)))) g o := by
  show (dat2 (F := Ideal) V c).arrAt 6 cfg2.N (ix2 g o) = _
  rw [final6]
  unfold outAt2
  rw [if_pos (show (tLast : Fin cfg2.N).val = 19 from rfl)]
  refine (pay1_apply (carry2 (F := Ideal) V c tLast.val tLast.isLt).1 (carry2 (F := Ideal) V c tLast.val tLast.isLt).2
    (bWfc V c tLast) (bBfc V c tLast) g o).trans ?_
  have e1 : GCN.cur2 (bWfc V c tLast) = GCN.cur2 (fWfc V c) := funext fun f => funext fun o' => bWfc_apply V c tLast f o'
  have e2 : GCN.curRow (bBfc V c tLast) = GCN.curRow (fBfc V c) := funext fun o' => bBfc_apply V c tLast o'
  rw [e1, e2, sums_last, cnts_last]

end Cert.KernelIdeal.Hand

end
-- ==== Proof.LibGatherScatter.lean ====
import Idealize.ShloMosaic.PureOps.Ideal
import Idealize.ShloMosaic.Lib.ValueIdx

/-!
# Row gathers and accumulating row scatters, read at an index

A row gather of an [N × C] (or [N]) operand by an [M × 1] column of start words reads, for result row `e`,
the operand row `clamp (start e)`: the start word read signed, negatives to `0`, clamped to the last row.
An accumulating (add-bodied) row scatter of an [M × C] (or [M]) update onto an [N × C] (or [N]) operand lands
update row `e` on operand row `start e` read signed and NOT clamped; an update whose row is out of range is
dropped. Hence the scatter's value at row `i` is the operand's plus the sum of the update rows whose start
word is `i`.
-/

noncomputable section

open scoped BigOperators
open Idealize.ShloMosaic Idealize.ShloMosaic.ValueIdx

namespace GCN.GS

/-- The shape [100000]. -/
abbrev SN : Shape := ⟨1, ![100000]⟩
/-- The shape [100000 × 128]. -/
abbrev SNx128 : Shape := ⟨2, ![100000, 128]⟩
/-- The shape [100000 × 1]. -/
abbrev SNx1 : Shape := ⟨2, ![100000, 1]⟩
/-- The shape [1700000]. -/
abbrev SM : Shape := ⟨1, ![1700000]⟩
/-- The shape [1700000 × 1]. -/
abbrev SMx1 : Shape := ⟨2, ![1700000, 1]⟩
/-- The shape [1700000 × 128]. -/
abbrev SMx128 : Shape := ⟨2, ![1700000, 128]⟩
/-- The shape [64 × 128]. -/
abbrev S64x128 : Shape := ⟨2, ![64, 128]⟩
/-- The shape [64]. -/
abbrev S64 : Shape := ⟨1, ![64]⟩

/-- Row gather of a [100000 × 128] operand by a [1700000 × 1] column of start words: whole rows of 128. -/
def gd2 : GatherDims SNx128 SMx1 SMx128 := { offsetDims := [1], collapsedSliceDims := [0], operandBatchingDims := [], startIndicesBatchingDims := [], startIndexMap := [0], indexVectorDim := 1, sliceSizes := ![1, 128] }
/-- Element gather of a [100000] operand by a [1700000 × 1] column of start words. -/
def gd1 : GatherDims SN SMx1 SM := { offsetDims := [], collapsedSliceDims := [0], operandBatchingDims := [], startIndicesBatchingDims := [], startIndexMap := [0], indexVectorDim := 1, sliceSizes := ![1] }
/-- Row scatter of a [1700000 × 128] update onto a [100000 × 128] operand. -/
def sd2 : ScatterDims SNx128 SMx1 SMx128 := { updateWindowDims := [1], insertedWindowDims := [0], scatterDimsToOperandDims := [0], indexVectorDim := 1 }
/-- Element scatter of a [1700000] update onto a [100000] operand. -/
def sd1 : ScatterDims SN SMx1 SM := { updateWindowDims := [], insertedWindowDims := [0], scatterDimsToOperandDims := [0], indexVectorDim := 1 }
/-- Row scatter of a [100000 × 128] update onto a [64 × 128] operand. -/
def sdP : ScatterDims S64x128 SNx1 SNx128 := { updateWindowDims := [1], insertedWindowDims := [0], scatterDimsToOperandDims := [0], indexVectorDim := 1 }
/-- Element scatter of a [100000] update onto a [64] operand. -/
def sdC : ScatterDims S64 SNx1 SN := { updateWindowDims := [], insertedWindowDims := [0], scatterDimsToOperandDims := [0], indexVectorDim := 1 }

/-- The operand row a gather of 100000 rows reads for the start word v: v read signed, negative values to 0, clamped to the last row. -/
def rowOf (v : BitVec 32) : Fin 100000 := ⟨min v.toInt.toNat 99999, by omega⟩

/-- a start word that is a valid row number is its own row -/
theorem rowOf_of_toInt {v : BitVec 32} {i : Fin 100000} (h : v.toInt = (i.val : ℤ)) : rowOf v = i := by
  apply Fin.ext
  show min v.toInt.toNat 99999 = i.val
  rw [h]
  have := i.isLt
  simp only [Int.toNat_natCast]
  omega

/-! ## The gathers -/

/-- THE ROW GATHER AT (e, q): row `e` of the result is the operand's row `rowOf (start e)`, column by column. -/
theorem gather2_apply {α : Type} (x : SNx128.Idx → α) (idx : IVec SMx1 32) (e : Fin 1700000) (q : Fin 128) :
    Host.gather gd2 x idx (ix2 e q) = x (ix2 (rowOf (idx (ix2 e 0))) q) := by
  unfold Host.gather
  congr 1
  funext a
  refine Fin.ext ?_
  show gd2.start (ix2 e q) idx a + gd2.batchCoord (ix2 e q) a + gd2.offCoord (ix2 e q) a = _
  rw [GatherDims.batchCoord_eq_zero _ _ _ List.not_mem_nil, Nat.add_zero]
  match a with
  | ⟨0, _⟩ =>
    -- the row axis: collapsed (no offset), started at the clamped start word
    rw [GatherDims.offCoord_eq_zero _ _ _ (fun h => ((GatherDims.mem_sKept _ _).mp h).1 (List.mem_singleton.mpr rfl)),
      Nat.add_zero]
    unfold GatherDims.start
    rw [dif_pos (show (⟨0, by decide⟩ : Fin 2) ∈ gd2.startIndexMap from List.mem_singleton.mpr rfl)]
    have hsi : gd2.siIdx (ix2 e q) ⟨List.idxOf (⟨0, by decide⟩ : Fin 2) gd2.startIndexMap,
        List.idxOf_lt_length_iff.2 (List.mem_singleton.mpr rfl)⟩ = ix2 e 0 := by
      funext b; refine Fin.ext ?_
      match b with
      | ⟨0, _⟩ => rfl
      | ⟨1, _⟩ => rfl
    rw [hsi]
    rfl
  | ⟨1, _⟩ =>
    -- the column axis: not started (start 0), the offset coordinate is the result's column
    have hs : gd2.start (ix2 e q) idx ⟨1, by decide⟩ = 0 := by
      unfold GatherDims.start
      rw [dif_neg (show (⟨1, by decide⟩ : Fin 2) ∉ gd2.startIndexMap by decide)]
    rw [hs, Nat.zero_add]
    rfl

/-- THE ELEMENT GATHER AT e: result element `e` is the operand's element `rowOf (start e)`. -/
theorem gather1_apply {α : Type} (x : SN.Idx → α) (idx : IVec SMx1 32) (e : Fin 1700000) :
    Host.gather gd1 x idx (ix1 e) = x (ix1 (rowOf (idx (ix2 e 0)))) := by
  unfold Host.gather
  congr 1
  funext a
  obtain rfl : a = 0 := Subsingleton.elim _ _
  refine Fin.ext ?_
  show gd1.start (ix1 e) idx 0 + gd1.batchCoord (ix1 e) 0 + gd1.offCoord (ix1 e) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ gd1.startIndexMap from List.mem_singleton.mpr rfl)]
  have hsi : gd1.siIdx (ix1 e) ⟨List.idxOf (0 : Fin 1) gd1.startIndexMap,
      List.idxOf_lt_length_iff.2 (List.mem_singleton.mpr rfl)⟩ = ix2 e 0 := by
    funext b; refine Fin.ext ?_
    match b with
    | ⟨0, _⟩ => rfl
    | ⟨1, _⟩ => rfl
  rw [hsi]
  rfl

/-! ## Sums over a rank-1 index set -/

/-- A rank-1 index set is its one coordinate range … -/
def idxEquiv1 {n : Nat} : (⟨1, ![n]⟩ : Shape).Idx ≃ Fin n where
  toFun i := i 0
  invFun p := ix1 p
  left_inv i := (eq_ix1 i).symm
  right_inv _ := rfl
/-- … so a sum over it is the sum over the coordinate. -/
theorem sum_idx1 {M : Type*} [AddCommMonoid M] {n : Nat} (f : (⟨1, ![n]⟩ : Shape).Idx → M) :
    ∑ i, f i = ∑ a : Fin n, f (ix1 a) := by
  rw [← Equiv.sum_comp (idxEquiv1 (n := n)).symm f]
  rfl

/-! ## The scatters -/

/-- The row scatter of [1700000 × 128] onto [100000 × 128]: where update element (e, f) starts on the row axis — the start word of row `e`, read signed. -/
theorem sd2_start0 (idx : IVec SMx1 32) (e : Fin 1700000) (f : Fin 128) :
    sd2.start (ix2 e f) idx 0 = (idx (ix2 e 0)).toInt := by
  unfold ScatterDims.start
  rw [dif_pos (show (0 : Fin 2) ∈ sd2.scatterDimsToOperandDims from List.mem_singleton.mpr rfl)]
  have hsi : sd2.siIdx (ix2 e f) ⟨List.idxOf (0 : Fin 2) sd2.scatterDimsToOperandDims,
      List.idxOf_lt_length_iff.2 (List.mem_singleton.mpr rfl)⟩ = ix2 e 0 := by
    funext b; refine Fin.ext ?_
    match b with
    | ⟨0, _⟩ => rfl
    | ⟨1, _⟩ => rfl
  rw [hsi]

/-- The row scatter of [1700000 × 128] onto [100000 × 128]: update element (e, f) lands on operand element (i, q) exactly when row `e`'s start word, read
    signed, is `i` and the columns agree. -/
theorem sd2_resultIdx_eq (idx : IVec SMx1 32) (e : Fin 1700000) (f : Fin 128) (i : Fin 100000) (q : Fin 128) :
    sd2.resultIdx? (ix2 e f) idx = some (ix2 i q) ↔ (idx (ix2 e 0)).toInt = (i.val : ℤ) ∧ f = q := by
  have h0 : sd2.start (ix2 e f) idx 0 = (idx (ix2 e 0)).toInt := sd2_start0 idx e f
  have h1 : sd2.start (ix2 e f) idx 1 = 0 := by
    unfold ScatterDims.start
    rw [dif_neg (show (1 : Fin 2) ∉ sd2.scatterDimsToOperandDims by decide)]
  have w0 : sd2.window (ix2 e f) 0 = 0 := by
    unfold ScatterDims.window
    rw [dif_neg (show (0 : Fin 2) ∉ sd2.sKept by decide)]
  have w1 : sd2.window (ix2 e f) 1 = f.val := by
    unfold ScatterDims.window
    rw [dif_pos (show (1 : Fin 2) ∈ sd2.sKept by decide)]
    rfl
  have hs0 : SNx128.size 0 = 100000 := rfl
  have hs1 : SNx128.size 1 = 128 := rfl
  have hi := i.isLt
  have hq := q.isLt
  have hf := f.isLt
  unfold ScatterDims.resultIdx?
  constructor
  · intro h
    split at h
    · rename_i hall
      have hh := Option.some.inj h
      have e0 : (sd2.start (ix2 e f) idx 0 + (sd2.window (ix2 e f) 0 : ℤ)).toNat = i.val :=
        congrArg Fin.val (congrFun hh 0)
      have e1 : (sd2.start (ix2 e f) idx 1 + (sd2.window (ix2 e f) 1 : ℤ)).toNat = q.val :=
        congrArg Fin.val (congrFun hh 1)
      have p0 := (hall 0).1
      rw [h0, w0] at e0 p0
      rw [h1, w1] at e1
      refine ⟨by omega, Fin.ext (by omega)⟩
    · exact absurd h (by simp)
  · rintro ⟨hv, rfl⟩
    have hall : ∀ a, 0 ≤ sd2.start (ix2 e f) idx a + (sd2.window (ix2 e f) a : ℤ) ∧
        sd2.start (ix2 e f) idx a + (sd2.window (ix2 e f) a : ℤ) < (SNx128.size a : ℤ) := by
      refine Fin.forall_fin_two.2 ⟨?_, ?_⟩
      · rw [h0, w0, hs0, hv]; omega
      · rw [h1, w1, hs1]; omega
    rw [dif_pos hall]
    congr 1
    funext a
    refine Fin.ext ?_
    match a with
    | ⟨0, _⟩ =>
      show (sd2.start (ix2 e f) idx 0 + (sd2.window (ix2 e f) 0 : ℤ)).toNat = i.val
      rw [h0, w0, hv]; omega
    | ⟨1, _⟩ =>
      show (sd2.start (ix2 e f) idx 1 + (sd2.window (ix2 e f) 1 : ℤ)).toNat = f.val
      rw [h1, w1]; omega

/-- The row scatter of [1700000 × 128] onto [100000 × 128] AT (i, q): the operand's element plus the sum, over the update rows whose start word read signed is
    `i`, of their column-`q` elements. -/
theorem scatter2_apply (x0 : SNx128.Idx → EReal) (idx : IVec SMx1 32) (u : SMx128.Idx → EReal) (i : Fin 100000) (q : Fin 128) :
    Ideal.hostScatterAdd sd2 x0 idx u (ix2 i q) = x0 (ix2 i q) +
      ∑ e ∈ Finset.univ.filter (fun e : Fin 1700000 => (idx (ix2 e 0)).toInt = (i.val : ℤ)), u (ix2 e q) := by
  unfold Ideal.hostScatterAdd
  refine congrArg (fun t => x0 (ix2 i q) + t) ?_
  rw [Finset.sum_filter, Finset.sum_filter, sum_idx2]
  refine Finset.sum_congr rfl fun e _ => ?_
  by_cases hv : (idx (ix2 e 0)).toInt = (i.val : ℤ)
  · rw [if_pos hv]
    rw [Finset.sum_eq_single q]
    · rw [if_pos ((sd2_resultIdx_eq idx e q i q).2 ⟨hv, rfl⟩)]
    · intro f _ hfq
      rw [if_neg (fun h => hfq ((sd2_resultIdx_eq idx e f i q).1 h).2)]
    · intro h; exact absurd (Finset.mem_univ q) h
  · rw [if_neg hv]
    refine Finset.sum_eq_zero fun f _ => ?_
    rw [if_neg (fun h => hv ((sd2_resultIdx_eq idx e f i q).1 h).1)]

/-- The element scatter of [1700000] onto [100000]: update element `e` lands on operand element `i` exactly when its start word, read signed, is `i`. -/
theorem sd1_resultIdx_eq (idx : IVec SMx1 32) (e : Fin 1700000) (i : Fin 100000) :
    sd1.resultIdx? (ix1 e) idx = some (ix1 i) ↔ (idx (ix2 e 0)).toInt = (i.val : ℤ) := by
  have h0 : sd1.start (ix1 e) idx 0 = (idx (ix2 e 0)).toInt := by
    unfold ScatterDims.start
    rw [dif_pos (show (0 : Fin 1) ∈ sd1.scatterDimsToOperandDims from List.mem_singleton.mpr rfl)]
    have hsi : sd1.siIdx (ix1 e) ⟨List.idxOf (0 : Fin 1) sd1.scatterDimsToOperandDims,
        List.idxOf_lt_length_iff.2 (List.mem_singleton.mpr rfl)⟩ = ix2 e 0 := by
      funext b; refine Fin.ext ?_
      match b with
      | ⟨0, _⟩ => rfl
      | ⟨1, _⟩ => rfl
    rw [hsi]
  have w0 : sd1.window (ix1 e) 0 = 0 := by
    unfold ScatterDims.window
    rw [dif_neg (show (0 : Fin 1) ∉ sd1.sKept by decide)]
  have hs0 : SN.size 0 = 100000 := rfl
  have hi := i.isLt
  unfold ScatterDims.resultIdx?
  constructor
  · intro h
    split at h
    · rename_i hall
      have hh := Option.some.inj h
      have e0 : (sd1.start (ix1 e) idx 0 + (sd1.window (ix1 e) 0 : ℤ)).toNat = i.val :=
        congrArg Fin.val (congrFun hh 0)
      have p0 := (hall 0).1
      rw [h0, w0] at e0 p0
      omega
    · exact absurd h (by simp)
  · intro hv
    have hall : ∀ a, 0 ≤ sd1.start (ix1 e) idx a + (sd1.window (ix1 e) a : ℤ) ∧
        sd1.start (ix1 e) idx a + (sd1.window (ix1 e) a : ℤ) < (SN.size a : ℤ) := by
      intro a
      obtain rfl : a = 0 := Subsingleton.elim _ _
      rw [h0, w0, hs0, hv]; omega
    rw [dif_pos hall]
    congr 1
    funext a
    obtain rfl : a = 0 := Subsingleton.elim _ _
    refine Fin.ext ?_
    show (sd1.start (ix1 e) idx 0 + (sd1.window (ix1 e) 0 : ℤ)).toNat = i.val
    rw [h0, w0, hv]; omega

/-- The element scatter of [1700000] onto [100000] AT i: the operand's element plus the sum of the update elements whose start word read signed is `i`. -/
theorem scatter1_apply (x0 : SN.Idx → EReal) (idx : IVec SMx1 32) (u : SM.Idx → EReal) (i : Fin 100000) :
    Ideal.hostScatterAdd sd1 x0 idx u (ix1 i) = x0 (ix1 i) +
      ∑ e ∈ Finset.univ.filter (fun e : Fin 1700000 => (idx (ix2 e 0)).toInt = (i.val : ℤ)), u (ix1 e) := by
  unfold Ideal.hostScatterAdd
  refine congrArg (fun t => x0 (ix1 i) + t) ?_
  rw [Finset.sum_filter, Finset.sum_filter, sum_idx1]
  refine Finset.sum_congr rfl fun e _ => ?_
  by_cases hv : (idx (ix2 e 0)).toInt = (i.val : ℤ)
  · rw [if_pos hv, if_pos ((sd1_resultIdx_eq idx e i).2 hv)]
  · rw [if_neg hv, if_neg (fun h => hv ((sd1_resultIdx_eq idx e i).1 h))]

/-- The row scatter of [100000 × 128] onto [64 × 128]: where update element (i, f) starts on the row axis — the start word of row `i`, read signed. -/
theorem sdP_start0 (idx : IVec SNx1 32) (i : Fin 100000) (f : Fin 128) :
    sdP.start (ix2 i f) idx 0 = (idx (ix2 i 0)).toInt := by
  unfold ScatterDims.start
  rw [dif_pos (show (0 : Fin 2) ∈ sdP.scatterDimsToOperandDims from List.mem_singleton.mpr rfl)]
  have hsi : sdP.siIdx (ix2 i f) ⟨List.idxOf (0 : Fin 2) sdP.scatterDimsToOperandDims,
      List.idxOf_lt_length_iff.2 (List.mem_singleton.mpr rfl)⟩ = ix2 i 0 := by
    funext b; refine Fin.ext ?_
    match b with
    | ⟨0, _⟩ => rfl
    | ⟨1, _⟩ => rfl
  rw [hsi]

/-- The row scatter of [100000 × 128] onto [64 × 128]: update element (i, f) lands on operand element (g, q) exactly when row `i`'s start word, read
    signed, is `g` and the columns agree. -/
theorem sdP_resultIdx_eq (idx : IVec SNx1 32) (i : Fin 100000) (f : Fin 128) (g : Fin 64) (q : Fin 128) :
    sdP.resultIdx? (ix2 i f) idx = some (ix2 g q) ↔ (idx (ix2 i 0)).toInt = (g.val : ℤ) ∧ f = q := by
  have h0 : sdP.start (ix2 i f) idx 0 = (idx (ix2 i 0)).toInt := sdP_start0 idx i f
  have h1 : sdP.start (ix2 i f) idx 1 = 0 := by
    unfold ScatterDims.start
    rw [dif_neg (show (1 : Fin 2) ∉ sdP.scatterDimsToOperandDims by decide)]
  have w0 : sdP.window (ix2 i f) 0 = 0 := by
    unfold ScatterDims.window
    rw [dif_neg (show (0 : Fin 2) ∉ sdP.sKept by decide)]
  have w1 : sdP.window (ix2 i f) 1 = f.val := by
    unfold ScatterDims.window
    rw [dif_pos (show (1 : Fin 2) ∈ sdP.sKept by decide)]
    rfl
  have hs0 : S64x128.size 0 = 64 := rfl
  have hs1 : S64x128.size 1 = 128 := rfl
  have hi := g.isLt
  have hq := q.isLt
  have hf := f.isLt
  unfold ScatterDims.resultIdx?
  constructor
  · intro h
    split at h
    · rename_i hall
      have hh := Option.some.inj h
      have e0 : (sdP.start (ix2 i f) idx 0 + (sdP.window (ix2 i f) 0 : ℤ)).toNat = g.val :=
        congrArg Fin.val (congrFun hh 0)
      have e1 : (sdP.start (ix2 i f) idx 1 + (sdP.window (ix2 i f) 1 : ℤ)).toNat = q.val :=
        congrArg Fin.val (congrFun hh 1)
      have p0 := (hall 0).1
      rw [h0, w0] at e0 p0
      rw [h1, w1] at e1
      refine ⟨by omega, Fin.ext (by omega)⟩
    · exact absurd h (by simp)
  · rintro ⟨hv, rfl⟩
    have hall : ∀ a, 0 ≤ sdP.start (ix2 i f) idx a + (sdP.window (ix2 i f) a : ℤ) ∧
        sdP.start (ix2 i f) idx a + (sdP.window (ix2 i f) a : ℤ) < (S64x128.size a : ℤ) := by
      refine Fin.forall_fin_two.2 ⟨?_, ?_⟩
      · rw [h0, w0, hs0, hv]; omega
      · rw [h1, w1, hs1]; omega
    rw [dif_pos hall]
    congr 1
    funext a
    refine Fin.ext ?_
    match a with
    | ⟨0, _⟩ =>
      show (sdP.start (ix2 i f) idx 0 + (sdP.window (ix2 i f) 0 : ℤ)).toNat = g.val
      rw [h0, w0, hv]; omega
    | ⟨1, _⟩ =>
      show (sdP.start (ix2 i f) idx 1 + (sdP.window (ix2 i f) 1 : ℤ)).toNat = f.val
      rw [h1, w1]; omega

/-- The row scatter of [100000 × 128] onto [64 × 128] AT (g, q): the operand's element plus the sum, over the update rows whose start word read signed is
    `g`, of their column-`q` elements. -/
theorem scatterP_apply (x0 : S64x128.Idx → EReal) (idx : IVec SNx1 32) (u : SNx128.Idx → EReal) (g : Fin 64) (q : Fin 128) :
    Ideal.hostScatterAdd sdP x0 idx u (ix2 g q) = x0 (ix2 g q) +
      ∑ i ∈ Finset.univ.filter (fun i : Fin 100000 => (idx (ix2 i 0)).toInt = (g.val : ℤ)), u (ix2 i q) := by
  unfold Ideal.hostScatterAdd
  refine congrArg (fun t => x0 (ix2 g q) + t) ?_
  rw [Finset.sum_filter, Finset.sum_filter, sum_idx2]
  refine Finset.sum_congr rfl fun i _ => ?_
  by_cases hv : (idx (ix2 i 0)).toInt = (g.val : ℤ)
  · rw [if_pos hv]
    rw [Finset.sum_eq_single q]
    · rw [if_pos ((sdP_resultIdx_eq idx i q g q).2 ⟨hv, rfl⟩)]
    · intro f _ hfq
      rw [if_neg (fun h => hfq ((sdP_resultIdx_eq idx i f g q).1 h).2)]
    · intro h; exact absurd (Finset.mem_univ q) h
  · rw [if_neg hv]
    refine Finset.sum_eq_zero fun f _ => ?_
    rw [if_neg (fun h => hv ((sdP_resultIdx_eq idx i f g q).1 h).1)]

/-- The element scatter of [100000] onto [64]: update element `i` lands on operand element `g` exactly when its start word, read signed, is `g`. -/
theorem sdC_resultIdx_eq (idx : IVec SNx1 32) (i : Fin 100000) (g : Fin 64) :
    sdC.resultIdx? (ix1 i) idx = some (ix1 g) ↔ (idx (ix2 i 0)).toInt = (g.val : ℤ) := by
  have h0 : sdC.start (ix1 i) idx 0 = (idx (ix2 i 0)).toInt := by
    unfold ScatterDims.start
    rw [dif_pos (show (0 : Fin 1) ∈ sdC.scatterDimsToOperandDims from List.mem_singleton.mpr rfl)]
    have hsi : sdC.siIdx (ix1 i) ⟨List.idxOf (0 : Fin 1) sdC.scatterDimsToOperandDims,
        List.idxOf_lt_length_iff.2 (List.mem_singleton.mpr rfl)⟩ = ix2 i 0 := by
      funext b; refine Fin.ext ?_
      match b with
      | ⟨0, _⟩ => rfl
      | ⟨1, _⟩ => rfl
    rw [hsi]
  have w0 : sdC.window (ix1 i) 0 = 0 := by
    unfold ScatterDims.window
    rw [dif_neg (show (0 : Fin 1) ∉ sdC.sKept by decide)]
  have hs0 : S64.size 0 = 64 := rfl
  have hi := g.isLt
  unfold ScatterDims.resultIdx?
  constructor
  · intro h
    split at h
    · rename_i hall
      have hh := Option.some.inj h
      have e0 : (sdC.start (ix1 i) idx 0 + (sdC.window (ix1 i) 0 : ℤ)).toNat = g.val :=
        congrArg Fin.val (congrFun hh 0)
      have p0 := (hall 0).1
      rw [h0, w0] at e0 p0
      omega
    · exact absurd h (by simp)
  · intro hv
    have hall : ∀ a, 0 ≤ sdC.start (ix1 i) idx a + (sdC.window (ix1 i) a : ℤ) ∧
        sdC.start (ix1 i) idx a + (sdC.window (ix1 i) a : ℤ) < (S64.size a : ℤ) := by
      intro a
      obtain rfl : a = 0 := Subsingleton.elim _ _
      rw [h0, w0, hs0, hv]; omega
    rw [dif_pos hall]
    congr 1
    funext a
    obtain rfl : a = 0 := Subsingleton.elim _ _
    refine Fin.ext ?_
    show (sdC.start (ix1 i) idx 0 + (sdC.window (ix1 i) 0 : ℤ)).toNat = g.val
    rw [h0, w0, hv]; omega

/-- The element scatter of [100000] onto [64] AT g: the operand's element plus the sum of the update elements whose start word read signed is `g`. -/
theorem scatterC_apply (x0 : S64.Idx → EReal) (idx : IVec SNx1 32) (u : SN.Idx → EReal) (g : Fin 64) :
    Ideal.hostScatterAdd sdC x0 idx u (ix1 g) = x0 (ix1 g) +
      ∑ i ∈ Finset.univ.filter (fun i : Fin 100000 => (idx (ix2 i 0)).toInt = (g.val : ℤ)), u (ix1 i) := by
  unfold Ideal.hostScatterAdd
  refine congrArg (fun t => x0 (ix1 g) + t) ?_
  rw [Finset.sum_filter, Finset.sum_filter, sum_idx1]
  refine Finset.sum_congr rfl fun i _ => ?_
  by_cases hv : (idx (ix2 i 0)).toInt = (g.val : ℤ)
  · rw [if_pos hv, if_pos ((sdC_resultIdx_eq idx i g).2 hv)]
  · rw [if_neg hv, if_neg (fun h => hv ((sdC_resultIdx_eq idx i g).1 h))]

end GCN.GS
-- ==== Proof.KI.KVal.lean ====
/-
  The idealized kernel program's result as the network function of its arguments: the three regions'
  values joined through the host's gathers and edge sums.
-/
import proofs.«406043_j45999099740722_2_alg».proof.Proof.KI.Chain
import proofs.«406043_j45999099740722_2_alg».proof.Proof.KI.Val01
import proofs.«406043_j45999099740722_2_alg».proof.Proof.KI.Val2
import proofs.«406043_j45999099740722_2_alg».proof.Proof.LibGatherScatter
import proofs.«406043_j45999099740722_2_alg».proof.Proof.Cur
import proofs.«406043_j45999099740722_2_alg».proof.Proof.Gen.KernelIdeal.Regions
import Idealize.ShloMosaic.Lib.StableHlo.Run
import Idealize.ShloMosaic.Lib.Pipeline.Value
import Idealize.ShloMosaic.Lib.ValueIdx
import Idealize.ShloMosaic.Lib.ValueLayout

set_option maxRecDepth 16384

noncomputable section

namespace Cert.KernelIdeal.Hand

open Idealize.ShloMosaic Idealize.ShloMosaic.TcCoe Idealize.ShloMosaic.ValueIdx
open Idealize.SL Idealize.SL.Sem
open Idealize.ShloMosaic.Pipeline (Dat)
open Cert.KernelIdeal Cert.KernelIdeal.Gen

variable (m : (ℓ : Loc nD τ sig) → Buf (Elt Ideal) ℓ)

/-- The arguments at their literal types. -/
abbrev kA0 (c : Dev nD) : S100000x64.Idx → EReal := m ((c.tc : Thread nD τ).loc main_arg0)
abbrev kA1 (c : Dev nD) : S64x128.Idx → EReal := m ((c.tc : Thread nD τ).loc main_arg1)
abbrev kA2 (c : Dev nD) : S128.Idx → EReal := m ((c.tc : Thread nD τ).loc main_arg2)
abbrev kA3 (c : Dev nD) : S128x128.Idx → EReal := m ((c.tc : Thread nD τ).loc main_arg3)
abbrev kA4 (c : Dev nD) : S128.Idx → EReal := m ((c.tc : Thread nD τ).loc main_arg4)
abbrev kA5 (c : Dev nD) : S128x2.Idx → EReal := m ((c.tc : Thread nD τ).loc main_arg5)
abbrev kA6 (c : Dev nD) : S2.Idx → EReal := m ((c.tc : Thread nD τ).loc main_arg6)
abbrev kA7 (c : Dev nD) : S2x1600000.Idx → BitVec 32 := m ((c.tc : Thread nD τ).loc main_arg7)
abbrev kA8 (c : Dev nD) : S100000.Idx → BitVec 32 := m ((c.tc : Thread nD τ).loc main_arg8)

/-- The per-node factor, the gather's start words, the edge sums' target words and the graph words, as the
    program computes them from the edge list and the graph assignment (values of the boundary contents). -/
abbrev kDinv (c : Dev nD) : S100000.Idx → EReal := W3 m c (Proc.devRef .tc main_v14)
abbrev kSrcIdx (c : Dev nD) : S1700000x1.Idx → BitVec 32 := W5 m c (Proc.devRef .tc main_v22)
abbrev kDstIdx (c : Dev nD) : S1700000x1.Idx → BitVec 32 := W5 m c (Proc.devRef .tc main_v25)
abbrev kBatch (c : Dev nD) : S100000x1.Idx → BitVec 32 := W7 m c (Proc.devRef .tc main_v40)
/-- The program's result array. -/
abbrev kOutArr (c : Dev nD) : S64x2.Idx → EReal := W8 m c (Proc.devRef .tc main_v42)

/-- The program's two index records are the general row gather and row scatter. -/
theorem kv_gd : gather_S100000x128_S1700000x1_S1700000x128_1_0_n_n_0_1_1128 = GCN.GS.gd2 := rfl
theorem kv_sd : scatter_S100000x128_S1700000x1_S1700000x128_1_0_0_1 = GCN.GS.sd2 := rfl

/-- The gather's start words from the list of source words: a negative word is moved up by the number of rows. -/
def kvWrap (s : IVec S1700000 32) : IVec S1700000x1 32 :=
  broadcastInDim S1700000x1 ![0] bcast_S1700000_S1700000x1_0
    (select (cmpi .slt s (broadcastInDim S1700000 ![] bcast_S_S1700000 (constantI S_ 32 0#32)))
      (addi s (broadcastInDim S1700000 ![] bcast_S_S1700000 (constantI S_ 32 100000#32))) s)
/-- A list of words as a column. -/
def kvCol (t : IVec S1700000 32) : IVec S1700000x1 32 := broadcastInDim S1700000x1 ![0] bcast_S1700000_S1700000x1_0 t
/-- The edge sums of the gathered rows, from zero. -/
def kvAgg (h : S100000x128.Idx → EReal) (si ti : IVec S1700000x1 32) : S100000x128.Idx → EReal :=
  Host.scatterAdd (F := Ideal) (φ := .f32) scatter_S100000x128_S1700000x1_S1700000x128_1_0_0_1
    (broadcastInDim S100000x128 ![] bcast_S_S100000x128 (constant (F := Ideal) S_ .f32 0x00000000#32))
    ti (Host.gather gather_S100000x128_S1700000x1_S1700000x128_1_0_n_n_0_1_1128 h si)

/-! ## What each stretch of host operations and each region leaves alone -/

theorem kv_W3_of (c : Dev nD) (r : Ref sig .tc) (h0 : r ∉ hostOps0_W) (h1 : r ∉ hostOps0_1_W) (h2 : r ∉ hostOps0_2_W) :
    W3 m c (Proc.devRef .tc r) = m ((c : Thread nD τ).loc r) :=
  (StableHlo.after_of_writes_sub hostOps0_2 _ hostOps0_2_writes h2).trans <|
    (StableHlo.after_of_writes_sub hostOps0_1 _ hostOps0_1_writes h1).trans <|
      (StableHlo.after_of_writes_sub hostOps0 _ hostOps0_writes h0).trans rfl
theorem kv_W5_of (c : Dev nD) (r : Ref sig .tc) (h : r ∉ hostOps1_W) : W5 m c (Proc.devRef .tc r) = W4 m c (Proc.devRef .tc r) :=
  StableHlo.after_of_writes_sub hostOps1 _ hostOps1_writes h
theorem kv_W7_of (c : Dev nD) (r : Ref sig .tc) (h : r ∉ hostOps2_W) : W7 m c (Proc.devRef .tc r) = W6 m c (Proc.devRef .tc r) :=
  StableHlo.after_of_writes_sub hostOps2 _ hostOps2_writes h
/-- A region's input window's array leaves the region as it entered. -/
theorem kv_W4_in (c : Dev nD) (w : Fin cfg0.W) (hin : (cfg0.win w).isOut = false) :
    W4 m c (Proc.devRef .tc (Pipeline.arrRef spec0 w)) = W3 m c (Proc.devRef .tc (Pipeline.arrRef spec0 w)) :=
  (W4_arr m c w).trans (((dat0 (VE0 m) c).arrAt_in w hin _).trans (A_eq0 (VE0 m) c w))
theorem kv_W6_in (c : Dev nD) (w : Fin cfg1.W) (hin : (cfg1.win w).isOut = false) :
    W6 m c (Proc.devRef .tc (Pipeline.arrRef spec1 w)) = W5 m c (Proc.devRef .tc (Pipeline.arrRef spec1 w)) :=
  (W6_arr m c w).trans (((dat1 (VE1 m) c).arrAt_in w hin _).trans (A_eq1 (VE1 m) c w))

theorem kv_W3_arg0 (c : Dev nD) : W3 m c (Proc.devRef .tc main_arg0) = m ((c : Thread nD τ).loc main_arg0) :=
  kv_W3_of m c main_arg0 (by decide) (by decide) (by decide)
theorem kv_W3_arg1 (c : Dev nD) : W3 m c (Proc.devRef .tc main_arg1) = m ((c : Thread nD τ).loc main_arg1) :=
  kv_W3_of m c main_arg1 (by decide) (by decide) (by decide)
theorem kv_W4_arg2 (c : Dev nD) : W4 m c (Proc.devRef .tc main_arg2) = m ((c : Thread nD τ).loc main_arg2) :=
  (W4_of_ne m c main_arg2 (by decide)).trans <| kv_W3_of m c main_arg2 (by decide) (by decide) (by decide)
theorem kv_W5_arg3 (c : Dev nD) : W5 m c (Proc.devRef .tc main_arg3) = m ((c : Thread nD τ).loc main_arg3) :=
  (kv_W5_of m c main_arg3 (by decide)).trans <| (W4_of_ne m c main_arg3 (by decide)).trans <|
    kv_W3_of m c main_arg3 (by decide) (by decide) (by decide)
theorem kv_W6_arg4 (c : Dev nD) : W6 m c (Proc.devRef .tc main_arg4) = m ((c : Thread nD τ).loc main_arg4) :=
  (W6_of_ne m c main_arg4 (by decide)).trans <| (kv_W5_of m c main_arg4 (by decide)).trans <|
    (W4_of_ne m c main_arg4 (by decide)).trans <| kv_W3_of m c main_arg4 (by decide) (by decide) (by decide)
theorem kv_W6_arg6 (c : Dev nD) : W6 m c (Proc.devRef .tc main_arg6) = m ((c : Thread nD τ).loc main_arg6) :=
  (W6_of_ne m c main_arg6 (by decide)).trans <| (kv_W5_of m c main_arg6 (by decide)).trans <|
    (W4_of_ne m c main_arg6 (by decide)).trans <| kv_W3_of m c main_arg6 (by decide) (by decide) (by decide)
theorem kv_W7_arg5 (c : Dev nD) : W7 m c (Proc.devRef .tc main_arg5) = m ((c : Thread nD τ).loc main_arg5) :=
  (kv_W7_of m c main_arg5 (by decide)).trans <| (W6_of_ne m c main_arg5 (by decide)).trans <|
    (kv_W5_of m c main_arg5 (by decide)).trans <| (W4_of_ne m c main_arg5 (by decide)).trans <|
      kv_W3_of m c main_arg5 (by decide) (by decide) (by decide)
theorem kv_W5_v15 (c : Dev nD) : W5 m c (Proc.devRef .tc main_v15) = W3 m c (Proc.devRef .tc main_v15) :=
  (kv_W5_of m c main_v15 (by decide)).trans <| kv_W4_in m c 2 rfl
theorem kv_W7_v15 (c : Dev nD) : W7 m c (Proc.devRef .tc main_v15) = W3 m c (Proc.devRef .tc main_v15) :=
  (kv_W7_of m c main_v15 (by decide)).trans <| (kv_W6_in m c 1 rfl).trans <| kv_W5_v15 m c
theorem kv_W6_v5 (c : Dev nD) : W6 m c (Proc.devRef .tc main_v5) = W4 m c (Proc.devRef .tc main_v5) :=
  (W6_of_ne m c main_v5 (by decide)).trans <| kv_W5_of m c main_v5 (by decide)
theorem kv_W6_v6 (c : Dev nD) : W6 m c (Proc.devRef .tc main_v6) = W4 m c (Proc.devRef .tc main_v6) :=
  (W6_of_ne m c main_v6 (by decide)).trans <| kv_W5_of m c main_v6 (by decide)

/-! ## The buffers the host operations write, as the operations applied to what they read -/

theorem kv_out (c : Dev nD) : (W8 m c (Proc.devRef .tc main_v42) : S64x2.Idx → EReal) = oOut (VE2 m) c :=
  W8_arr m c 6
theorem kv_v34 (c : Dev nD) : (W7 m c (Proc.devRef .tc main_v34) : IVec S1700000x1 32) = kvWrap (W6 m c (Proc.devRef .tc main_v5)) := by
  show StableHlo.after hostOps2 _ (Proc.devRef .tc main_v34) = _
  after_results
  rfl
theorem kv_v37 (c : Dev nD) : (W7 m c (Proc.devRef .tc main_v37) : IVec S1700000x1 32) = kvCol (W6 m c (Proc.devRef .tc main_v6)) := by
  show StableHlo.after hostOps2 _ (Proc.devRef .tc main_v37) = _
  after_results
  rfl
theorem kv_v38 (c : Dev nD) : (W7 m c (Proc.devRef .tc main_v38) : S100000x128.Idx → EReal)
    = kvAgg (W6 m c (Proc.devRef .tc main_v28)) (kvWrap (W6 m c (Proc.devRef .tc main_v5))) (kvCol (W6 m c (Proc.devRef .tc main_v6))) := by
  show StableHlo.after hostOps2 _ (Proc.devRef .tc main_v38) = _
  after_results
  rfl
theorem kv_v22 (c : Dev nD) : (W5 m c (Proc.devRef .tc main_v22) : IVec S1700000x1 32) = kvWrap (W4 m c (Proc.devRef .tc main_v5)) := by
  show StableHlo.after hostOps1 _ (Proc.devRef .tc main_v22) = _
  after_results
  rfl
theorem kv_v25 (c : Dev nD) : (W5 m c (Proc.devRef .tc main_v25) : IVec S1700000x1 32) = kvCol (W4 m c (Proc.devRef .tc main_v6)) := by
  show StableHlo.after hostOps1 _ (Proc.devRef .tc main_v25) = _
  after_results
  rfl
theorem kv_v26 (c : Dev nD) : (W5 m c (Proc.devRef .tc main_v26) : S100000x128.Idx → EReal)
    = kvAgg (W4 m c (Proc.devRef .tc main_v16)) (kvWrap (W4 m c (Proc.devRef .tc main_v5))) (kvCol (W4 m c (Proc.devRef .tc main_v6))) := by
  show StableHlo.after hostOps1 _ (Proc.devRef .tc main_v26) = _
  after_results
  rfl

/-! ## The reshaped arguments and the factor column, entry by entry -/

theorem kv_v39_apply (c : Dev nD) (k : Fin 128) :
    (W7 m c (Proc.devRef .tc main_v39) : S1x128.Idx → EReal) (ix2 0 k) = kA4 m c (ix1 k) := by
  have e : (W7 m c (Proc.devRef .tc main_v39) : S1x128.Idx → EReal)
      = shapeCast S1x128 (W6 m c (Proc.devRef .tc main_arg4) : S128.Idx → EReal) shapeCasts_S128_S1x128 := by
    show StableHlo.after hostOps2 _ (Proc.devRef .tc main_v39) = _
    after_results
    rfl
  refine (congrFun e (ix2 0 k)).trans ?_
  refine (shapeCast_a_1a_apply _ _ 0 k).trans ?_
  exact congrFun (kv_W6_arg4 m c) (ix1 k)
theorem kv_v41_apply (c : Dev nD) (o : Fin 2) :
    (W7 m c (Proc.devRef .tc main_v41) : S1x2.Idx → EReal) (ix2 0 o) = kA6 m c (ix1 o) := by
  have e : (W7 m c (Proc.devRef .tc main_v41) : S1x2.Idx → EReal)
      = shapeCast S1x2 (W6 m c (Proc.devRef .tc main_arg6) : S2.Idx → EReal) shapeCasts_S2_S1x2 := by
    show StableHlo.after hostOps2 _ (Proc.devRef .tc main_v41) = _
    after_results
    rfl
  refine (congrFun e (ix2 0 o)).trans ?_
  refine (shapeCast_a_1a_apply _ _ 0 o).trans ?_
  exact congrFun (kv_W6_arg6 m c) (ix1 o)
theorem kv_v27_apply (c : Dev nD) (k : Fin 128) :
    (W5 m c (Proc.devRef .tc main_v27) : S1x128.Idx → EReal) (ix2 0 k) = kA2 m c (ix1 k) := by
  have e : (W5 m c (Proc.devRef .tc main_v27) : S1x128.Idx → EReal)
      = shapeCast S1x128 (W4 m c (Proc.devRef .tc main_arg2) : S128.Idx → EReal) shapeCasts_S128_S1x128 := by
    show StableHlo.after hostOps1 _ (Proc.devRef .tc main_v27) = _
    after_results
    rfl
  refine (congrFun e (ix2 0 k)).trans ?_
  refine (shapeCast_a_1a_apply _ _ 0 k).trans ?_
  exact congrFun (kv_W4_arg2 m c) (ix1 k)
/-- The factor's reshape to a column, over any contents before it. -/
theorem kv_cast15 (V : Valuation τ sig (Elt Ideal)) :
    (StableHlo.after hostOps0_2 V (Proc.devRef .tc main_v15) : S100000x1.Idx → EReal)
      = shapeCast S100000x1 (V (Proc.devRef .tc main_v14) : S100000.Idx → EReal) shapeCasts_S100000_S100000x1 := by
  after_results
  rfl
/-- The factor column: row p holds the factor of node p. -/
theorem kv_v15_apply (c : Dev nD) (p : Fin 100000) :
    (W3 m c (Proc.devRef .tc main_v15) : S100000x1.Idx → EReal) (ix2 p 0) = kDinv m c (ix1 p) := by
  have e : (W3 m c (Proc.devRef .tc main_v15) : S100000x1.Idx → EReal)
      = shapeCast S100000x1 (W2 m c (Proc.devRef .tc main_v14) : S100000.Idx → EReal) shapeCasts_S100000_S100000x1 :=
    kv_cast15 (W2 m c)
  have e14 : (W3 m c (Proc.devRef .tc main_v14) : S100000.Idx → EReal) = W2 m c (Proc.devRef .tc main_v14) :=
    StableHlo.after_of_writes_sub hostOps0_2 _ hostOps0_2_writes (by decide)
  refine (congrFun e (ix2 p 0)).trans ?_
  refine (shapeCast_apply _ _ _ (ix1 p) ?_).trans (congrFun e14.symm (ix1 p))
  rw [Shape.rowMajor_val_two, Shape.rowMajor_val_one]
  show p.val = p.val * 1 + 0
  omega

/-- The zero array the edge sums start from. -/
theorem kv_zero (i : Fin 100000) (k : Fin 128) :
    broadcastInDim S100000x128 ![] bcast_S_S100000x128 (constant (F := Ideal) S_ .f32 0x00000000#32) (ix2 i k) = (0 : EReal) := by
  unfold broadcastInDim
  rw [constant_apply]
  exact Ideal.ofBits_zero_f32

/-! ## The edge sums, entry by entry -/

/-- The edge sums at (i, k): over the edges landing on row i, entry k of the row the edge gathers. -/
theorem kv_agg_apply (h : S100000x128.Idx → EReal) (si ti : IVec S1700000x1 32) (i : Fin 100000) (k : Fin 128) :
    kvAgg h si ti (ix2 i k) = GCN.agg (GCN.tgtOf ti) (fun e q => h (ix2 (GCN.srcOf si e) q)) i k := by
  have e : kvAgg h si ti = Ideal.hostScatterAdd GCN.GS.sd2
      (broadcastInDim S100000x128 ![] bcast_S_S100000x128 (constant (F := Ideal) S_ .f32 0x00000000#32)) ti
      (Host.gather GCN.GS.gd2 h si) := rfl
  rw [e, GCN.GS.scatter2_apply, kv_zero, zero_add]
  show _ = ∑ e ∈ Finset.univ.filter (fun e : Fin 1700000 => GCN.tgtOf ti e i), h (ix2 (GCN.srcOf si e) k)
  refine Finset.sum_congr ?_ fun e _ => ?_
  · ext e
    simp only [Finset.mem_filter, Finset.mem_univ, true_and]
    rfl
  · exact (GCN.GS.gather2_apply h si e k).trans rfl

/-! ## The two layers -/

/-- The first layer's activation and the second's, as the network function of the arguments. -/
abbrev kvT1 (c : Dev nD) : Fin 100000 → Fin 128 → EReal :=
  GCN.kT1 (GCN.cur2 (kA0 m c)) (GCN.cur2 (kA1 m c)) (GCN.cur1 (kA2 m c)) (GCN.cur1 (kDinv m c))
    (GCN.srcOf (kSrcIdx m c)) (GCN.tgtOf (kDstIdx m c))
abbrev kvT2 (c : Dev nD) : Fin 100000 → Fin 128 → EReal :=
  GCN.kT2 (GCN.cur2 (kA0 m c)) (GCN.cur2 (kA1 m c)) (GCN.cur1 (kA2 m c)) (GCN.cur2 (kA3 m c)) (GCN.cur1 (kA4 m c))
    (GCN.cur1 (kDinv m c)) (GCN.srcOf (kSrcIdx m c)) (GCN.tgtOf (kDstIdx m c))

/-- Region 0's array: the scaled rows of x W1. -/
theorem kv_h1_apply (c : Dev nD) (p : Fin 100000) (q : Fin 128) :
    (W4 m c (Proc.devRef .tc main_v16) : S100000x128.Idx → EReal) (ix2 p q)
      = GCN.scaleRows (GCN.cur1 (kDinv m c)) (GCN.lin (GCN.cur2 (kA0 m c)) (GCN.cur2 (kA1 m c))) p q := by
  refine (congrFun (W4_arr m c 3) (ix2 p q)).trans ?_
  refine (val0 (VE0 m) c p q).trans ?_
  unfold GCN.scaleRows
  have e0 : GCN.cur2 (eX (VE0 m) c) = GCN.cur2 (kA0 m c) := congrArg GCN.cur2 (kv_W3_arg0 m c)
  have e1 : GCN.cur2 (eW1 (VE0 m) c) = GCN.cur2 (kA1 m c) := congrArg GCN.cur2 (kv_W3_arg1 m c)
  have e2 : eD (VE0 m) c (ix2 p 0) = GCN.cur1 (kDinv m c) p := kv_v15_apply m c p
  rw [e0, e1, e2]

/-- The first edge sums: of the scaled rows of x W1. -/
theorem kv_agg1_apply (c : Dev nD) (p : Fin 100000) (k : Fin 128) :
    (W5 m c (Proc.devRef .tc main_v26) : S100000x128.Idx → EReal) (ix2 p k)
      = GCN.agg (GCN.tgtOf (kDstIdx m c))
          (fun e q => GCN.scaleRows (GCN.cur1 (kDinv m c)) (GCN.lin (GCN.cur2 (kA0 m c)) (GCN.cur2 (kA1 m c))) (GCN.srcOf (kSrcIdx m c) e) q) p k := by
  refine (congrFun (kv_v26 m c) (ix2 p k)).trans ?_
  rw [← kv_v22, ← kv_v25]
  refine (kv_agg_apply _ _ _ p k).trans ?_
  refine congrArg (fun u => GCN.agg (GCN.tgtOf (kDstIdx m c)) u p k) ?_
  funext e q
  exact kv_h1_apply m c (GCN.srcOf (kSrcIdx m c) e) q

/-- The first layer's activation, as region 1 reads it off its entry arrays. -/
theorem kv_t1 (c : Dev nD) :
    (fun (p : Fin 100000) (k : Fin 128) =>
        max (eAgg1 (VE1 m) c (ix2 p k) * eD (VE1 m) c (ix2 p 0) + eB1 (VE1 m) c (ix2 0 k)) 0)
      = kvT1 m c := by
  funext p k
  have a : eAgg1 (VE1 m) c (ix2 p k) = _ := kv_agg1_apply m c p k
  have d : eD (VE1 m) c (ix2 p 0) = GCN.cur1 (kDinv m c) p :=
    (congrFun (kv_W5_v15 m c) (ix2 p 0)).trans (kv_v15_apply m c p)
  have b : eB1 (VE1 m) c (ix2 0 k) = GCN.cur1 (kA2 m c) k := kv_v27_apply m c k
  rw [a, d, b]
  rfl

/-- Region 1's array: the scaled rows of (first activation) W2. -/
theorem kv_h2_apply (c : Dev nD) (p : Fin 100000) (q : Fin 128) :
    (W6 m c (Proc.devRef .tc main_v28) : S100000x128.Idx → EReal) (ix2 p q)
      = GCN.scaleRows (GCN.cur1 (kDinv m c)) (GCN.lin (kvT1 m c) (GCN.cur2 (kA3 m c))) p q := by
  refine (congrFun (W6_arr m c 4) (ix2 p q)).trans ?_
  refine (val1 (VE1 m) c p q).trans ?_
  unfold GCN.scaleRows
  have e1 : GCN.cur2 (eW2 (VE1 m) c) = GCN.cur2 (kA3 m c) := congrArg GCN.cur2 (kv_W5_arg3 m c)
  have e2 : eD (VE1 m) c (ix2 p 0) = GCN.cur1 (kDinv m c) p :=
    (congrFun (kv_W5_v15 m c) (ix2 p 0)).trans (kv_v15_apply m c p)
  rw [e1, e2]
  exact congrArg (fun t => GCN.lin t (GCN.cur2 (kA3 m c)) p q * GCN.cur1 (kDinv m c) p) (kv_t1 m c)

/-- The second edge sums: of the scaled rows of (first activation) W2; the index words are the first layer's. -/
theorem kv_agg2_apply (c : Dev nD) (i : Fin 100000) (k : Fin 128) :
    (W7 m c (Proc.devRef .tc main_v38) : S100000x128.Idx → EReal) (ix2 i k)
      = GCN.agg (GCN.tgtOf (kDstIdx m c))
          (fun e q => GCN.scaleRows (GCN.cur1 (kDinv m c)) (GCN.lin (kvT1 m c) (GCN.cur2 (kA3 m c))) (GCN.srcOf (kSrcIdx m c) e) q) i k := by
  refine (congrFun (kv_v38 m c) (ix2 i k)).trans ?_
  rw [kv_W6_v5, kv_W6_v6, ← kv_v22, ← kv_v25]
  refine (kv_agg_apply _ _ _ i k).trans ?_
  refine congrArg (fun u => GCN.agg (GCN.tgtOf (kDstIdx m c)) u i k) ?_
  funext e q
  exact kv_h2_apply m c (GCN.srcOf (kSrcIdx m c) e) q

/-- The second layer's activation, as region 2 reads it off its entry arrays. -/
theorem kv_t2 (c : Dev nD) : act2 (VE2 m) c = kvT2 m c := by
  funext i k
  unfold act2
  have a : fAgg2 (VE2 m) c (ix2 i k) = _ := kv_agg2_apply m c i k
  have d : fD (VE2 m) c (ix2 i 0) = GCN.cur1 (kDinv m c) i :=
    (congrFun (kv_W7_v15 m c) (ix2 i 0)).trans (kv_v15_apply m c i)
  have b : fB2 (VE2 m) c (ix2 0 k) = GCN.cur1 (kA4 m c) k := kv_v39_apply m c k
  rw [a, d, b]
  rfl

/-- THE KERNEL PROGRAM'S VALUE. -/
theorem kernel_value (c : Dev nD) :
    GCN.cur2 (kOutArr m c)
      = GCN.kOut (GCN.cur2 (kA0 m c)) (GCN.cur2 (kA1 m c)) (GCN.cur1 (kA2 m c)) (GCN.cur2 (kA3 m c)) (GCN.cur1 (kA4 m c))
          (GCN.cur2 (kA5 m c)) (GCN.cur1 (kA6 m c)) (GCN.cur1 (kDinv m c)) (GCN.srcOf (kSrcIdx m c)) (GCN.tgtOf (kDstIdx m c))
          (GCN.ohOf (kBatch m c)) := by
  funext g o
  refine (congrFun (kv_out m c) (ix2 g o)).trans ?_
  refine (val2 (VE2 m) c g o).trans ?_
  unfold GCN.kOut
  have h1 : GCN.cur2 (fWfc (VE2 m) c) = GCN.cur2 (kA5 m c) := congrArg GCN.cur2 (kv_W7_arg5 m c)
  have h2 : GCN.curRow (fBfc (VE2 m) c) = GCN.cur1 (kA6 m c) := funext fun o => kv_v41_apply m c o
  have h4 : act2 (VE2 m) c = kvT2 m c := kv_t2 m c
  rw [h1, h2, h4]

end Cert.KernelIdeal.Hand

end
-- ==== Proof.RefVal.lean ====
/-
  The idealized reference program's result as the network function of its arguments.
-/
import proofs.«406043_j45999099740722_2_alg».proof.Proof.RefRead
import proofs.«406043_j45999099740722_2_alg».proof.Proof.LibGatherScatter
import proofs.«406043_j45999099740722_2_alg».proof.Proof.Cur
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.ReferenceIdeal.RefValue

open Idealize.ShloMosaic Idealize.ShloMosaic.TcCoe Idealize.ShloMosaic.ValueIdx
open Cert.ReferenceIdeal Cert.ReferenceIdeal.Read

variable (x0 : S100000x64.Idx → EReal) (x1 : S64x128.Idx → EReal) (x2 : S128.Idx → EReal) (x3 : S128x128.Idx → EReal)
  (x4 : S128.Idx → EReal) (x5 : S128x2.Idx → EReal) (x6 : S2.Idx → EReal) (x7 : S2x1600000.Idx → BitVec 32) (x8 : S100000.Idx → BitVec 32)

/-- The per-node factor, the feature gather's start words, the target-factor gather's start words, the edge sums'
    target words and the graph words, as the reference computes them (first layer's copies). -/
abbrev rDinv : S100000.Idx → EReal := val_main_v15 (F := Ideal) x7
abbrev rSrcIdx : S1700000x1.Idx → BitVec 32 := val_main_v36 (F := Ideal) x7
abbrev rGdIdx : S1700000x1.Idx → BitVec 32 := val_main_v28 (F := Ideal) x7
abbrev rDstIdx : S1700000x1.Idx → BitVec 32 := val_main_v42 (F := Ideal) x7
abbrev rBatch : S100000x1.Idx → BitVec 32 := val_main_v93 (F := Ideal) x8
/-- The reference's result array. -/
abbrev rOutArr : S64x2.Idx → EReal := val_main_v108 (F := Ideal) x0 x1 x2 x3 x4 x5 x6 x7 x8

/-! ## The duplicated index arrays are the same functions -/
section Dup
variable {F : FTy → Type} [FloatOps F] (y7 : (⟨S2x1600000, .i32⟩ : BufTy).Contents (Elt F))
theorem dup_v59 : val_main_v59 (F := F) y7 = val_main_v15 (F := F) y7 := rfl
theorem dup_v21 : val_main_v21 (F := F) y7 = val_main_v36 (F := F) y7 := rfl
theorem dup_v65 : val_main_v65 (F := F) y7 = val_main_v36 (F := F) y7 := rfl
theorem dup_v72 : val_main_v72 (F := F) y7 = val_main_v28 (F := F) y7 := rfl
theorem dup_v80 : val_main_v80 (F := F) y7 = val_main_v36 (F := F) y7 := rfl
theorem dup_v86 : val_main_v86 (F := F) y7 = val_main_v42 (F := F) y7 := rfl
theorem dup_v97 (y8 : (⟨S100000, .i32⟩ : BufTy).Contents (Elt F)) : val_main_v97 (F := F) y8 = val_main_v93 (F := F) y8 := rfl
end Dup

/-! ## The program's dimension records are the general ones -/
theorem rec_gd2 : gather_S100000x128_S1700000x1_S1700000x128_1_0_n_n_0_1_1128 = GCN.GS.gd2 := rfl
theorem rec_gd1 : gather_S100000_S1700000x1_S1700000_n_0_n_n_0_1_1 = GCN.GS.gd1 := rfl
theorem rec_sd2 : scatter_S100000x128_S1700000x1_S1700000x128_1_0_0_1 = GCN.GS.sd2 := rfl
theorem rec_sd1 : scatter_S100000_S1700000x1_S1700000_n_0_0_1 = GCN.GS.sd1 := rfl
theorem rec_sdP : scatter_S64x128_S100000x1_S100000x128_1_0_0_1 = GCN.GS.sdP := rfl
theorem rec_sdC : scatter_S64_S100000x1_S100000_n_0_0_1 = GCN.GS.sdC := rfl

/-- the select of a positive-test between the reciprocal square root and zero is a real number -/
theorem sel_rsqrt_real (d : EReal) :
    GCN.IsR (Scalar.select (Ideal.cmp .ogt d 0) (Ideal.rsqrt d) 0) := by
  unfold Scalar.select
  split
  · rename_i hc
    have hpos : (0 : EReal) < d := by
      unfold Ideal.cmp at hc
      by_contra hn
      simp [hn] at hc
    induction d using EReal.rec with
    | bot => exact absurd hpos (by simp)
    | top => rw [Ideal.rsqrt_top]; exact ⟨EReal.zero_ne_top, EReal.zero_ne_bot⟩
    | coe r =>
      have hr : 0 < r := by exact_mod_cast hpos
      rw [Ideal.rsqrt_coe, if_neg (not_lt.mpr hr.le), if_neg hr.ne']
      exact ⟨EReal.coe_ne_top _, EReal.coe_ne_bot _⟩
  · exact ⟨EReal.zero_ne_top, EReal.zero_ne_bot⟩

theorem zero_call0_v1 (i : S100000.Idx) : val_main_call0_v1 (F := Ideal) i = 0 := by
  rw [val_main_call0_v1_apply, val_main_call0_v0_apply, val_main_cst_2_apply, Ideal.ofBits_def, Ideal.ofBits_zero_f32]
theorem zero_v12 (i : S100000.Idx) : val_main_v12 (F := Ideal) i = 0 := by
  rw [val_main_v12_apply, val_main_cst_1_apply, Ideal.ofBits_def, Ideal.ofBits_zero_f32]

theorem dinv_real' (i : Fin GCN.NN) : GCN.IsR (GCN.cur1 (rDinv x7) i) := by
  show GCN.IsR (val_main_v15 (F := Ideal) x7 (ix1 i))
  rw [val_main_v15_apply, val_main_v13_apply, val_main_v14_apply, zero_call0_v1, zero_v12]
  generalize val_main_v11 (F := Ideal) x7 (ix1 i) = d
  exact sel_rsqrt_real d

theorem idx42 (e : Fin 1700000) : idx_main_v42 (ix2 e 0) = ix1 e := by
  funext a; match a with | ⟨0, _⟩ => rfl
theorem idx28 (e : Fin 1700000) : idx_main_v28 (ix2 e 0) = ix1 e := by
  funext a; match a with | ⟨0, _⟩ => rfl

theorem gd_of_tgt' (e : Fin GCN.MM) (i : Fin GCN.NN) (h : GCN.tgtOf (rDstIdx x7) e i) :
    GCN.srcOf (rGdIdx x7) e = i := by
  have h : (val_main_v42 (F := Ideal) x7 (ix2 e 0)).toInt = (i.val : ℤ) := h
  show GCN.GS.rowOf (val_main_v28 (F := Ideal) x7 (ix2 e 0)) = i
  rw [val_main_v42_apply, idx42] at h
  rw [val_main_v28_apply, idx28, val_main_v27_apply, val_main_v24_apply, val_main_v23_apply, val_main_c_4_apply]
  have hlt : IntOp.cmpi .slt (val_main_v7 (F := Ideal) x7 (ix1 e)) 0#32 ≠ 1 := by
    have hd : (val_main_v7 (F := Ideal) x7 (ix1 e)).slt 0#32 = false := by
      show decide ((val_main_v7 (F := Ideal) x7 (ix1 e)).toInt < (0#32 : BitVec 32).toInt) = false
      rw [h, BitVec.toInt_zero]
      exact decide_eq_false (by omega)
    show BitVec.ofBool ((val_main_v7 (F := Ideal) x7 (ix1 e)).slt 0#32) ≠ 1
    rw [hd]; decide
  unfold Scalar.select
  rw [if_neg hlt]
  exact GCN.GS.rowOf_of_toInt h

/-! ## The graph data the reference reads, by name -/
abbrev aD : Fin GCN.NN → EReal := GCN.cur1 (rDinv x7)
abbrev aSrc : Fin GCN.MM → Fin GCN.NN := GCN.srcOf (rSrcIdx x7)
abbrev aGd : Fin GCN.MM → Fin GCN.NN := GCN.srcOf (rGdIdx x7)

theorem scatterAdd_ideal {s si u : Shape} {w : Nat} (d : ScatterDims s si u) (x : FVec Ideal s .f32) (idx : IVec si w)
    (upd : FVec Ideal u .f32) : Host.scatterAdd d x idx upd = Ideal.hostScatterAdd d x idx upd := rfl

/-! ## Layer one, stage by stage -/
theorem lidx4 (p : Fin 100000) (q : Fin 128) (k : Fin 64) : lidx_main_v4 (ix2 p q) k = ix2 p k := by
  funext a; match a with | ⟨0, _⟩ => rfl | ⟨1, _⟩ => rfl
theorem ridx4 (p : Fin 100000) (q : Fin 128) (k : Fin 64) : ridx_main_v4 (ix2 p q) k = ix2 k q := by
  funext a; match a with | ⟨0, _⟩ => rfl | ⟨1, _⟩ => rfl

/-- the first matrix product at (p, q) -/
theorem h1_apply (p : Fin 100000) (q : Fin 128) :
    val_main_v4 (F := Ideal) x0 x1 (ix2 p q) = GCN.lin (GCN.cur2 x0) (GCN.cur2 x1) p q := by
  rw [val_main_v4_apply]
  unfold GCN.lin GCN.cur2
  refine Finset.sum_congr rfl fun k _ => ?_
  rw [lidx4, ridx4]

/-- the source-factor gather reads the factor of the edge's source row -/
theorem v22_apply (e : Fin 1700000) :
    val_main_v22 (F := Ideal) x7 (ix1 e) = aD x7 (aSrc x7 e) := by
  unfold val_main_v22
  rw [rec_gd1, dup_v21]
  exact GCN.GS.gather1_apply _ _ e
/-- the target-factor gather reads the factor of the row its start word names -/
theorem v29_apply (e : Fin 1700000) :
    val_main_v29 (F := Ideal) x7 (ix1 e) = aD x7 (aGd x7 e) := by
  unfold val_main_v29
  rw [rec_gd1]
  exact GCN.GS.gather1_apply _ _ e
/-- an edge's weight: the product of the two factors -/
theorem norm1_apply (e : Fin 1700000) :
    val_main_v30 (F := Ideal) x7 (ix1 e) = aD x7 (aSrc x7 e) * aD x7 (aGd x7 e) := by
  rw [val_main_v30_apply, v22_apply, v29_apply, Ideal.mulf_def]

theorem idx39 (e : Fin 1700000) (q : Fin 128) : idx_main_v39 (ix2 e q) = ix2 e 0 := by
  funext a; match a with | ⟨0, _⟩ => rfl | ⟨1, _⟩ => rfl
theorem idx38 (e : Fin 1700000) : idx_main_v38 (ix2 e 0) = ix1 e := by
  funext a; match a with | ⟨0, _⟩ => rfl
/-- the feature gather reads the source row of the product -/
theorem v37_apply (e : Fin 1700000) (q : Fin 128) :
    val_main_v37 (F := Ideal) x0 x1 x7 (ix2 e q) = val_main_v4 (F := Ideal) x0 x1 (ix2 (aSrc x7 e) q) := by
  unfold val_main_v37
  rw [rec_gd2]
  exact GCN.GS.gather2_apply _ _ e q
/-- an edge's message -/
theorem msg1_apply (e : Fin 1700000) (q : Fin 128) :
    val_main_v40 (F := Ideal) x0 x1 x7 (ix2 e q)
      = GCN.lin (GCN.cur2 x0) (GCN.cur2 x1) (aSrc x7 e) q * (aD x7 (aSrc x7 e) * aD x7 (aGd x7 e)) := by
  rw [val_main_v40_apply, v37_apply, h1_apply, val_main_v39_apply, idx39, val_main_v38_apply, idx38, norm1_apply,
    Ideal.mulf_def]

theorem zero_v41 (i : S100000x128.Idx) : val_main_v41 (F := Ideal) i = 0 := by
  rw [val_main_v41_apply, val_main_cst_8_apply, Ideal.ofBits_def, Ideal.ofBits_zero_f32]
theorem zero_call1_v0 (i : S100000x128.Idx) : val_main_call1_v0 (F := Ideal) i = 0 := by
  rw [val_main_call1_v0_apply, val_main_call1_cst_apply, Ideal.ofBits_def, Ideal.ofBits_zero_f32]
/-- the edge sum at (p, q): over the edges whose target word is p -/
theorem v43_apply (p : Fin 100000) (q : Fin 128) :
    val_main_v43 (F := Ideal) x0 x1 x7 (ix2 p q)
      = ∑ e ∈ Finset.univ.filter (fun e : Fin 1700000 => (val_main_v42 (F := Ideal) x7 (ix2 e 0)).toInt = (p.val : ℤ)),
          val_main_v40 (F := Ideal) x0 x1 x7 (ix2 e q) := by
  unfold val_main_v43
  rw [scatterAdd_ideal, rec_sd2]
  refine (GCN.GS.scatter2_apply _ _ _ p q).trans ?_
  rw [zero_v41, zero_add]
theorem bias1 (p : Fin 100000) (q : Fin 128) : val_main_v45 (F := Ideal) x2 (ix2 p q) = x2 (ix1 q) := by
  rw [val_main_v45_apply, val_main_v44_apply]
  exact congrArg x2 (funext fun a => by match a with | ⟨0, _⟩ => rfl)
/-- layer one's result at (p, q) -/
theorem out1_apply (p : Fin 100000) (q : Fin 128) :
    val_main_v47 (F := Ideal) x0 x1 x2 x7 (ix2 p q)
      = GCN.rT1 (GCN.cur2 x0) (GCN.cur2 x1) (GCN.cur1 x2) (aD x7) (aSrc x7) (aGd x7) (GCN.tgtOf (rDstIdx x7)) p q := by
  rw [val_main_v47_apply, val_main_v46_apply, v43_apply, bias1, zero_call1_v0, Ideal.maximumf_def, Ideal.addf_def]
  have hsum : (∑ e ∈ Finset.univ.filter (fun e : Fin 1700000 => (val_main_v42 (F := Ideal) x7 (ix2 e 0)).toInt = (p.val : ℤ)),
          val_main_v40 (F := Ideal) x0 x1 x7 (ix2 e q))
      = GCN.agg (GCN.tgtOf (rDstIdx x7)) (fun e q => GCN.lin (GCN.cur2 x0) (GCN.cur2 x1) (aSrc x7 e) q * (aD x7 (aSrc x7 e) * aD x7 (aGd x7 e))) p q := by
    unfold GCN.agg
    refine Finset.sum_congr ?_ (fun e _ => msg1_apply x0 x1 x7 e q)
    ext e
    simp only [Finset.mem_filter, Finset.mem_univ, true_and]
    exact Iff.rfl
  rw [hsum]
  rfl

/-! ## Layer two, stage by stage -/
abbrev aT1 : Fin GCN.NN → Fin 128 → EReal :=
  GCN.rT1 (GCN.cur2 x0) (GCN.cur2 x1) (GCN.cur1 x2) (aD x7) (aSrc x7) (aGd x7) (GCN.tgtOf (rDstIdx x7))

theorem lidx48 (p : Fin 100000) (q : Fin 128) (k : Fin 128) : lidx_main_v48 (ix2 p q) k = ix2 p k := by
  funext a; match a with | ⟨0, _⟩ => rfl | ⟨1, _⟩ => rfl
theorem ridx48 (p : Fin 100000) (q : Fin 128) (k : Fin 128) : ridx_main_v48 (ix2 p q) k = ix2 k q := by
  funext a; match a with | ⟨0, _⟩ => rfl | ⟨1, _⟩ => rfl

/-- the second matrix product at (p, q) -/
theorem h2_apply (p : Fin 100000) (q : Fin 128) :
    val_main_v48 (F := Ideal) x0 x1 x2 x3 x7 (ix2 p q) = GCN.lin (aT1 x0 x1 x2 x7) (GCN.cur2 x3) p q := by
  rw [val_main_v48_apply]
  unfold GCN.lin
  refine Finset.sum_congr rfl fun k _ => ?_
  rw [lidx48, ridx48, out1_apply]
  rfl

theorem v66_apply (e : Fin 1700000) :
    val_main_v66 (F := Ideal) x7 (ix1 e) = aD x7 (aSrc x7 e) := by
  unfold val_main_v66
  rw [rec_gd1, dup_v59, dup_v65]
  exact GCN.GS.gather1_apply _ _ e
theorem v73_apply (e : Fin 1700000) :
    val_main_v73 (F := Ideal) x7 (ix1 e) = aD x7 (aGd x7 e) := by
  unfold val_main_v73
  rw [rec_gd1, dup_v59, dup_v72]
  exact GCN.GS.gather1_apply _ _ e
theorem norm2_apply (e : Fin 1700000) :
    val_main_v74 (F := Ideal) x7 (ix1 e) = aD x7 (aSrc x7 e) * aD x7 (aGd x7 e) := by
  rw [val_main_v74_apply, v66_apply, v73_apply, Ideal.mulf_def]

theorem idx83 (e : Fin 1700000) (q : Fin 128) : idx_main_v83 (ix2 e q) = ix2 e 0 := by
  funext a; match a with | ⟨0, _⟩ => rfl | ⟨1, _⟩ => rfl
theorem idx82 (e : Fin 1700000) : idx_main_v82 (ix2 e 0) = ix1 e := by
  funext a; match a with | ⟨0, _⟩ => rfl
theorem v81_apply (e : Fin 1700000) (q : Fin 128) :
    val_main_v81 (F := Ideal) x0 x1 x2 x3 x7 (ix2 e q) = val_main_v48 (F := Ideal) x0 x1 x2 x3 x7 (ix2 (aSrc x7 e) q) := by
  unfold val_main_v81
  rw [rec_gd2, dup_v80]
  exact GCN.GS.gather2_apply _ _ e q
theorem msg2_apply (e : Fin 1700000) (q : Fin 128) :
    val_main_v84 (F := Ideal) x0 x1 x2 x3 x7 (ix2 e q)
      = GCN.lin (aT1 x0 x1 x2 x7) (GCN.cur2 x3) (aSrc x7 e) q * (aD x7 (aSrc x7 e) * aD x7 (aGd x7 e)) := by
  rw [val_main_v84_apply, v81_apply, h2_apply, val_main_v83_apply, idx83, val_main_v82_apply, idx82, norm2_apply,
    Ideal.mulf_def]

theorem zero_v85 (i : S100000x128.Idx) : val_main_v85 (F := Ideal) i = 0 := by
  rw [val_main_v85_apply, val_main_cst_19_apply, Ideal.ofBits_def, Ideal.ofBits_zero_f32]
theorem zero_call3_v0 (i : S100000x128.Idx) : val_main_call3_v0 (F := Ideal) i = 0 := by
  rw [val_main_call3_v0_apply, val_main_call3_cst_apply, Ideal.ofBits_def, Ideal.ofBits_zero_f32]
theorem v87_apply (p : Fin 100000) (q : Fin 128) :
    val_main_v87 (F := Ideal) x0 x1 x2 x3 x7 (ix2 p q)
      = ∑ e ∈ Finset.univ.filter (fun e : Fin 1700000 => (val_main_v42 (F := Ideal) x7 (ix2 e 0)).toInt = (p.val : ℤ)),
          val_main_v84 (F := Ideal) x0 x1 x2 x3 x7 (ix2 e q) := by
  unfold val_main_v87
  rw [scatterAdd_ideal, rec_sd2, dup_v86]
  refine (GCN.GS.scatter2_apply _ _ _ p q).trans ?_
  rw [zero_v85, zero_add]
theorem bias2 (p : Fin 100000) (q : Fin 128) : val_main_v89 (F := Ideal) x4 (ix2 p q) = x4 (ix1 q) := by
  rw [val_main_v89_apply, val_main_v88_apply]
  exact congrArg x4 (funext fun a => by match a with | ⟨0, _⟩ => rfl)
/-- layer two's result at (p, q) -/
theorem out2_apply (p : Fin 100000) (q : Fin 128) :
    val_main_v91 (F := Ideal) x0 x1 x2 x3 x4 x7 (ix2 p q)
      = GCN.rT2 (GCN.cur2 x0) (GCN.cur2 x1) (GCN.cur1 x2) (GCN.cur2 x3) (GCN.cur1 x4) (aD x7) (aSrc x7) (aGd x7)
          (GCN.tgtOf (rDstIdx x7)) p q := by
  rw [val_main_v91_apply, val_main_v90_apply, v87_apply, bias2, zero_call3_v0, Ideal.maximumf_def, Ideal.addf_def]
  have hsum : (∑ e ∈ Finset.univ.filter (fun e : Fin 1700000 => (val_main_v42 (F := Ideal) x7 (ix2 e 0)).toInt = (p.val : ℤ)),
          val_main_v84 (F := Ideal) x0 x1 x2 x3 x7 (ix2 e q))
      = GCN.agg (GCN.tgtOf (rDstIdx x7)) (fun e q => GCN.lin (aT1 x0 x1 x2 x7) (GCN.cur2 x3) (aSrc x7 e) q * (aD x7 (aSrc x7 e) * aD x7 (aGd x7 e))) p q := by
    unfold GCN.agg
    refine Finset.sum_congr ?_ (fun e _ => msg2_apply x0 x1 x2 x3 x7 e q)
    ext e
    simp only [Finset.mem_filter, Finset.mem_univ, true_and]
    exact Iff.rfl
  rw [hsum]
  rfl

/-! ## Pooling and the closing map -/
abbrev aT2 : Fin GCN.NN → Fin 128 → EReal :=
  GCN.rT2 (GCN.cur2 x0) (GCN.cur2 x1) (GCN.cur1 x2) (GCN.cur2 x3) (GCN.cur1 x4) (aD x7) (aSrc x7) (aGd x7)
    (GCN.tgtOf (rDstIdx x7))

theorem one_bits : Ideal.ofBits .f32 0x3F800000#32 = 1 := by
  have h : Ideal.ofBits .f32 0x3F800000#32 = ((1 : ℝ) : EReal) := by
    simp [Ideal.ofBits, Ideal.ieee, -EReal.coe_mul]; norm_num
  rw [h]; norm_cast
theorem neg_inf_bits : Ideal.ofBits .f32 0xFF800000#32 = ⊥ := by simp [Ideal.ofBits, Ideal.ieee]

theorem zero_v92 (i : S64x128.Idx) : val_main_v92 (F := Ideal) i = 0 := by
  rw [val_main_v92_apply, val_main_cst_20_apply, Ideal.ofBits_def, Ideal.ofBits_zero_f32]
theorem zero_v96 (i : S64.Idx) : val_main_v96 (F := Ideal) i = 0 := by
  rw [val_main_v96_apply, val_main_cst_22_apply, Ideal.ofBits_def, Ideal.ofBits_zero_f32]

/-- the per-graph sums at (g, q) -/
theorem sums_apply (g : Fin 64) (q : Fin 128) :
    val_main_v94 (F := Ideal) x0 x1 x2 x3 x4 x7 x8 (ix2 g q)
      = GCN.rSum (GCN.selOf (rBatch x8)) (aT2 x0 x1 x2 x3 x4 x7) g q := by
  unfold val_main_v94
  rw [scatterAdd_ideal, rec_sdP]
  refine (GCN.GS.scatterP_apply _ _ _ g q).trans ?_
  rw [zero_v92, zero_add]
  unfold GCN.rSum
  refine Finset.sum_congr ?_ (fun i _ => out2_apply x0 x1 x2 x3 x4 x7 i q)
  ext i
  simp only [Finset.mem_filter, Finset.mem_univ, true_and]
  exact Iff.rfl

/-- the per-graph counts at g -/
theorem cnts_apply (g : Fin 64) :
    val_main_v98 (F := Ideal) x8 (ix1 g) = GCN.rCnt (GCN.selOf (rBatch x8)) g := by
  unfold val_main_v98
  rw [scatterAdd_ideal, rec_sdC, dup_v97]
  refine (GCN.GS.scatterC_apply _ _ _ g).trans ?_
  rw [zero_v96, zero_add]
  unfold GCN.rCnt
  refine Finset.sum_congr ?_ (fun i _ => ?_)
  · ext i
    simp only [Finset.mem_filter, Finset.mem_univ, true_and]
    exact Iff.rfl
  · rw [val_main_v95_apply, val_main_cst_21_apply, Ideal.ofBits_def, one_bits]

theorem lidx104 (g : Fin 64) (o : Fin 2) (k : Fin 128) : lidx_main_v104 (ix2 g o) k = ix2 g k := by
  funext a; match a with | ⟨0, _⟩ => rfl | ⟨1, _⟩ => rfl
theorem ridx104 (g : Fin 64) (o : Fin 2) (k : Fin 128) : ridx_main_v104 (ix2 g o) k = ix2 k o := by
  funext a; match a with | ⟨0, _⟩ => rfl | ⟨1, _⟩ => rfl
theorem idx102 (g : Fin 64) (f : Fin 128) : idx_main_v102 (ix2 g f) = ix2 g 0 := by
  funext a; match a with | ⟨0, _⟩ => rfl | ⟨1, _⟩ => rfl
theorem idx101 (g : Fin 64) : idx_main_v101 (ix2 g 0) = ix1 g := by
  funext a; match a with | ⟨0, _⟩ => rfl
theorem bias3 (g : Fin 64) (o : Fin 2) : val_main_v106 (F := Ideal) x6 (ix2 g o) = x6 (ix1 o) := by
  rw [val_main_v106_apply, val_main_v105_apply]
  exact congrArg x6 (funext fun a => by match a with | ⟨0, _⟩ => rfl)

abbrev aL : Fin 64 → Fin 2 → EReal :=
  GCN.logits (GCN.cur2 x5) (GCN.cur1 x6) (GCN.rSum (GCN.selOf (rBatch x8)) (aT2 x0 x1 x2 x3 x4 x7)) (GCN.rCnt (GCN.selOf (rBatch x8)))

/-- the mean-pooled rows through the last linear map, at (g, o) -/
theorem logits_apply (g : Fin 64) (o : Fin 2) :
    val_main_v107 (F := Ideal) x0 x1 x2 x3 x4 x5 x6 x7 x8 (ix2 g o) = aL x0 x1 x2 x3 x4 x5 x6 x7 x8 g o := by
  rw [val_main_v107_apply, val_main_v104_apply, bias3, Ideal.addf_def]
  unfold aL GCN.logits
  have hs : ∀ f : Fin 128,
      val_main_v103 (F := Ideal) x0 x1 x2 x3 x4 x7 x8 (lidx_main_v104 (ix2 g o) f) * x5 (ridx_main_v104 (ix2 g o) f)
        = Ideal.div (GCN.rSum (GCN.selOf (rBatch x8)) (aT2 x0 x1 x2 x3 x4 x7) g f) (max (GCN.rCnt (GCN.selOf (rBatch x8)) g) 1)
            * GCN.cur2 x5 f o := by
    intro f
    rw [lidx104, ridx104, val_main_v103_apply, sums_apply, val_main_v102_apply, idx102, val_main_v101_apply, idx101,
      val_main_v100_apply, cnts_apply, val_main_v99_apply, val_main_cst_23_apply, Ideal.ofBits_def, one_bits,
      Ideal.hostDivf_def, Ideal.maximumf_def]
    rfl
  rw [Finset.sum_congr rfl (fun f _ => hs f)]
  rfl

/-! ## The closing log-softmax -/
theorem lift2 (h : S64x2.Reduces [1] S64) (g : Fin 64) (k : Fin 2) : h.lift (ix1 g) k = ix2 g k := by
  funext c
  apply Fin.ext
  match c with
  | ⟨0, _⟩ => rfl
  | ⟨1, _⟩ => rfl

/-- a fold of the maximum from −∞ over two values is the larger of the two -/
theorem fold_max_two (f : Fin 2 → EReal) : (Finset.univ : Finset (Fin 2)).fold max ⊥ f = max (f 0) (f 1) := by
  rw [show (Finset.univ : Finset (Fin 2)) = {0, 1} from by decide, Finset.fold_insert (by decide), Finset.fold_singleton,
    max_bot_right]

/-- the row maximum: of a row's two values, the start value −∞ absorbed -/
theorem rowmax_apply (g : Fin 64) :
    val_main_call4_v0 (F := Ideal) x0 x1 x2 x3 x4 x5 x6 x7 x8 (ix1 g) = GCN.mx (aL x0 x1 x2 x3 x4 x5 x6 x7 x8) g := by
  unfold val_main_call4_v0
  have hred : S64x2.Reduces [1] S64 := by decide
  rw [Host.reduce_eq_fold_single FloatOps.maximumf _ _ Gen.reducesTo_S64x2_S64_d1 hred Gen.h_S_ (ix1 g)]
  rw [val_main_call4_cst_apply, Ideal.ofBits_def, neg_inf_bits]
  have e := fold_max_two (fun k : Fin 2 => val_main_v107 (F := Ideal) x0 x1 x2 x3 x4 x5 x6 x7 x8 (ix2 g k))
  have hf : (val_main_v107 (F := Ideal) x0 x1 x2 x3 x4 x5 x6 x7 x8 ∘ hred.lift (ix1 g))
      = fun k : Fin 2 => val_main_v107 (F := Ideal) x0 x1 x2 x3 x4 x5 x6 x7 x8 (ix2 g k) :=
    funext fun k => congrArg (val_main_v107 (F := Ideal) x0 x1 x2 x3 x4 x5 x6 x7 x8) (lift2 hred g k)
  refine Eq.trans (congrArg (fun f => Finset.fold max (⊥ : EReal) f (Finset.univ : Finset (Fin 2))) hf) ?_
  rw [e, logits_apply, logits_apply]
  rfl

theorem idxc4 (g : Fin 64) (o : Fin 2) : idx_main_call4_v4 (ix2 g o) = ix2 g 0 := by
  funext a; match a with | ⟨0, _⟩ => rfl | ⟨1, _⟩ => rfl
theorem idxc3 (g : Fin 64) : idx_main_call4_v3 (ix2 g 0) = ix1 g := by
  funext a; match a with | ⟨0, _⟩ => rfl
theorem idxc10 (g : Fin 64) (o : Fin 2) : idx_main_call4_v10 (ix2 g o) = ix2 g 0 := by
  funext a; match a with | ⟨0, _⟩ => rfl | ⟨1, _⟩ => rfl
theorem idxc8 (g : Fin 64) : idx_main_call4_v8 (ix2 g 0) = ix1 g := by
  funext a; match a with | ⟨0, _⟩ => rfl
theorem idxc7 (g : Fin 64) (k : Fin 2) : idx_main_call4_v7 (ix1 g) k = ix2 g k := by
  funext a; match a with | ⟨0, _⟩ => rfl | ⟨1, _⟩ => rfl

/-- a row's value less the row maximum -/
theorem shifted_apply (g : Fin 64) (o : Fin 2) :
    val_main_call4_v5 (F := Ideal) x0 x1 x2 x3 x4 x5 x6 x7 x8 (ix2 g o) = aL x0 x1 x2 x3 x4 x5 x6 x7 x8 g o - GCN.mx (aL x0 x1 x2 x3 x4 x5 x6 x7 x8) g := by
  rw [val_main_call4_v5_apply, logits_apply, val_main_call4_v4_apply, idxc4, val_main_call4_v3_apply, idxc3,
    val_main_call4_v2_apply, rowmax_apply, val_main_call4_v1_apply, val_main_call4_cst_0_apply, Ideal.ofBits_def,
    neg_inf_bits, Ideal.maximumf_def, Ideal.subf_def, max_bot_left]

/-- the sum of the exponentials of a row's shifted values -/
theorem sumexp_apply (g : Fin 64) :
    val_main_call4_v7 (F := Ideal) x0 x1 x2 x3 x4 x5 x6 x7 x8 (ix1 g)
      = ∑ o' : Fin 2, Ideal.exp (aL x0 x1 x2 x3 x4 x5 x6 x7 x8 g o' - GCN.mx (aL x0 x1 x2 x3 x4 x5 x6 x7 x8) g) := by
  rw [val_main_call4_v7_apply, val_main_call4_cst_1_apply, Ideal.ofBits_def, Ideal.ofBits_zero_f32, zero_add]
  refine Finset.sum_congr rfl fun k _ => ?_
  rw [idxc7, val_main_call4_v6_apply, shifted_apply, Ideal.hostUnary_exp_def]

/-- the result at (g, o) -/
theorem head_apply (g : Fin 64) (o : Fin 2) :
    val_main_v108 (F := Ideal) x0 x1 x2 x3 x4 x5 x6 x7 x8 (ix2 g o) = GCN.rHead (aL x0 x1 x2 x3 x4 x5 x6 x7 x8) g o := by
  rw [val_main_v108_apply, shifted_apply, val_main_call4_v10_apply, idxc10, val_main_call4_v9_apply,
    val_main_call4_v8_apply, idxc8, sumexp_apply, Ideal.hostUnary_log_def, Ideal.subf_def]
  rfl

/-- THE REFERENCE PROGRAM'S VALUE. -/
theorem ref_value :
    GCN.cur2 (rOutArr x0 x1 x2 x3 x4 x5 x6 x7 x8)
      = GCN.rOut (GCN.cur2 x0) (GCN.cur2 x1) (GCN.cur1 x2) (GCN.cur2 x3) (GCN.cur1 x4) (GCN.cur2 x5) (GCN.cur1 x6)
          (GCN.cur1 (rDinv x7)) (GCN.srcOf (rSrcIdx x7)) (GCN.srcOf (rGdIdx x7)) (GCN.tgtOf (rDstIdx x7)) (GCN.selOf (rBatch x8)) := by
  funext g o
  show val_main_v108 (F := Ideal) x0 x1 x2 x3 x4 x5 x6 x7 x8 (ix2 g o) = _
  rw [head_apply]
  rfl

/-- Where an edge's update lands on row i, the factor the reference reads for the edge's target is row i's. -/
theorem gd_of_tgt (e : Fin GCN.MM) (i : Fin GCN.NN) (h : GCN.tgtOf (rDstIdx x7) e i) : GCN.srcOf (rGdIdx x7) e = i := by
  exact gd_of_tgt' x7 e i h

/-- The per-node factor is a real number at every node. -/
theorem dinv_real (i : Fin GCN.NN) : GCN.IsR (GCN.cur1 (rDinv x7) i) := by
  exact dinv_real' x7 i

end Cert.ReferenceIdeal.RefValue

end
-- ==== Proof.Idx.lean ====
/-
  The two programs compute the same index data and the same per-node factor from the edge list, and the same
  graph words from the graph assignment: the kernel program's boundary contents are the reference's stages.
-/
import proofs.«406043_j45999099740722_2_alg».proof.Proof.KI.KVal
import proofs.«406043_j45999099740722_2_alg».proof.Proof.RefVal

set_option maxRecDepth 16384

noncomputable section

namespace Cert.Proof.Idx

open Idealize.ShloMosaic Idealize.ShloMosaic.TcCoe Idealize.ShloMosaic.ValueIdx
open Idealize.SL Idealize.SL.Sem
open Cert.KernelIdeal.Hand Cert.ReferenceIdeal.RefValue

variable (m : (ℓ : Loc Cert.KernelIdeal.nD Cert.KernelIdeal.τ Cert.KernelIdeal.sig) → Buf (Elt Ideal) ℓ) (c : Dev Cert.KernelIdeal.nD)

section K
open Cert.KernelIdeal Cert.KernelIdeal.Gen Cert.ReferenceIdeal.Read

variable {F : FTy → Type} [FloatOps F]
variable (mF : (ℓ : Loc nD τ sig) → Buf (Elt F) ℓ)

/-- The source words with the self loops appended, as the first stretch leaves them: slice row 0 of the edge list,
    flatten, join with the iota. -/
theorem k_v5 : W3 mF c (Proc.devRef .tc main_v5) = val_main_v6 (F := F) (mF ((c.tc : Thread nD τ).loc main_arg7)) := by
  show StableHlo.after hostOps0_2 (StableHlo.after hostOps0_1 (StableHlo.after hostOps0 (W0 mF c))) (Proc.devRef .tc main_v5) = _
  after_results
  unfold val_main_v6 val_main_v1 val_main_v0 val_main_v5
  rfl

/-- The target words with the self loops appended: slice row 1 of the edge list, flatten, join with the iota. -/
theorem k_v6 : W3 mF c (Proc.devRef .tc main_v6) = val_main_v7 (F := F) (mF ((c.tc : Thread nD τ).loc main_arg7)) := by
  show StableHlo.after hostOps0_2 (StableHlo.after hostOps0_1 (StableHlo.after hostOps0 (W0 mF c))) (Proc.devRef .tc main_v6) = _
  after_results
  unfold val_main_v7 val_main_v3 val_main_v2 val_main_v5
  rfl

set_option maxHeartbeats 4000000 in
/-- The per-node factor: ones summed into zeros at the target words (the degree), its inverse square root where
    the degree is positive, zero elsewhere. -/
theorem k_v14 : W3 mF c (Proc.devRef .tc main_v14) = val_main_v15 (F := F) (mF ((c.tc : Thread nD τ).loc main_arg7)) := by
  show StableHlo.after hostOps0_2 (StableHlo.after hostOps0_1 (StableHlo.after hostOps0 (W0 mF c))) (Proc.devRef .tc main_v14) = _
  after_results_simp
  unfold val_main_v15 val_main_v13 val_main_v14 val_main_call0_v1 val_main_call0_v0 val_main_cst_2 val_main_v12 val_main_cst_1
    val_main_v11 val_main_v9 val_main_cst_0 val_main_v10 val_main_v8 val_main_cst val_main_v7 val_main_v3 val_main_v2 val_main_v5
  rfl

/-- Region 0 writes neither word list. -/
theorem k4_v5 : W4 mF c (Proc.devRef .tc main_v5) = W3 mF c (Proc.devRef .tc main_v5) := W4_of_ne mF c main_v5 (by decide)
theorem k4_v6 : W4 mF c (Proc.devRef .tc main_v6) = W3 mF c (Proc.devRef .tc main_v6) := W4_of_ne mF c main_v6 (by decide)

/-- The gather's start words: a negative source word wraps by the node count; as a column. -/
theorem k_v22 : W5 mF c (Proc.devRef .tc main_v22) = val_main_v36 (F := F) (mF ((c.tc : Thread nD τ).loc main_arg7)) := by
  show StableHlo.after hostOps1 (W4 mF c) (Proc.devRef .tc main_v22) = _
  after_results
  rw [k4_v5, k_v5]
  unfold val_main_v36 val_main_v35 val_main_v32 val_main_v34 val_main_v31 val_main_v33 val_main_c_6 val_main_c_7
  rfl

/-- The edge sums' target words, as a column. -/
theorem k_v25 : W5 mF c (Proc.devRef .tc main_v25) = val_main_v42 (F := F) (mF ((c.tc : Thread nD τ).loc main_arg7)) := by
  show StableHlo.after hostOps1 (W4 mF c) (Proc.devRef .tc main_v25) = _
  after_results
  rw [k4_v6, k_v6]
  unfold val_main_v42
  rfl

/-- No stretch and no region before the last stretch writes the graph assignment. -/
theorem k6_arg8 : W6 mF c (Proc.devRef .tc main_arg8) = mF ((c.tc : Thread nD τ).loc main_arg8) := by
  rw [W6_of_ne mF c main_arg8 (by decide)]
  show StableHlo.after hostOps1 (W4 mF c) (Proc.devRef .tc main_arg8) = _
  after_results
  rw [W4_of_ne mF c main_arg8 (by decide)]
  show StableHlo.after hostOps0_2 (StableHlo.after hostOps0_1 (StableHlo.after hostOps0 (W0 mF c))) (Proc.devRef .tc main_arg8) = _
  after_results

/-- The graph words as the last stretch leaves them: the graph assignment recast to a column. -/
theorem k_v40 : W7 mF c (Proc.devRef .tc main_v40)
    = shapeCast S100000x1 (mF ((c.tc : Thread nD τ).loc main_arg8)) shapeCasts_S100000_S100000x1 := by
  show StableHlo.after hostOps2 (W6 mF c) (Proc.devRef .tc main_v40) = _
  after_results
  rw [k6_arg8]
  rfl

/-- A vector recast to a one-column matrix and the vector broadcast along the rows agree at every index. -/
theorem cast_eq_bcast (x8 : (⟨S100000, .i32⟩ : BufTy).Contents (Elt F)) :
    shapeCast S100000x1 x8 shapeCasts_S100000_S100000x1 = val_main_v93 (F := F) x8 := by
  funext i
  rw [val_main_v93_apply]
  exact shapeCast_apply x8 shapeCasts_S100000_S100000x1 i (idx_main_v93 i)
    (by rewrite [Shape.rowMajor_val_two, Shape.rowMajor_val_one]
        have h1 : (i 1).val < 1 := (i 1).isLt
        show (i 0).val = (i 0).val * 1 + (i 1).val; omega)

end K

theorem idx_dinv : kDinv m c = rDinv (kA7 m c) := k_v14 c m
theorem idx_src : kSrcIdx m c = rSrcIdx (kA7 m c) := k_v22 c m
theorem idx_dst : kDstIdx m c = rDstIdx (kA7 m c) := k_v25 c m
theorem idx_batch : kBatch m c = rBatch (kA8 m c) := (k_v40 c m).trans (cast_eq_bcast _)

end Cert.Proof.Idx

end
-- ==== Proof.Finite.lean ====
/-
  Finite inputs are real numbers: from the precondition to each float argument, entry by entry.
-/
import proofs.«406043_j45999099740722_2_alg».proof.Defs
import proofs.«406043_j45999099740722_2_alg».proof.Proof.Gen.Pre_finite_inputs
import proofs.«406043_j45999099740722_2_alg».proof.Proof.KI.KVal
import Idealize.ShloMosaic.Lib.ReduceAll

set_option maxRecDepth 16384

noncomputable section

namespace Cert.Proof.Fin

open Idealize.ShloMosaic Idealize.ShloMosaic.TcCoe Idealize.ShloMosaic.ValueIdx
open Idealize.SL Idealize.SL.Sem
open Cert.KernelIdeal.Hand

/-- The result shape of a full reduction has a single index. -/
instance : Subsingleton Cert.Pre_finite_inputs.S_.Idx := ⟨fun a b => funext fun d => d.elim0⟩

/-- The word 0x7F800000 read as a binary32 value is plus infinity. -/
theorem inf_word : Ideal.ofBits .f32 0x7F800000#32 = (⊤ : EReal) := by
  simp [Ideal.ofBits, Ideal.ieee]

/-- The element test of the predicate: |x| < +∞, with |x| = max x (-x). -/
abbrev AbsLt (x : EReal) : Prop := Ideal.cmp .olt (max x (-x)) (Ideal.ofBits .f32 0x7F800000#32) = 1#1

/-- |x| < +∞ holds only for real x: at either infinity max x (-x) is +∞. -/
theorem isR_of_abs_lt (x : EReal) (h : AbsLt x) : GCN.IsR x := by
  unfold AbsLt at h
  rw [inf_word] at h
  simp only [Ideal.cmp] at h
  induction x using EReal.rec with
  | bot => simp at h
  | top => simp at h
  | coe r => exact ⟨EReal.coe_ne_top r, EReal.coe_ne_bot r⟩

variable [hPre : Cert.Pre_finite_inputs.Facts]
variable (m : (ℓ : Loc Cert.KernelIdeal.nD Cert.KernelIdeal.τ Cert.KernelIdeal.sig) → Buf (Elt Ideal) ℓ)

/-- The precondition is a conjunction of seven full and-reductions, one per float argument; a full
    and-reduction that is 1 had a 1 at every index, and the reduced array is the element test. -/
theorem pre_split (h : Cert.Pre_KernelIdeal m) (c : Dev Cert.KernelIdeal.nD) :
    (∀ i, AbsLt (kA0 m c i)) ∧ (∀ i, AbsLt (kA1 m c i)) ∧ (∀ i, AbsLt (kA2 m c i)) ∧ (∀ i, AbsLt (kA3 m c i))
    ∧ (∀ i, AbsLt (kA4 m c i)) ∧ (∀ i, AbsLt (kA5 m c i)) ∧ (∀ i, AbsLt (kA6 m c i)) := by
  have h0 := congrFun (h c) ValueIdx.ix0
  dsimp only [Cert.Pre_finite_inputs.fn, Cert.Pre_finite_inputs.fn_part1] at h0
  simp only [Idealize.ShloMosaic.andi, IntOp.andi_eq_one] at h0
  obtain ⟨⟨⟨⟨⟨⟨e0, e1⟩, e2⟩, e3⟩, e4⟩, e5⟩, e6⟩ := h0
  exact ⟨fun i => Host.reduce_andi_all _ _ _ _ _ e0 i, fun i => Host.reduce_andi_all _ _ _ _ _ e1 i,
    fun i => Host.reduce_andi_all _ _ _ _ _ e2 i, fun i => Host.reduce_andi_all _ _ _ _ _ e3 i,
    fun i => Host.reduce_andi_all _ _ _ _ _ e4 i, fun i => Host.reduce_andi_all _ _ _ _ _ e5 i,
    fun i => Host.reduce_andi_all _ _ _ _ _ e6 i⟩

/-- The node features are real. -/
theorem a0_real (h : Cert.Pre_KernelIdeal m) (c : Dev Cert.KernelIdeal.nD) (p : Fin 100000) (k : Fin 64) :
    GCN.IsR (GCN.cur2 (kA0 m c) p k) := isR_of_abs_lt _ ((pre_split m h c).1 (ix2 p k))
/-- The first layer's weights are real. -/
theorem a1_real (h : Cert.Pre_KernelIdeal m) (c : Dev Cert.KernelIdeal.nD) (p : Fin 64) (k : Fin 128) :
    GCN.IsR (GCN.cur2 (kA1 m c) p k) := isR_of_abs_lt _ ((pre_split m h c).2.1 (ix2 p k))
/-- The first layer's bias is real. -/
theorem a2_real (h : Cert.Pre_KernelIdeal m) (c : Dev Cert.KernelIdeal.nD) (p : Fin 128) :
    GCN.IsR (GCN.cur1 (kA2 m c) p) := isR_of_abs_lt _ ((pre_split m h c).2.2.1 (ix1 p))
/-- The second layer's weights are real. -/
theorem a3_real (h : Cert.Pre_KernelIdeal m) (c : Dev Cert.KernelIdeal.nD) (p : Fin 128) (k : Fin 128) :
    GCN.IsR (GCN.cur2 (kA3 m c) p k) := isR_of_abs_lt _ ((pre_split m h c).2.2.2.1 (ix2 p k))
/-- The second layer's bias is real. -/
theorem a4_real (h : Cert.Pre_KernelIdeal m) (c : Dev Cert.KernelIdeal.nD) (p : Fin 128) :
    GCN.IsR (GCN.cur1 (kA4 m c) p) := isR_of_abs_lt _ ((pre_split m h c).2.2.2.2.1 (ix1 p))
/-- The readout weights are real. -/
theorem a5_real (h : Cert.Pre_KernelIdeal m) (c : Dev Cert.KernelIdeal.nD) (p : Fin 128) (k : Fin 2) :
    GCN.IsR (GCN.cur2 (kA5 m c) p k) := isR_of_abs_lt _ ((pre_split m h c).2.2.2.2.2.1 (ix2 p k))
/-- The readout bias is real. -/
theorem a6_real (h : Cert.Pre_KernelIdeal m) (c : Dev Cert.KernelIdeal.nD) (p : Fin 2) :
    GCN.IsR (GCN.cur1 (kA6 m c) p) := isR_of_abs_lt _ ((pre_split m h c).2.2.2.2.2.2 (ix1 p))

/-- Under the precondition every entry of every float argument is a real number. -/
theorem args_real (h : Cert.Pre_KernelIdeal m) (c : Dev Cert.KernelIdeal.nD) :
    (∀ p k, GCN.IsR (GCN.cur2 (kA0 m c) p k)) ∧ (∀ p k, GCN.IsR (GCN.cur2 (kA1 m c) p k)) ∧ (∀ p, GCN.IsR (GCN.cur1 (kA2 m c) p))
    ∧ (∀ p k, GCN.IsR (GCN.cur2 (kA3 m c) p k)) ∧ (∀ p, GCN.IsR (GCN.cur1 (kA4 m c) p)) ∧ (∀ p k, GCN.IsR (GCN.cur2 (kA5 m c) p k))
    ∧ (∀ p, GCN.IsR (GCN.cur1 (kA6 m c) p)) :=
  ⟨a0_real m h c, a1_real m h c, a2_real m h c, a3_real m h c, a4_real m h c, a5_real m h c, a6_real m h c⟩

end Cert.Proof.Fin

end
-- ==== Proof.Algebra.lean ====
/-
  The algebra joining the two networks: real-valuedness is carried through every layer, the node factor
  distributes over the finite edge sum, the tiled indicator sums re-index the selected-node sums, and the two
  spellings of the log-softmax agree when the row maximum is a real number.
-/
import proofs.«406043_j45999099740722_2_alg».proof.Proof.Spec
import Idealize.ShloMosaic.PureOps.Ideal
import Mathlib.Data.EReal.Basic
import Mathlib.Data.EReal.Operations
import Mathlib.Data.EReal.Inv
import Mathlib.Algebra.BigOperators.Ring.Finset
import Mathlib.Algebra.BigOperators.Group.Finset.Basic
import Mathlib.Data.Fintype.BigOperators

noncomputable section

namespace GCN

open Idealize.ShloMosaic

/-! ### Real values are closed under the operations of the network -/

theorem isR_coe (r : ℝ) : IsR (r : EReal) := ⟨EReal.coe_ne_top r, EReal.coe_ne_bot r⟩

theorem isR_zero : IsR (0 : EReal) := isR_coe 0

theorem isR_one : IsR (1 : EReal) := isR_coe 1

theorem IsR.mul {a b : EReal} (ha : IsR a) (hb : IsR b) : IsR (a * b) := by
  lift a to ℝ using ⟨ha.1, ha.2⟩
  lift b to ℝ using ⟨hb.1, hb.2⟩
  rw [← EReal.coe_mul]; exact isR_coe _

theorem IsR.add {a b : EReal} (ha : IsR a) (hb : IsR b) : IsR (a + b) := by
  lift a to ℝ using ⟨ha.1, ha.2⟩
  lift b to ℝ using ⟨hb.1, hb.2⟩
  rw [← EReal.coe_add]; exact isR_coe _

theorem IsR.max {a b : EReal} (ha : IsR a) (hb : IsR b) : IsR (max a b) := by
  rcases max_choice a b with h | h <;> rw [h] <;> assumption

theorem IsR.sum {ι : Type*} (s : Finset ι) (f : ι → EReal) (hf : ∀ i ∈ s, IsR (f i)) :
    IsR (∑ i ∈ s, f i) := by
  classical
  induction s using Finset.induction_on with
  | empty => rw [Finset.sum_empty]; exact isR_zero
  | insert a s ha ih =>
    rw [Finset.sum_insert ha]
    exact (hf a (Finset.mem_insert_self a s)).add (ih fun i hi => hf i (Finset.mem_insert_of_mem hi))

/-- The cast of a finite real sum is the sum of the casts. -/
theorem coe_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A real factor distributes over a finite sum of real terms. -/
theorem sum_mul_real {ι : Type*} (s : Finset ι) (f : ι → EReal) (c : EReal)
    (hf : ∀ i, IsR (f i)) (hc : IsR c) : (∑ i ∈ s, f i) * c = ∑ i ∈ s, f i * c := by
  lift c to ℝ using ⟨hc.1, hc.2⟩
  lift f to ι → ℝ using fun i => ⟨(hf i).1, (hf i).2⟩
  rw [← coe_sum, ← EReal.coe_mul, Finset.sum_mul, coe_sum]
  exact Finset.sum_congr rfl fun i _ => EReal.coe_mul _ _

/-- The quotient of a real by a real at least one is real. -/
theorem IsR.div {a b : EReal} (ha : IsR a) (hb : IsR b) (h1 : 1 ≤ b) : IsR (Ideal.div a b) := by
  lift b to ℝ using ⟨hb.1, hb.2⟩
  have hb0 : b ≠ 0 := by
    have : (1 : ℝ) ≤ b := by exact_mod_cast h1
    intro h; rw [h] at this; norm_num at this
  rw [Ideal.div_coe hb0]
  exact ha.mul (isR_coe _)

theorem isR_lin {a b c : ℕ} (u : Fin a → Fin b → EReal) (w : Fin b → Fin c → EReal)
    (hu : ∀ p k, IsR (u p k)) (hw : ∀ k q, IsR (w k q)) (p : Fin a) (q : Fin c) : IsR (lin u w p q) :=
  IsR.sum _ _ fun j _ => (hu p j).mul (hw j q)

section Layer

variable (dinv : Fin NN → EReal) (src gd : Fin MM → Fin NN)
variable (tgt : Fin MM → Fin NN → Prop) [∀ e i, Decidable (tgt e i)]

theorem isR_rAct (h : Fin NN → Fin 128 → EReal) (b : Fin 128 → EReal)
    (hh : ∀ p q, IsR (h p q)) (hb : ∀ q, IsR (b q)) (hdinv : ∀ i, IsR (dinv i)) (p : Fin NN) (q : Fin 128) :
    IsR (rAct dinv src gd tgt h b p q) := by
  unfold rAct agg
  exact ((IsR.sum _ _ fun e _ => (hh _ _).mul ((hdinv _).mul (hdinv _))).add (hb q)).max isR_zero

/-- The layer law: scaling the rows before the edge sum and the result after it equals weighting each edge's
    message by the product of the two factors, since on an edge landing on row p the target's factor is the
    row's own, and a real factor distributes over the finite sum. -/
theorem layer_law (h : Fin NN → Fin 128 → EReal) (b : Fin 128 → EReal)
    (hh : ∀ p q, IsR (h p q)) (hdinv : ∀ i, IsR (dinv i)) (hgd : ∀ e i, tgt e i → gd e = i) :
    kAct dinv src tgt (scaleRows dinv h) b = rAct dinv src gd tgt h b := by
  funext p q
  have key : agg tgt (fun e q => scaleRows dinv h (src e) q) p q * dinv p
      = agg tgt (fun e q => h (src e) q * (dinv (src e) * dinv (gd e))) p q := by
    unfold agg scaleRows
    rw [sum_mul_real _ _ _ (fun e => (hh _ _).mul (hdinv _)) (hdinv p)]
    refine Finset.sum_congr rfl fun e he => ?_
    show h (src e) q * dinv (src e) * dinv p = h (src e) q * (dinv (src e) * dinv (gd e))
    rw [hgd e p (Finset.mem_filter.mp he).2, mul_assoc]
  unfold kAct rAct
  rw [key]

end Layer

/-! ### Pooling: the tiles re-index the nodes -/

/-- Twenty tiles of 5000 rows enumerate the nodes exactly once. -/
def nodeEquiv : Fin 20 × Fin 5000 ≃ Fin NN where
  toFun p := node p.1 p.2
  invFun i := (⟨i.val / 5000, by have : i.val < 100000 := i.isLt; show _ < 20; omega⟩,
               ⟨i.val % 5000, by show _ < 5000; omega⟩)
  left_inv := by
    rintro ⟨t, r⟩
    have ht := t.isLt; have hr := r.isLt
    ext <;> simp only [node] <;> omega
  right_inv := by
    intro i
    have hi : i.val < 100000 := i.isLt
    ext; simp only [node]; omega

theorem sum_tiles (F : Fin NN → EReal) : (∑ t : Fin 20, ∑ r : Fin 5000, F (node t r)) = ∑ i : Fin NN, F i := by
  rw [← nodeEquiv.sum_comp F, Fintype.sum_prod_type]
  rfl

section Pool

variable (oh : Fin NN → Fin 64 → EReal) (sel : Fin NN → Fin 64 → Prop) [∀ i g, Decidable (sel i g)]

theorem kSum_eq_rSum (hoh : ∀ i g, oh i g = if sel i g then 1 else 0) (t2 : Fin NN → Fin 128 → EReal) :
    kSum oh t2 = rSum sel t2 := by
  funext g q
  unfold kSum rSum
  rw [sum_tiles (fun i => oh i g * t2 i q), Finset.sum_filter]
  refine Finset.sum_congr rfl fun i _ => ?_
  rw [hoh]; split_ifs <;> simp

theorem kCnt_eq_rCnt (hoh : ∀ i g, oh i g = if sel i g then 1 else 0) :
    kCnt oh = rCnt sel := by
  funext g
  unfold kCnt rCnt
  rw [sum_tiles (fun i => oh i g), Finset.sum_filter]
  exact Finset.sum_congr rfl fun i _ => hoh i g

theorem isR_rSum (t2 : Fin NN → Fin 128 → EReal) (ht : ∀ p q, IsR (t2 p q)) (g : Fin 64) (q : Fin 128) :
    IsR (rSum sel t2 g q) := IsR.sum _ _ fun i _ => ht i q

theorem isR_rCnt (g : Fin 64) : IsR (rCnt sel g) := IsR.sum _ _ fun _ _ => isR_one

end Pool

/-! ### The head -/

section Head

variable (Wfc : Fin 128 → Fin 2 → EReal) (bfc : Fin 2 → EReal)

theorem isR_logits (s : Fin 64 → Fin 128 → EReal) (n : Fin 64 → EReal)
    (hWfc : ∀ k o, IsR (Wfc k o)) (hbfc : ∀ o, IsR (bfc o))
    (hs : ∀ g f, IsR (s g f)) (hn : ∀ g, IsR (n g)) (g : Fin 64) (o : Fin 2) :
    IsR (logits Wfc bfc s n g o) := by
  unfold logits
  exact (IsR.sum _ _ fun f _ =>
    (IsR.div (hs g f) ((hn g).max isR_one) (le_max_right _ _)).mul (hWfc f o)).add (hbfc o)

/-- Subtracting m + L is subtracting m and then L, as soon as m is a real number. -/
theorem head_law (l : Fin 64 → Fin 2 → EReal) (hl : ∀ g o, IsR (l g o)) : kHead l = rHead l := by
  funext g o
  unfold kHead rHead
  have hm : IsR (mx l g) := (hl g 0).max (hl g 1)
  rw [sub_eq_add_neg, EReal.neg_add (Or.inl hm.2) (Or.inl hm.1), sub_eq_add_neg, sub_eq_add_neg,
    sub_eq_add_neg, add_assoc]

end Head

/-! ### The two networks agree -/

theorem kOut_eq_rOut
    (x : Fin NN → Fin 64 → EReal) (W1 : Fin 64 → Fin 128 → EReal) (b1 : Fin 128 → EReal)
    (W2 : Fin 128 → Fin 128 → EReal) (b2 : Fin 128 → EReal) (Wfc : Fin 128 → Fin 2 → EReal) (bfc : Fin 2 → EReal)
    (dinv : Fin NN → EReal) (src gd : Fin MM → Fin NN) (tgt : Fin MM → Fin NN → Prop) [∀ e i, Decidable (tgt e i)]
    (oh : Fin NN → Fin 64 → EReal) (sel : Fin NN → Fin 64 → Prop) [∀ i g, Decidable (sel i g)]
    (hx : ∀ p k, IsR (x p k)) (hW1 : ∀ k q, IsR (W1 k q)) (hb1 : ∀ q, IsR (b1 q))
    (hW2 : ∀ k q, IsR (W2 k q)) (hb2 : ∀ q, IsR (b2 q)) (hWfc : ∀ k o, IsR (Wfc k o)) (hbfc : ∀ o, IsR (bfc o))
    (hdinv : ∀ i, IsR (dinv i))
    (hgd : ∀ e i, tgt e i → gd e = i)
    (hoh : ∀ i g, oh i g = if sel i g then 1 else 0) :
    kOut x W1 b1 W2 b2 Wfc bfc dinv src tgt oh = rOut x W1 b1 W2 b2 Wfc bfc dinv src gd tgt sel := by
  have h1 : kT1 x W1 b1 dinv src tgt = rT1 x W1 b1 dinv src gd tgt :=
    layer_law dinv src gd tgt _ b1 (isR_lin x W1 hx hW1) hdinv hgd
  have hr1 : ∀ p q, IsR (rT1 x W1 b1 dinv src gd tgt p q) :=
    isR_rAct dinv src gd tgt _ b1 (isR_lin x W1 hx hW1) hb1 hdinv
  have h2 : kT2 x W1 b1 W2 b2 dinv src tgt = rT2 x W1 b1 W2 b2 dinv src gd tgt := by
    unfold kT2 rT2
    rw [h1]
    exact layer_law dinv src gd tgt _ b2 (isR_lin _ W2 hr1 hW2) hdinv hgd
  have hr2 : ∀ p q, IsR (rT2 x W1 b1 W2 b2 dinv src gd tgt p q) :=
    isR_rAct dinv src gd tgt _ b2 (isR_lin _ W2 hr1 hW2) hb2 hdinv
  unfold kOut rOut
  rw [h2, kSum_eq_rSum oh sel hoh, kCnt_eq_rCnt oh sel hoh]
  exact head_law _ (isR_logits Wfc bfc _ _ hWfc hbfc (isR_rSum sel _ hr2) (isR_rCnt sel))

end GCN

end
-- ==== Proof.lean ====
/-
  The two programs compute the same function over the extended reals.

  The kernel program runs three pipelined kernel regions between stretches of host operations: rows of x times
  W1 scaled by the per-node factor; the first layer's edge sums scaled, biased, clamped, times W2 and scaled
  again; and the pooling with the classifier head. Every weakly fair execution terminates and leaves the
  argument arrays as launched (the three frames), and the result array holds the network function of the
  arguments (the kernel program's value). The reference's run gives its own network function. Under finite
  inputs every intermediate value is a real number, the per-node factor distributes over the finite edge sums,
  pooling by indicator products is the sum over the graph's nodes, and the two spellings of the log-softmax
  agree: the two results are equal entry by entry.
-/
import proofs.«406043_j45999099740722_2_alg».proof.Defs
import proofs.«406043_j45999099740722_2_alg».proof.Proof.Gen.Kernel
import proofs.«406043_j45999099740722_2_alg».proof.Proof.Gen.KernelIdeal
import proofs.«406043_j45999099740722_2_alg».proof.Proof.Gen.ReferenceIdeal
import proofs.«406043_j45999099740722_2_alg».proof.Proof.Gen.Pre_finite_inputs
import proofs.«406043_j45999099740722_2_alg».proof.Proof.K.Run
import proofs.«406043_j45999099740722_2_alg».proof.Proof.KI.Run
import proofs.«406043_j45999099740722_2_alg».proof.Proof.KI.KVal
import proofs.«406043_j45999099740722_2_alg».proof.Proof.RefRun
import proofs.«406043_j45999099740722_2_alg».proof.Proof.RefRead
import proofs.«406043_j45999099740722_2_alg».proof.Proof.RefVal
import proofs.«406043_j45999099740722_2_alg».proof.Proof.Idx
import proofs.«406043_j45999099740722_2_alg».proof.Proof.Finite
import proofs.«406043_j45999099740722_2_alg».proof.Proof.Algebra
import Idealize.ShloMosaic.Adequacy
import Idealize.ShloMosaic.Init

noncomputable section

namespace Cert.Proof

open Idealize.ShloMosaic Idealize.ShloMosaic.TcCoe Idealize.SL.Sem Idealize.ShloMosaic.ValueIdx

/-- The word-level kernel program runs to the end and leaves its arguments alone. -/
theorem frame_k : Cert.frame_Kernel := fun m ρ _ =>
  (θ_run Cert.Kernel.defs _ _).mono (fun _ h c => (h c).2) (Cert.Kernel.Hand.run_main (F := Bits) m ρ)

/-- The idealized kernel program runs to the end and leaves its arguments alone. -/
theorem frame_ki : Cert.frame_KernelIdeal := fun m ρ _ =>
  (θ_run Cert.KernelIdeal.defs _ _).mono (fun _ h c => (h c).2) (Cert.KernelIdeal.Hand.run_main (F := Ideal) m ρ)

/-- The reference runs to the end and leaves its arguments alone. -/
theorem frame_ri : Cert.frame_ReferenceIdeal := fun m ρ _ =>
  (θ_run Cert.ReferenceIdeal.defs _ _).mono (fun _ h c => (h c).2) (Cert.ReferenceIdeal.Value.run (F := Ideal) m ρ)

/-- No operation was rewritten when the kernel program was idealized. -/
theorem preserves : Cert.preserves_Kernel_KernelIdeal := trivial

open Cert.KernelIdeal.Hand Cert.ReferenceIdeal.RefValue in
/-- The two result arrays are equal, entry by entry: the kernel program's value and the reference's value are the
    two network functions of the same data, which agree on real inputs. -/
theorem results_eq (m : (ℓ : Loc Cert.KernelIdeal.nD Cert.KernelIdeal.τ Cert.KernelIdeal.sig) → Buf (Elt Ideal) ℓ)
    (hpre : Cert.Pre_KernelIdeal m) (c : Dev Cert.KernelIdeal.nD) :
    rOutArr (kA0 m c) (kA1 m c) (kA2 m c) (kA3 m c) (kA4 m c) (kA5 m c) (kA6 m c) (kA7 m c) (kA8 m c) = kOutArr m c := by
  funext j
  obtain ⟨g, o, rfl⟩ : ∃ (g : Fin 64) (o : Fin 2), j = ix2 g o := ⟨j 0, j 1, eq_ix2 j⟩
  have hk := congrFun (congrFun (kernel_value m c) g) o
  have hr := congrFun (congrFun (ref_value (kA0 m c) (kA1 m c) (kA2 m c) (kA3 m c) (kA4 m c) (kA5 m c) (kA6 m c) (kA7 m c) (kA8 m c)) g) o
  rw [GCN.cur2_apply] at hk hr
  rw [hk, hr, Cert.Proof.Idx.idx_dinv, Cert.Proof.Idx.idx_src, Cert.Proof.Idx.idx_dst, Cert.Proof.Idx.idx_batch]
  obtain ⟨h0, h1, h2, h3, h4, h5, h6⟩ := Cert.Proof.Fin.args_real m hpre c
  exact (congrFun (congrFun (GCN.kOut_eq_rOut _ _ _ _ _ _ _ _ _ (GCN.srcOf (rGdIdx (kA7 m c))) _ _ (GCN.selOf (rBatch (kA8 m c)))
    h0 h1 h2 h3 h4 h5 h6 (dinv_real (kA7 m c)) (gd_of_tgt (kA7 m c)) (fun _ _ => rfl)) g) o).symm

/-- From memories that agree on the arguments both idealized programs run to the end with equal results. -/
theorem algebraic : Cert.algebraic_KernelIdeal_ReferenceIdeal := by
  intro m ρ m' ρ' hpre hagree
  refine ⟨fun c => Cert.KernelIdeal.Hand.W8 m c (Proc.devRef .tc Cert.KernelIdeal.main_v42), Cert.KernelIdeal.Hand.run_main (F := Ideal) m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v108_eq, (hagree c).1, (hagree c).2.1, (hagree c).2.2.1, (hagree c).2.2.2.1, (hagree c).2.2.2.2.1,
    (hagree c).2.2.2.2.2.1, (hagree c).2.2.2.2.2.2.1, (hagree c).2.2.2.2.2.2.2.1, (hagree c).2.2.2.2.2.2.2.2]
  exact results_eq m hpre c

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
